-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v422)) (v1 : (c : Dev Cert.KernelIdeal.nD) → Buf (Elt Ideal) ((c.tc : Thread Cert.KernelIdeal.nD Cert.KernelIdeal.τ).loc Cert.KernelIdeal.main_v423)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v422) = v0 c
          ∧ r.2.mem ((c.tc : Thread Cert.KernelIdeal.nD Cert.KernelIdeal.τ).loc Cert.KernelIdeal.main_v423) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v342) = v0 c
          ∧ r.2.mem ((c.tc : Thread Cert.ReferenceIdeal.nD Cert.ReferenceIdeal.τ).loc Cert.ReferenceIdeal.main_v479) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x3 : Shape := ⟨2, ![524288, 3]⟩
abbrev S128x128x128x16 : Shape := ⟨4, ![128, 128, 128, 16]⟩
abbrev S128x19 : Shape := ⟨2, ![128, 19]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S524288x3 : S_.BroadcastsInDim S524288x3 (![] : Fin 0 → Fin S524288x3.rank)
  reducesTo_S524288x3_S_d0_1 : S524288x3.ReducesTo [0, 1] S_
  h_S_ : 0 < S_.numel
  bcast_S_S128x128x128x16 : S_.BroadcastsInDim S128x128x128x16 (![] : Fin 0 → Fin S128x128x128x16.rank)
  reducesTo_S128x128x128x16_S_d0_1_2_3 : S128x128x128x16.ReducesTo [0, 1, 2, 3] S_
  bcast_S_S128x19 : S_.BroadcastsInDim S128x19 (![] : Fin 0 → Fin S128x19.rank)
  reducesTo_S128x19_S_d0_1 : S128x19.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S1x128 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_v33

def fn {F : FTy → Type} [FloatOps F] (main_arg0 : FVec F S524288x3 .f32) (main_arg1 : FVec F S128x128x128x16 .f32) (main_arg2 : FVec F S128x19 .f32) (main_arg3 : FVec F S128 .f32) (main_arg4 : FVec F S128x128 .f32) (main_arg5 : FVec F S128 .f32) (main_arg6 : FVec F S1x128 .f32) (main_arg7 : FVec F S1 .f32) : IVec S_ 1 :=
  let main_v0 : FVec F S524288x3 .f32 := Host.absf main_arg0
  let main_cst : FVec F S_ .f32 := constant S_ .f32 0x7F800000#32
  let main_v1 : FVec F S524288x3 .f32 := broadcastInDim S524288x3 ![] bcast_S_S524288x3 main_cst
  let main_v2 : IVec S524288x3 1 := cmpf .olt main_v0 main_v1
  let main_c : IVec S_ 1 := constantI S_ 1 1#1
  let main_v3 : IVec S_ 1 := (fun x v => Host.reduce IntOp.andi x v reducesTo_S524288x3_S_d0_1 h_S_) main_v2 main_c
  let main_v4 : FVec F S128x128x128x16 .f32 := Host.absf main_arg1
  let main_cst_0 : FVec F S_ .f32 := constant S_ .f32 0x7F800000#32
  let main_v5 : FVec F S128x128x128x16 .f32 := broadcastInDim S128x128x128x16 ![] bcast_S_S128x128x128x16 main_cst_0
  let main_v6 : IVec S128x128x128x16 1 := cmpf .olt main_v4 main_v5
  let main_c_1 : IVec S_ 1 := constantI S_ 1 1#1
  let main_v7 : IVec S_ 1 := (fun x v => Host.reduce IntOp.andi x v reducesTo_S128x128x128x16_S_d0_1_2_3 h_S_) main_v6 main_c_1
  let main_v8 : IVec S_ 1 := andi main_v3 main_v7
  let main_v9 : FVec F S128x19 .f32 := Host.absf main_arg2
  let main_cst_2 : FVec F S_ .f32 := constant S_ .f32 0x7F800000#32
  let main_v10 : FVec F S128x19 .f32 := broadcastInDim S128x19 ![] bcast_S_S128x19 main_cst_2
  let main_v11 : IVec S128x19 1 := cmpf .olt main_v9 main_v10
  let main_c_3 : IVec S_ 1 := constantI S_ 1 1#1
  let main_v12 : IVec S_ 1 := (fun x v => Host.reduce IntOp.andi x v reducesTo_S128x19_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S524288x3 : Shape := ⟨2, ![524288, 3]⟩
abbrev S128x128x128x16 : Shape := ⟨4, ![128, 128, 128, 16]⟩
abbrev S128x19 : Shape := ⟨2, ![128, 19]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩
abbrev S2097152x16 : Shape := ⟨2, ![2097152, 16]⟩
abbrev S524288x1 : Shape := ⟨2, ![524288, 1]⟩
abbrev S524288 : Shape := ⟨1, ![524288]⟩
abbrev S524288x16 : Shape := ⟨2, ![524288, 16]⟩
abbrev S1x1 : Shape := ⟨2, ![1, 1]⟩
abbrev S524288x67 : Shape := ⟨2, ![524288, 67]⟩
abbrev S524288x4 : Shape := ⟨2, ![524288, 4]⟩
abbrev S2048x67 : Shape := ⟨2, ![2048, 67]⟩
abbrev S2048x4 : Shape := ⟨2, ![2048, 4]⟩
abbrev S2048x16 : Shape := ⟨2, ![2048, 16]⟩
abbrev S2048x3 : Shape := ⟨2, ![2048, 3]⟩
abbrev S128x16 : Shape := ⟨2, ![128, 16]⟩
abbrev S128x3 : Shape := ⟨2, ![128, 3]⟩
abbrev S16x128 : Shape := ⟨2, ![16, 128]⟩
abbrev S2048x128 : Shape := ⟨2, ![2048, 128]⟩
abbrev S3x128 : Shape := ⟨2, ![3, 128]⟩
abbrev S128x1 : Shape := ⟨2, ![128, 1]⟩
abbrev S2048x1 : Shape := ⟨2, ![2048, 1]⟩
abbrev S2048 : Shape := ⟨1, ![2048]⟩

abbrev nBuf : Space → Nat
  | .hbm => 701
  | .vmem => 10
  | .smem => 0
  | _ => 0

abbrev hbmTy0_0 (i : Nat) : BufTy := match i % 128 with
  | 0 => ⟨S524288x3, .f32⟩
  | 1 => ⟨S128x128x128x16, .f32⟩
  | 2 => ⟨S128x19, .f32⟩
  | 3 => ⟨S128, .f32⟩
  | 4 => ⟨S128x128, .f32⟩
  | 5 => ⟨S128, .f32⟩
  | 6 => ⟨S1x128, .f32⟩
  | 7 => ⟨S1, .f32⟩
  | 8 => ⟨S_, .f32⟩
  | 9 => ⟨S524288x3, .f32⟩
  | 10 => ⟨S524288x3, .f32⟩
  | 11 => ⟨S_, .f32⟩
  | 12 => ⟨S524288x3, .f32⟩
  | 13 => ⟨S524288x3, .f32⟩
  | 14 => ⟨S_, .f32⟩
  | 15 => ⟨S524288x3, .f32⟩
  | 16 => ⟨S524288x3, .f32⟩
  | 17 => ⟨S524288x3, .f32⟩
  | 18 => ⟨S_, .i32⟩
  | 19 => ⟨S_, .i32⟩
  | 20 => ⟨S_, .f32⟩
  | 21 => ⟨S524288x3, .f32⟩
  | 22 => ⟨S524288x3, .f32⟩
  | 23 => ⟨S_, .f32⟩
  | 24 => ⟨S524288x3, .f32⟩
  | 25 => ⟨S524288x3, .f32⟩
  | 26 => ⟨S524288x3, .i32⟩
  | 27 => ⟨S524288x3, .f32⟩
  | 28 => ⟨S524288x3, .f32⟩
  | 29 => ⟨S2097152x16, .f32⟩
  | 30 => ⟨S524288x1, .f32⟩
  | 31 => ⟨S524288, .f32⟩
  | 32 => ⟨S524288x1, .f32⟩
  | 33 => ⟨S524288, .f32⟩
  | 34 => ⟨S524288x1, .f32⟩
  | 35 => ⟨S524288, .f32⟩
  | 36 => ⟨S_, .f32⟩
  | 37 => ⟨S524288x16, .f32⟩
  | 38 => ⟨S_, .f32⟩
  | 39 => ⟨S524288x16, .f32⟩
  | 40 => ⟨S_, .f32⟩
  | 41 => ⟨S524288x16, .f32⟩
  | 42 => ⟨S_, .f32⟩
  | 43 => ⟨S524288x16, .f32⟩
  | 44 => ⟨S_, .f32⟩
  | 45 => ⟨S524288, .f32⟩
  | 46 => ⟨S524288, .f32⟩
  | 47 => ⟨S_, .f32⟩
  | 48 => ⟨S524288, .f32⟩
  | 49 => ⟨S524288, .f32⟩
  | 50 => ⟨S_, .f32⟩
  | 51 => ⟨S524288, .f32⟩
  | 52 => ⟨S524288, .f32⟩
  | 53 => ⟨S524288x1, .i32⟩
  | 54 => ⟨S524288, .i32⟩
  | 55 => ⟨S_, .i32⟩
  | 56 => ⟨S524288, .i32⟩
  | 57 => ⟨S524288, .i32⟩
  | 58 => ⟨S_, .i32⟩
  | 59 => ⟨S524288, .i32⟩
  | 60 => ⟨S524288, .i32⟩
  | 61 => ⟨S_, .i32⟩
  | 62 => ⟨S524288, .i32⟩
  | 63 => ⟨S524288, .i32⟩
  | 64 => ⟨S524288x1, .i32⟩
  | 65 => ⟨S524288, .i32⟩
  | 66 => ⟨S_, .i32⟩
  | 67 => ⟨S524288, .i32⟩
  | 68 => ⟨S524288, .i32⟩
  | 69 => ⟨S_, .i32⟩
  | 70 => ⟨S524288, .i32⟩
  | 71 => ⟨S524288, .i32⟩
  | 72 => ⟨S524288, .i32⟩
  | 73 => ⟨S524288x1, .i32⟩
  | 74 => ⟨S524288, .i32⟩
  | 75 => ⟨S_, .i32⟩
  | 76 => ⟨S524288, .i32⟩
  | 77 => ⟨S524288, .i32⟩
  | 78 => ⟨S524288, .i32⟩
  | 79 => ⟨S_, .i32⟩
  | 80 => ⟨S524288, .i32⟩
  | 81 => ⟨S524288, .i1⟩
  | 82 => ⟨S_, .i32⟩
  | 83 => ⟨S524288, .i32⟩
  | 84 => ⟨S524288, .i32⟩
  | 85 => ⟨S524288, .i32⟩
  | 86 => ⟨S524288x1, .i32⟩
  | 87 => ⟨S1, .i32⟩
  | 88 => ⟨S_, .i32⟩
  | 89 => ⟨S524288x1, .i32⟩
  | 90 => ⟨S524288x1, .i1⟩
  | 91 => ⟨S1x1, .i32⟩
  | 92 => ⟨S524288x1, .i32⟩
  | 93 => ⟨S524288x1, .i1⟩
  | 94 => ⟨S524288x1, .i1⟩
  | 95 => ⟨S_, .i1⟩
  | 96 => ⟨S524288, .i1⟩
  | 97 => ⟨S524288x16, .f32⟩
  | 98 => ⟨S524288x16, .i1⟩
  | 99 => ⟨S_, .f32⟩
  | 100 => ⟨S524288x16, .f32⟩
  | 101 => ⟨S524288x16, .f32⟩
  | 102 => ⟨S524288, .f32⟩
  | 103 => ⟨S524288, .f32⟩
  | 104 => ⟨S524288x1, .f32⟩
  | 105 => ⟨S524288x16, .f32⟩
  | 106 => ⟨S524288x16, .f32⟩
  | 107 => ⟨S524288x16, .f32⟩
  | 108 => ⟨S_, .f32⟩
  | 109 => ⟨S524288, .f32⟩
  | 110 => ⟨S524288, .f32⟩
  | 111 => ⟨S524288, .f32⟩
  | 112 => ⟨S524288x1, .f32⟩
  | 113 => ⟨S524288x16, .f32⟩
  | 114 => ⟨S524288x16, .f32⟩
  | 115 => ⟨S524288x16, .f32⟩
  | 116 => ⟨S_, .f32⟩
  | 117 => ⟨S524288, .f32⟩
  | 118 => ⟨S524288, .f32⟩
  | 119 => ⟨S524288, .f32⟩
  | 120 => ⟨S524288x1, .f32⟩
  | 121 => ⟨S524288x16, .f32⟩
  | 122 => ⟨S524288x16, .f32⟩
  | 123 => ⟨S524288x16, .f32⟩
  | 124 => ⟨S_, .f32⟩
  | 125 => ⟨S524288, .f32⟩
  | 126 => ⟨S524288, .f32⟩
  | 127 => ⟨S524288, .f32⟩
  | _ => ⟨S524288x3, .f32⟩

abbrev hbmTy0_1 (i : Nat) : BufTy := match i % 128 with
  | 0 => ⟨S524288x1, .f32⟩
  | 1 => ⟨S524288x16, .f32⟩
  | 2 => ⟨S524288x16, .f32⟩
  | 3 => ⟨S524288x16, .f32⟩
  | 4 => ⟨S524288x1, .i32⟩
  | 5 => ⟨S524288, .i32⟩
  | 6 => ⟨S_, .i32⟩
  | 7 => ⟨S524288, .i32⟩
  | 8 => ⟨S524288, .i32⟩
  | 9 => ⟨S_, .i32⟩
  | 10 => ⟨S524288, .i32⟩
  | 11 => ⟨S524288, .i32⟩
  | 12 => ⟨S_, .i32⟩
  | 13 => ⟨S524288, .i32⟩
  | 14 => ⟨S524288, .i32⟩
  | 15 => ⟨S524288x1, .i32⟩
  | 16 => ⟨S524288, .i32⟩
  | 17 => ⟨S_, .i32⟩
  | 18 => ⟨S524288, .i32⟩
  | 19 => ⟨S524288, .i32⟩
  | 20 => ⟨S_, .i32⟩
  | 21 => ⟨S524288, .i32⟩
  | 22 => ⟨S524288, .i32⟩
  | 23 => ⟨S524288, .i32⟩
  | 24 => ⟨S524288x1, .i32⟩
  | 25 => ⟨S524288, .i32⟩
  | 26 => ⟨S_, .i32⟩
  | 27 => ⟨S524288, .i32⟩
  | 28 => ⟨S524288, .i32⟩
  | 29 => ⟨S524288, .i32⟩
  | 30 => ⟨S_, .i32⟩
  | 31 => ⟨S524288, .i32⟩
  | 32 => ⟨S524288, .i1⟩
  | 33 => ⟨S_, .i32⟩
  | 34 => ⟨S524288, .i32⟩
  | 35 => ⟨S524288, .i32⟩
  | 36 => ⟨S524288, .i32⟩
  | 37 => ⟨S524288x1, .i32⟩
  | 38 => ⟨S1, .i32⟩
  | 39 => ⟨S_, .i32⟩
  | 40 => ⟨S524288x1, .i32⟩
  | 41 => ⟨S524288x1, .i1⟩
  | 42 => ⟨S1x1, .i32⟩
  | 43 => ⟨S524288x1, .i32⟩
  | 44 => ⟨S524288x1, .i1⟩
  | 45 => ⟨S524288x1, .i1⟩
  | 46 => ⟨S_, .i1⟩
  | 47 => ⟨S524288, .i1⟩
  | 48 => ⟨S524288x16, .f32⟩
  | 49 => ⟨S524288x16, .i1⟩
  | 50 => ⟨S_, .f32⟩
  | 51 => ⟨S524288x16, .f32⟩
  | 52 => ⟨S524288x16, .f32⟩
  | 53 => ⟨S524288, .f32⟩
  | 54 => ⟨S524288, .f32⟩
  | 55 => ⟨S524288x1, .f32⟩
  | 56 => ⟨S524288x16, .f32⟩
  | 57 => ⟨S524288x16, .f32⟩
  | 58 => ⟨S524288x16, .f32⟩
  | 59 => ⟨S_, .f32⟩
  | 60 => ⟨S524288, .f32⟩
  | 61 => ⟨S524288, .f32⟩
  | 62 => ⟨S524288, .f32⟩
  | 63 => ⟨S524288x1, .f32⟩
  | 64 => ⟨S524288x16, .f32⟩
  | 65 => ⟨S524288x16, .f32⟩
  | 66 => ⟨S524288x16, .f32⟩
  | 67 => ⟨S_, .f32⟩
  | 68 => ⟨S524288, .f32⟩
  | 69 => ⟨S524288, .f32⟩
  | 70 => ⟨S524288, .f32⟩
  | 71 => ⟨S524288x1, .f32⟩
  | 72 => ⟨S524288x16, .f32⟩
  | 73 => ⟨S524288x16, .f32⟩
  | 74 => ⟨S524288x16, .f32⟩
  | 75 => ⟨S_, .f32⟩
  | 76 => ⟨S524288, .f32⟩
  | 77 => ⟨S524288, .f32⟩
  | 78 => ⟨S524288, .f32⟩
  | 79 => ⟨S524288x1, .f32⟩
  | 80 => ⟨S524288x16, .f32⟩
  | 81 => ⟨S524288x16, .f32⟩
  | 82 => ⟨S524288x16, .f32⟩
  | 83 => ⟨S_, .f32⟩
  | 84 => ⟨S524288, .f32⟩
  | 85 => ⟨S524288, .f32⟩
  | 86 => ⟨S524288x1, .i32⟩
  | 87 => ⟨S524288, .i32⟩
  | 88 => ⟨S_, .i32⟩
  | 89 => ⟨S524288, .i32⟩
  | 90 => ⟨S524288, .i32⟩
  | 91 => ⟨S_, .i32⟩
  | 92 => ⟨S524288, .i32⟩
  | 93 => ⟨S524288, .i32⟩
  | 94 => ⟨S_, .i32⟩
  | 95 => ⟨S524288, .i32⟩
  | 96 => ⟨S524288, .i32⟩
  | 97 => ⟨S524288x1, .i32⟩
  | 98 => ⟨S524288, .i32⟩
  | 99 => ⟨S_, .i32⟩
  | 100 => ⟨S524288, .i32⟩
  | 101 => ⟨S524288, .i32⟩
  | 102 => ⟨S_, .i32⟩
  | 103 => ⟨S524288, .i32⟩
  | 104 => ⟨S524288, .i32⟩
  | 105 => ⟨S524288, .i32⟩
  | 106 => ⟨S524288x1, .i32⟩
  | 107 => ⟨S524288, .i32⟩
  | 108 => ⟨S_, .i32⟩
  | 109 => ⟨S524288, .i32⟩
  | 110 => ⟨S524288, .i32⟩
  | 111 => ⟨S524288, .i32⟩
  | 112 => ⟨S_, .i32⟩
  | 113 => ⟨S524288, .i32⟩
  | 114 => ⟨S524288, .i1⟩
  | 115 => ⟨S_, .i32⟩
  | 116 => ⟨S524288, .i32⟩
  | 117 => ⟨S524288, .i32⟩
  | 118 => ⟨S524288, .i32⟩
  | 119 => ⟨S524288x1, .i32⟩
  | 120 => ⟨S1, .i32⟩
  | 121 => ⟨S_, .i32⟩
  | 122 => ⟨S524288x1, .i32⟩
  | 123 => ⟨S524288x1, .i1⟩
  | 124 => ⟨S1x1, .i32⟩
  | 125 => ⟨S524288x1, .i32⟩
  | 126 => ⟨S524288x1, .i1⟩
  | 127 => ⟨S524288x1, .i1⟩
  | _ => ⟨S524288x3, .f32⟩

abbrev hbmTy0_2 (i : Nat) : BufTy := match i % 128 with
  | 0 => ⟨S_, .i1⟩
  | 1 => ⟨S524288, .i1⟩
  | 2 => ⟨S524288x16, .f32⟩
  | 3 => ⟨S524288x16, .i1⟩
  | 4 => ⟨S_, .f32⟩
  | 5 => ⟨S524288x16, .f32⟩
  | 6 => ⟨S524288x16, .f32⟩
  | 7 => ⟨S524288, .f32⟩
  | 8 => ⟨S524288, .f32⟩
  | 9 => ⟨S524288x1, .f32⟩
  | 10 => ⟨S524288x16, .f32⟩
  | 11 => ⟨S524288x16, .f32⟩
  | 12 => ⟨S524288x16, .f32⟩
  | 13 => ⟨S_, .f32⟩
  | 14 => ⟨S524288, .f32⟩
  | 15 => ⟨S524288, .f32⟩
  | 16 => ⟨S524288, .f32⟩
  | 17 => ⟨S524288x1, .f32⟩
  | 18 => ⟨S524288x16, .f32⟩
  | 19 => ⟨S524288x16, .f32⟩
  | 20 => ⟨S524288x16, .f32⟩
  | 21 => ⟨S_, .f32⟩
  | 22 => ⟨S524288, .f32⟩
  | 23 => ⟨S524288, .f32⟩
  | 24 => ⟨S524288, .f32⟩
  | 25 => ⟨S524288x1, .f32⟩
  | 26 => ⟨S524288x16, .f32⟩
  | 27 => ⟨S524288x16, .f32⟩
  | 28 => ⟨S524288x16, .f32⟩
  | 29 => ⟨S_, .f32⟩
  | 30 => ⟨S524288, .f32⟩
  | 31 => ⟨S524288, .f32⟩
  | 32 => ⟨S524288, .f32⟩
  | 33 => ⟨S524288x1, .f32⟩
  | 34 => ⟨S524288x16, .f32⟩
  | 35 => ⟨S524288x16, .f32⟩
  | 36 => ⟨S524288x16, .f32⟩
  | 37 => ⟨S524288x1, .i32⟩
  | 38 => ⟨S524288, .i32⟩
  | 39 => ⟨S_, .i32⟩
  | 40 => ⟨S524288, .i32⟩
  | 41 => ⟨S524288, .i32⟩
  | 42 => ⟨S_, .i32⟩
  | 43 => ⟨S524288, .i32⟩
  | 44 => ⟨S524288, .i32⟩
  | 45 => ⟨S_, .i32⟩
  | 46 => ⟨S524288, .i32⟩
  | 47 => ⟨S524288, .i32⟩
  | 48 => ⟨S524288x1, .i32⟩
  | 49 => ⟨S524288, .i32⟩
  | 50 => ⟨S_, .i32⟩
  | 51 => ⟨S524288, .i32⟩
  | 52 => ⟨S524288, .i32⟩
  | 53 => ⟨S_, .i32⟩
  | 54 => ⟨S524288, .i32⟩
  | 55 => ⟨S524288, .i32⟩
  | 56 => ⟨S524288, .i32⟩
  | 57 => ⟨S524288x1, .i32⟩
  | 58 => ⟨S524288, .i32⟩
  | 59 => ⟨S_, .i32⟩
  | 60 => ⟨S524288, .i32⟩
  | 61 => ⟨S524288, .i32⟩
  | 62 => ⟨S524288, .i32⟩
  | 63 => ⟨S_, .i32⟩
  | 64 => ⟨S524288, .i32⟩
  | 65 => ⟨S524288, .i1⟩
  | 66 => ⟨S_, .i32⟩
  | 67 => ⟨S524288, .i32⟩
  | 68 => ⟨S524288, .i32⟩
  | 69 => ⟨S524288, .i32⟩
  | 70 => ⟨S524288x1, .i32⟩
  | 71 => ⟨S1, .i32⟩
  | 72 => ⟨S_, .i32⟩
  | 73 => ⟨S524288x1, .i32⟩
  | 74 => ⟨S524288x1, .i1⟩
  | 75 => ⟨S1x1, .i32⟩
  | 76 => ⟨S524288x1, .i32⟩
  | 77 => ⟨S524288x1, .i1⟩
  | 78 => ⟨S524288x1, .i1⟩
  | 79 => ⟨S_, .i1⟩
  | 80 => ⟨S524288, .i1⟩
  | 81 => ⟨S524288x16, .f32⟩
  | 82 => ⟨S524288x16, .i1⟩
  | 83 => ⟨S_, .f32⟩
  | 84 => ⟨S524288x16, .f32⟩
  | 85 => ⟨S524288x16, .f32⟩
  | 86 => ⟨S524288, .f32⟩
  | 87 => ⟨S524288, .f32⟩
  | 88 => ⟨S524288x1, .f32⟩
  | 89 => ⟨S524288x16, .f32⟩
  | 90 => ⟨S524288x16, .f32⟩
  | 91 => ⟨S524288x16, .f32⟩
  | 92 => ⟨S_, .f32⟩
  | 93 => ⟨S524288, .f32⟩
  | 94 => ⟨S524288, .f32⟩
  | 95 => ⟨S524288, .f32⟩
  | 96 => ⟨S524288x1, .f32⟩
  | 97 => ⟨S524288x16, .f32⟩
  | 98 => ⟨S524288x16, .f32⟩
  | 99 => ⟨S524288x16, .f32⟩
  | 100 => ⟨S_, .f32⟩
  | 101 => ⟨S524288, .f32⟩
  | 102 => ⟨S524288, .f32⟩
  | 103 => ⟨S524288, .f32⟩
  | 104 => ⟨S524288x1, .f32⟩
  | 105 => ⟨S524288x16, .f32⟩
  | 106 => ⟨S524288x16, .f32⟩
  | 107 => ⟨S524288x16, .f32⟩
  | 108 => ⟨S_, .f32⟩
  | 109 => ⟨S524288, .f32⟩
  | 110 => ⟨S524288, .f32⟩
  | 111 => ⟨S524288, .f32⟩
  | 112 => ⟨S524288x1, .f32⟩
  | 113 => ⟨S524288x16, .f32⟩
  | 114 => ⟨S524288x16, .f32⟩
  | 115 => ⟨S524288x16, .f32⟩
  | 116 => ⟨S_, .f32⟩
  | 117 => ⟨S524288, .f32⟩
  | 118 => ⟨S524288, .f32⟩
  | 119 => ⟨S_, .f32⟩
  | 120 => ⟨S524288, .f32⟩
  | 121 => ⟨S524288, .f32⟩
  | 122 => ⟨S524288x1, .i32⟩
  | 123 => ⟨S524288, .i32⟩
  | 124 => ⟨S_, .i32⟩
  | 125 => ⟨S524288, .i32⟩
  | 126 => ⟨S524288, .i32⟩
  | 127 => ⟨S_, .i32⟩
  | _ => ⟨S524288x3, .f32⟩

abbrev hbmTy0_3 (i : Nat) : BufTy := match i % 128 with
  | 0 => ⟨S524288, .i32⟩
  | 1 => ⟨S524288, .i32⟩
  | 2 => ⟨S_, .i32⟩
  | 3 => ⟨S524288, .i32⟩
  | 4 => ⟨S524288, .i32⟩
  | 5 => ⟨S524288x1, .i32⟩
  | 6 => ⟨S524288, .i32⟩
  | 7 => ⟨S_, .i32⟩
  | 8 => ⟨S524288, .i32⟩
  | 9 => ⟨S524288, .i32⟩
  | 10 => ⟨S_, .i32⟩
  | 11 => ⟨S524288, .i32⟩
  | 12 => ⟨S524288, .i32⟩
  | 13 => ⟨S524288, .i32⟩
  | 14 => ⟨S524288x1, .i32⟩
  | 15 => ⟨S524288, .i32⟩
  | 16 => ⟨S_, .i32⟩
  | 17 => ⟨S524288, .i32⟩
  | 18 => ⟨S524288, .i32⟩
  | 19 => ⟨S524288, .i32⟩
  | 20 => ⟨S_, .i32⟩
  | 21 => ⟨S524288, .i32⟩
  | 22 => ⟨S524288, .i1⟩
  | 23 => ⟨S_, .i32⟩
  | 24 => ⟨S524288, .i32⟩
  | 25 => ⟨S524288, .i32⟩
  | 26 => ⟨S524288, .i32⟩
  | 27 => ⟨S524288x1, .i32⟩
  | 28 => ⟨S1, .i32⟩
  | 29 => ⟨S_, .i32⟩
  | 30 => ⟨S524288x1, .i32⟩
  | 31 => ⟨S524288x1, .i1⟩
  | 32 => ⟨S1x1, .i32⟩
  | 33 => ⟨S524288x1, .i32⟩
  | 34 => ⟨S524288x1, .i1⟩
  | 35 => ⟨S524288x1, .i1⟩
  | 36 => ⟨S_, .i1⟩
  | 37 => ⟨S524288, .i1⟩
  | 38 => ⟨S524288x16, .f32⟩
  | 39 => ⟨S524288x16, .i1⟩
  | 40 => ⟨S_, .f32⟩
  | 41 => ⟨S524288x16, .f32⟩
  | 42 => ⟨S524288x16, .f32⟩
  | 43 => ⟨S524288, .f32⟩
  | 44 => ⟨S524288, .f32⟩
  | 45 => ⟨S524288x1, .f32⟩
  | 46 => ⟨S524288x16, .f32⟩
  | 47 => ⟨S524288x16, .f32⟩
  | 48 => ⟨S524288x16, .f32⟩
  | 49 => ⟨S_, .f32⟩
  | 50 => ⟨S524288, .f32⟩
  | 51 => ⟨S524288, .f32⟩
  | 52 => ⟨S524288, .f32⟩
  | 53 => ⟨S524288x1, .f32⟩
  | 54 => ⟨S524288x16, .f32⟩
  | 55 => ⟨S524288x16, .f32⟩
  | 56 => ⟨S524288x16, .f32⟩
  | 57 => ⟨S_, .f32⟩
  | 58 => ⟨S524288, .f32⟩
  | 59 => ⟨S524288, .f32⟩
  | 60 => ⟨S524288, .f32⟩
  | 61 => ⟨S524288x1, .f32⟩
  | 62 => ⟨S524288x16, .f32⟩
  | 63 => ⟨S524288x16, .f32⟩
  | 64 => ⟨S524288x16, .f32⟩
  | 65 => ⟨S_, .f32⟩
  | 66 => ⟨S524288, .f32⟩
  | 67 => ⟨S524288, .f32⟩
  | 68 => ⟨S524288, .f32⟩
  | 69 => ⟨S524288x1, .f32⟩
  | 70 => ⟨S524288x16, .f32⟩
  | 71 => ⟨S524288x16, .f32⟩
  | 72 => ⟨S524288x16, .f32⟩
  | 73 => ⟨S524288x1, .i32⟩
  | 74 => ⟨S524288, .i32⟩
  | 75 => ⟨S_, .i32⟩
  | 76 => ⟨S524288, .i32⟩
  | 77 => ⟨S524288, .i32⟩
  | 78 => ⟨S_, .i32⟩
  | 79 => ⟨S524288, .i32⟩
  | 80 => ⟨S524288, .i32⟩
  | 81 => ⟨S_, .i32⟩
  | 82 => ⟨S524288, .i32⟩
  | 83 => ⟨S524288, .i32⟩
  | 84 => ⟨S524288x1, .i32⟩
  | 85 => ⟨S524288, .i32⟩
  | 86 => ⟨S_, .i32⟩
  | 87 => ⟨S524288, .i32⟩
  | 88 => ⟨S524288, .i32⟩
  | 89 => ⟨S_, .i32⟩
  | 90 => ⟨S524288, .i32⟩
  | 91 => ⟨S524288, .i32⟩
  | 92 => ⟨S524288, .i32⟩
  | 93 => ⟨S524288x1, .i32⟩
  | 94 => ⟨S524288, .i32⟩
  | 95 => ⟨S_, .i32⟩
  | 96 => ⟨S524288, .i32⟩
  | 97 => ⟨S524288, .i32⟩
  | 98 => ⟨S524288, .i32⟩
  | 99 => ⟨S_, .i32⟩
  | 100 => ⟨S524288, .i32⟩
  | 101 => ⟨S524288, .i1⟩
  | 102 => ⟨S_, .i32⟩
  | 103 => ⟨S524288, .i32⟩
  | 104 => ⟨S524288, .i32⟩
  | 105 => ⟨S524288, .i32⟩
  | 106 => ⟨S524288x1, .i32⟩
  | 107 => ⟨S1, .i32⟩
  | 108 => ⟨S_, .i32⟩
  | 109 => ⟨S524288x1, .i32⟩
  | 110 => ⟨S524288x1, .i1⟩
  | 111 => ⟨S1x1, .i32⟩
  | 112 => ⟨S524288x1, .i32⟩
  | 113 => ⟨S524288x1, .i1⟩
  | 114 => ⟨S524288x1, .i1⟩
  | 115 => ⟨S_, .i1⟩
  | 116 => ⟨S524288, .i1⟩
  | 117 => ⟨S524288x16, .f32⟩
  | 118 => ⟨S524288x16, .i1⟩
  | 119 => ⟨S_, .f32⟩
  | 120 => ⟨S524288x16, .f32⟩
  | 121 => ⟨S524288x16, .f32⟩
  | 122 => ⟨S524288, .f32⟩
  | 123 => ⟨S524288, .f32⟩
  | 124 => ⟨S524288x1, .f32⟩
  | 125 => ⟨S524288x16, .f32⟩
  | 126 => ⟨S524288x16, .f32⟩
  | 127 => ⟨S524288x16, .f32⟩
  | _ => ⟨S524288x3, .f32⟩

abbrev hbmTy0_4 (i : Nat) : BufTy := match i % 128 with
  | 0 => ⟨S_, .f32⟩
  | 1 => ⟨S524288, .f32⟩
  | 2 => ⟨S524288, .f32⟩
  | 3 => ⟨S524288, .f32⟩
  | 4 => ⟨S524288x1, .f32⟩
  | 5 => ⟨S524288x16, .f32⟩
  | 6 => ⟨S524288x16, .f32⟩
  | 7 => ⟨S524288x16, .f32⟩
  | 8 => ⟨S_, .f32⟩
  | 9 => ⟨S524288, .f32⟩
  | 10 => ⟨S524288, .f32⟩
  | 11 => ⟨S524288, .f32⟩
  | 12 => ⟨S524288x1, .f32⟩
  | 13 => ⟨S524288x16, .f32⟩
  | 14 => ⟨S524288x16, .f32⟩
  | 15 => ⟨S524288x16, .f32⟩
  | 16 => ⟨S_, .f32⟩
  | 17 => ⟨S524288, .f32⟩
  | 18 => ⟨S524288, .f32⟩
  | 19 => ⟨S524288, .f32⟩
  | 20 => ⟨S524288x1, .f32⟩
  | 21 => ⟨S524288x16, .f32⟩
  | 22 => ⟨S524288x16, .f32⟩
  | 23 => ⟨S524288x16, .f32⟩
  | 24 => ⟨S_, .f32⟩
  | 25 => ⟨S524288, .f32⟩
  | 26 => ⟨S524288, .f32⟩
  | 27 => ⟨S524288x1, .i32⟩
  | 28 => ⟨S524288, .i32⟩
  | 29 => ⟨S_, .i32⟩
  | 30 => ⟨S524288, .i32⟩
  | 31 => ⟨S524288, .i32⟩
  | 32 => ⟨S_, .i32⟩
  | 33 => ⟨S524288, .i32⟩
  | 34 => ⟨S524288, .i32⟩
  | 35 => ⟨S_, .i32⟩
  | 36 => ⟨S524288, .i32⟩
  | 37 => ⟨S524288, .i32⟩
  | 38 => ⟨S524288x1, .i32⟩
  | 39 => ⟨S524288, .i32⟩
  | 40 => ⟨S_, .i32⟩
  | 41 => ⟨S524288, .i32⟩
  | 42 => ⟨S524288, .i32⟩
  | 43 => ⟨S_, .i32⟩
  | 44 => ⟨S524288, .i32⟩
  | 45 => ⟨S524288, .i32⟩
  | 46 => ⟨S524288, .i32⟩
  | 47 => ⟨S524288x1, .i32⟩
  | 48 => ⟨S524288, .i32⟩
  | 49 => ⟨S_, .i32⟩
  | 50 => ⟨S524288, .i32⟩
  | 51 => ⟨S524288, .i32⟩
  | 52 => ⟨S524288, .i32⟩
  | 53 => ⟨S_, .i32⟩
  | 54 => ⟨S524288, .i32⟩
  | 55 => ⟨S524288, .i1⟩
  | 56 => ⟨S_, .i32⟩
  | 57 => ⟨S524288, .i32⟩
  | 58 => ⟨S524288, .i32⟩
  | 59 => ⟨S524288, .i32⟩
  | 60 => ⟨S524288x1, .i32⟩
  | 61 => ⟨S1, .i32⟩
  | 62 => ⟨S_, .i32⟩
  | 63 => ⟨S524288x1, .i32⟩
  | 64 => ⟨S524288x1, .i1⟩
  | 65 => ⟨S1x1, .i32⟩
  | 66 => ⟨S524288x1, .i32⟩
  | 67 => ⟨S524288x1, .i1⟩
  | 68 => ⟨S524288x1, .i1⟩
  | 69 => ⟨S_, .i1⟩
  | 70 => ⟨S524288, .i1⟩
  | 71 => ⟨S524288x16, .f32⟩
  | 72 => ⟨S524288x16, .i1⟩
  | 73 => ⟨S_, .f32⟩
  | 74 => ⟨S524288x16, .f32⟩
  | 75 => ⟨S524288x16, .f32⟩
  | 76 => ⟨S524288, .f32⟩
  | 77 => ⟨S524288, .f32⟩
  | 78 => ⟨S524288x1, .f32⟩
  | 79 => ⟨S524288x16, .f32⟩
  | 80 => ⟨S524288x16, .f32⟩
  | 81 => ⟨S524288x16, .f32⟩
  | 82 => ⟨S_, .f32⟩
  | 83 => ⟨S524288, .f32⟩
  | 84 => ⟨S524288, .f32⟩
  | 85 => ⟨S524288, .f32⟩
  | 86 => ⟨S524288x1, .f32⟩
  | 87 => ⟨S524288x16, .f32⟩
  | 88 => ⟨S524288x16, .f32⟩
  | 89 => ⟨S524288x16, .f32⟩
  | 90 => ⟨S_, .f32⟩
  | 91 => ⟨S524288, .f32⟩
  | 92 => ⟨S524288, .f32⟩
  | 93 => ⟨S524288, .f32⟩
  | 94 => ⟨S524288x1, .f32⟩
  | 95 => ⟨S524288x16, .f32⟩
  | 96 => ⟨S524288x16, .f32⟩
  | 97 => ⟨S524288x16, .f32⟩
  | 98 => ⟨S_, .f32⟩
  | 99 => ⟨S524288, .f32⟩
  | 100 => ⟨S524288, .f32⟩
  | 101 => ⟨S524288, .f32⟩
  | 102 => ⟨S524288x1, .f32⟩
  | 103 => ⟨S524288x16, .f32⟩
  | 104 => ⟨S524288x16, .f32⟩
  | 105 => ⟨S524288x16, .f32⟩
  | 106 => ⟨S524288x1, .i32⟩
  | 107 => ⟨S524288, .i32⟩
  | 108 => ⟨S_, .i32⟩
  | 109 => ⟨S524288, .i32⟩
  | 110 => ⟨S524288, .i32⟩
  | 111 => ⟨S_, .i32⟩
  | 112 => ⟨S524288, .i32⟩
  | 113 => ⟨S524288, .i32⟩
  | 114 => ⟨S_, .i32⟩
  | 115 => ⟨S524288, .i32⟩
  | 116 => ⟨S524288, .i32⟩
  | 117 => ⟨S524288x1, .i32⟩
  | 118 => ⟨S524288, .i32⟩
  | 119 => ⟨S_, .i32⟩
  | 120 => ⟨S524288, .i32⟩
  | 121 => ⟨S524288, .i32⟩
  | 122 => ⟨S_, .i32⟩
  | 123 => ⟨S524288, .i32⟩
  | 124 => ⟨S524288, .i32⟩
  | 125 => ⟨S524288, .i32⟩
  | 126 => ⟨S524288x1, .i32⟩
  | 127 => ⟨S524288, .i32⟩
  | _ => ⟨S524288x3, .f32⟩

abbrev hbmTy0_5 (i : Nat) : BufTy := match i % 128 with
  | 0 => ⟨S_, .i32⟩
  | 1 => ⟨S524288, .i32⟩
  | 2 => ⟨S524288, .i32⟩
  | 3 => ⟨S524288, .i32⟩
  | 4 => ⟨S_, .i32⟩
  | 5 => ⟨S524288, .i32⟩
  | 6 => ⟨S524288, .i1⟩
  | 7 => ⟨S_, .i32⟩
  | 8 => ⟨S524288, .i32⟩
  | 9 => ⟨S524288, .i32⟩
  | 10 => ⟨S524288, .i32⟩
  | 11 => ⟨S524288x1, .i32⟩
  | 12 => ⟨S1, .i32⟩
  | 13 => ⟨S_, .i32⟩
  | 14 => ⟨S524288x1, .i32⟩
  | 15 => ⟨S524288x1, .i1⟩
  | 16 => ⟨S1x1, .i32⟩
  | 17 => ⟨S524288x1, .i32⟩
  | 18 => ⟨S524288x1, .i1⟩
  | 19 => ⟨S524288x1, .i1⟩
  | 20 => ⟨S_, .i1⟩
  | 21 => ⟨S524288, .i1⟩
  | 22 => ⟨S524288x16, .f32⟩
  | 23 => ⟨S524288x16, .i1⟩
  | 24 => ⟨S_, .f32⟩
  | 25 => ⟨S524288x16, .f32⟩
  | 26 => ⟨S524288x16, .f32⟩
  | 27 => ⟨S524288, .f32⟩
  | 28 => ⟨S524288, .f32⟩
  | 29 => ⟨S524288x1, .f32⟩
  | 30 => ⟨S524288x16, .f32⟩
  | 31 => ⟨S524288x16, .f32⟩
  | 32 => ⟨S524288x16, .f32⟩
  | 33 => ⟨S_, .f32⟩
  | 34 => ⟨S524288, .f32⟩
  | 35 => ⟨S524288, .f32⟩
  | 36 => ⟨S524288, .f32⟩
  | 37 => ⟨S524288x1, .f32⟩
  | 38 => ⟨S524288x16, .f32⟩
  | 39 => ⟨S524288x16, .f32⟩
  | 40 => ⟨S524288x16, .f32⟩
  | 41 => ⟨S_, .f32⟩
  | 42 => ⟨S524288, .f32⟩
  | 43 => ⟨S524288, .f32⟩
  | 44 => ⟨S524288, .f32⟩
  | 45 => ⟨S524288x1, .f32⟩
  | 46 => ⟨S524288x16, .f32⟩
  | 47 => ⟨S524288x16, .f32⟩
  | 48 => ⟨S524288x16, .f32⟩
  | 49 => ⟨S_, .f32⟩
  | 50 => ⟨S524288, .f32⟩
  | 51 => ⟨S524288, .f32⟩
  | 52 => ⟨S524288, .f32⟩
  | 53 => ⟨S524288x1, .f32⟩
  | 54 => ⟨S524288x16, .f32⟩
  | 55 => ⟨S524288x16, .f32⟩
  | 56 => ⟨S524288x16, .f32⟩
  | 57 => ⟨S524288x67, .f32⟩
  | 58 => ⟨S524288x4, .f32⟩
  | 59 => ⟨S524288x1, .f32⟩
  | 60 => ⟨S524288x3, .f32⟩
  | _ => ⟨S524288x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S524288x3, .f32⟩

abbrev bufTy : (tb : Table) → Fin (tcTables nBuf tb) → BufTy
  | .hbm, ⟨i, _⟩ => hbmTy i
  | .local _ .vmem, ⟨0, _⟩ => ⟨S2048x67, .f32⟩
  | .local _ .vmem, ⟨1, _⟩ => ⟨S2048x67, .f32⟩
  | .local _ .vmem, ⟨2, _⟩ => ⟨S128x19, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S1x128, .f32⟩
  | .local _ .vmem, ⟨7, _⟩ => ⟨S1, .f32⟩
  | .local _ .vmem, ⟨8, _⟩ => ⟨S2048x4, .f32⟩
  | .local _ .vmem, ⟨9, _⟩ => ⟨S2048x4, .f32⟩
  | _, _ => ⟨S524288x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_10 : Ref sig .tc := ⟨.hbm, 55, rfl⟩
abbrev main_v30 : Ref sig .tc := ⟨.hbm, 56, rfl⟩
abbrev main_v31 : Ref sig .tc := ⟨.hbm, 57, rfl⟩
abbrev main_c_11 : Ref sig .tc := ⟨.hbm, 58, rfl⟩
abbrev main_v32 : Ref sig .tc := ⟨.hbm, 59, rfl⟩
abbrev main_v33 : Ref sig .tc := ⟨.hbm, 60, rfl⟩
abbrev main_c_12 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_13 : Ref sig .tc := ⟨.hbm, 66, rfl⟩
abbrev main_v38 : Ref sig .tc := ⟨.hbm, 67, rfl⟩
abbrev main_v39 : Ref sig .tc := ⟨.hbm, 68, rfl⟩
abbrev main_c_14 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_15 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_call1_c : Ref sig .tc := ⟨.hbm, 79, rfl⟩
abbrev main_call1_v0 : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_c_1 : Ref sig .tc := ⟨.hbm, 87, rfl⟩
abbrev main_call1_c_2 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_3 : Ref sig .tc := ⟨.hbm, 95, rfl⟩
abbrev main_call1_v12 : Ref sig .tc := ⟨.hbm, 96, rfl⟩
abbrev main_call1_v13 : Ref sig .tc := ⟨.hbm, 97, rfl⟩
abbrev main_call1_v14 : Ref sig .tc := ⟨.hbm, 98, rfl⟩
abbrev main_call1_cst : Ref sig .tc := ⟨.hbm, 99, rfl⟩
abbrev main_call1_v15 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_cst_16 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_17 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_18 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_c_19 : Ref sig .tc := ⟨.hbm, 134, rfl⟩
abbrev main_v78 : Ref sig .tc := ⟨.hbm, 135, rfl⟩
abbrev main_v79 : Ref sig .tc := ⟨.hbm, 136, rfl⟩
abbrev main_c_20 : Ref sig .tc := ⟨.hbm, 137, rfl⟩
abbrev main_v80 : Ref sig .tc := ⟨.hbm, 138, rfl⟩
abbrev main_v81 : Ref sig .tc := ⟨.hbm, 139, rfl⟩
abbrev main_c_21 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_c_22 : Ref sig .tc := ⟨.hbm, 145, rfl⟩
abbrev main_v86 : Ref sig .tc := ⟨.hbm, 146, rfl⟩
abbrev main_v87 : Ref sig .tc := ⟨.hbm, 147, rfl⟩
abbrev main_c_23 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_c_24 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_call2_c : Ref sig .tc := ⟨.hbm, 158, rfl⟩
abbrev main_call2_v0 : Ref sig .tc := ⟨.hbm, 159, rfl⟩
abbrev main_call2_v1 : Ref sig .tc := ⟨.hbm, 160, rfl⟩
abbrev main_call2_c_0 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_call2_v5 : Ref sig .tc := ⟨.hbm, 165, rfl⟩
abbrev main_call2_c_1 : Ref sig .tc := ⟨.hbm, 166, rfl⟩
abbrev main_call2_c_2 : Ref sig .tc := ⟨.hbm, 167, rfl⟩
abbrev main_call2_v6 : Ref sig .tc := ⟨.hbm, 168, rfl⟩
abbrev main_call2_v7 : Ref sig .tc := ⟨.hbm, 169, rfl⟩
abbrev main_call2_v8 : Ref sig .tc := ⟨.hbm, 170, rfl⟩
abbrev main_call2_v9 : Ref sig .tc := ⟨.hbm, 171, rfl⟩
abbrev main_call2_v10 : Ref sig .tc := ⟨.hbm, 172, rfl⟩
abbrev main_call2_v11 : Ref sig .tc := ⟨.hbm, 173, rfl⟩
abbrev main_call2_c_3 : Ref sig .tc := ⟨.hbm, 174, rfl⟩
abbrev main_call2_v12 : Ref sig .tc := ⟨.hbm, 175, rfl⟩
abbrev main_call2_v13 : Ref sig .tc := ⟨.hbm, 176, rfl⟩
abbrev main_call2_v14 : Ref sig .tc := ⟨.hbm, 177, rfl⟩
abbrev main_call2_cst : Ref sig .tc := ⟨.hbm, 178, rfl⟩
abbrev main_call2_v15 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_cst_25 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_cst_26 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_cst_27 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_cst_28 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_c_29 : Ref sig .tc := ⟨.hbm, 216, rfl⟩
abbrev main_v128 : Ref sig .tc := ⟨.hbm, 217, rfl⟩
abbrev main_v129 : Ref sig .tc := ⟨.hbm, 218, rfl⟩
abbrev main_c_30 : Ref sig .tc := ⟨.hbm, 219, rfl⟩
abbrev main_v130 : Ref sig .tc := ⟨.hbm, 220, rfl⟩
abbrev main_v131 : Ref sig .tc := ⟨.hbm, 221, rfl⟩
abbrev main_c_31 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_c_32 : Ref sig .tc := ⟨.hbm, 227, rfl⟩
abbrev main_v136 : Ref sig .tc := ⟨.hbm, 228, rfl⟩
abbrev main_v137 : Ref sig .tc := ⟨.hbm, 229, rfl⟩
abbrev main_c_33 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_c_34 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_call3_c : Ref sig .tc := ⟨.hbm, 240, rfl⟩
abbrev main_call3_v0 : Ref sig .tc := ⟨.hbm, 241, rfl⟩
abbrev main_call3_v1 : Ref sig .tc := ⟨.hbm, 242, rfl⟩
abbrev main_call3_c_0 : Ref sig .tc := ⟨.hbm, 243, rfl⟩
abbrev main_call3_v2 : Ref sig .tc := ⟨.hbm, 244, rfl⟩
abbrev main_call3_v3 : Ref sig .tc := ⟨.hbm, 245, rfl⟩
abbrev main_call3_v4 : Ref sig .tc := ⟨.hbm, 246, rfl⟩
abbrev main_call3_v5 : Ref sig .tc := ⟨.hbm, 247, rfl⟩
abbrev main_call3_c_1 : Ref sig .tc := ⟨.hbm, 248, rfl⟩
abbrev main_call3_c_2 : Ref sig .tc := ⟨.hbm, 249, rfl⟩
abbrev main_call3_v6 : Ref sig .tc := ⟨.hbm, 250, rfl⟩
abbrev main_call3_v7 : Ref sig .tc := ⟨.hbm, 251, rfl⟩
abbrev main_call3_v8 : Ref sig .tc := ⟨.hbm, 252, rfl⟩
abbrev main_call3_v9 : Ref sig .tc := ⟨.hbm, 253, rfl⟩
abbrev main_call3_v10 : Ref sig .tc := ⟨.hbm, 254, rfl⟩
abbrev main_call3_v11 : Ref sig .tc := ⟨.hbm, 255, rfl⟩
abbrev main_call3_c_3 : Ref sig .tc := ⟨.hbm, 256, rfl⟩
abbrev main_call3_v12 : Ref sig .tc := ⟨.hbm, 257, rfl⟩
abbrev main_call3_v13 : Ref sig .tc := ⟨.hbm, 258, rfl⟩
abbrev main_call3_v14 : Ref sig .tc := ⟨.hbm, 259, rfl⟩
abbrev main_call3_cst : Ref sig .tc := ⟨.hbm, 260, rfl⟩
abbrev main_call3_v15 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_v151 : Ref sig .tc := ⟨.hbm, 267, rfl⟩
abbrev main_v152 : Ref sig .tc := ⟨.hbm, 268, rfl⟩
abbrev main_cst_35 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_cst_36 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_cst_37 : Ref sig .tc := ⟨.hbm, 285, rfl⟩
abbrev main_v167 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_c_38 : Ref sig .tc := ⟨.hbm, 295, rfl⟩
abbrev main_v176 : Ref sig .tc := ⟨.hbm, 296, rfl⟩
abbrev main_v177 : Ref sig .tc := ⟨.hbm, 297, rfl⟩
abbrev main_c_39 : Ref sig .tc := ⟨.hbm, 298, rfl⟩
abbrev main_v178 : Ref sig .tc := ⟨.hbm, 299, rfl⟩
abbrev main_v179 : Ref sig .tc := ⟨.hbm, 300, rfl⟩
abbrev main_c_40 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_c_41 : Ref sig .tc := ⟨.hbm, 306, rfl⟩
abbrev main_v184 : Ref sig .tc := ⟨.hbm, 307, rfl⟩
abbrev main_v185 : Ref sig .tc := ⟨.hbm, 308, rfl⟩
abbrev main_c_42 : Ref sig .tc := ⟨.hbm, 309, rfl⟩
abbrev main_v186 : Ref sig .tc := ⟨.hbm, 310, rfl⟩
abbrev main_v187 : Ref sig .tc := ⟨.hbm, 311, rfl⟩
abbrev main_v188 : Ref sig .tc := ⟨.hbm, 312, rfl⟩
abbrev main_v189 : Ref sig .tc := ⟨.hbm, 313, rfl⟩
abbrev main_v190 : Ref sig .tc := ⟨.hbm, 314, rfl⟩
abbrev main_c_43 : Ref sig .tc := ⟨.hbm, 315, rfl⟩
abbrev main_v191 : Ref sig .tc := ⟨.hbm, 316, rfl⟩
abbrev main_v192 : Ref sig .tc := ⟨.hbm, 317, rfl⟩
abbrev main_v193 : Ref sig .tc := ⟨.hbm, 318, rfl⟩
abbrev main_call4_c : Ref sig .tc := ⟨.hbm, 319, rfl⟩
abbrev main_call4_v0 : Ref sig .tc := ⟨.hbm, 320, rfl⟩
abbrev main_call4_v1 : Ref sig .tc := ⟨.hbm, 321, rfl⟩
abbrev main_call4_c_0 : Ref sig .tc := ⟨.hbm, 322, rfl⟩
abbrev main_call4_v2 : Ref sig .tc := ⟨.hbm, 323, rfl⟩
abbrev main_call4_v3 : Ref sig .tc := ⟨.hbm, 324, rfl⟩
abbrev main_call4_v4 : Ref sig .tc := ⟨.hbm, 325, rfl⟩
abbrev main_call4_v5 : Ref sig .tc := ⟨.hbm, 326, rfl⟩
abbrev main_call4_c_1 : Ref sig .tc := ⟨.hbm, 327, rfl⟩
abbrev main_call4_c_2 : Ref sig .tc := ⟨.hbm, 328, rfl⟩
abbrev main_call4_v6 : Ref sig .tc := ⟨.hbm, 329, rfl⟩
abbrev main_call4_v7 : Ref sig .tc := ⟨.hbm, 330, rfl⟩
abbrev main_call4_v8 : Ref sig .tc := ⟨.hbm, 331, rfl⟩
abbrev main_call4_v9 : Ref sig .tc := ⟨.hbm, 332, rfl⟩
abbrev main_call4_v10 : Ref sig .tc := ⟨.hbm, 333, rfl⟩
abbrev main_call4_v11 : Ref sig .tc := ⟨.hbm, 334, rfl⟩
abbrev main_call4_c_3 : Ref sig .tc := ⟨.hbm, 335, rfl⟩
abbrev main_call4_v12 : Ref sig .tc := ⟨.hbm, 336, rfl⟩
abbrev main_call4_v13 : Ref sig .tc := ⟨.hbm, 337, rfl⟩
abbrev main_call4_v14 : Ref sig .tc := ⟨.hbm, 338, rfl⟩
abbrev main_call4_cst : Ref sig .tc := ⟨.hbm, 339, rfl⟩
abbrev main_call4_v15 : Ref sig .tc := ⟨.hbm, 340, rfl⟩
abbrev main_v194 : Ref sig .tc := ⟨.hbm, 341, rfl⟩
abbrev main_v195 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_v200 : Ref sig .tc := ⟨.hbm, 347, rfl⟩
abbrev main_cst_44 : Ref sig .tc := ⟨.hbm, 348, rfl⟩
abbrev main_v201 : Ref sig .tc := ⟨.hbm, 349, rfl⟩
abbrev main_v202 : Ref sig .tc := ⟨.hbm, 350, rfl⟩
abbrev main_v203 : Ref sig .tc := ⟨.hbm, 351, rfl⟩
abbrev main_v204 : Ref sig .tc := ⟨.hbm, 352, rfl⟩
abbrev main_v205 : Ref sig .tc := ⟨.hbm, 353, rfl⟩
abbrev main_v206 : Ref sig .tc := ⟨.hbm, 354, rfl⟩
abbrev main_v207 : Ref sig .tc := ⟨.hbm, 355, rfl⟩
abbrev main_cst_45 : Ref sig .tc := ⟨.hbm, 356, rfl⟩
abbrev main_v208 : Ref sig .tc := ⟨.hbm, 357, rfl⟩
abbrev main_v209 : Ref sig .tc := ⟨.hbm, 358, rfl⟩
abbrev main_v210 : Ref sig .tc := ⟨.hbm, 359, rfl⟩
abbrev main_v211 : Ref sig .tc := ⟨.hbm, 360, rfl⟩
abbrev main_v212 : Ref sig .tc := ⟨.hbm, 361, rfl⟩
abbrev main_v213 : Ref sig .tc := ⟨.hbm, 362, rfl⟩
abbrev main_v214 : Ref sig .tc := ⟨.hbm, 363, rfl⟩
abbrev main_cst_46 : Ref sig .tc := ⟨.hbm, 364, rfl⟩
abbrev main_v215 : Ref sig .tc := ⟨.hbm, 365, rfl⟩
abbrev main_v216 : Ref sig .tc := ⟨.hbm, 366, rfl⟩
abbrev main_v217 : Ref sig .tc := ⟨.hbm, 367, rfl⟩
abbrev main_v218 : Ref sig .tc := ⟨.hbm, 368, rfl⟩
abbrev main_v219 : Ref sig .tc := ⟨.hbm, 369, rfl⟩
abbrev main_v220 : Ref sig .tc := ⟨.hbm, 370, rfl⟩
abbrev main_v221 : Ref sig .tc := ⟨.hbm, 371, rfl⟩
abbrev main_cst_47 : Ref sig .tc := ⟨.hbm, 372, rfl⟩
abbrev main_v222 : Ref sig .tc := ⟨.hbm, 373, rfl⟩
abbrev main_v223 : Ref sig .tc := ⟨.hbm, 374, rfl⟩
abbrev main_cst_48 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_v227 : Ref sig .tc := ⟨.hbm, 379, rfl⟩
abbrev main_c_49 : Ref sig .tc := ⟨.hbm, 380, rfl⟩
abbrev main_v228 : Ref sig .tc := ⟨.hbm, 381, rfl⟩
abbrev main_v229 : Ref sig .tc := ⟨.hbm, 382, rfl⟩
abbrev main_c_50 : Ref sig .tc := ⟨.hbm, 383, rfl⟩
abbrev main_v230 : Ref sig .tc := ⟨.hbm, 384, rfl⟩
abbrev main_v231 : Ref sig .tc := ⟨.hbm, 385, rfl⟩
abbrev main_c_51 : Ref sig .tc := ⟨.hbm, 386, rfl⟩
abbrev main_v232 : Ref sig .tc := ⟨.hbm, 387, rfl⟩
abbrev main_v233 : Ref sig .tc := ⟨.hbm, 388, rfl⟩
abbrev main_v234 : Ref sig .tc := ⟨.hbm, 389, rfl⟩
abbrev main_v235 : Ref sig .tc := ⟨.hbm, 390, rfl⟩
abbrev main_c_52 : Ref sig .tc := ⟨.hbm, 391, rfl⟩
abbrev main_v236 : Ref sig .tc := ⟨.hbm, 392, rfl⟩
abbrev main_v237 : Ref sig .tc := ⟨.hbm, 393, rfl⟩
abbrev main_c_53 : Ref sig .tc := ⟨.hbm, 394, rfl⟩
abbrev main_v238 : Ref sig .tc := ⟨.hbm, 395, rfl⟩
abbrev main_v239 : Ref sig .tc := ⟨.hbm, 396, rfl⟩
abbrev main_v240 : Ref sig .tc := ⟨.hbm, 397, rfl⟩
abbrev main_v241 : Ref sig .tc := ⟨.hbm, 398, rfl⟩
abbrev main_v242 : Ref sig .tc := ⟨.hbm, 399, rfl⟩
abbrev main_c_54 : Ref sig .tc := ⟨.hbm, 400, rfl⟩
abbrev main_v243 : Ref sig .tc := ⟨.hbm, 401, rfl⟩
abbrev main_v244 : Ref sig .tc := ⟨.hbm, 402, rfl⟩
abbrev main_v245 : Ref sig .tc := ⟨.hbm, 403, rfl⟩
abbrev main_call5_c : Ref sig .tc := ⟨.hbm, 404, rfl⟩
abbrev main_call5_v0 : Ref sig .tc := ⟨.hbm, 405, rfl⟩
abbrev main_call5_v1 : Ref sig .tc := ⟨.hbm, 406, rfl⟩
abbrev main_call5_c_0 : Ref sig .tc := ⟨.hbm, 407, rfl⟩
abbrev main_call5_v2 : Ref sig .tc := ⟨.hbm, 408, rfl⟩
abbrev main_call5_v3 : Ref sig .tc := ⟨.hbm, 409, rfl⟩
abbrev main_call5_v4 : Ref sig .tc := ⟨.hbm, 410, rfl⟩
abbrev main_call5_v5 : Ref sig .tc := ⟨.hbm, 411, rfl⟩
abbrev main_call5_c_1 : Ref sig .tc := ⟨.hbm, 412, rfl⟩
abbrev main_call5_c_2 : Ref sig .tc := ⟨.hbm, 413, rfl⟩
abbrev main_call5_v6 : Ref sig .tc := ⟨.hbm, 414, rfl⟩
abbrev main_call5_v7 : Ref sig .tc := ⟨.hbm, 415, rfl⟩
abbrev main_call5_v8 : Ref sig .tc := ⟨.hbm, 416, rfl⟩
abbrev main_call5_v9 : Ref sig .tc := ⟨.hbm, 417, rfl⟩
abbrev main_call5_v10 : Ref sig .tc := ⟨.hbm, 418, rfl⟩
abbrev main_call5_v11 : Ref sig .tc := ⟨.hbm, 419, rfl⟩
abbrev main_call5_c_3 : Ref sig .tc := ⟨.hbm, 420, rfl⟩
abbrev main_call5_v12 : Ref sig .tc := ⟨.hbm, 421, rfl⟩
abbrev main_call5_v13 : Ref sig .tc := ⟨.hbm, 422, rfl⟩
abbrev main_call5_v14 : Ref sig .tc := ⟨.hbm, 423, rfl⟩
abbrev main_call5_cst : Ref sig .tc := ⟨.hbm, 424, rfl⟩
abbrev main_call5_v15 : Ref sig .tc := ⟨.hbm, 425, rfl⟩
abbrev main_v246 : Ref sig .tc := ⟨.hbm, 426, rfl⟩
abbrev main_v247 : Ref sig .tc := ⟨.hbm, 427, rfl⟩
abbrev main_v248 : Ref sig .tc := ⟨.hbm, 428, rfl⟩
abbrev main_v249 : Ref sig .tc := ⟨.hbm, 429, rfl⟩
abbrev main_v250 : Ref sig .tc := ⟨.hbm, 430, rfl⟩
abbrev main_v251 : Ref sig .tc := ⟨.hbm, 431, rfl⟩
abbrev main_v252 : Ref sig .tc := ⟨.hbm, 432, rfl⟩
abbrev main_cst_55 : Ref sig .tc := ⟨.hbm, 433, rfl⟩
abbrev main_v253 : Ref sig .tc := ⟨.hbm, 434, rfl⟩
abbrev main_v254 : Ref sig .tc := ⟨.hbm, 435, rfl⟩
abbrev main_v255 : Ref sig .tc := ⟨.hbm, 436, rfl⟩
abbrev main_v256 : Ref sig .tc := ⟨.hbm, 437, rfl⟩
abbrev main_v257 : Ref sig .tc := ⟨.hbm, 438, rfl⟩
abbrev main_v258 : Ref sig .tc := ⟨.hbm, 439, rfl⟩
abbrev main_v259 : Ref sig .tc := ⟨.hbm, 440, rfl⟩
abbrev main_cst_56 : Ref sig .tc := ⟨.hbm, 441, rfl⟩
abbrev main_v260 : Ref sig .tc := ⟨.hbm, 442, rfl⟩
abbrev main_v261 : Ref sig .tc := ⟨.hbm, 443, rfl⟩
abbrev main_v262 : Ref sig .tc := ⟨.hbm, 444, rfl⟩
abbrev main_v263 : Ref sig .tc := ⟨.hbm, 445, rfl⟩
abbrev main_v264 : Ref sig .tc := ⟨.hbm, 446, rfl⟩
abbrev main_v265 : Ref sig .tc := ⟨.hbm, 447, rfl⟩
abbrev main_v266 : Ref sig .tc := ⟨.hbm, 448, rfl⟩
abbrev main_cst_57 : Ref sig .tc := ⟨.hbm, 449, rfl⟩
abbrev main_v267 : Ref sig .tc := ⟨.hbm, 450, rfl⟩
abbrev main_v268 : Ref sig .tc := ⟨.hbm, 451, rfl⟩
abbrev main_v269 : Ref sig .tc := ⟨.hbm, 452, rfl⟩
abbrev main_v270 : Ref sig .tc := ⟨.hbm, 453, rfl⟩
abbrev main_v271 : Ref sig .tc := ⟨.hbm, 454, rfl⟩
abbrev main_v272 : Ref sig .tc := ⟨.hbm, 455, rfl⟩
abbrev main_v273 : Ref sig .tc := ⟨.hbm, 456, rfl⟩
abbrev main_v274 : Ref sig .tc := ⟨.hbm, 457, rfl⟩
abbrev main_v275 : Ref sig .tc := ⟨.hbm, 458, rfl⟩
abbrev main_c_58 : Ref sig .tc := ⟨.hbm, 459, rfl⟩
abbrev main_v276 : Ref sig .tc := ⟨.hbm, 460, rfl⟩
abbrev main_v277 : Ref sig .tc := ⟨.hbm, 461, rfl⟩
abbrev main_c_59 : Ref sig .tc := ⟨.hbm, 462, rfl⟩
abbrev main_v278 : Ref sig .tc := ⟨.hbm, 463, rfl⟩
abbrev main_v279 : Ref sig .tc := ⟨.hbm, 464, rfl⟩
abbrev main_c_60 : Ref sig .tc := ⟨.hbm, 465, rfl⟩
abbrev main_v280 : Ref sig .tc := ⟨.hbm, 466, rfl⟩
abbrev main_v281 : Ref sig .tc := ⟨.hbm, 467, rfl⟩
abbrev main_v282 : Ref sig .tc := ⟨.hbm, 468, rfl⟩
abbrev main_v283 : Ref sig .tc := ⟨.hbm, 469, rfl⟩
abbrev main_c_61 : Ref sig .tc := ⟨.hbm, 470, rfl⟩
abbrev main_v284 : Ref sig .tc := ⟨.hbm, 471, rfl⟩
abbrev main_v285 : Ref sig .tc := ⟨.hbm, 472, rfl⟩
abbrev main_c_62 : Ref sig .tc := ⟨.hbm, 473, rfl⟩
abbrev main_v286 : Ref sig .tc := ⟨.hbm, 474, rfl⟩
abbrev main_v287 : Ref sig .tc := ⟨.hbm, 475, rfl⟩
abbrev main_v288 : Ref sig .tc := ⟨.hbm, 476, rfl⟩
abbrev main_v289 : Ref sig .tc := ⟨.hbm, 477, rfl⟩
abbrev main_v290 : Ref sig .tc := ⟨.hbm, 478, rfl⟩
abbrev main_c_63 : Ref sig .tc := ⟨.hbm, 479, rfl⟩
abbrev main_v291 : Ref sig .tc := ⟨.hbm, 480, rfl⟩
abbrev main_v292 : Ref sig .tc := ⟨.hbm, 481, rfl⟩
abbrev main_v293 : Ref sig .tc := ⟨.hbm, 482, rfl⟩
abbrev main_call6_c : Ref sig .tc := ⟨.hbm, 483, rfl⟩
abbrev main_call6_v0 : Ref sig .tc := ⟨.hbm, 484, rfl⟩
abbrev main_call6_v1 : Ref sig .tc := ⟨.hbm, 485, rfl⟩
abbrev main_call6_c_0 : Ref sig .tc := ⟨.hbm, 486, rfl⟩
abbrev main_call6_v2 : Ref sig .tc := ⟨.hbm, 487, rfl⟩
abbrev main_call6_v3 : Ref sig .tc := ⟨.hbm, 488, rfl⟩
abbrev main_call6_v4 : Ref sig .tc := ⟨.hbm, 489, rfl⟩
abbrev main_call6_v5 : Ref sig .tc := ⟨.hbm, 490, rfl⟩
abbrev main_call6_c_1 : Ref sig .tc := ⟨.hbm, 491, rfl⟩
abbrev main_call6_c_2 : Ref sig .tc := ⟨.hbm, 492, rfl⟩
abbrev main_call6_v6 : Ref sig .tc := ⟨.hbm, 493, rfl⟩
abbrev main_call6_v7 : Ref sig .tc := ⟨.hbm, 494, rfl⟩
abbrev main_call6_v8 : Ref sig .tc := ⟨.hbm, 495, rfl⟩
abbrev main_call6_v9 : Ref sig .tc := ⟨.hbm, 496, rfl⟩
abbrev main_call6_v10 : Ref sig .tc := ⟨.hbm, 497, rfl⟩
abbrev main_call6_v11 : Ref sig .tc := ⟨.hbm, 498, rfl⟩
abbrev main_call6_c_3 : Ref sig .tc := ⟨.hbm, 499, rfl⟩
abbrev main_call6_v12 : Ref sig .tc := ⟨.hbm, 500, rfl⟩
abbrev main_call6_v13 : Ref sig .tc := ⟨.hbm, 501, rfl⟩
abbrev main_call6_v14 : Ref sig .tc := ⟨.hbm, 502, rfl⟩
abbrev main_call6_cst : Ref sig .tc := ⟨.hbm, 503, rfl⟩
abbrev main_call6_v15 : Ref sig .tc := ⟨.hbm, 504, rfl⟩
abbrev main_v294 : Ref sig .tc := ⟨.hbm, 505, rfl⟩
abbrev main_v295 : Ref sig .tc := ⟨.hbm, 506, rfl⟩
abbrev main_v296 : Ref sig .tc := ⟨.hbm, 507, rfl⟩
abbrev main_v297 : Ref sig .tc := ⟨.hbm, 508, rfl⟩
abbrev main_v298 : Ref sig .tc := ⟨.hbm, 509, rfl⟩
abbrev main_v299 : Ref sig .tc := ⟨.hbm, 510, rfl⟩
abbrev main_v300 : Ref sig .tc := ⟨.hbm, 511, rfl⟩
abbrev main_cst_64 : Ref sig .tc := ⟨.hbm, 512, rfl⟩
abbrev main_v301 : Ref sig .tc := ⟨.hbm, 513, rfl⟩
abbrev main_v302 : Ref sig .tc := ⟨.hbm, 514, rfl⟩
abbrev main_v303 : Ref sig .tc := ⟨.hbm, 515, rfl⟩
abbrev main_v304 : Ref sig .tc := ⟨.hbm, 516, rfl⟩
abbrev main_v305 : Ref sig .tc := ⟨.hbm, 517, rfl⟩
abbrev main_v306 : Ref sig .tc := ⟨.hbm, 518, rfl⟩
abbrev main_v307 : Ref sig .tc := ⟨.hbm, 519, rfl⟩
abbrev main_cst_65 : Ref sig .tc := ⟨.hbm, 520, rfl⟩
abbrev main_v308 : Ref sig .tc := ⟨.hbm, 521, rfl⟩
abbrev main_v309 : Ref sig .tc := ⟨.hbm, 522, rfl⟩
abbrev main_v310 : Ref sig .tc := ⟨.hbm, 523, rfl⟩
abbrev main_v311 : Ref sig .tc := ⟨.hbm, 524, rfl⟩
abbrev main_v312 : Ref sig .tc := ⟨.hbm, 525, rfl⟩
abbrev main_v313 : Ref sig .tc := ⟨.hbm, 526, rfl⟩
abbrev main_v314 : Ref sig .tc := ⟨.hbm, 527, rfl⟩
abbrev main_cst_66 : Ref sig .tc := ⟨.hbm, 528, rfl⟩
abbrev main_v315 : Ref sig .tc := ⟨.hbm, 529, rfl⟩
abbrev main_v316 : Ref sig .tc := ⟨.hbm, 530, rfl⟩
abbrev main_v317 : Ref sig .tc := ⟨.hbm, 531, rfl⟩
abbrev main_v318 : Ref sig .tc := ⟨.hbm, 532, rfl⟩
abbrev main_v319 : Ref sig .tc := ⟨.hbm, 533, rfl⟩
abbrev main_v320 : Ref sig .tc := ⟨.hbm, 534, rfl⟩
abbrev main_v321 : Ref sig .tc := ⟨.hbm, 535, rfl⟩
abbrev main_cst_67 : Ref sig .tc := ⟨.hbm, 536, rfl⟩
abbrev main_v322 : Ref sig .tc := ⟨.hbm, 537, rfl⟩
abbrev main_v323 : Ref sig .tc := ⟨.hbm, 538, rfl⟩
abbrev main_v324 : Ref sig .tc := ⟨.hbm, 539, rfl⟩
abbrev main_v325 : Ref sig .tc := ⟨.hbm, 540, rfl⟩
abbrev main_c_68 : Ref sig .tc := ⟨.hbm, 541, rfl⟩
abbrev main_v326 : Ref sig .tc := ⟨.hbm, 542, rfl⟩
abbrev main_v327 : Ref sig .tc := ⟨.hbm, 543, rfl⟩
abbrev main_c_69 : Ref sig .tc := ⟨.hbm, 544, rfl⟩
abbrev main_v328 : Ref sig .tc := ⟨.hbm, 545, rfl⟩
abbrev main_v329 : Ref sig .tc := ⟨.hbm, 546, rfl⟩
abbrev main_c_70 : Ref sig .tc := ⟨.hbm, 547, rfl⟩
abbrev main_v330 : Ref sig .tc := ⟨.hbm, 548, rfl⟩
abbrev main_v331 : Ref sig .tc := ⟨.hbm, 549, rfl⟩
abbrev main_v332 : Ref sig .tc := ⟨.hbm, 550, rfl⟩
abbrev main_v333 : Ref sig .tc := ⟨.hbm, 551, rfl⟩
abbrev main_c_71 : Ref sig .tc := ⟨.hbm, 552, rfl⟩
abbrev main_v334 : Ref sig .tc := ⟨.hbm, 553, rfl⟩
abbrev main_v335 : Ref sig .tc := ⟨.hbm, 554, rfl⟩
abbrev main_c_72 : Ref sig .tc := ⟨.hbm, 555, rfl⟩
abbrev main_v336 : Ref sig .tc := ⟨.hbm, 556, rfl⟩
abbrev main_v337 : Ref sig .tc := ⟨.hbm, 557, rfl⟩
abbrev main_v338 : Ref sig .tc := ⟨.hbm, 558, rfl⟩
abbrev main_v339 : Ref sig .tc := ⟨.hbm, 559, rfl⟩
abbrev main_v340 : Ref sig .tc := ⟨.hbm, 560, rfl⟩
abbrev main_c_73 : Ref sig .tc := ⟨.hbm, 561, rfl⟩
abbrev main_v341 : Ref sig .tc := ⟨.hbm, 562, rfl⟩
abbrev main_v342 : Ref sig .tc := ⟨.hbm, 563, rfl⟩
abbrev main_v343 : Ref sig .tc := ⟨.hbm, 564, rfl⟩
abbrev main_call7_c : Ref sig .tc := ⟨.hbm, 565, rfl⟩
abbrev main_call7_v0 : Ref sig .tc := ⟨.hbm, 566, rfl⟩
abbrev main_call7_v1 : Ref sig .tc := ⟨.hbm, 567, rfl⟩
abbrev main_call7_c_0 : Ref sig .tc := ⟨.hbm, 568, rfl⟩
abbrev main_call7_v2 : Ref sig .tc := ⟨.hbm, 569, rfl⟩
abbrev main_call7_v3 : Ref sig .tc := ⟨.hbm, 570, rfl⟩
abbrev main_call7_v4 : Ref sig .tc := ⟨.hbm, 571, rfl⟩
abbrev main_call7_v5 : Ref sig .tc := ⟨.hbm, 572, rfl⟩
abbrev main_call7_c_1 : Ref sig .tc := ⟨.hbm, 573, rfl⟩
abbrev main_call7_c_2 : Ref sig .tc := ⟨.hbm, 574, rfl⟩
abbrev main_call7_v6 : Ref sig .tc := ⟨.hbm, 575, rfl⟩
abbrev main_call7_v7 : Ref sig .tc := ⟨.hbm, 576, rfl⟩
abbrev main_call7_v8 : Ref sig .tc := ⟨.hbm, 577, rfl⟩
abbrev main_call7_v9 : Ref sig .tc := ⟨.hbm, 578, rfl⟩
abbrev main_call7_v10 : Ref sig .tc := ⟨.hbm, 579, rfl⟩
abbrev main_call7_v11 : Ref sig .tc := ⟨.hbm, 580, rfl⟩
abbrev main_call7_c_3 : Ref sig .tc := ⟨.hbm, 581, rfl⟩
abbrev main_call7_v12 : Ref sig .tc := ⟨.hbm, 582, rfl⟩
abbrev main_call7_v13 : Ref sig .tc := ⟨.hbm, 583, rfl⟩
abbrev main_call7_v14 : Ref sig .tc := ⟨.hbm, 584, rfl⟩
abbrev main_call7_cst : Ref sig .tc := ⟨.hbm, 585, rfl⟩
abbrev main_call7_v15 : Ref sig .tc := ⟨.hbm, 586, rfl⟩
abbrev main_v344 : Ref sig .tc := ⟨.hbm, 587, rfl⟩
abbrev main_v345 : Ref sig .tc := ⟨.hbm, 588, rfl⟩
abbrev main_v346 : Ref sig .tc := ⟨.hbm, 589, rfl⟩
abbrev main_v347 : Ref sig .tc := ⟨.hbm, 590, rfl⟩
abbrev main_v348 : Ref sig .tc := ⟨.hbm, 591, rfl⟩
abbrev main_v349 : Ref sig .tc := ⟨.hbm, 592, rfl⟩
abbrev main_v350 : Ref sig .tc := ⟨.hbm, 593, rfl⟩
abbrev main_cst_74 : Ref sig .tc := ⟨.hbm, 594, rfl⟩
abbrev main_v351 : Ref sig .tc := ⟨.hbm, 595, rfl⟩
abbrev main_v352 : Ref sig .tc := ⟨.hbm, 596, rfl⟩
abbrev main_v353 : Ref sig .tc := ⟨.hbm, 597, rfl⟩
abbrev main_v354 : Ref sig .tc := ⟨.hbm, 598, rfl⟩
abbrev main_v355 : Ref sig .tc := ⟨.hbm, 599, rfl⟩
abbrev main_v356 : Ref sig .tc := ⟨.hbm, 600, rfl⟩
abbrev main_v357 : Ref sig .tc := ⟨.hbm, 601, rfl⟩
abbrev main_cst_75 : Ref sig .tc := ⟨.hbm, 602, rfl⟩
abbrev main_v358 : Ref sig .tc := ⟨.hbm, 603, rfl⟩
abbrev main_v359 : Ref sig .tc := ⟨.hbm, 604, rfl⟩
abbrev main_v360 : Ref sig .tc := ⟨.hbm, 605, rfl⟩
abbrev main_v361 : Ref sig .tc := ⟨.hbm, 606, rfl⟩
abbrev main_v362 : Ref sig .tc := ⟨.hbm, 607, rfl⟩
abbrev main_v363 : Ref sig .tc := ⟨.hbm, 608, rfl⟩
abbrev main_v364 : Ref sig .tc := ⟨.hbm, 609, rfl⟩
abbrev main_cst_76 : Ref sig .tc := ⟨.hbm, 610, rfl⟩
abbrev main_v365 : Ref sig .tc := ⟨.hbm, 611, rfl⟩
abbrev main_v366 : Ref sig .tc := ⟨.hbm, 612, rfl⟩
abbrev main_v367 : Ref sig .tc := ⟨.hbm, 613, rfl⟩
abbrev main_v368 : Ref sig .tc := ⟨.hbm, 614, rfl⟩
abbrev main_v369 : Ref sig .tc := ⟨.hbm, 615, rfl⟩
abbrev main_v370 : Ref sig .tc := ⟨.hbm, 616, rfl⟩
abbrev main_v371 : Ref sig .tc := ⟨.hbm, 617, rfl⟩
abbrev main_v372 : Ref sig .tc := ⟨.hbm, 618, rfl⟩
abbrev main_v373 : Ref sig .tc := ⟨.hbm, 619, rfl⟩
abbrev main_c_77 : Ref sig .tc := ⟨.hbm, 620, rfl⟩
abbrev main_v374 : Ref sig .tc := ⟨.hbm, 621, rfl⟩
abbrev main_v375 : Ref sig .tc := ⟨.hbm, 622, rfl⟩
abbrev main_c_78 : Ref sig .tc := ⟨.hbm, 623, rfl⟩
abbrev main_v376 : Ref sig .tc := ⟨.hbm, 624, rfl⟩
abbrev main_v377 : Ref sig .tc := ⟨.hbm, 625, rfl⟩
abbrev main_c_79 : Ref sig .tc := ⟨.hbm, 626, rfl⟩
abbrev main_v378 : Ref sig .tc := ⟨.hbm, 627, rfl⟩
abbrev main_v379 : Ref sig .tc := ⟨.hbm, 628, rfl⟩
abbrev main_v380 : Ref sig .tc := ⟨.hbm, 629, rfl⟩
abbrev main_v381 : Ref sig .tc := ⟨.hbm, 630, rfl⟩
abbrev main_c_80 : Ref sig .tc := ⟨.hbm, 631, rfl⟩
abbrev main_v382 : Ref sig .tc := ⟨.hbm, 632, rfl⟩
abbrev main_v383 : Ref sig .tc := ⟨.hbm, 633, rfl⟩
abbrev main_c_81 : Ref sig .tc := ⟨.hbm, 634, rfl⟩
abbrev main_v384 : Ref sig .tc := ⟨.hbm, 635, rfl⟩
abbrev main_v385 : Ref sig .tc := ⟨.hbm, 636, rfl⟩
abbrev main_v386 : Ref sig .tc := ⟨.hbm, 637, rfl⟩
abbrev main_v387 : Ref sig .tc := ⟨.hbm, 638, rfl⟩
abbrev main_v388 : Ref sig .tc := ⟨.hbm, 639, rfl⟩
abbrev main_c_82 : Ref sig .tc := ⟨.hbm, 640, rfl⟩
abbrev main_v389 : Ref sig .tc := ⟨.hbm, 641, rfl⟩
abbrev main_v390 : Ref sig .tc := ⟨.hbm, 642, rfl⟩
abbrev main_v391 : Ref sig .tc := ⟨.hbm, 643, rfl⟩
abbrev main_call8_c : Ref sig .tc := ⟨.hbm, 644, rfl⟩
abbrev main_call8_v0 : Ref sig .tc := ⟨.hbm, 645, rfl⟩
abbrev main_call8_v1 : Ref sig .tc := ⟨.hbm, 646, rfl⟩
abbrev main_call8_c_0 : Ref sig .tc := ⟨.hbm, 647, rfl⟩
abbrev main_call8_v2 : Ref sig .tc := ⟨.hbm, 648, rfl⟩
abbrev main_call8_v3 : Ref sig .tc := ⟨.hbm, 649, rfl⟩
abbrev main_call8_v4 : Ref sig .tc := ⟨.hbm, 650, rfl⟩
abbrev main_call8_v5 : Ref sig .tc := ⟨.hbm, 651, rfl⟩
abbrev main_call8_c_1 : Ref sig .tc := ⟨.hbm, 652, rfl⟩
abbrev main_call8_c_2 : Ref sig .tc := ⟨.hbm, 653, rfl⟩
abbrev main_call8_v6 : Ref sig .tc := ⟨.hbm, 654, rfl⟩
abbrev main_call8_v7 : Ref sig .tc := ⟨.hbm, 655, rfl⟩
abbrev main_call8_v8 : Ref sig .tc := ⟨.hbm, 656, rfl⟩
abbrev main_call8_v9 : Ref sig .tc := ⟨.hbm, 657, rfl⟩
abbrev main_call8_v10 : Ref sig .tc := ⟨.hbm, 658, rfl⟩
abbrev main_call8_v11 : Ref sig .tc := ⟨.hbm, 659, rfl⟩
abbrev main_call8_c_3 : Ref sig .tc := ⟨.hbm, 660, rfl⟩
abbrev main_call8_v12 : Ref sig .tc := ⟨.hbm, 661, rfl⟩
abbrev main_call8_v13 : Ref sig .tc := ⟨.hbm, 662, rfl⟩
abbrev main_call8_v14 : Ref sig .tc := ⟨.hbm, 663, rfl⟩
abbrev main_call8_cst : Ref sig .tc := ⟨.hbm, 664, rfl⟩
abbrev main_call8_v15 : Ref sig .tc := ⟨.hbm, 665, rfl⟩
abbrev main_v392 : Ref sig .tc := ⟨.hbm, 666, rfl⟩
abbrev main_v393 : Ref sig .tc := ⟨.hbm, 667, rfl⟩
abbrev main_v394 : Ref sig .tc := ⟨.hbm, 668, rfl⟩
abbrev main_v395 : Ref sig .tc := ⟨.hbm, 669, rfl⟩
abbrev main_v396 : Ref sig .tc := ⟨.hbm, 670, rfl⟩
abbrev main_v397 : Ref sig .tc := ⟨.hbm, 671, rfl⟩
abbrev main_v398 : Ref sig .tc := ⟨.hbm, 672, rfl⟩
abbrev main_cst_83 : Ref sig .tc := ⟨.hbm, 673, rfl⟩
abbrev main_v399 : Ref sig .tc := ⟨.hbm, 674, rfl⟩
abbrev main_v400 : Ref sig .tc := ⟨.hbm, 675, rfl⟩
abbrev main_v401 : Ref sig .tc := ⟨.hbm, 676, rfl⟩
abbrev main_v402 : Ref sig .tc := ⟨.hbm, 677, rfl⟩
abbrev main_v403 : Ref sig .tc := ⟨.hbm, 678, rfl⟩
abbrev main_v404 : Ref sig .tc := ⟨.hbm, 679, rfl⟩
abbrev main_v405 : Ref sig .tc := ⟨.hbm, 680, rfl⟩
abbrev main_cst_84 : Ref sig .tc := ⟨.hbm, 681, rfl⟩
abbrev main_v406 : Ref sig .tc := ⟨.hbm, 682, rfl⟩
abbrev main_v407 : Ref sig .tc := ⟨.hbm, 683, rfl⟩
abbrev main_v408 : Ref sig .tc := ⟨.hbm, 684, rfl⟩
abbrev main_v409 : Ref sig .tc := ⟨.hbm, 685, rfl⟩
abbrev main_v410 : Ref sig .tc := ⟨.hbm, 686, rfl⟩
abbrev main_v411 : Ref sig .tc := ⟨.hbm, 687, rfl⟩
abbrev main_v412 : Ref sig .tc := ⟨.hbm, 688, rfl⟩
abbrev main_cst_85 : Ref sig .tc := ⟨.hbm, 689, rfl⟩
abbrev main_v413 : Ref sig .tc := ⟨.hbm, 690, rfl⟩
abbrev main_v414 : Ref sig .tc := ⟨.hbm, 691, rfl⟩
abbrev main_v415 : Ref sig .tc := ⟨.hbm, 692, rfl⟩
abbrev main_v416 : Ref sig .tc := ⟨.hbm, 693, rfl⟩
abbrev main_v417 : Ref sig .tc := ⟨.hbm, 694, rfl⟩
abbrev main_v418 : Ref sig .tc := ⟨.hbm, 695, rfl⟩
abbrev main_v419 : Ref sig .tc := ⟨.hbm, 696, rfl⟩
abbrev main_v420 : Ref sig .tc := ⟨.hbm, 697, rfl⟩
abbrev main_v421 : Ref sig .tc := ⟨.hbm, 698, rfl⟩
abbrev main_v422 : Ref sig .tc := ⟨.hbm, 699, rfl⟩
abbrev main_v423 : Ref sig .tc := ⟨.hbm, 700, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x19 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S524288x3 : S_.BroadcastsInDim S524288x3 (![] : Fin 0 → Fin S524288x3.rank)
  shapeCasts_S128x128x128x16_S2097152x16 : S128x128x128x16.ShapeCasts S2097152x16
  slices_S524288x3_S524288x1_0_0 : S524288x3.Slices ![0, 0] S524288x1
  shapeCasts_S524288x1_S524288 : S524288x1.ShapeCasts S524288
  slices_S524288x3_S524288x1_0_1 : S524288x3.Slices ![0, 1] S524288x1
  slices_S524288x3_S524288x1_0_2 : S524288x3.Slices ![0, 2] S524288x1
  bcast_S_S524288x16 : S_.BroadcastsInDim S524288x16 (![] : Fin 0 → Fin S524288x16.rank)
  bcast_S_S524288 : S_.BroadcastsInDim S524288 (![] : Fin 0 → Fin S524288.rank)
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S524288x16_0 : S524288.BroadcastsInDim S524288x16 (![0] : Fin 1 → Fin S524288x16.rank)
  bcast_S524288x1_S524288x16_0_1 : S524288x1.BroadcastsInDim S524288x16 (![0, 1] : Fin 2 → Fin S524288x16.rank)
  concatenates_S524288x16_S524288x16_S524288x16_S524288x16_S524288x3_S524288x67_d1 : Shape.Concatenates [S524288x16, S524288x16, S524288x16, S524288x16, S524288x3] S524288x67 1
  inb_S2048x67_S2048x67_0_0 : ∀ a, (![0, 0] : Fin 2 → Nat) a + S2048x67.size a ≤ S2048x67.size a
  h_S2048x67 : 0 < S2048x67.numel
  shapeCasts_S2048x67_S2048x67 : S2048x67.ShapeCasts S2048x67
  slices_S2048x67_o0_0_S2048x16 : S2048x67.Slices ![0, 0] S2048x16
  slices_S2048x67_o0_16_S2048x16 : S2048x67.Slices ![0, 16] S2048x16
  slices_S2048x67_o0_32_S2048x16 : S2048x67.Slices ![0, 32] S2048x16
  slices_S2048x67_o0_48_S2048x16 : S2048x67.Slices ![0, 48] S2048x16
  slices_S2048x67_o0_64_S2048x3 : S2048x67.Slices ![0, 64] S2048x3
  inb_S128x19_S128x19_0_0 : ∀ a, (![0, 0] : Fin 2 → Nat) a + S128x19.size a ≤ S128x19.size a
  h_S128x19 : 0 < S128x19.numel
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  inb_S1_S1_0 : ∀ a, (![0] : Fin 1 → Nat) a + S1.size a ≤ S1.size a
  h_S1 : 0 < S1.numel
  slices_S128x19_o0_0_S128x16 : S128x19.Slices ![0, 0] S128x16
  bitsLt_bf16_f32 : FTy.bits .bf16 < FTy.bits .f32
  slices_S128x19_o0_16_S128x3 : S128x19.Slices ![0, 16] S128x3
  transposes_S128x16_p1_0_S16x128 : S128x16.Transposes [1, 0] S16x128
  transposes_S128x3_p1_0_S3x128 : S128x3.Transposes [1, 0] S3x128
  shapeCasts_S128_S1x128 : S128.ShapeCasts S1x128
  broadcasts_S1x128_S2048x128 : S1x128.Broadcasts S2048x128
  transposes_S128x128_p1_0_S128x128 : S128x128.Transposes [1, 0] S128x128
  transposes_S1x128_p1_0_S128x1 : S1x128.Transposes [1, 0] S128x1
  shapeCasts_S1_S1x1 : S1.ShapeCasts S1x1
  broadcasts_S1x1_S2048x1 : S1x1.Broadcasts S2048x1
  shapeCasts_S1x128_S1x128 : S1x128.ShapeCasts S1x128
  slices_S2048x3_o0_0_S2048x1 : S2048x3.Slices ![0, 0] S2048x1
  reduces_S2048x16_S2048 : S2048x16.Reduces [1] S2048
  shapeCasts_S2048_S2048x1 : S2048.ShapeCasts S2048x1
  slices_S2048x3_o0_1_S2048x1 : S2048x3.Slices ![0, 1] S2048x1
  slices_S2048x3_o0_2_S2048x1 : S2048x3.Slices ![0, 2] S2048x1
  inb_S2048x4_S2048x1_0_0 : ∀ a, (![0, 0] : Fin 2 → Nat) a + S2048x1.size a ≤ S2048x4.size a
  h_S2048x1 : 0 < S2048x1.numel
  inb_S2048x4_S2048x1_0_1 : ∀ a, (![0, 1] : Fin 2 → Nat) a + S2048x1.size a ≤ S2048x4.size a
  inb_S2048x4_S2048x1_0_2 : ∀ a, (![0, 2] : Fin 2 → Nat) a + S2048x1.size a ≤ S2048x4.size a
  inb_S2048x4_S2048x1_0_3 : ∀ a, (![0, 3] : Fin 2 → Nat) a + S2048x1.size a ≤ S2048x4.size a
  slices_S524288x4_S524288x1_0_0 : S524288x4.Slices ![0, 0] S524288x1
  slices_S524288x4_S524288x3_0_1 : S524288x4.Slices ![0, 1] S524288x3
  gather_S2097152x16_S524288x1_S524288x16_1_0_n_n_0_1_116_wf : GatherDims.WF S2097152x16 S524288x1 S524288x16 [1] [0] [] [0] [] 1 ![1, 16]
  dot_S2048x16_S16x128_S2048x128_1_0_0_1_n_n_wf : DotDims.WF S2048x16 S16x128 S2048x128 [1] [0] [0] [1] [] []
  dot_S2048x3_S3x128_S2048x128_1_0_0_1_n_n_wf : DotDims.WF S2048x3 S3x128 S2048x128 [1] [0] [0] [1] [] []
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  dot_S2048x128_S128x16_S2048x16_1_0_0_1_n_n_wf : DotDims.WF S2048x128 S128x16 S2048x16 [1] [0] [0] [1] [] []
  dot_S2048x128_S128x3_S2048x3_1_0_0_1_n_n_wf : DotDims.WF S2048x128 S128x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x67.size a ≤ S524288x67.size a
  hwx0_0 : ∀ i : grid0.Coords, EltTy.bits .f32 = 32 ∨ (Rect.block (s := S524288x67) S2048x67.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x19.size a ≤ S128x19.size a
  hwx0_1 : ∀ i : grid0.Coords, EltTy.bits .f32 = 32 ∨ (Rect.block (s := S128x19) S128x19.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x4.size a ≤ S524288x4.size a
  hwx0_7 : ∀ i : grid0.Coords, EltTy.bits .f32 = 32 ∨ (Rect.block (s := S524288x4) S2048x4.size (cc0_transform_7 i) (hinb0_7 i)).WholeWords (EltTy.packing .f32)

variable [Facts₀]

def gather_S2097152x16_S524288x1_S524288x16_1_0_n_n_0_1_116 : GatherDims S2097152x16 S524288x1 S524288x16 where
  offsetDims := [1]
  collapsedSliceDims := [0]
  operandBatchingDims := []
  startIndicesBatchingDims := []
  startIndexMap := [0]
  indexVectorDim := 1
  sliceSizes := ![1, 16]
  wf := gather_S2097152x16_S524288x1_S524288x16_1_0_n_n_0_1_116_wf
def dot_S2048x16_S16x128_S2048x128_1_0_0_1_n_n : DotDims S2048x16 S16x128 S2048x128 where
  lhsContracting := [1]
  rhsContracting := [0]
  lhsNonContracting := [0]
  rhsNonContracting := [1]
  lhsBatch := []
  rhsBatch := []
  wf := dot_S2048x16_S16x128_S2048x128_1_0_0_1_n_n_wf
def dot_S2048x3_S3x128_S2048x128_1_0_0_1_n_n : DotDims S2048x3 S3x128 S2048x128 where
  lhsContracting := [1]
  rhsContracting := [0]
  lhsNonContracting := [0]
  rhsNonContracting := [1]
  lhsBatch := []
  rhsBatch := []
  wf := dot_S2048x3_S3x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf
def dot_S2048x128_S128x3_S2048x3_1_0_0_1_n_n : DotDims S2048x128 S128x3 S2048x3 where
  lhsContracting := [1]
  rhsContracting := [0]
  lhsNonContracting := [0]
  rhsNonContracting := [1]
  lhsBatch := []
  rhsBatch := []
  wf := dot_S2048x128_S128x3_S2048x3_1_0_0_1_n_n_wf

abbrev win0_0 : Pipeline.Window sig grid0 :=
  Pipeline.Window.ofSpec (Memref.whole main_v420) S2048x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x19.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v421) S2048x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S524288x3 : Shape := ⟨2, ![524288, 3]⟩
abbrev S128x128x128x16 : Shape := ⟨4, ![128, 128, 128, 16]⟩
abbrev S128x19 : Shape := ⟨2, ![128, 19]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩
abbrev S2097152x16 : Shape := ⟨2, ![2097152, 16]⟩
abbrev S524288x16 : Shape := ⟨2, ![524288, 16]⟩
abbrev S524288x1 : Shape := ⟨2, ![524288, 1]⟩
abbrev S524288 : Shape := ⟨1, ![524288]⟩
abbrev S524288x19 : Shape := ⟨2, ![524288, 19]⟩
abbrev S19x128 : Shape := ⟨2, ![19, 128]⟩
abbrev S524288x128 : Shape := ⟨2, ![524288, 128]⟩
abbrev S128x1 : Shape := ⟨2, ![128, 1]⟩
abbrev S1x1 : Shape := ⟨2, ![1, 1]⟩

abbrev nBuf : Space → Nat
  | .hbm => 606
  | .vmem => 0
  | .smem => 0
  | _ => 0

abbrev hbmTy0_0 (i : Nat) : BufTy := match i % 128 with
  | 0 => ⟨S524288x3, .f32⟩
  | 1 => ⟨S128x128x128x16, .f32⟩
  | 2 => ⟨S128x19, .f32⟩
  | 3 => ⟨S128, .f32⟩
  | 4 => ⟨S128x128, .f32⟩
  | 5 => ⟨S128, .f32⟩
  | 6 => ⟨S1x128, .f32⟩
  | 7 => ⟨S1, .f32⟩
  | 8 => ⟨S_, .f32⟩
  | 9 => ⟨S524288x3, .f32⟩
  | 10 => ⟨S524288x3, .f32⟩
  | 11 => ⟨S_, .f32⟩
  | 12 => ⟨S524288x3, .f32⟩
  | 13 => ⟨S524288x3, .f32⟩
  | 14 => ⟨S_, .f32⟩
  | 15 => ⟨S524288x3, .f32⟩
  | 16 => ⟨S524288x3, .f32⟩
  | 17 => ⟨S524288x3, .f32⟩
  | 18 => ⟨S_, .i32⟩
  | 19 => ⟨S_, .i32⟩
  | 20 => ⟨S_, .f32⟩
  | 21 => ⟨S524288x3, .f32⟩
  | 22 => ⟨S524288x3, .f32⟩
  | 23 => ⟨S_, .f32⟩
  | 24 => ⟨S524288x3, .f32⟩
  | 25 => ⟨S524288x3, .f32⟩
  | 26 => ⟨S524288x3, .i32⟩
  | 27 => ⟨S524288x3, .f32⟩
  | 28 => ⟨S524288x3, .f32⟩
  | 29 => ⟨S2097152x16, .f32⟩
  | 30 => ⟨S_, .f32⟩
  | 31 => ⟨S524288x16, .f32⟩
  | 32 => ⟨S524288x1, .f32⟩
  | 33 => ⟨S524288, .f32⟩
  | 34 => ⟨S_, .f32⟩
  | 35 => ⟨S524288, .f32⟩
  | 36 => ⟨S524288, .f32⟩
  | 37 => ⟨S524288x1, .f32⟩
  | 38 => ⟨S524288, .f32⟩
  | 39 => ⟨S_, .f32⟩
  | 40 => ⟨S524288, .f32⟩
  | 41 => ⟨S524288, .f32⟩
  | 42 => ⟨S524288x1, .f32⟩
  | 43 => ⟨S524288, .f32⟩
  | 44 => ⟨S_, .f32⟩
  | 45 => ⟨S524288, .f32⟩
  | 46 => ⟨S524288, .f32⟩
  | 47 => ⟨S524288x1, .i32⟩
  | 48 => ⟨S524288, .i32⟩
  | 49 => ⟨S_, .i32⟩
  | 50 => ⟨S524288, .i32⟩
  | 51 => ⟨S524288, .i32⟩
  | 52 => ⟨S_, .i32⟩
  | 53 => ⟨S524288, .i32⟩
  | 54 => ⟨S524288, .i32⟩
  | 55 => ⟨S_, .i32⟩
  | 56 => ⟨S524288, .i32⟩
  | 57 => ⟨S524288, .i32⟩
  | 58 => ⟨S524288x1, .i32⟩
  | 59 => ⟨S524288, .i32⟩
  | 60 => ⟨S_, .i32⟩
  | 61 => ⟨S524288, .i32⟩
  | 62 => ⟨S524288, .i32⟩
  | 63 => ⟨S_, .i32⟩
  | 64 => ⟨S524288, .i32⟩
  | 65 => ⟨S524288, .i32⟩
  | 66 => ⟨S524288, .i32⟩
  | 67 => ⟨S524288x1, .i32⟩
  | 68 => ⟨S524288, .i32⟩
  | 69 => ⟨S_, .i32⟩
  | 70 => ⟨S524288, .i32⟩
  | 71 => ⟨S524288, .i32⟩
  | 72 => ⟨S524288, .i32⟩
  | 73 => ⟨S_, .i32⟩
  | 74 => ⟨S524288, .i32⟩
  | 75 => ⟨S524288, .i1⟩
  | 76 => ⟨S_, .i32⟩
  | 77 => ⟨S524288, .i32⟩
  | 78 => ⟨S524288, .i32⟩
  | 79 => ⟨S524288, .i32⟩
  | 80 => ⟨S524288x1, .i32⟩
  | 81 => ⟨S524288x16, .f32⟩
  | 82 => ⟨S524288, .f32⟩
  | 83 => ⟨S524288, .f32⟩
  | 84 => ⟨S524288x1, .f32⟩
  | 85 => ⟨S524288x16, .f32⟩
  | 86 => ⟨S524288x16, .f32⟩
  | 87 => ⟨S524288x16, .f32⟩
  | 88 => ⟨S524288x1, .f32⟩
  | 89 => ⟨S524288, .f32⟩
  | 90 => ⟨S524288x1, .i32⟩
  | 91 => ⟨S524288, .i32⟩
  | 92 => ⟨S_, .i32⟩
  | 93 => ⟨S524288, .i32⟩
  | 94 => ⟨S524288, .i32⟩
  | 95 => ⟨S_, .i32⟩
  | 96 => ⟨S524288, .i32⟩
  | 97 => ⟨S524288, .i32⟩
  | 98 => ⟨S_, .i32⟩
  | 99 => ⟨S524288, .i32⟩
  | 100 => ⟨S524288, .i32⟩
  | 101 => ⟨S524288x1, .i32⟩
  | 102 => ⟨S524288, .i32⟩
  | 103 => ⟨S_, .i32⟩
  | 104 => ⟨S524288, .i32⟩
  | 105 => ⟨S524288, .i32⟩
  | 106 => ⟨S_, .i32⟩
  | 107 => ⟨S524288, .i32⟩
  | 108 => ⟨S524288, .i32⟩
  | 109 => ⟨S524288, .i32⟩
  | 110 => ⟨S524288x1, .i32⟩
  | 111 => ⟨S524288, .i32⟩
  | 112 => ⟨S_, .i32⟩
  | 113 => ⟨S524288, .i32⟩
  | 114 => ⟨S524288, .i32⟩
  | 115 => ⟨S524288, .i32⟩
  | 116 => ⟨S_, .i32⟩
  | 117 => ⟨S524288, .i32⟩
  | 118 => ⟨S524288, .i1⟩
  | 119 => ⟨S_, .i32⟩
  | 120 => ⟨S524288, .i32⟩
  | 121 => ⟨S524288, .i32⟩
  | 122 => ⟨S524288, .i32⟩
  | 123 => ⟨S524288x1, .i32⟩
  | 124 => ⟨S524288x16, .f32⟩
  | 125 => ⟨S524288, .f32⟩
  | 126 => ⟨S524288, .f32⟩
  | 127 => ⟨S524288x1, .f32⟩
  | _ => ⟨S524288x3, .f32⟩

abbrev hbmTy0_1 (i : Nat) : BufTy := match i % 128 with
  | 0 => ⟨S524288x16, .f32⟩
  | 1 => ⟨S524288x16, .f32⟩
  | 2 => ⟨S524288x16, .f32⟩
  | 3 => ⟨S524288x1, .f32⟩
  | 4 => ⟨S524288, .f32⟩
  | 5 => ⟨S524288x1, .f32⟩
  | 6 => ⟨S524288, .f32⟩
  | 7 => ⟨S_, .f32⟩
  | 8 => ⟨S524288, .f32⟩
  | 9 => ⟨S524288, .f32⟩
  | 10 => ⟨S524288x1, .i32⟩
  | 11 => ⟨S524288, .i32⟩
  | 12 => ⟨S_, .i32⟩
  | 13 => ⟨S524288, .i32⟩
  | 14 => ⟨S524288, .i32⟩
  | 15 => ⟨S_, .i32⟩
  | 16 => ⟨S524288, .i32⟩
  | 17 => ⟨S524288, .i32⟩
  | 18 => ⟨S_, .i32⟩
  | 19 => ⟨S524288, .i32⟩
  | 20 => ⟨S524288, .i32⟩
  | 21 => ⟨S524288x1, .i32⟩
  | 22 => ⟨S524288, .i32⟩
  | 23 => ⟨S_, .i32⟩
  | 24 => ⟨S524288, .i32⟩
  | 25 => ⟨S524288, .i32⟩
  | 26 => ⟨S_, .i32⟩
  | 27 => ⟨S524288, .i32⟩
  | 28 => ⟨S524288, .i32⟩
  | 29 => ⟨S524288, .i32⟩
  | 30 => ⟨S524288x1, .i32⟩
  | 31 => ⟨S524288, .i32⟩
  | 32 => ⟨S_, .i32⟩
  | 33 => ⟨S524288, .i32⟩
  | 34 => ⟨S524288, .i32⟩
  | 35 => ⟨S524288, .i32⟩
  | 36 => ⟨S_, .i32⟩
  | 37 => ⟨S524288, .i32⟩
  | 38 => ⟨S524288, .i1⟩
  | 39 => ⟨S_, .i32⟩
  | 40 => ⟨S524288, .i32⟩
  | 41 => ⟨S524288, .i32⟩
  | 42 => ⟨S524288, .i32⟩
  | 43 => ⟨S524288x1, .i32⟩
  | 44 => ⟨S524288x16, .f32⟩
  | 45 => ⟨S524288, .f32⟩
  | 46 => ⟨S524288, .f32⟩
  | 47 => ⟨S524288x1, .f32⟩
  | 48 => ⟨S524288x16, .f32⟩
  | 49 => ⟨S524288x16, .f32⟩
  | 50 => ⟨S524288x16, .f32⟩
  | 51 => ⟨S524288x1, .f32⟩
  | 52 => ⟨S524288, .f32⟩
  | 53 => ⟨S524288x1, .i32⟩
  | 54 => ⟨S524288, .i32⟩
  | 55 => ⟨S_, .i32⟩
  | 56 => ⟨S524288, .i32⟩
  | 57 => ⟨S524288, .i32⟩
  | 58 => ⟨S_, .i32⟩
  | 59 => ⟨S524288, .i32⟩
  | 60 => ⟨S524288, .i32⟩
  | 61 => ⟨S_, .i32⟩
  | 62 => ⟨S524288, .i32⟩
  | 63 => ⟨S524288, .i32⟩
  | 64 => ⟨S524288x1, .i32⟩
  | 65 => ⟨S524288, .i32⟩
  | 66 => ⟨S_, .i32⟩
  | 67 => ⟨S524288, .i32⟩
  | 68 => ⟨S524288, .i32⟩
  | 69 => ⟨S_, .i32⟩
  | 70 => ⟨S524288, .i32⟩
  | 71 => ⟨S524288, .i32⟩
  | 72 => ⟨S524288, .i32⟩
  | 73 => ⟨S524288x1, .i32⟩
  | 74 => ⟨S524288, .i32⟩
  | 75 => ⟨S_, .i32⟩
  | 76 => ⟨S524288, .i32⟩
  | 77 => ⟨S524288, .i32⟩
  | 78 => ⟨S524288, .i32⟩
  | 79 => ⟨S_, .i32⟩
  | 80 => ⟨S524288, .i32⟩
  | 81 => ⟨S524288, .i1⟩
  | 82 => ⟨S_, .i32⟩
  | 83 => ⟨S524288, .i32⟩
  | 84 => ⟨S524288, .i32⟩
  | 85 => ⟨S524288, .i32⟩
  | 86 => ⟨S524288x1, .i32⟩
  | 87 => ⟨S524288x16, .f32⟩
  | 88 => ⟨S524288, .f32⟩
  | 89 => ⟨S524288, .f32⟩
  | 90 => ⟨S524288x1, .f32⟩
  | 91 => ⟨S524288x16, .f32⟩
  | 92 => ⟨S524288x16, .f32⟩
  | 93 => ⟨S524288x16, .f32⟩
  | 94 => ⟨S524288x1, .f32⟩
  | 95 => ⟨S524288, .f32⟩
  | 96 => ⟨S524288x1, .f32⟩
  | 97 => ⟨S524288, .f32⟩
  | 98 => ⟨S_, .f32⟩
  | 99 => ⟨S524288, .f32⟩
  | 100 => ⟨S524288, .f32⟩
  | 101 => ⟨S524288x1, .f32⟩
  | 102 => ⟨S524288, .f32⟩
  | 103 => ⟨S_, .f32⟩
  | 104 => ⟨S524288, .f32⟩
  | 105 => ⟨S524288, .f32⟩
  | 106 => ⟨S524288x1, .i32⟩
  | 107 => ⟨S524288, .i32⟩
  | 108 => ⟨S_, .i32⟩
  | 109 => ⟨S524288, .i32⟩
  | 110 => ⟨S524288, .i32⟩
  | 111 => ⟨S_, .i32⟩
  | 112 => ⟨S524288, .i32⟩
  | 113 => ⟨S524288, .i32⟩
  | 114 => ⟨S_, .i32⟩
  | 115 => ⟨S524288, .i32⟩
  | 116 => ⟨S524288, .i32⟩
  | 117 => ⟨S524288x1, .i32⟩
  | 118 => ⟨S524288, .i32⟩
  | 119 => ⟨S_, .i32⟩
  | 120 => ⟨S524288, .i32⟩
  | 121 => ⟨S524288, .i32⟩
  | 122 => ⟨S_, .i32⟩
  | 123 => ⟨S524288, .i32⟩
  | 124 => ⟨S524288, .i32⟩
  | 125 => ⟨S524288, .i32⟩
  | 126 => ⟨S524288x1, .i32⟩
  | 127 => ⟨S524288, .i32⟩
  | _ => ⟨S524288x3, .f32⟩

abbrev hbmTy0_2 (i : Nat) : BufTy := match i % 128 with
  | 0 => ⟨S_, .i32⟩
  | 1 => ⟨S524288, .i32⟩
  | 2 => ⟨S524288, .i32⟩
  | 3 => ⟨S524288, .i32⟩
  | 4 => ⟨S_, .i32⟩
  | 5 => ⟨S524288, .i32⟩
  | 6 => ⟨S524288, .i1⟩
  | 7 => ⟨S_, .i32⟩
  | 8 => ⟨S524288, .i32⟩
  | 9 => ⟨S524288, .i32⟩
  | 10 => ⟨S524288, .i32⟩
  | 11 => ⟨S524288x1, .i32⟩
  | 12 => ⟨S524288x16, .f32⟩
  | 13 => ⟨S524288, .f32⟩
  | 14 => ⟨S524288, .f32⟩
  | 15 => ⟨S524288x1, .f32⟩
  | 16 => ⟨S524288x16, .f32⟩
  | 17 => ⟨S524288x16, .f32⟩
  | 18 => ⟨S524288x16, .f32⟩
  | 19 => ⟨S524288x1, .f32⟩
  | 20 => ⟨S524288, .f32⟩
  | 21 => ⟨S524288x1, .i32⟩
  | 22 => ⟨S524288, .i32⟩
  | 23 => ⟨S_, .i32⟩
  | 24 => ⟨S524288, .i32⟩
  | 25 => ⟨S524288, .i32⟩
  | 26 => ⟨S_, .i32⟩
  | 27 => ⟨S524288, .i32⟩
  | 28 => ⟨S524288, .i32⟩
  | 29 => ⟨S_, .i32⟩
  | 30 => ⟨S524288, .i32⟩
  | 31 => ⟨S524288, .i32⟩
  | 32 => ⟨S524288x1, .i32⟩
  | 33 => ⟨S524288, .i32⟩
  | 34 => ⟨S_, .i32⟩
  | 35 => ⟨S524288, .i32⟩
  | 36 => ⟨S524288, .i32⟩
  | 37 => ⟨S_, .i32⟩
  | 38 => ⟨S524288, .i32⟩
  | 39 => ⟨S524288, .i32⟩
  | 40 => ⟨S524288, .i32⟩
  | 41 => ⟨S524288x1, .i32⟩
  | 42 => ⟨S524288, .i32⟩
  | 43 => ⟨S_, .i32⟩
  | 44 => ⟨S524288, .i32⟩
  | 45 => ⟨S524288, .i32⟩
  | 46 => ⟨S524288, .i32⟩
  | 47 => ⟨S_, .i32⟩
  | 48 => ⟨S524288, .i32⟩
  | 49 => ⟨S524288, .i1⟩
  | 50 => ⟨S_, .i32⟩
  | 51 => ⟨S524288, .i32⟩
  | 52 => ⟨S524288, .i32⟩
  | 53 => ⟨S524288, .i32⟩
  | 54 => ⟨S524288x1, .i32⟩
  | 55 => ⟨S524288x16, .f32⟩
  | 56 => ⟨S524288, .f32⟩
  | 57 => ⟨S524288, .f32⟩
  | 58 => ⟨S524288x1, .f32⟩
  | 59 => ⟨S524288x16, .f32⟩
  | 60 => ⟨S524288x16, .f32⟩
  | 61 => ⟨S524288x16, .f32⟩
  | 62 => ⟨S524288x1, .f32⟩
  | 63 => ⟨S524288, .f32⟩
  | 64 => ⟨S524288x1, .f32⟩
  | 65 => ⟨S524288, .f32⟩
  | 66 => ⟨S_, .f32⟩
  | 67 => ⟨S524288, .f32⟩
  | 68 => ⟨S524288, .f32⟩
  | 69 => ⟨S524288x1, .i32⟩
  | 70 => ⟨S524288, .i32⟩
  | 71 => ⟨S_, .i32⟩
  | 72 => ⟨S524288, .i32⟩
  | 73 => ⟨S524288, .i32⟩
  | 74 => ⟨S_, .i32⟩
  | 75 => ⟨S524288, .i32⟩
  | 76 => ⟨S524288, .i32⟩
  | 77 => ⟨S_, .i32⟩
  | 78 => ⟨S524288, .i32⟩
  | 79 => ⟨S524288, .i32⟩
  | 80 => ⟨S524288x1, .i32⟩
  | 81 => ⟨S524288, .i32⟩
  | 82 => ⟨S_, .i32⟩
  | 83 => ⟨S524288, .i32⟩
  | 84 => ⟨S524288, .i32⟩
  | 85 => ⟨S_, .i32⟩
  | 86 => ⟨S524288, .i32⟩
  | 87 => ⟨S524288, .i32⟩
  | 88 => ⟨S524288, .i32⟩
  | 89 => ⟨S524288x1, .i32⟩
  | 90 => ⟨S524288, .i32⟩
  | 91 => ⟨S_, .i32⟩
  | 92 => ⟨S524288, .i32⟩
  | 93 => ⟨S524288, .i32⟩
  | 94 => ⟨S524288, .i32⟩
  | 95 => ⟨S_, .i32⟩
  | 96 => ⟨S524288, .i32⟩
  | 97 => ⟨S524288, .i1⟩
  | 98 => ⟨S_, .i32⟩
  | 99 => ⟨S524288, .i32⟩
  | 100 => ⟨S524288, .i32⟩
  | 101 => ⟨S524288, .i32⟩
  | 102 => ⟨S524288x1, .i32⟩
  | 103 => ⟨S524288x16, .f32⟩
  | 104 => ⟨S524288, .f32⟩
  | 105 => ⟨S524288, .f32⟩
  | 106 => ⟨S524288x1, .f32⟩
  | 107 => ⟨S524288x16, .f32⟩
  | 108 => ⟨S524288x16, .f32⟩
  | 109 => ⟨S524288x16, .f32⟩
  | 110 => ⟨S524288x1, .f32⟩
  | 111 => ⟨S524288, .f32⟩
  | 112 => ⟨S524288x1, .i32⟩
  | 113 => ⟨S524288, .i32⟩
  | 114 => ⟨S_, .i32⟩
  | 115 => ⟨S524288, .i32⟩
  | 116 => ⟨S524288, .i32⟩
  | 117 => ⟨S_, .i32⟩
  | 118 => ⟨S524288, .i32⟩
  | 119 => ⟨S524288, .i32⟩
  | 120 => ⟨S_, .i32⟩
  | 121 => ⟨S524288, .i32⟩
  | 122 => ⟨S524288, .i32⟩
  | 123 => ⟨S524288x1, .i32⟩
  | 124 => ⟨S524288, .i32⟩
  | 125 => ⟨S_, .i32⟩
  | 126 => ⟨S524288, .i32⟩
  | 127 => ⟨S524288, .i32⟩
  | _ => ⟨S524288x3, .f32⟩

abbrev hbmTy0_3 (i : Nat) : BufTy := match i % 128 with
  | 0 => ⟨S_, .i32⟩
  | 1 => ⟨S524288, .i32⟩
  | 2 => ⟨S524288, .i32⟩
  | 3 => ⟨S524288, .i32⟩
  | 4 => ⟨S524288x1, .i32⟩
  | 5 => ⟨S524288, .i32⟩
  | 6 => ⟨S_, .i32⟩
  | 7 => ⟨S524288, .i32⟩
  | 8 => ⟨S524288, .i32⟩
  | 9 => ⟨S524288, .i32⟩
  | 10 => ⟨S_, .i32⟩
  | 11 => ⟨S524288, .i32⟩
  | 12 => ⟨S524288, .i1⟩
  | 13 => ⟨S_, .i32⟩
  | 14 => ⟨S524288, .i32⟩
  | 15 => ⟨S524288, .i32⟩
  | 16 => ⟨S524288, .i32⟩
  | 17 => ⟨S524288x1, .i32⟩
  | 18 => ⟨S524288x16, .f32⟩
  | 19 => ⟨S524288, .f32⟩
  | 20 => ⟨S524288, .f32⟩
  | 21 => ⟨S524288x1, .f32⟩
  | 22 => ⟨S524288x16, .f32⟩
  | 23 => ⟨S524288x16, .f32⟩
  | 24 => ⟨S524288x16, .f32⟩
  | 25 => ⟨S524288x19, .f32⟩
  | 26 => ⟨S19x128, .f32⟩
  | 27 => ⟨S524288x128, .f32⟩
  | 28 => ⟨S1x128, .f32⟩
  | 29 => ⟨S524288x128, .f32⟩
  | 30 => ⟨S524288x128, .f32⟩
  | 31 => ⟨S_, .f32⟩
  | 32 => ⟨S524288x128, .f32⟩
  | 33 => ⟨S524288x128, .f32⟩
  | 34 => ⟨S524288x128, .f32⟩
  | 35 => ⟨S524288x128, .f32⟩
  | 36 => ⟨S128x128, .f32⟩
  | 37 => ⟨S524288x128, .f32⟩
  | 38 => ⟨S1x128, .f32⟩
  | 39 => ⟨S524288x128, .f32⟩
  | 40 => ⟨S524288x128, .f32⟩
  | 41 => ⟨S_, .f32⟩
  | 42 => ⟨S524288x128, .f32⟩
  | 43 => ⟨S524288x128, .f32⟩
  | 44 => ⟨S524288x128, .f32⟩
  | 45 => ⟨S524288x128, .f32⟩
  | 46 => ⟨S128x1, .f32⟩
  | 47 => ⟨S524288x1, .f32⟩
  | 48 => ⟨S1x1, .f32⟩
  | 49 => ⟨S524288x1, .f32⟩
  | 50 => ⟨S524288x1, .f32⟩
  | 51 => ⟨S_, .f32⟩
  | 52 => ⟨S524288x1, .f32⟩
  | 53 => ⟨S524288x128, .f32⟩
  | 54 => ⟨S524288x128, .f32⟩
  | 55 => ⟨S_, .f32⟩
  | 56 => ⟨S524288x128, .f32⟩
  | 57 => ⟨S524288x128, .f32⟩
  | 58 => ⟨S524288x128, .f32⟩
  | 59 => ⟨S524288x128, .f32⟩
  | 60 => ⟨S_, .f32⟩
  | 61 => ⟨S524288x128, .f32⟩
  | 62 => ⟨S524288x128, .f32⟩
  | 63 => ⟨S524288x19, .f32⟩
  | 64 => ⟨S524288x16, .f32⟩
  | 65 => ⟨S524288x3, .f32⟩
  | 66 => ⟨S524288x16, .f32⟩
  | 67 => ⟨S_, .f32⟩
  | 68 => ⟨S524288, .f32⟩
  | 69 => ⟨S524288x1, .f32⟩
  | 70 => ⟨S_, .f32⟩
  | 71 => ⟨S524288, .f32⟩
  | 72 => ⟨S524288, .f32⟩
  | 73 => ⟨S524288, .f32⟩
  | 74 => ⟨S524288, .f32⟩
  | 75 => ⟨S524288, .f32⟩
  | 76 => ⟨S524288x1, .f32⟩
  | 77 => ⟨S_, .f32⟩
  | 78 => ⟨S524288x3, .f32⟩
  | 79 => ⟨S524288x16, .f32⟩
  | 80 => ⟨S_, .f32⟩
  | 81 => ⟨S524288, .f32⟩
  | 82 => ⟨S524288x1, .f32⟩
  | 83 => ⟨S_, .f32⟩
  | 84 => ⟨S524288, .f32⟩
  | 85 => ⟨S524288, .f32⟩
  | 86 => ⟨S524288, .f32⟩
  | 87 => ⟨S524288, .f32⟩
  | 88 => ⟨S524288, .f32⟩
  | 89 => ⟨S524288, .f32⟩
  | 90 => ⟨S524288, .f32⟩
  | 91 => ⟨S524288, .f32⟩
  | 92 => ⟨S524288x1, .f32⟩
  | 93 => ⟨S_, .f32⟩
  | 94 => ⟨S524288x3, .f32⟩
  | 95 => ⟨S524288x3, .f32⟩
  | 96 => ⟨S524288x1, .f32⟩
  | 97 => ⟨S_, .f32⟩
  | 98 => ⟨S524288x3, .f32⟩
  | 99 => ⟨S524288x3, .f32⟩
  | 100 => ⟨S524288x16, .f32⟩
  | 101 => ⟨S_, .f32⟩
  | 102 => ⟨S524288, .f32⟩
  | 103 => ⟨S524288x1, .f32⟩
  | 104 => ⟨S_, .f32⟩
  | 105 => ⟨S524288, .f32⟩
  | 106 => ⟨S524288, .f32⟩
  | 107 => ⟨S524288, .f32⟩
  | 108 => ⟨S524288, .f32⟩
  | 109 => ⟨S524288, .f32⟩
  | 110 => ⟨S524288, .f32⟩
  | 111 => ⟨S524288x1, .f32⟩
  | 112 => ⟨S_, .f32⟩
  | 113 => ⟨S524288x3, .f32⟩
  | 114 => ⟨S524288x3, .f32⟩
  | 115 => ⟨S524288x16, .f32⟩
  | 116 => ⟨S_, .f32⟩
  | 117 => ⟨S524288, .f32⟩
  | 118 => ⟨S524288x1, .f32⟩
  | 119 => ⟨S_, .f32⟩
  | 120 => ⟨S524288, .f32⟩
  | 121 => ⟨S524288, .f32⟩
  | 122 => ⟨S524288, .f32⟩
  | 123 => ⟨S524288, .f32⟩
  | 124 => ⟨S524288, .f32⟩
  | 125 => ⟨S524288, .f32⟩
  | 126 => ⟨S524288, .f32⟩
  | 127 => ⟨S524288, .f32⟩
  | _ => ⟨S524288x3, .f32⟩

abbrev hbmTy0_4 (i : Nat) : BufTy := match i % 128 with
  | 0 => ⟨S524288x1, .f32⟩
  | 1 => ⟨S_, .f32⟩
  | 2 => ⟨S524288x3, .f32⟩
  | 3 => ⟨S524288x3, .f32⟩
  | 4 => ⟨S524288, .f32⟩
  | 5 => ⟨S524288x1, .f32⟩
  | 6 => ⟨S_, .f32⟩
  | 7 => ⟨S524288x3, .f32⟩
  | 8 => ⟨S524288x3, .f32⟩
  | 9 => ⟨S524288x1, .f32⟩
  | 10 => ⟨S_, .f32⟩
  | 11 => ⟨S524288x3, .f32⟩
  | 12 => ⟨S524288x3, .f32⟩
  | 13 => ⟨S524288x16, .f32⟩
  | 14 => ⟨S_, .f32⟩
  | 15 => ⟨S524288, .f32⟩
  | 16 => ⟨S524288x1, .f32⟩
  | 17 => ⟨S_, .f32⟩
  | 18 => ⟨S524288, .f32⟩
  | 19 => ⟨S524288, .f32⟩
  | 20 => ⟨S524288, .f32⟩
  | 21 => ⟨S524288, .f32⟩
  | 22 => ⟨S524288, .f32⟩
  | 23 => ⟨S524288x1, .f32⟩
  | 24 => ⟨S_, .f32⟩
  | 25 => ⟨S524288x3, .f32⟩
  | 26 => ⟨S524288x3, .f32⟩
  | 27 => ⟨S524288x16, .f32⟩
  | 28 => ⟨S_, .f32⟩
  | 29 => ⟨S524288, .f32⟩
  | 30 => ⟨S524288x1, .f32⟩
  | 31 => ⟨S_, .f32⟩
  | 32 => ⟨S524288, .f32⟩
  | 33 => ⟨S524288, .f32⟩
  | 34 => ⟨S524288, .f32⟩
  | 35 => ⟨S524288, .f32⟩
  | 36 => ⟨S524288, .f32⟩
  | 37 => ⟨S524288, .f32⟩
  | 38 => ⟨S524288, .f32⟩
  | 39 => ⟨S524288, .f32⟩
  | 40 => ⟨S524288x1, .f32⟩
  | 41 => ⟨S_, .f32⟩
  | 42 => ⟨S524288x3, .f32⟩
  | 43 => ⟨S524288x3, .f32⟩
  | 44 => ⟨S524288x1, .f32⟩
  | 45 => ⟨S_, .f32⟩
  | 46 => ⟨S524288x3, .f32⟩
  | 47 => ⟨S524288x3, .f32⟩
  | 48 => ⟨S524288x16, .f32⟩
  | 49 => ⟨S_, .f32⟩
  | 50 => ⟨S524288, .f32⟩
  | 51 => ⟨S524288x1, .f32⟩
  | 52 => ⟨S_, .f32⟩
  | 53 => ⟨S524288, .f32⟩
  | 54 => ⟨S524288, .f32⟩
  | 55 => ⟨S524288, .f32⟩
  | 56 => ⟨S524288, .f32⟩
  | 57 => ⟨S524288, .f32⟩
  | 58 => ⟨S524288, .f32⟩
  | 59 => ⟨S524288x1, .f32⟩
  | 60 => ⟨S_, .f32⟩
  | 61 => ⟨S524288x3, .f32⟩
  | 62 => ⟨S524288x3, .f32⟩
  | 63 => ⟨S524288x16, .f32⟩
  | 64 => ⟨S_, .f32⟩
  | 65 => ⟨S524288, .f32⟩
  | 66 => ⟨S524288x1, .f32⟩
  | 67 => ⟨S_, .f32⟩
  | 68 => ⟨S524288, .f32⟩
  | 69 => ⟨S524288, .f32⟩
  | 70 => ⟨S524288, .f32⟩
  | 71 => ⟨S524288, .f32⟩
  | 72 => ⟨S524288, .f32⟩
  | 73 => ⟨S524288, .f32⟩
  | 74 => ⟨S524288, .f32⟩
  | 75 => ⟨S524288, .f32⟩
  | 76 => ⟨S524288x1, .f32⟩
  | 77 => ⟨S_, .f32⟩
  | 78 => ⟨S524288x3, .f32⟩
  | 79 => ⟨S524288x3, .f32⟩
  | 80 => ⟨S524288, .f32⟩
  | 81 => ⟨S524288x1, .f32⟩
  | 82 => ⟨S_, .f32⟩
  | 83 => ⟨S524288x3, .f32⟩
  | 84 => ⟨S524288x3, .f32⟩
  | 85 => ⟨S524288, .f32⟩
  | 86 => ⟨S524288x1, .f32⟩
  | 87 => ⟨S_, .f32⟩
  | 88 => ⟨S524288x3, .f32⟩
  | 89 => ⟨S524288x3, .f32⟩
  | 90 => ⟨S_, .f32⟩
  | 91 => ⟨S524288x3, .f32⟩
  | 92 => ⟨S524288x3, .f32⟩
  | 93 => ⟨S524288x3, .f32⟩
  | _ => ⟨S524288x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S524288x3, .f32⟩

abbrev bufTy : (tb : Table) → Fin (tcTables nBuf tb) → BufTy
  | .hbm, ⟨i, _⟩ => hbmTy i
  | _, _ => ⟨S524288x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_7 : Ref sig .tc := ⟨.hbm, 49, rfl⟩
abbrev main_v27 : Ref sig .tc := ⟨.hbm, 50, rfl⟩
abbrev main_v28 : Ref sig .tc := ⟨.hbm, 51, rfl⟩
abbrev main_c_8 : Ref sig .tc := ⟨.hbm, 52, rfl⟩
abbrev main_v29 : Ref sig .tc := ⟨.hbm, 53, rfl⟩
abbrev main_v30 : Ref sig .tc := ⟨.hbm, 54, rfl⟩
abbrev main_c_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_10 : Ref sig .tc := ⟨.hbm, 60, rfl⟩
abbrev main_v35 : Ref sig .tc := ⟨.hbm, 61, rfl⟩
abbrev main_v36 : Ref sig .tc := ⟨.hbm, 62, rfl⟩
abbrev main_c_11 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_13 : Ref sig .tc := ⟨.hbm, 73, rfl⟩
abbrev main_v45 : Ref sig .tc := ⟨.hbm, 74, rfl⟩
abbrev main_v46 : Ref sig .tc := ⟨.hbm, 75, rfl⟩
abbrev main_c_14 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_c_16 : Ref sig .tc := ⟨.hbm, 95, rfl⟩
abbrev main_v64 : Ref sig .tc := ⟨.hbm, 96, rfl⟩
abbrev main_v65 : Ref sig .tc := ⟨.hbm, 97, rfl⟩
abbrev main_c_17 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_18 : Ref sig .tc := ⟨.hbm, 103, rfl⟩
abbrev main_v70 : Ref sig .tc := ⟨.hbm, 104, rfl⟩
abbrev main_v71 : Ref sig .tc := ⟨.hbm, 105, rfl⟩
abbrev main_c_19 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_20 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_21 : Ref sig .tc := ⟨.hbm, 116, rfl⟩
abbrev main_v80 : Ref sig .tc := ⟨.hbm, 117, rfl⟩
abbrev main_v81 : Ref sig .tc := ⟨.hbm, 118, rfl⟩
abbrev main_c_22 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_23 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_c_24 : Ref sig .tc := ⟨.hbm, 140, rfl⟩
abbrev main_v101 : Ref sig .tc := ⟨.hbm, 141, rfl⟩
abbrev main_v102 : Ref sig .tc := ⟨.hbm, 142, rfl⟩
abbrev main_c_25 : Ref sig .tc := ⟨.hbm, 143, rfl⟩
abbrev main_v103 : Ref sig .tc := ⟨.hbm, 144, rfl⟩
abbrev main_v104 : Ref sig .tc := ⟨.hbm, 145, rfl⟩
abbrev main_c_26 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_27 : Ref sig .tc := ⟨.hbm, 151, rfl⟩
abbrev main_v109 : Ref sig .tc := ⟨.hbm, 152, rfl⟩
abbrev main_v110 : Ref sig .tc := ⟨.hbm, 153, rfl⟩
abbrev main_c_28 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_c_29 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_c_30 : Ref sig .tc := ⟨.hbm, 164, rfl⟩
abbrev main_v119 : Ref sig .tc := ⟨.hbm, 165, rfl⟩
abbrev main_v120 : Ref sig .tc := ⟨.hbm, 166, rfl⟩
abbrev main_c_31 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_32 : Ref sig .tc := ⟨.hbm, 183, rfl⟩
abbrev main_v136 : Ref sig .tc := ⟨.hbm, 184, rfl⟩
abbrev main_v137 : Ref sig .tc := ⟨.hbm, 185, rfl⟩
abbrev main_c_33 : Ref sig .tc := ⟨.hbm, 186, rfl⟩
abbrev main_v138 : Ref sig .tc := ⟨.hbm, 187, rfl⟩
abbrev main_v139 : Ref sig .tc := ⟨.hbm, 188, rfl⟩
abbrev main_c_34 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_c_35 : Ref sig .tc := ⟨.hbm, 194, rfl⟩
abbrev main_v144 : Ref sig .tc := ⟨.hbm, 195, rfl⟩
abbrev main_v145 : Ref sig .tc := ⟨.hbm, 196, rfl⟩
abbrev main_c_36 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_c_37 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_c_38 : Ref sig .tc := ⟨.hbm, 207, rfl⟩
abbrev main_v154 : Ref sig .tc := ⟨.hbm, 208, rfl⟩
abbrev main_v155 : Ref sig .tc := ⟨.hbm, 209, rfl⟩
abbrev main_c_39 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_cst_40 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_cst_41 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_c_42 : Ref sig .tc := ⟨.hbm, 236, rfl⟩
abbrev main_v179 : Ref sig .tc := ⟨.hbm, 237, rfl⟩
abbrev main_v180 : Ref sig .tc := ⟨.hbm, 238, rfl⟩
abbrev main_c_43 : Ref sig .tc := ⟨.hbm, 239, rfl⟩
abbrev main_v181 : Ref sig .tc := ⟨.hbm, 240, rfl⟩
abbrev main_v182 : Ref sig .tc := ⟨.hbm, 241, rfl⟩
abbrev main_c_44 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_c_45 : Ref sig .tc := ⟨.hbm, 247, rfl⟩
abbrev main_v187 : Ref sig .tc := ⟨.hbm, 248, rfl⟩
abbrev main_v188 : Ref sig .tc := ⟨.hbm, 249, rfl⟩
abbrev main_c_46 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_c_47 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_c_48 : Ref sig .tc := ⟨.hbm, 260, rfl⟩
abbrev main_v197 : Ref sig .tc := ⟨.hbm, 261, rfl⟩
abbrev main_v198 : Ref sig .tc := ⟨.hbm, 262, rfl⟩
abbrev main_c_49 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_c_50 : Ref sig .tc := ⟨.hbm, 279, rfl⟩
abbrev main_v214 : Ref sig .tc := ⟨.hbm, 280, rfl⟩
abbrev main_v215 : Ref sig .tc := ⟨.hbm, 281, rfl⟩
abbrev main_c_51 : Ref sig .tc := ⟨.hbm, 282, rfl⟩
abbrev main_v216 : Ref sig .tc := ⟨.hbm, 283, rfl⟩
abbrev main_v217 : Ref sig .tc := ⟨.hbm, 284, rfl⟩
abbrev main_c_52 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_c_53 : Ref sig .tc := ⟨.hbm, 290, rfl⟩
abbrev main_v222 : Ref sig .tc := ⟨.hbm, 291, rfl⟩
abbrev main_v223 : Ref sig .tc := ⟨.hbm, 292, rfl⟩
abbrev main_c_54 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_c_55 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_c_56 : Ref sig .tc := ⟨.hbm, 303, rfl⟩
abbrev main_v232 : Ref sig .tc := ⟨.hbm, 304, rfl⟩
abbrev main_v233 : Ref sig .tc := ⟨.hbm, 305, rfl⟩
abbrev main_c_57 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_cst_58 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_c_59 : Ref sig .tc := ⟨.hbm, 327, rfl⟩
abbrev main_v253 : Ref sig .tc := ⟨.hbm, 328, rfl⟩
abbrev main_v254 : Ref sig .tc := ⟨.hbm, 329, rfl⟩
abbrev main_c_60 : Ref sig .tc := ⟨.hbm, 330, rfl⟩
abbrev main_v255 : Ref sig .tc := ⟨.hbm, 331, rfl⟩
abbrev main_v256 : Ref sig .tc := ⟨.hbm, 332, rfl⟩
abbrev main_c_61 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_c_62 : Ref sig .tc := ⟨.hbm, 338, rfl⟩
abbrev main_v261 : Ref sig .tc := ⟨.hbm, 339, rfl⟩
abbrev main_v262 : Ref sig .tc := ⟨.hbm, 340, rfl⟩
abbrev main_c_63 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_c_64 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_c_65 : Ref sig .tc := ⟨.hbm, 351, rfl⟩
abbrev main_v271 : Ref sig .tc := ⟨.hbm, 352, rfl⟩
abbrev main_v272 : Ref sig .tc := ⟨.hbm, 353, rfl⟩
abbrev main_c_66 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_c_67 : Ref sig .tc := ⟨.hbm, 370, rfl⟩
abbrev main_v288 : Ref sig .tc := ⟨.hbm, 371, rfl⟩
abbrev main_v289 : Ref sig .tc := ⟨.hbm, 372, rfl⟩
abbrev main_c_68 : Ref sig .tc := ⟨.hbm, 373, rfl⟩
abbrev main_v290 : Ref sig .tc := ⟨.hbm, 374, rfl⟩
abbrev main_v291 : Ref sig .tc := ⟨.hbm, 375, rfl⟩
abbrev main_c_69 : Ref sig .tc := ⟨.hbm, 376, rfl⟩
abbrev main_v292 : Ref sig .tc := ⟨.hbm, 377, rfl⟩
abbrev main_v293 : Ref sig .tc := ⟨.hbm, 378, rfl⟩
abbrev main_v294 : Ref sig .tc := ⟨.hbm, 379, rfl⟩
abbrev main_v295 : Ref sig .tc := ⟨.hbm, 380, rfl⟩
abbrev main_c_70 : Ref sig .tc := ⟨.hbm, 381, rfl⟩
abbrev main_v296 : Ref sig .tc := ⟨.hbm, 382, rfl⟩
abbrev main_v297 : Ref sig .tc := ⟨.hbm, 383, rfl⟩
abbrev main_c_71 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_c_72 : Ref sig .tc := ⟨.hbm, 390, rfl⟩
abbrev main_v303 : Ref sig .tc := ⟨.hbm, 391, rfl⟩
abbrev main_v304 : Ref sig .tc := ⟨.hbm, 392, rfl⟩
abbrev main_v305 : Ref sig .tc := ⟨.hbm, 393, rfl⟩
abbrev main_c_73 : Ref sig .tc := ⟨.hbm, 394, rfl⟩
abbrev main_v306 : Ref sig .tc := ⟨.hbm, 395, rfl⟩
abbrev main_v307 : Ref sig .tc := ⟨.hbm, 396, rfl⟩
abbrev main_c_74 : Ref sig .tc := ⟨.hbm, 397, rfl⟩
abbrev main_v308 : Ref sig .tc := ⟨.hbm, 398, rfl⟩
abbrev main_v309 : Ref sig .tc := ⟨.hbm, 399, rfl⟩
abbrev main_v310 : Ref sig .tc := ⟨.hbm, 400, rfl⟩
abbrev main_v311 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_v315 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_v321 : Ref sig .tc := ⟨.hbm, 411, rfl⟩
abbrev main_v322 : Ref sig .tc := ⟨.hbm, 412, rfl⟩
abbrev main_v323 : Ref sig .tc := ⟨.hbm, 413, rfl⟩
abbrev main_v324 : Ref sig .tc := ⟨.hbm, 414, rfl⟩
abbrev main_cst_75 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_v330 : Ref sig .tc := ⟨.hbm, 421, rfl⟩
abbrev main_v331 : Ref sig .tc := ⟨.hbm, 422, rfl⟩
abbrev main_v332 : Ref sig .tc := ⟨.hbm, 423, rfl⟩
abbrev main_v333 : Ref sig .tc := ⟨.hbm, 424, rfl⟩
abbrev main_cst_76 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_cst_77 : Ref sig .tc := ⟨.hbm, 435, rfl⟩
abbrev main_v343 : Ref sig .tc := ⟨.hbm, 436, rfl⟩
abbrev main_v344 : Ref sig .tc := ⟨.hbm, 437, rfl⟩
abbrev main_v345 : Ref sig .tc := ⟨.hbm, 438, rfl⟩
abbrev main_cst_78 : Ref sig .tc := ⟨.hbm, 439, rfl⟩
abbrev main_v346 : Ref sig .tc := ⟨.hbm, 440, rfl⟩
abbrev main_v347 : Ref sig .tc := ⟨.hbm, 441, rfl⟩
abbrev main_v348 : Ref sig .tc := ⟨.hbm, 442, rfl⟩
abbrev main_v349 : Ref sig .tc := ⟨.hbm, 443, rfl⟩
abbrev main_cst_79 : Ref sig .tc := ⟨.hbm, 444, rfl⟩
abbrev main_v350 : Ref sig .tc := ⟨.hbm, 445, rfl⟩
abbrev main_v351 : Ref sig .tc := ⟨.hbm, 446, rfl⟩
abbrev main_v352 : Ref sig .tc := ⟨.hbm, 447, rfl⟩
abbrev main_v353 : Ref sig .tc := ⟨.hbm, 448, rfl⟩
abbrev main_v354 : Ref sig .tc := ⟨.hbm, 449, rfl⟩
abbrev main_v355 : Ref sig .tc := ⟨.hbm, 450, rfl⟩
abbrev main_cst_80 : Ref sig .tc := ⟨.hbm, 451, rfl⟩
abbrev main_v356 : Ref sig .tc := ⟨.hbm, 452, rfl⟩
abbrev main_v357 : Ref sig .tc := ⟨.hbm, 453, rfl⟩
abbrev main_cst_81 : Ref sig .tc := ⟨.hbm, 454, rfl⟩
abbrev main_v358 : Ref sig .tc := ⟨.hbm, 455, rfl⟩
abbrev main_v359 : Ref sig .tc := ⟨.hbm, 456, rfl⟩
abbrev main_v360 : Ref sig .tc := ⟨.hbm, 457, rfl⟩
abbrev main_v361 : Ref sig .tc := ⟨.hbm, 458, rfl⟩
abbrev main_v362 : Ref sig .tc := ⟨.hbm, 459, rfl⟩
abbrev main_v363 : Ref sig .tc := ⟨.hbm, 460, rfl⟩
abbrev main_cst_82 : Ref sig .tc := ⟨.hbm, 461, rfl⟩
abbrev main_v364 : Ref sig .tc := ⟨.hbm, 462, rfl⟩
abbrev main_v365 : Ref sig .tc := ⟨.hbm, 463, rfl⟩
abbrev main_cst_83 : Ref sig .tc := ⟨.hbm, 464, rfl⟩
abbrev main_v366 : Ref sig .tc := ⟨.hbm, 465, rfl⟩
abbrev main_v367 : Ref sig .tc := ⟨.hbm, 466, rfl⟩
abbrev main_cst_84 : Ref sig .tc := ⟨.hbm, 467, rfl⟩
abbrev main_v368 : Ref sig .tc := ⟨.hbm, 468, rfl⟩
abbrev main_v369 : Ref sig .tc := ⟨.hbm, 469, rfl⟩
abbrev main_v370 : Ref sig .tc := ⟨.hbm, 470, rfl⟩
abbrev main_v371 : Ref sig .tc := ⟨.hbm, 471, rfl⟩
abbrev main_v372 : Ref sig .tc := ⟨.hbm, 472, rfl⟩
abbrev main_v373 : Ref sig .tc := ⟨.hbm, 473, rfl⟩
abbrev main_v374 : Ref sig .tc := ⟨.hbm, 474, rfl⟩
abbrev main_v375 : Ref sig .tc := ⟨.hbm, 475, rfl⟩
abbrev main_v376 : Ref sig .tc := ⟨.hbm, 476, rfl⟩
abbrev main_cst_85 : Ref sig .tc := ⟨.hbm, 477, rfl⟩
abbrev main_v377 : Ref sig .tc := ⟨.hbm, 478, rfl⟩
abbrev main_v378 : Ref sig .tc := ⟨.hbm, 479, rfl⟩
abbrev main_v379 : Ref sig .tc := ⟨.hbm, 480, rfl⟩
abbrev main_cst_86 : Ref sig .tc := ⟨.hbm, 481, rfl⟩
abbrev main_v380 : Ref sig .tc := ⟨.hbm, 482, rfl⟩
abbrev main_v381 : Ref sig .tc := ⟨.hbm, 483, rfl⟩
abbrev main_v382 : Ref sig .tc := ⟨.hbm, 484, rfl⟩
abbrev main_cst_87 : Ref sig .tc := ⟨.hbm, 485, rfl⟩
abbrev main_v383 : Ref sig .tc := ⟨.hbm, 486, rfl⟩
abbrev main_v384 : Ref sig .tc := ⟨.hbm, 487, rfl⟩
abbrev main_cst_88 : Ref sig .tc := ⟨.hbm, 488, rfl⟩
abbrev main_v385 : Ref sig .tc := ⟨.hbm, 489, rfl⟩
abbrev main_v386 : Ref sig .tc := ⟨.hbm, 490, rfl⟩
abbrev main_v387 : Ref sig .tc := ⟨.hbm, 491, rfl⟩
abbrev main_v388 : Ref sig .tc := ⟨.hbm, 492, rfl⟩
abbrev main_v389 : Ref sig .tc := ⟨.hbm, 493, rfl⟩
abbrev main_v390 : Ref sig .tc := ⟨.hbm, 494, rfl⟩
abbrev main_v391 : Ref sig .tc := ⟨.hbm, 495, rfl⟩
abbrev main_cst_89 : Ref sig .tc := ⟨.hbm, 496, rfl⟩
abbrev main_v392 : Ref sig .tc := ⟨.hbm, 497, rfl⟩
abbrev main_v393 : Ref sig .tc := ⟨.hbm, 498, rfl⟩
abbrev main_v394 : Ref sig .tc := ⟨.hbm, 499, rfl⟩
abbrev main_cst_90 : Ref sig .tc := ⟨.hbm, 500, rfl⟩
abbrev main_v395 : Ref sig .tc := ⟨.hbm, 501, rfl⟩
abbrev main_v396 : Ref sig .tc := ⟨.hbm, 502, rfl⟩
abbrev main_cst_91 : Ref sig .tc := ⟨.hbm, 503, rfl⟩
abbrev main_v397 : Ref sig .tc := ⟨.hbm, 504, rfl⟩
abbrev main_v398 : Ref sig .tc := ⟨.hbm, 505, rfl⟩
abbrev main_v399 : Ref sig .tc := ⟨.hbm, 506, rfl⟩
abbrev main_v400 : Ref sig .tc := ⟨.hbm, 507, rfl⟩
abbrev main_v401 : Ref sig .tc := ⟨.hbm, 508, rfl⟩
abbrev main_v402 : Ref sig .tc := ⟨.hbm, 509, rfl⟩
abbrev main_v403 : Ref sig .tc := ⟨.hbm, 510, rfl⟩
abbrev main_v404 : Ref sig .tc := ⟨.hbm, 511, rfl⟩
abbrev main_v405 : Ref sig .tc := ⟨.hbm, 512, rfl⟩
abbrev main_cst_92 : Ref sig .tc := ⟨.hbm, 513, rfl⟩
abbrev main_v406 : Ref sig .tc := ⟨.hbm, 514, rfl⟩
abbrev main_v407 : Ref sig .tc := ⟨.hbm, 515, rfl⟩
abbrev main_v408 : Ref sig .tc := ⟨.hbm, 516, rfl⟩
abbrev main_v409 : Ref sig .tc := ⟨.hbm, 517, rfl⟩
abbrev main_cst_93 : Ref sig .tc := ⟨.hbm, 518, rfl⟩
abbrev main_v410 : Ref sig .tc := ⟨.hbm, 519, rfl⟩
abbrev main_v411 : Ref sig .tc := ⟨.hbm, 520, rfl⟩
abbrev main_v412 : Ref sig .tc := ⟨.hbm, 521, rfl⟩
abbrev main_cst_94 : Ref sig .tc := ⟨.hbm, 522, rfl⟩
abbrev main_v413 : Ref sig .tc := ⟨.hbm, 523, rfl⟩
abbrev main_v414 : Ref sig .tc := ⟨.hbm, 524, rfl⟩
abbrev main_v415 : Ref sig .tc := ⟨.hbm, 525, rfl⟩
abbrev main_cst_95 : Ref sig .tc := ⟨.hbm, 526, rfl⟩
abbrev main_v416 : Ref sig .tc := ⟨.hbm, 527, rfl⟩
abbrev main_v417 : Ref sig .tc := ⟨.hbm, 528, rfl⟩
abbrev main_cst_96 : Ref sig .tc := ⟨.hbm, 529, rfl⟩
abbrev main_v418 : Ref sig .tc := ⟨.hbm, 530, rfl⟩
abbrev main_v419 : Ref sig .tc := ⟨.hbm, 531, rfl⟩
abbrev main_v420 : Ref sig .tc := ⟨.hbm, 532, rfl⟩
abbrev main_v421 : Ref sig .tc := ⟨.hbm, 533, rfl⟩
abbrev main_v422 : Ref sig .tc := ⟨.hbm, 534, rfl⟩
abbrev main_v423 : Ref sig .tc := ⟨.hbm, 535, rfl⟩
abbrev main_cst_97 : Ref sig .tc := ⟨.hbm, 536, rfl⟩
abbrev main_v424 : Ref sig .tc := ⟨.hbm, 537, rfl⟩
abbrev main_v425 : Ref sig .tc := ⟨.hbm, 538, rfl⟩
abbrev main_v426 : Ref sig .tc := ⟨.hbm, 539, rfl⟩
abbrev main_cst_98 : Ref sig .tc := ⟨.hbm, 540, rfl⟩
abbrev main_v427 : Ref sig .tc := ⟨.hbm, 541, rfl⟩
abbrev main_v428 : Ref sig .tc := ⟨.hbm, 542, rfl⟩
abbrev main_cst_99 : Ref sig .tc := ⟨.hbm, 543, rfl⟩
abbrev main_v429 : Ref sig .tc := ⟨.hbm, 544, rfl⟩
abbrev main_v430 : Ref sig .tc := ⟨.hbm, 545, rfl⟩
abbrev main_v431 : Ref sig .tc := ⟨.hbm, 546, rfl⟩
abbrev main_v432 : Ref sig .tc := ⟨.hbm, 547, rfl⟩
abbrev main_v433 : Ref sig .tc := ⟨.hbm, 548, rfl⟩
abbrev main_v434 : Ref sig .tc := ⟨.hbm, 549, rfl⟩
abbrev main_v435 : Ref sig .tc := ⟨.hbm, 550, rfl⟩
abbrev main_v436 : Ref sig .tc := ⟨.hbm, 551, rfl⟩
abbrev main_v437 : Ref sig .tc := ⟨.hbm, 552, rfl⟩
abbrev main_cst_100 : Ref sig .tc := ⟨.hbm, 553, rfl⟩
abbrev main_v438 : Ref sig .tc := ⟨.hbm, 554, rfl⟩
abbrev main_v439 : Ref sig .tc := ⟨.hbm, 555, rfl⟩
abbrev main_v440 : Ref sig .tc := ⟨.hbm, 556, rfl⟩
abbrev main_cst_101 : Ref sig .tc := ⟨.hbm, 557, rfl⟩
abbrev main_v441 : Ref sig .tc := ⟨.hbm, 558, rfl⟩
abbrev main_v442 : Ref sig .tc := ⟨.hbm, 559, rfl⟩
abbrev main_v443 : Ref sig .tc := ⟨.hbm, 560, rfl⟩
abbrev main_cst_102 : Ref sig .tc := ⟨.hbm, 561, rfl⟩
abbrev main_v444 : Ref sig .tc := ⟨.hbm, 562, rfl⟩
abbrev main_v445 : Ref sig .tc := ⟨.hbm, 563, rfl⟩
abbrev main_cst_103 : Ref sig .tc := ⟨.hbm, 564, rfl⟩
abbrev main_v446 : Ref sig .tc := ⟨.hbm, 565, rfl⟩
abbrev main_v447 : Ref sig .tc := ⟨.hbm, 566, rfl⟩
abbrev main_v448 : Ref sig .tc := ⟨.hbm, 567, rfl⟩
abbrev main_v449 : Ref sig .tc := ⟨.hbm, 568, rfl⟩
abbrev main_v450 : Ref sig .tc := ⟨.hbm, 569, rfl⟩
abbrev main_v451 : Ref sig .tc := ⟨.hbm, 570, rfl⟩
abbrev main_v452 : Ref sig .tc := ⟨.hbm, 571, rfl⟩
abbrev main_cst_104 : Ref sig .tc := ⟨.hbm, 572, rfl⟩
abbrev main_v453 : Ref sig .tc := ⟨.hbm, 573, rfl⟩
abbrev main_v454 : Ref sig .tc := ⟨.hbm, 574, rfl⟩
abbrev main_v455 : Ref sig .tc := ⟨.hbm, 575, rfl⟩
abbrev main_cst_105 : Ref sig .tc := ⟨.hbm, 576, rfl⟩
abbrev main_v456 : Ref sig .tc := ⟨.hbm, 577, rfl⟩
abbrev main_v457 : Ref sig .tc := ⟨.hbm, 578, rfl⟩
abbrev main_cst_106 : Ref sig .tc := ⟨.hbm, 579, rfl⟩
abbrev main_v458 : Ref sig .tc := ⟨.hbm, 580, rfl⟩
abbrev main_v459 : Ref sig .tc := ⟨.hbm, 581, rfl⟩
abbrev main_v460 : Ref sig .tc := ⟨.hbm, 582, rfl⟩
abbrev main_v461 : Ref sig .tc := ⟨.hbm, 583, rfl⟩
abbrev main_v462 : Ref sig .tc := ⟨.hbm, 584, rfl⟩
abbrev main_v463 : Ref sig .tc := ⟨.hbm, 585, rfl⟩
abbrev main_v464 : Ref sig .tc := ⟨.hbm, 586, rfl⟩
abbrev main_v465 : Ref sig .tc := ⟨.hbm, 587, rfl⟩
abbrev main_v466 : Ref sig .tc := ⟨.hbm, 588, rfl⟩
abbrev main_cst_107 : Ref sig .tc := ⟨.hbm, 589, rfl⟩
abbrev main_v467 : Ref sig .tc := ⟨.hbm, 590, rfl⟩
abbrev main_v468 : Ref sig .tc := ⟨.hbm, 591, rfl⟩
abbrev main_v469 : Ref sig .tc := ⟨.hbm, 592, rfl⟩
abbrev main_v470 : Ref sig .tc := ⟨.hbm, 593, rfl⟩
abbrev main_cst_108 : Ref sig .tc := ⟨.hbm, 594, rfl⟩
abbrev main_v471 : Ref sig .tc := ⟨.hbm, 595, rfl⟩
abbrev main_v472 : Ref sig .tc := ⟨.hbm, 596, rfl⟩
abbrev main_v473 : Ref sig .tc := ⟨.hbm, 597, rfl⟩
abbrev main_v474 : Ref sig .tc := ⟨.hbm, 598, rfl⟩
abbrev main_cst_109 : Ref sig .tc := ⟨.hbm, 599, rfl⟩
abbrev main_v475 : Ref sig .tc := ⟨.hbm, 600, rfl⟩
abbrev main_v476 : Ref sig .tc := ⟨.hbm, 601, rfl⟩
abbrev main_cst_110 : Ref sig .tc := ⟨.hbm, 602, rfl⟩
abbrev main_v477 : Ref sig .tc := ⟨.hbm, 603, rfl⟩
abbrev main_v478 : Ref sig .tc := ⟨.hbm, 604, rfl⟩
abbrev main_v479 : Ref sig .tc := ⟨.hbm, 605, rfl⟩

abbrev nD : Nat := 1
abbrev τ : Topo := Topo.v7x

variable {F : FTy → Type} [FloatOps F]

class Facts₀ : Prop where
  bcast_S_S524288x3 : S_.BroadcastsInDim S524288x3 (![] : Fin 0 → Fin S524288x3.rank)
  shapeCasts_S128x128x128x16_S2097152x16 : S128x128x128x16.ShapeCasts S2097152x16
  bcast_S_S524288x16 : S_.BroadcastsInDim S524288x16 (![] : Fin 0 → Fin S524288x16.rank)
  slices_S524288x3_S524288x1_0_0 : S524288x3.Slices ![0, 0] S524288x1
  shapeCasts_S524288x1_S524288 : S524288x1.ShapeCasts S524288
  bcast_S_S524288 : S_.BroadcastsInDim S524288 (![] : Fin 0 → Fin S524288.rank)
  slices_S524288x3_S524288x1_0_1 : S524288x3.Slices ![0, 1] S524288x1
  slices_S524288x3_S524288x1_0_2 : S524288x3.Slices ![0, 2] S524288x1
  bcast_S524288_S524288x1_0 : S524288.BroadcastsInDim S524288x1 (![0] : Fin 1 → Fin S524288x1.rank)
  bcast_S524288x1_S524288x16_0_1 : S524288x1.BroadcastsInDim S524288x16 (![0, 1] : Fin 2 → Fin S524288x16.rank)
  concatenates_S524288x16_S524288x3_S524288x19_d1 : Shape.Concatenates [S524288x16, S524288x3] S524288x19 1
  transposes_S128x19_S19x128_1_0 : S128x19.Transposes [1, 0] S19x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  bcast_S_S524288x1 : S_.BroadcastsInDim S524288x1 (![] : Fin 0 → Fin S524288x1.rank)
  slices_S524288x19_S524288x16_0_0 : S524288x19.Slices ![0, 0] S524288x16
  slices_S524288x19_S524288x3_0_16 : S524288x19.Slices ![0, 16] S524288x3
  reducesTo_S524288x16_S524288_d1 : S524288x16.ReducesTo [1] S524288
  h_S_ : 0 < S_.numel
  shapeCasts_S524288_S524288x1 : S524288.ShapeCasts S524288x1
  reducesTo_S524288x1_S524288_d1 : S524288x1.ReducesTo [1] S524288
  pads_S524288x1_S524288x3_000_200 : S524288x1.Pads (![0, 2] : Fin 2 → Nat) ![0, 0] ![0, 0] S524288x3
  pads_S524288x1_S524288x3_000_110 : S524288x1.Pads (![0, 1] : Fin 2 → Nat) ![0, 1] ![0, 0] S524288x3
  pads_S524288x1_S524288x3_000_020 : S524288x1.Pads (![0, 0] : Fin 2 → Nat) ![0, 2] ![0, 0] S524288x3
  gather_S2097152x16_S524288x1_S524288x16_1_0_n_n_0_1_116_wf : GatherDims.WF S2097152x16 S524288x1 S524288x16 [1] [0] [] [0] [] 1 ![1, 16]
  dot_S524288x19_S19x128_S524288x128_1_0_0_1_n_n_wf : DotDims.WF S524288x19 S19x128 S524288x128 [1] [0] [0] [1] [] []
  dot_S524288x128_S128x128_S524288x128_1_0_0_1_n_n_wf : DotDims.WF S524288x128 S128x128 S524288x128 [1] [0] [0] [1] [] []
  dot_S524288x128_S128x1_S524288x1_1_0_0_1_n_n_wf : DotDims.WF S524288x128 S128x1 S524288x1 [1] [0] [0] [1] [] []
  dot_S524288x1_S128x1_S524288x128_1_1_0_0_n_n_wf : DotDims.WF S524288x1 S128x1 S524288x128 [1] [1] [0] [0] [] []
  dot_S524288x128_S128x128_S524288x128_1_1_0_0_n_n_wf : DotDims.WF S524288x128 S128x128 S524288x128 [1] [1] [0] [0] [] []
  dot_S524288x128_S19x128_S524288x19_1_1_0_0_n_n_wf : DotDims.WF S524288x128 S19x128 S524288x19 [1] [1] [0] [0] [] []

variable [Facts₀]

def gather_S2097152x16_S524288x1_S524288x16_1_0_n_n_0_1_116 : GatherDims S2097152x16 S524288x1 S524288x16 where
  offsetDims := [1]
  collapsedSliceDims := [0]
  operandBatchingDims := []
  startIndicesBatchingDims := []
  startIndexMap := [0]
  indexVectorDim := 1
  sliceSizes := ![1, 16]
  wf := gather_S2097152x16_S524288x1_S524288x16_1_0_n_n_0_1_116_wf
def dot_S524288x19_S19x128_S524288x128_1_0_0_1_n_n : DotDims S524288x19 S19x128 S524288x128 where
  lhsContracting := [1]
  rhsContracting := [0]
  lhsNonContracting := [0]
  rhsNonContracting := [1]
  lhsBatch := []
  rhsBatch := []
  wf := dot_S524288x19_S19x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def dot_S524288x128_S128x1_S524288x1_1_0_0_1_n_n : DotDims S524288x128 S128x1 S524288x1 where
  lhsContracting := [1]
  rhsContracting := [0]
  lhsNonContracting := [0]
  rhsNonContracting := [1]
  lhsBatch := []
  rhsBatch := []
  wf := dot_S524288x128_S128x1_S524288x1_1_0_0_1_n_n_wf
def dot_S524288x1_S128x1_S524288x128_1_1_0_0_n_n : DotDims S524288x1 S128x1 S524288x128 where
  lhsContracting := [1]
  rhsContracting := [1]
  lhsNonContracting := [0]
  rhsNonContracting := [0]
  lhsBatch := []
  rhsBatch := []
  wf := dot_S524288x1_S128x1_S524288x128_1_1_0_0_n_n_wf
def dot_S524288x128_S128x128_S524288x128_1_1_0_0_n_n : DotDims S524288x128 S128x128 S524288x128 where
  lhsContracting := [1]
  rhsContracting := [1]
  lhsNonContracting := [0]
  rhsNonContracting := [0]
  lhsBatch := []
  rhsBatch := []
  wf := dot_S524288x128_S128x128_S524288x128_1_1_0_0_n_n_wf
def dot_S524288x128_S19x128_S524288x19_1_1_0_0_n_n : DotDims S524288x128 S19x128 S524288x19 where
  lhsContracting := [1]
  rhsContracting := [1]
  lhsNonContracting := [0]
  rhsNonContracting := [0]
  lhsBatch := []
  rhsBatch := []
  wf := dot_S524288x128_S19x128_S524288x19_1_1_0_0_n_n_wf

class Facts : Prop extends Facts₀ where

variable [Facts]
-- ==== Proof.KFrameDefs.lean ====
import proofs.«171612_j42777874268460_1_alg».proof.Proof.Gen.KernelIdeal.Launch
import proofs.«171612_j42777874268460_1_alg».proof.Proof.Gen.KernelIdeal.Skeleton
import proofs.«171612_j42777874268460_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! The frame of the one-region program: nineteen stretches of host operations, the region on its grid of 256
    points, two host slices of the result. Everything is stated at any float model. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The definitions -/

/-- The host operations before the region, stretch by stretch. -/
abbrev pre : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18]

/-- What core `c`'s buffers hold when the region is entered: the launch contents after every host operation
    before the region. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18]) (fun b => m (c, b))
/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four columns of the 2048x4 output block. -/
abbrev col0 : Rect S2048x4 := Rect.unit (s := S2048x4) ![0, 0] S2048x1.size inb_S2048x4_S2048x1_0_0
abbrev col1 : Rect S2048x4 := Rect.unit (s := S2048x4) ![0, 1] S2048x1.size inb_S2048x4_S2048x1_0_1
abbrev col2 : Rect S2048x4 := Rect.unit (s := S2048x4) ![0, 2] S2048x1.size inb_S2048x4_S2048x1_0_2
abbrev col3 : Rect S2048x4 := Rect.unit (s := S2048x4) ![0, 3] S2048x1.size inb_S2048x4_S2048x1_0_3

/-- What the body leaves in the output block, from the seven input blocks: column 0 the network's value, columns 1..3
    the three partial derivatives; the pieces listed last store first. -/
def out0_7 (x0 : Vec F S2048x67 .f32) (x1 : Vec F S128x19 .f32) (x2 : Vec F S128 .f32) (x3 : Vec F S128x128 .f32)
    (x4 : Vec F S128 .f32) (x5 : Vec F S1x128 .f32) (x6 : Vec F S1 .f32) : Vec F S2048x4 .f32 :=
  View.canon
    [⟨col3, k0_pay20 (k0_pay4 x0) x5 (k0_pay5 x1) (k0_pay6 x1) (k0_pay7 x3) (k0_pay10 x0 x1 x2) (k0_pay13 x0 x1 x2 x3 x4)⟩,
     ⟨col2, k0_pay19 (k0_pay3 x0) x5 (k0_pay5 x1) (k0_pay6 x1) (k0_pay7 x3) (k0_pay10 x0 x1 x2) (k0_pay13 x0 x1 x2 x3 x4)⟩,
     ⟨col1, k0_pay18 (k0_pay2 x0) x5 (k0_pay5 x1) (k0_pay6 x1) (k0_pay7 x3) (k0_pay10 x0 x1 x2) (k0_pay13 x0 x1 x2 x3 x4)⟩,
     ⟨col0, k0_pay14 x6 (k0_pay8 x5) (k0_pay12 x0 x1 x2 x3 x4)⟩]

/-- The proof data of the pipeline on core `c`: the arrays as the region finds them; after the body at point `t`
    each input's buffer at its block and the output's at `out0_7` of the input blocks; the invariant the scoped rest and
    the generator register, untouched; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (iblk m c 0 t) (iblk m c 1 t) (iblk m c 2 t) (iblk m c 3 t) (iblk m c 4 t) (iblk m c 5 t) (iblk m c 6 t) := by
  dsimp only [dats]

end Cert.KernelIdeal.Hand

end
-- ==== Proof.KFrameArgs.lean ====
import proofs.«171612_j42777874268460_1_alg».proof.Proof.KFrameDefs

/-! The host side of the frame: what the host operations around the region touch, allocate and write, and that none of
    them writes an argument array. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- No host operation before the region allocates. -/
theorem pre_fresh : (pre : List (List (HloOp τ sig (Elt F)))).Forall fun ops => ops.Forall fun op => op.fresh = ∅ := by
  simp only [List.Forall]; repeat' constructor
/-- Nor the two after it. -/
theorem hostOps1_fresh : (hostOps1 : List (HloOp τ sig (Elt F))).Forall fun op => op.fresh = ∅ := by
  simp only [List.Forall]; repeat' constructor

/-- Every host operation before the region touches TensorCore references only. -/
theorem pre_sub : (pre : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub, hostOps0_15_sub,
    hostOps0_16_sub, hostOps0_17_sub, hostOps0_18_sub⟩

/-- The slices touch unscoped TensorCore references only, and with nothing prefetched every such reference is an array
    of the pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa only [List.mem_singleton] using hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  obtain rfl : ops = hostOps1 := by simpa only [List.mem_singleton] using hops
  exact (List.forall_iff_forall_mem.mp hostOps1_fresh) op hop
/-- Each writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa only [List.mem_singleton] using hops
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

/-- The simp set that reads off what each host operation writes. -/
macro "writes_simp" : tactic => `(tactic|
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps1,
    List.flatten_cons, List.flatten_nil, List.append_nil, List.cons_append, List.nil_append, List.Forall,
    StableHlo.TRef.nullary, StableHlo.TRef.unary, StableHlo.TRef.binary, StableHlo.TRef.ternary,
    StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.mem_singleton])

set_option maxHeartbeats 4000000 in
/-- No host operation before the region writes an argument array: each writes its own result buffer, whose index
    among the TensorCore's references is at least eight, and the eight arguments are the references of index below
    eight. -/
theorem pre_keeps_arg (r : Ref sig .tc) (hr : r.idx.val < 8) :
    ∀ op ∈ (List.flatten [hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18] : List (HloOp τ sig (Elt F))),
      Proc.devRef (τ := τ) .tc r ∉ op.writes :=
  List.forall_iff_forall_mem.mp (by
    writes_simp
    repeat' apply And.intro
    all_goals exact StableHlo.devRef_ne_of_ne (fun e => by subst e; exact absurd hr (by decide)))

/-- So the region finds every argument array as launched. -/
theorem V_keeps_arg (r : Ref sig .tc) (hr : r.idx.val < 8) (c : Dev nD) : V m c r = m ((c : Thread nD τ).loc r) :=
  StableHlo.after_of_forall_not_mem (b := Proc.devRef .tc r) _ _ (pre_keeps_arg r hr)

theorem V_main_arg0 (c : Dev nD) : V m c main_arg0 = m ((c : Thread nD τ).loc main_arg0) := V_keeps_arg m main_arg0 (by decide) c
theorem V_main_arg1 (c : Dev nD) : V m c main_arg1 = m ((c : Thread nD τ).loc main_arg1) := V_keeps_arg m main_arg1 (by decide) c
theorem V_main_arg2 (c : Dev nD) : V m c main_arg2 = m ((c : Thread nD τ).loc main_arg2) := V_keeps_arg m main_arg2 (by decide) c
theorem V_main_arg3 (c : Dev nD) : V m c main_arg3 = m ((c : Thread nD τ).loc main_arg3) := V_keeps_arg m main_arg3 (by decide) c
theorem V_main_arg4 (c : Dev nD) : V m c main_arg4 = m ((c : Thread nD τ).loc main_arg4) := V_keeps_arg m main_arg4 (by decide) c
theorem V_main_arg5 (c : Dev nD) : V m c main_arg5 = m ((c : Thread nD τ).loc main_arg5) := V_keeps_arg m main_arg5 (by decide) c
theorem V_main_arg6 (c : Dev nD) : V m c main_arg6 = m ((c : Thread nD τ).loc main_arg6) := V_keeps_arg m main_arg6 (by decide) c
theorem V_main_arg7 (c : Dev nD) : V m c main_arg7 = m ((c : Thread nD τ).loc main_arg7) := V_keeps_arg m main_arg7 (by decide) c

/-! ## After the region -/

/-- Neither slice after the region writes `main_arg0`, which is no window's array: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      writes_simp
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The same of `main_arg1`. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      writes_simp
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- `main_arg2` is input window 1's array: the slices do not write it, an input window's array is never written
    back, and the region found it as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      writes_simp
      repeat' apply And.intro
      all_goals exact StableHlo.devRef_ne_of_ne (by decide)))]
  exact (Pipeline.withArrays_arr _ launch0.win.arr_inj c _ _ (1 : Fin 8)).trans
    (((dats m 0 c).arrAt_in 1 rfl _).trans ((A_eq m c 1).trans (V_main_arg2 m c)))

/-- `main_arg3` is input window 2's array. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      writes_simp
      repeat' apply And.intro
      all_goals exact StableHlo.devRef_ne_of_ne (by decide)))]
  exact (Pipeline.withArrays_arr _ launch0.win.arr_inj c _ _ (2 : Fin 8)).trans
    (((dats m 0 c).arrAt_in 2 rfl _).trans ((A_eq m c 2).trans (V_main_arg3 m c)))

/-- `main_arg4` is input window 3's array. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      writes_simp
      repeat' apply And.intro
      all_goals exact StableHlo.devRef_ne_of_ne (by decide)))]
  exact (Pipeline.withArrays_arr _ launch0.win.arr_inj c _ _ (3 : Fin 8)).trans
    (((dats m 0 c).arrAt_in 3 rfl _).trans ((A_eq m c 3).trans (V_main_arg4 m c)))

/-- `main_arg5` is input window 4's array. -/
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      writes_simp
      repeat' apply And.intro
      all_goals exact StableHlo.devRef_ne_of_ne (by decide)))]
  exact (Pipeline.withArrays_arr _ launch0.win.arr_inj c _ _ (4 : Fin 8)).trans
    (((dats m 0 c).arrAt_in 4 rfl _).trans ((A_eq m c 4).trans (V_main_arg5 m c)))

/-- `main_arg6` is input window 5's array. -/
theorem W_main_arg6 (c : Dev nD) :
    Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      writes_simp
      repeat' apply And.intro
      all_goals exact StableHlo.devRef_ne_of_ne (by decide)))]
  exact (Pipeline.withArrays_arr _ launch0.win.arr_inj c _ _ (5 : Fin 8)).trans
    (((dats m 0 c).arrAt_in 5 rfl _).trans ((A_eq m c 5).trans (V_main_arg6 m c)))

/-- `main_arg7` is input window 6's array. -/
theorem W_main_arg7 (c : Dev nD) :
    Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      writes_simp
      repeat' apply And.intro
      all_goals exact StableHlo.devRef_ne_of_ne (by decide)))]
  exact (Pipeline.withArrays_arr _ launch0.win.arr_inj c _ _ (6 : Fin 8)).trans
    (((dats m 0 c).arrAt_in 6 rfl _).trans ((A_eq m c 6).trans (V_main_arg7 m c)))

end Cert.KernelIdeal.Hand

end
-- ==== Proof.KFrame.lean ====
import proofs.«171612_j42777874268460_1_alg».proof.Proof.KFrameDefs
import proofs.«171612_j42777874268460_1_alg».proof.Proof.KFrameArgs

/-! The frame of the one-region program, over the definitions and the host-side lemmas: @main around its region, the
    body's triple, the body obligation, the run, and the frame claim at any float model. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- @main is the nineteen stretches, the region, the two slices: it reduces to the region continued by the slices, at
    the contents after the stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-! ## The body -/

/-- The four column stores tile the output block, so they cover it. -/
theorem cover0_7 (p0 p1 p2 p3 : FVec F S2048x1 .f32) (y : S2048x4.Idx) :
    ∃ pc ∈ ([⟨col3, p3⟩, ⟨col2, p2⟩, ⟨col1, p1⟩, ⟨col0, p0⟩] : List (View.Piece (Elt F) S2048x4 .f32)), y ∈ pc.1.set :=
  View.cover_of_tiled (Val := Elt F) ([⟨col3, p3⟩, ⟨col2, p2⟩, ⟨col1, p1⟩, ⟨col0, p0⟩] : List (View.Piece (Elt F) S2048x4 .f32)) S2048x1.size (by rfl) y

/-- A load of a whole block, through the rectangle of the block's extents at zero offsets, reads the block. -/
theorem readAt_all {κ : Kind} {sp : Space} {S : Shape} {e : EltTy} (v : View sig κ sp S e) (off : Fin S.rank → Nat)
    (h0 : ∀ a, off a = 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero (funext h0) inb _)

set_option maxHeartbeats 4000000 in
/-- The kernel body on whole staging memrefs, the seven inputs' at read contents `x0 … x6` and the output's at anything:
    it returns holding the inputs' as they were and the output's at `out0_7` of the inputs. The four loads of the output
    buffer read whatever is there and their values go nowhere. -/
theorem sound_kernel (c : Dev nD) (E : Set ℕ) (i : grid0.Coords)
    (a1 : Memref sig .tc .vmem S2048x67 .f32) (h1 : a1.IsWhole) (a2 : Memref sig .tc .vmem S128x19 .f32) (h2 : a2.IsWhole)
    (a3 : Memref sig .tc .vmem S128 .f32) (h3 : a3.IsWhole) (a4 : Memref sig .tc .vmem S128x128 .f32) (h4 : a4.IsWhole)
    (a5 : Memref sig .tc .vmem S128 .f32) (h5 : a5.IsWhole) (a6 : Memref sig .tc .vmem S1x128 .f32) (h6 : a6.IsWhole)
    (a7 : Memref sig .tc .vmem S1 .f32) (h7 : a7.IsWhole) (a8 : Memref sig .tc .vmem S2048x4 .f32) (h8 : a8.IsWhole)
    (x0 : Vec F S2048x67 .f32) (x1 : Vec F S128x19 .f32) (x2 : Vec F S128 .f32) (x3 : Vec F S128x128 .f32)
    (x4 : Vec F S128 .f32) (x5 : Vec F S1x128 .f32) (x6 : Vec F S1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare (out0_7 x0 x1 x2 x3 x4 x5 x6)) -∗ K ⟨⟩))
      ⊢ wp frame (wpE (defs₀ (F := F)) Variants.none c none) E (cc0__mlp_kernel i a1 h1 a2 h2 a3 h3 a4 h4 a5 h5 a6 h6 a7 h7 a8 h8) K := by
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_unfold [cc0__mlp_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover0_7 _ _ _ _)]
  sl_unfold_run_names
  have r0 := readAt_all (F := F) a1.view ![0, 0] (by decide) inb_S2048x67_S2048x67_0_0 f0
  have r1 := readAt_all (F := F) a2.view ![0, 0] (by decide) inb_S128x19_S128x19_0_0 f1
  have r2 := readAt_all (F := F) a3.view ![0] (by decide) inb_S128_S128_0 f2
  have r3 := readAt_all (F := F) a4.view ![0, 0] (by decide) inb_S128x128_S128x128_0_0 f3
  have r4 := readAt_all (F := F) a5.view ![0] (by decide) inb_S128_S128_0 f4
  have r5 := readAt_all (F := F) a6.view ![0, 0] (by decide) inb_S1x128_S1x128_0_0 f5
  have r6 := readAt_all (F := F) a7.view ![0] (by decide) inb_S1_S1_0 f6
  unfold out0_7
  rw [r0, r1, r2, r3, r4, r5, r6]

/-! ## The inputs' buffers before the body -/

/-- An input window's current staging buffer holds its block at every point, fetched there or not: unfetched, the block
    index has not moved; the windows are uncut and never idle. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)

/-! ## The body obligation -/

/-- What the body is called with at point `t`: the invariant, the core's dues, and each window's current staging buffer
    at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns: the same with each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCore terminates, and every
    final state has each array of the pipeline at what the library computes from the proof data and every other
    unscoped buffer as the two slices leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An input window's array ends as launched: the pipeline never writes it back, and it entered the region as launched. -/
theorem arr_in (c : Dev nD) (w : Fin cfg0.W) (hw : (cfg0.win w).isOut = false)
    (hV : V m c (Pipeline.arrRef spec0 w) = m ((c : Thread nD τ).loc (Pipeline.arrRef spec0 w))) :
    (dats m 0 c).arrAt w cfg0.N = m ((c : Thread nD τ).loc (Pipeline.arrRef spec0 w)) :=
  ((dats m 0 c).arrAt_in w hw _).trans ((A_eq m c w).trans hV)

/-- THE FRAME: @main runs and every argument array ends as launched — the two the region never sees by the run's
    second clause and the slices' writing neither, the six staged inputs by the first. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).1 1).trans (arr_in m c 1 rfl (V_main_arg2 m c)),
     ((h c).1 2).trans (arr_in m c 2 rfl (V_main_arg3 m c)),
     ((h c).1 3).trans (arr_in m c 3 rfl (V_main_arg4 m c)),
     ((h c).1 4).trans (arr_in m c 4 rfl (V_main_arg5 m c)),
     ((h c).1 5).trans (arr_in m c 5 rfl (V_main_arg6 m c)),
     ((h c).1 6).trans (arr_in m c 6 rfl (V_main_arg7 m c))⟩) (run_main m ρ)

end Cert.KernelIdeal.Hand

end
-- ==== Proof.KFrameDefsB.lean ====
import proofs.«171612_j42777874268460_1_alg».proof.Proof.Gen.Kernel.Launch
import proofs.«171612_j42777874268460_1_alg».proof.Proof.Gen.Kernel.Skeleton
import proofs.«171612_j42777874268460_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! The frame of the one-region program: nineteen stretches of host operations, the region on its grid of 256
    points, two host slices of the result. Everything is stated at any float model. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The definitions -/

/-- The host operations before the region, stretch by stretch. -/
abbrev pre : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18]

/-- What core `c`'s buffers hold when the region is entered: the launch contents after every host operation
    before the region. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18]) (fun b => m (c, b))
/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four columns of the 2048x4 output block. -/
abbrev col0 : Rect S2048x4 := Rect.unit (s := S2048x4) ![0, 0] S2048x1.size inb_S2048x4_S2048x1_0_0
abbrev col1 : Rect S2048x4 := Rect.unit (s := S2048x4) ![0, 1] S2048x1.size inb_S2048x4_S2048x1_0_1
abbrev col2 : Rect S2048x4 := Rect.unit (s := S2048x4) ![0, 2] S2048x1.size inb_S2048x4_S2048x1_0_2
abbrev col3 : Rect S2048x4 := Rect.unit (s := S2048x4) ![0, 3] S2048x1.size inb_S2048x4_S2048x1_0_3

/-- What the body leaves in the output block, from the seven input blocks: column 0 the network's value, columns 1..3
    the three partial derivatives; the pieces listed last store first. -/
def out0_7 (x0 : Vec F S2048x67 .f32) (x1 : Vec F S128x19 .f32) (x2 : Vec F S128 .f32) (x3 : Vec F S128x128 .f32)
    (x4 : Vec F S128 .f32) (x5 : Vec F S1x128 .f32) (x6 : Vec F S1 .f32) : Vec F S2048x4 .f32 :=
  View.canon
    [⟨col3, k0_pay20 (k0_pay4 x0) x5 (k0_pay5 x1) (k0_pay6 x1) (k0_pay7 x3) (k0_pay10 x0 x1 x2) (k0_pay13 x0 x1 x2 x3 x4)⟩,
     ⟨col2, k0_pay19 (k0_pay3 x0) x5 (k0_pay5 x1) (k0_pay6 x1) (k0_pay7 x3) (k0_pay10 x0 x1 x2) (k0_pay13 x0 x1 x2 x3 x4)⟩,
     ⟨col1, k0_pay18 (k0_pay2 x0) x5 (k0_pay5 x1) (k0_pay6 x1) (k0_pay7 x3) (k0_pay10 x0 x1 x2) (k0_pay13 x0 x1 x2 x3 x4)⟩,
     ⟨col0, k0_pay14 x6 (k0_pay8 x5) (k0_pay12 x0 x1 x2 x3 x4)⟩]

/-- The proof data of the pipeline on core `c`: the arrays as the region finds them; after the body at point `t`
    each input's buffer at its block and the output's at `out0_7` of the input blocks; the invariant the scoped rest and
    the generator register, untouched; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (iblk m c 0 t) (iblk m c 1 t) (iblk m c 2 t) (iblk m c 3 t) (iblk m c 4 t) (iblk m c 5 t) (iblk m c 6 t) := by
  dsimp only [dats]

end Cert.Kernel.Hand

end
-- ==== Proof.KFrameArgsB.lean ====
import proofs.«171612_j42777874268460_1_alg».proof.Proof.KFrameDefsB

/-! The host side of the frame: what the host operations around the region touch, allocate and write, and that none of
    them writes an argument array. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- No host operation before the region allocates. -/
theorem pre_fresh : (pre : List (List (HloOp τ sig (Elt F)))).Forall fun ops => ops.Forall fun op => op.fresh = ∅ := by
  simp only [List.Forall]; repeat' constructor
/-- Nor the two after it. -/
theorem hostOps1_fresh : (hostOps1 : List (HloOp τ sig (Elt F))).Forall fun op => op.fresh = ∅ := by
  simp only [List.Forall]; repeat' constructor

/-- Every host operation before the region touches TensorCore references only. -/
theorem pre_sub : (pre : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub, hostOps0_15_sub,
    hostOps0_16_sub, hostOps0_17_sub, hostOps0_18_sub⟩

/-- The slices touch unscoped TensorCore references only, and with nothing prefetched every such reference is an array
    of the pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa only [List.mem_singleton] using hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  obtain rfl : ops = hostOps1 := by simpa only [List.mem_singleton] using hops
  exact (List.forall_iff_forall_mem.mp hostOps1_fresh) op hop
/-- Each writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa only [List.mem_singleton] using hops
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

/-- The simp set that reads off what each host operation writes. -/
macro "writes_simp" : tactic => `(tactic|
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps1,
    List.flatten_cons, List.flatten_nil, List.append_nil, List.cons_append, List.nil_append, List.Forall,
    StableHlo.TRef.nullary, StableHlo.TRef.unary, StableHlo.TRef.binary, StableHlo.TRef.ternary,
    StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.mem_singleton])

set_option maxHeartbeats 4000000 in
/-- No host operation before the region writes an argument array: each writes its own result buffer, whose index
    among the TensorCore's references is at least eight, and the eight arguments are the references of index below
    eight. -/
theorem pre_keeps_arg (r : Ref sig .tc) (hr : r.idx.val < 8) :
    ∀ op ∈ (List.flatten [hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18] : List (HloOp τ sig (Elt F))),
      Proc.devRef (τ := τ) .tc r ∉ op.writes :=
  List.forall_iff_forall_mem.mp (by
    writes_simp
    repeat' apply And.intro
    all_goals exact StableHlo.devRef_ne_of_ne (fun e => by subst e; exact absurd hr (by decide)))

/-- So the region finds every argument array as launched. -/
theorem V_keeps_arg (r : Ref sig .tc) (hr : r.idx.val < 8) (c : Dev nD) : V m c r = m ((c : Thread nD τ).loc r) :=
  StableHlo.after_of_forall_not_mem (b := Proc.devRef .tc r) _ _ (pre_keeps_arg r hr)

theorem V_main_arg0 (c : Dev nD) : V m c main_arg0 = m ((c : Thread nD τ).loc main_arg0) := V_keeps_arg m main_arg0 (by decide) c
theorem V_main_arg1 (c : Dev nD) : V m c main_arg1 = m ((c : Thread nD τ).loc main_arg1) := V_keeps_arg m main_arg1 (by decide) c
theorem V_main_arg2 (c : Dev nD) : V m c main_arg2 = m ((c : Thread nD τ).loc main_arg2) := V_keeps_arg m main_arg2 (by decide) c
theorem V_main_arg3 (c : Dev nD) : V m c main_arg3 = m ((c : Thread nD τ).loc main_arg3) := V_keeps_arg m main_arg3 (by decide) c
theorem V_main_arg4 (c : Dev nD) : V m c main_arg4 = m ((c : Thread nD τ).loc main_arg4) := V_keeps_arg m main_arg4 (by decide) c
theorem V_main_arg5 (c : Dev nD) : V m c main_arg5 = m ((c : Thread nD τ).loc main_arg5) := V_keeps_arg m main_arg5 (by decide) c
theorem V_main_arg6 (c : Dev nD) : V m c main_arg6 = m ((c : Thread nD τ).loc main_arg6) := V_keeps_arg m main_arg6 (by decide) c
theorem V_main_arg7 (c : Dev nD) : V m c main_arg7 = m ((c : Thread nD τ).loc main_arg7) := V_keeps_arg m main_arg7 (by decide) c

/-! ## After the region -/

/-- Neither slice after the region writes `main_arg0`, which is no window's array: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      writes_simp
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The same of `main_arg1`. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      writes_simp
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- `main_arg2` is input window 1's array: the slices do not write it, an input window's array is never written
    back, and the region found it as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      writes_simp
      repeat' apply And.intro
      all_goals exact StableHlo.devRef_ne_of_ne (by decide)))]
  exact (Pipeline.withArrays_arr _ launch0.win.arr_inj c _ _ (1 : Fin 8)).trans
    (((dats m 0 c).arrAt_in 1 rfl _).trans ((A_eq m c 1).trans (V_main_arg2 m c)))

/-- `main_arg3` is input window 2's array. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      writes_simp
      repeat' apply And.intro
      all_goals exact StableHlo.devRef_ne_of_ne (by decide)))]
  exact (Pipeline.withArrays_arr _ launch0.win.arr_inj c _ _ (2 : Fin 8)).trans
    (((dats m 0 c).arrAt_in 2 rfl _).trans ((A_eq m c 2).trans (V_main_arg3 m c)))

/-- `main_arg4` is input window 3's array. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      writes_simp
      repeat' apply And.intro
      all_goals exact StableHlo.devRef_ne_of_ne (by decide)))]
  exact (Pipeline.withArrays_arr _ launch0.win.arr_inj c _ _ (3 : Fin 8)).trans
    (((dats m 0 c).arrAt_in 3 rfl _).trans ((A_eq m c 3).trans (V_main_arg4 m c)))

/-- `main_arg5` is input window 4's array. -/
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      writes_simp
      repeat' apply And.intro
      all_goals exact StableHlo.devRef_ne_of_ne (by decide)))]
  exact (Pipeline.withArrays_arr _ launch0.win.arr_inj c _ _ (4 : Fin 8)).trans
    (((dats m 0 c).arrAt_in 4 rfl _).trans ((A_eq m c 4).trans (V_main_arg5 m c)))

/-- `main_arg6` is input window 5's array. -/
theorem W_main_arg6 (c : Dev nD) :
    Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      writes_simp
      repeat' apply And.intro
      all_goals exact StableHlo.devRef_ne_of_ne (by decide)))]
  exact (Pipeline.withArrays_arr _ launch0.win.arr_inj c _ _ (5 : Fin 8)).trans
    (((dats m 0 c).arrAt_in 5 rfl _).trans ((A_eq m c 5).trans (V_main_arg6 m c)))

/-- `main_arg7` is input window 6's array. -/
theorem W_main_arg7 (c : Dev nD) :
    Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      writes_simp
      repeat' apply And.intro
      all_goals exact StableHlo.devRef_ne_of_ne (by decide)))]
  exact (Pipeline.withArrays_arr _ launch0.win.arr_inj c _ _ (6 : Fin 8)).trans
    (((dats m 0 c).arrAt_in 6 rfl _).trans ((A_eq m c 6).trans (V_main_arg7 m c)))

end Cert.Kernel.Hand

end
-- ==== Proof.KFrameB.lean ====
import proofs.«171612_j42777874268460_1_alg».proof.Proof.KFrameDefsB
import proofs.«171612_j42777874268460_1_alg».proof.Proof.KFrameArgsB

/-! The frame of the one-region program, over the definitions and the host-side lemmas: @main around its region, the
    body's triple, the body obligation, the run, and the frame claim at any float model. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- @main is the nineteen stretches, the region, the two slices: it reduces to the region continued by the slices, at
    the contents after the stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-! ## The body -/

/-- The four column stores tile the output block, so they cover it. -/
theorem cover0_7 (p0 p1 p2 p3 : FVec F S2048x1 .f32) (y : S2048x4.Idx) :
    ∃ pc ∈ ([⟨col3, p3⟩, ⟨col2, p2⟩, ⟨col1, p1⟩, ⟨col0, p0⟩] : List (View.Piece (Elt F) S2048x4 .f32)), y ∈ pc.1.set :=
  View.cover_of_tiled (Val := Elt F) ([⟨col3, p3⟩, ⟨col2, p2⟩, ⟨col1, p1⟩, ⟨col0, p0⟩] : List (View.Piece (Elt F) S2048x4 .f32)) S2048x1.size (by rfl) y

/-- A load of a whole block, through the rectangle of the block's extents at zero offsets, reads the block. -/
theorem readAt_all {κ : Kind} {sp : Space} {S : Shape} {e : EltTy} (v : View sig κ sp S e) (off : Fin S.rank → Nat)
    (h0 : ∀ a, off a = 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero (funext h0) inb _)

set_option maxHeartbeats 4000000 in
/-- The kernel body on whole staging memrefs, the seven inputs' at read contents `x0 … x6` and the output's at anything:
    it returns holding the inputs' as they were and the output's at `out0_7` of the inputs. The four loads of the output
    buffer read whatever is there and their values go nowhere. -/
theorem sound_kernel (c : Dev nD) (E : Set ℕ) (i : grid0.Coords)
    (a1 : Memref sig .tc .vmem S2048x67 .f32) (h1 : a1.IsWhole) (a2 : Memref sig .tc .vmem S128x19 .f32) (h2 : a2.IsWhole)
    (a3 : Memref sig .tc .vmem S128 .f32) (h3 : a3.IsWhole) (a4 : Memref sig .tc .vmem S128x128 .f32) (h4 : a4.IsWhole)
    (a5 : Memref sig .tc .vmem S128 .f32) (h5 : a5.IsWhole) (a6 : Memref sig .tc .vmem S1x128 .f32) (h6 : a6.IsWhole)
    (a7 : Memref sig .tc .vmem S1 .f32) (h7 : a7.IsWhole) (a8 : Memref sig .tc .vmem S2048x4 .f32) (h8 : a8.IsWhole)
    (x0 : Vec F S2048x67 .f32) (x1 : Vec F S128x19 .f32) (x2 : Vec F S128 .f32) (x3 : Vec F S128x128 .f32)
    (x4 : Vec F S128 .f32) (x5 : Vec F S1x128 .f32) (x6 : Vec F S1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare (out0_7 x0 x1 x2 x3 x4 x5 x6)) -∗ K ⟨⟩))
      ⊢ wp frame (wpE (defs₀ (F := F)) Variants.none c none) E (cc0__mlp_kernel i a1 h1 a2 h2 a3 h3 a4 h4 a5 h5 a6 h6 a7 h7 a8 h8) K := by
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_unfold [cc0__mlp_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover0_7 _ _ _ _)]
  sl_unfold_run_names
  have r0 := readAt_all (F := F) a1.view ![0, 0] (by decide) inb_S2048x67_S2048x67_0_0 f0
  have r1 := readAt_all (F := F) a2.view ![0, 0] (by decide) inb_S128x19_S128x19_0_0 f1
  have r2 := readAt_all (F := F) a3.view ![0] (by decide) inb_S128_S128_0 f2
  have r3 := readAt_all (F := F) a4.view ![0, 0] (by decide) inb_S128x128_S128x128_0_0 f3
  have r4 := readAt_all (F := F) a5.view ![0] (by decide) inb_S128_S128_0 f4
  have r5 := readAt_all (F := F) a6.view ![0, 0] (by decide) inb_S1x128_S1x128_0_0 f5
  have r6 := readAt_all (F := F) a7.view ![0] (by decide) inb_S1_S1_0 f6
  unfold out0_7
  rw [r0, r1, r2, r3, r4, r5, r6]

/-! ## The inputs' buffers before the body -/

/-- An input window's current staging buffer holds its block at every point, fetched there or not: unfetched, the block
    index has not moved; the windows are uncut and never idle. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)

/-! ## The body obligation -/

/-- What the body is called with at point `t`: the invariant, the core's dues, and each window's current staging buffer
    at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns: the same with each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCore terminates, and every
    final state has each array of the pipeline at what the library computes from the proof data and every other
    unscoped buffer as the two slices leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An input window's array ends as launched: the pipeline never writes it back, and it entered the region as launched. -/
theorem arr_in (c : Dev nD) (w : Fin cfg0.W) (hw : (cfg0.win w).isOut = false)
    (hV : V m c (Pipeline.arrRef spec0 w) = m ((c : Thread nD τ).loc (Pipeline.arrRef spec0 w))) :
    (dats m 0 c).arrAt w cfg0.N = m ((c : Thread nD τ).loc (Pipeline.arrRef spec0 w)) :=
  ((dats m 0 c).arrAt_in w hw _).trans ((A_eq m c w).trans hV)

/-- THE FRAME: @main runs and every argument array ends as launched — the two the region never sees by the run's
    second clause and the slices' writing neither, the six staged inputs by the first. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).1 1).trans (arr_in m c 1 rfl (V_main_arg2 m c)),
     ((h c).1 2).trans (arr_in m c 2 rfl (V_main_arg3 m c)),
     ((h c).1 3).trans (arr_in m c 3 rfl (V_main_arg4 m c)),
     ((h c).1 4).trans (arr_in m c 4 rfl (V_main_arg5 m c)),
     ((h c).1 5).trans (arr_in m c 5 rfl (V_main_arg6 m c)),
     ((h c).1 6).trans (arr_in m c 6 rfl (V_main_arg7 m c))⟩) (run_main m ρ)

end Cert.Kernel.Hand

end
-- ==== Proof.Spec.lean ====
/-
  The mathematics both programs compute for ONE sample point, on the extended reals.

  A point carries its fractional cell coordinates `fx fy fz`, its position `p` (three coordinates), and the
  eight grid rows `G c` (sixteen features each) at the corners of its cell, corner `c = 4·dx + 2·dy + dz`.
  The trilinear weight of a corner is the product of one factor per axis, `f` on the far side and `1 - f`
  on the near side; the embedding is the weighted sum of the eight rows, and its derivative in a coordinate
  replaces that coordinate's factor by `± 127` (the grid has 128 nodes a side, so a unit of position is 127
  cells).  The network is sin(30·(W0·[emb, p] + b0)) → sin(30·(W1·a0 + b1)) → Wo·a1 + bo, and the gradient of
  its output in `p` is the chain rule through the two sines, through W0's last three columns directly and
  through its first sixteen columns composed with the embedding's derivative.

  The kernel's side (`k…`) contracts the embedding's derivative rows with the back-propagated
  embedding gradient; the reference's side (`r…`) back-propagates to each corner's scalar weight first and
  then to the three fractional coordinates.  Over the reals the two are one polynomial identity
  (distributivity), which is why every quantity has to be finite.
-/
import Idealize.ShloMosaic.PureOps.Ideal

noncomputable section

namespace Cert.Spec

open Idealize.ShloMosaic

/-! ## The float literals of the two programs, read at the ideal instance -/

def c0 : EReal := Ideal.ofBits .f32 0x00000000#32
def c1 : EReal := Ideal.ofBits .f32 0x3F800000#32
def c30 : EReal := Ideal.ofBits .f32 0x41F00000#32
def c127 : EReal := Ideal.ofBits .f32 0x42FE0000#32
def cm127 : EReal := Ideal.ofBits .f32 0xC2FE0000#32

/-! ## The data -/

/-- The network's weights. -/
structure Wts where
  W0 : Fin 128 → Fin 19 → EReal
  b0 : Fin 128 → EReal
  W1 : Fin 128 → Fin 128 → EReal
  b1 : Fin 128 → EReal
  Wo : Fin 128 → EReal
  bo : EReal

/-- One sample point: fractional coordinates, position, and the eight corner rows of the grid. -/
structure Pt where
  fx : EReal
  fy : EReal
  fz : EReal
  p : Fin 3 → EReal
  G : Fin 8 → Fin 16 → EReal

/-- One row of the kernel's feature matrix: embedding, its three derivative rows, position. -/
structure Feat where
  emb : Fin 16 → EReal
  ddx : Fin 16 → EReal
  ddy : Fin 16 → EReal
  ddz : Fin 16 → EReal
  p : Fin 3 → EReal

/-! ## Corners -/

def dxOf (c : Fin 8) : Bool := decide (4 ≤ c.val)
def dyOf (c : Fin 8) : Bool := decide ((c.val / 2) % 2 = 1)
def dzOf (c : Fin 8) : Bool := decide (c.val % 2 = 1)

/-- An axis' factor of a corner's weight: `f` on the far side, `1 - f` on the near side. -/
def wsel (f : EReal) (far : Bool) : EReal := if far then f else c1 - f
/-- The derivative of that factor in `f`, times the 127 cells a unit of position spans. -/
def ssel (far : Bool) : EReal := if far then c127 else cm127

def wx (P : Pt) (c : Fin 8) : EReal := wsel P.fx (dxOf c)
def wy (P : Pt) (c : Fin 8) : EReal := wsel P.fy (dyOf c)
def wz (P : Pt) (c : Fin 8) : EReal := wsel P.fz (dzOf c)

/-- The corner's trilinear weight. -/
def wt (P : Pt) (c : Fin 8) : EReal := (wx P c * wy P c) * wz P c
/-- Its derivatives in the three position coordinates. -/
def ux (P : Pt) (c : Fin 8) : EReal := (ssel (dxOf c) * wy P c) * wz P c
def uy (P : Pt) (c : Fin 8) : EReal := (ssel (dyOf c) * wx P c) * wz P c
def uz (P : Pt) (c : Fin 8) : EReal := (ssel (dzOf c) * wx P c) * wy P c

/-- The eight corners accumulated in order onto zero. -/
def chain8 (t : Fin 8 → EReal) : EReal :=
  (((((((c0 + t 0) + t 1) + t 2) + t 3) + t 4) + t 5) + t 6) + t 7

def emb (P : Pt) (e : Fin 16) : EReal := chain8 fun c => P.G c e * wt P c
def ddx (P : Pt) (e : Fin 16) : EReal := chain8 fun c => P.G c e * ux P c
def ddy (P : Pt) (e : Fin 16) : EReal := chain8 fun c => P.G c e * uy P c
def ddz (P : Pt) (e : Fin 16) : EReal := chain8 fun c => P.G c e * uz P c

/-- The feature row the kernel's host side builds for a point. -/
def featOf (P : Pt) : Feat := ⟨emb P, ddx P, ddy P, ddz P, P.p⟩

/-! ## The kernel's network, forward and backward, on one feature row -/

section Kernel
variable (W : Wts) (φ : Feat)

def kz0 (j : Fin 128) : EReal :=
  ((∑ e : Fin 16, φ.emb e * W.W0 j (Fin.castAdd 3 e)) + (∑ a : Fin 3, φ.p a * W.W0 j (Fin.natAdd 16 a))) + W.b0 j
def karg0 (j : Fin 128) : EReal := c30 * kz0 W φ j
def ka0 (j : Fin 128) : EReal := Ideal.sin (karg0 W φ j)
def kc0 (j : Fin 128) : EReal := Ideal.cos (karg0 W φ j)
def kz1 (j : Fin 128) : EReal := (∑ k : Fin 128, ka0 W φ k * W.W1 j k) + W.b1 j
def karg1 (j : Fin 128) : EReal := c30 * kz1 W φ j
def ka1 (j : Fin 128) : EReal := Ideal.sin (karg1 W φ j)
def kc1 (j : Fin 128) : EReal := Ideal.cos (karg1 W φ j)
/-- The network's output. -/
def kout : EReal := (∑ k : Fin 128, ka1 W φ k * W.Wo k) + W.bo
def kgz1 (j : Fin 128) : EReal := W.Wo j * (c30 * kc1 W φ j)
def kga0 (k : Fin 128) : EReal := ∑ j : Fin 128, kgz1 W φ j * W.W1 j k
def kgz0 (k : Fin 128) : EReal := kga0 W φ k * (c30 * kc0 W φ k)
def kdemb (e : Fin 16) : EReal := ∑ k : Fin 128, kgz0 W φ k * W.W0 k (Fin.castAdd 3 e)
def kdpos (a : Fin 3) : EReal := ∑ k : Fin 128, kgz0 W φ k * W.W0 k (Fin.natAdd 16 a)
/-- The derivative rows of the embedding, by coordinate. -/
def dd (a : Fin 3) : Fin 16 → EReal := match a with | 0 => φ.ddx | 1 => φ.ddy | 2 => φ.ddz
/-- The gradient of the output in position coordinate `a`. -/
def kg (a : Fin 3) : EReal := kdpos W φ a + ∑ e : Fin 16, dd φ a e * kdemb W φ e

end Kernel

/-! ## The reference's network and its reverse-mode gradient, on one point -/

section Reference
variable (W : Wts) (P : Pt)

/-- The network's input row: the embedding followed by the position. -/
def rh : Fin 19 → EReal := Fin.append (emb P) P.p
def rz0 (j : Fin 128) : EReal := (∑ k : Fin 19, rh P k * W.W0 j k) + W.b0 j
def rarg0 (j : Fin 128) : EReal := c30 * rz0 W P j
def ra0 (j : Fin 128) : EReal := Ideal.sin (rarg0 W P j)
def rc0 (j : Fin 128) : EReal := Ideal.cos (rarg0 W P j)
def rz1 (j : Fin 128) : EReal := (∑ k : Fin 128, ra0 W P k * W.W1 j k) + W.b1 j
def rarg1 (j : Fin 128) : EReal := c30 * rz1 W P j
def ra1 (j : Fin 128) : EReal := Ideal.sin (rarg1 W P j)
def rc1 (j : Fin 128) : EReal := Ideal.cos (rarg1 W P j)
def rout : EReal := (∑ k : Fin 128, ra1 W P k * W.Wo k) + W.bo
/-- The cotangent of the last layer's input: the unit seed through Wo. -/
def r344 (j : Fin 128) : EReal := c1 * W.Wo j
def r347 (j : Fin 128) : EReal := c30 * (r344 W j * rc1 W P j)
def r348 (k : Fin 128) : EReal := ∑ j : Fin 128, r347 W P j * W.W1 j k
def r351 (k : Fin 128) : EReal := c30 * (r348 W P k * rc0 W P k)
/-- The cotangent of the network's input row. -/
def r352 (i : Fin 19) : EReal := ∑ k : Fin 128, r351 W P k * W.W0 k i
def rD (e : Fin 16) : EReal := r352 W P (Fin.castAdd 3 e)
def rd3 (a : Fin 3) : EReal := r352 W P (Fin.natAdd 16 a)
/-- The cotangent of corner `c`'s scalar weight. -/
def rS (c : Fin 8) : EReal := ∑ e : Fin 16, P.G c e * rD W P e

end Reference

/-! ## From the corners' cotangents to the fractional coordinates' -/

section Tail
variable (P : Pt) (s : Fin 8 → EReal)

/-- Corner `c`'s contribution to the cotangent of `fz`, of `fy` and of `fx` (before the sign of its side),
    from the cotangent `s c` of its scalar weight. -/
def tz (c : Fin 8) : EReal := (wx P c * wy P c) * s c
def ty (c : Fin 8) : EReal := wx P c * (s c * wz P c)
def tx (c : Fin 8) : EReal := (s c * wz P c) * wy P c

/-- The cotangent of `fz`: one term a corner, far corners adding, near corners subtracting, corner 7 first. -/
def Tz : EReal :=
  (((((((tz P s 7 + -(tz P s 6)) + tz P s 5) + -(tz P s 4)) + tz P s 3) + -(tz P s 2)) + tz P s 1) + -(tz P s 0))
/-- The cotangent of `fy`: one term a pair of corners. -/
def Ty : EReal :=
  (((ty P s 7 + ty P s 6) + -(ty P s 5 + ty P s 4)) + (ty P s 3 + ty P s 2)) + -(ty P s 1 + ty P s 0)
/-- The cotangent of `fx`: the four far corners less the four near ones. -/
def Tx : EReal :=
  (((tx P s 7 + tx P s 6) + tx P s 5) + tx P s 4) + -(((tx P s 3 + tx P s 2) + tx P s 1) + tx P s 0)
def T (a : Fin 3) : EReal := match a with | 0 => Tx P s | 1 => Ty P s | 2 => Tz P s

end Tail

section Reference
variable (W : Wts) (P : Pt)

/-- The reference's gradient of the output in position coordinate `a`. -/
def rg (a : Fin 3) : EReal := rd3 W P a + T P (rS W P) a * c127

end Reference

/-! ## Finiteness -/

/-- An extended real that is a real number. -/
def Fin1 (x : EReal) : Prop := ∃ r : ℝ, x = (r : EReal)

structure Wts.Finite (W : Wts) : Prop where
  W0 : ∀ j k, Fin1 (W.W0 j k)
  b0 : ∀ j, Fin1 (W.b0 j)
  W1 : ∀ j k, Fin1 (W.W1 j k)
  b1 : ∀ j, Fin1 (W.b1 j)
  Wo : ∀ k, Fin1 (W.Wo k)
  bo : Fin1 W.bo

structure Pt.Finite (P : Pt) : Prop where
  fx : Fin1 P.fx
  fy : Fin1 P.fy
  fz : Fin1 P.fz
  p : ∀ a, Fin1 (P.p a)
  G : ∀ c e, Fin1 (P.G c e)

end Cert.Spec

end
-- ==== Proof.KPay.lean ====
/-
  The kernel body's pure payloads read at one row.

  The body loads a block of feature rows (embedding, its three derivative rows, position) and the six weight
  arrays, and stores four columns: the network's output and the gradient in each of the three position
  coordinates.  Read at row `r` on the extended reals, where every format change is the identity and a product
  into the zero accumulator is the plain sum, each stored column is the one-point function of the weights and of
  that row: the output `kout`, and for coordinate `a` the gradient `kg a`, the back-propagated position part
  plus the lane sum of the coordinate's derivative row against the back-propagated embedding gradient.  The
  intermediate payloads are the one-point quantities in order: the two layers' arguments, sines and cosines,
  then the cotangents of the hidden layer, of the embedding and of the position.  Only `0 + x = x` is used of
  the arithmetic.
-/
import proofs.«171612_j42777874268460_1_alg».proof.Proof.Gen.KernelIdeal.Skeleton
import proofs.«171612_j42777874268460_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## A rows-by-columns product into the zero accumulator, read at an index

For dimension numbers that contract the left operand's second axis with the right operand's first and keep the
other two, the product at `(p, c)` is the sum over the shared axis of left `(p, k)` times right `(k, c)`. -/

section Plain
variable {M K N : Nat} (D : DotDims ⟨2, ![M, K]⟩ ⟨2, ![K, N]⟩ ⟨2, ![M, N]⟩)

theorem plain_lhs0 (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

theorem plain_rhs1 (hln : D.lhsNonContracting = [0]) (hlb : D.lhsBatch = [])
    (hrn : D.rhsNonContracting = [1]) (hrb : D.rhsBatch = [])
    (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

theorem matmul_plain_apply (hlc : D.lhsContracting = [1]) (hrc : D.rhsContracting = [0])
    (hln : D.lhsNonContracting = [0]) (hrn : D.rhsNonContracting = [1])
    (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (p : Fin M) (c : Fin N) :
    matmul (F := Ideal) D prec lhs rhs (constant (F := Ideal) ⟨2, ![M, N]⟩ .f32 0x00000000#32) (ix2 p c)
      = ∑ k : Fin K, lhs (ix2 p k) * rhs (ix2 k c) := by
  have hr : D.contr.rank = 1 := by rw [D.rank_contr, hlc]; rfl
  have hs : D.contr.size ⟨0, by omega⟩ = K := by
    rw [D.size_contr 0 (by rw [hlc]; exact Nat.one_pos)]
    simp [hlc]
  show FloatOps.matmul D prec lhs rhs (constant (F := Ideal) ⟨2, ![M, N]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact plain_lhs0 D hln hlb _ _
    | ⟨1, _⟩ => exact (D.lhsIdx_val_of_single hlc _ _).trans hk)
  have er : D.rhsIdx (ix2 p c) ((contrEquiv1 D K hr hs).symm k) = ix2 k c := funext fun a => Fin.ext (by
    match a with
    | ⟨0, _⟩ => exact (D.rhsIdx_val_of_single hrc _ _).trans hk
    | ⟨1, _⟩ => exact plain_rhs1 D hln hlb hrn hrb _ _)
  rw [el, er]

end Plain

/-! ## The weights and one feature row, read off the kernel's operands -/

/-- The six weight operands as the network's weights. -/
def wtsB (x1 : Vec Ideal S128x19 .f32) (x2 : Vec Ideal S128 .f32) (x3 : Vec Ideal S128x128 .f32)
    (x4 : Vec Ideal S128 .f32) (x5 : Vec Ideal S1x128 .f32) (x6 : Vec Ideal S1 .f32) : Cert.Spec.Wts :=
  ⟨fun j k => x1 (ix2 j k), fun j => x2 (ix1 j), fun j k => x3 (ix2 j k), fun j => x4 (ix1 j),
    fun k => x5 (ix2 (0 : Fin 1) k), x6 (ix1 (0 : Fin 1))⟩

/-- Row `r` of the feature block: embedding, its three derivative rows, position. -/
def featRowB (x0 : Vec Ideal S2048x67 .f32) (r : Fin 2048) : Cert.Spec.Feat :=
  ⟨fun e => x0 (ix2 r (⟨e.val, by omega⟩ : Fin 67)), fun e => x0 (ix2 r (⟨16 + e.val, by omega⟩ : Fin 67)),
    fun e => x0 (ix2 r (⟨32 + e.val, by omega⟩ : Fin 67)), fun e => x0 (ix2 r (⟨48 + e.val, by omega⟩ : Fin 67)),
    fun a => x0 (ix2 r (⟨64 + a.val, by omega⟩ : Fin 67))⟩

section Payloads
variable (x0 : Vec Ideal S2048x67 .f32) (x1 : Vec Ideal S128x19 .f32) (x2 : Vec Ideal S128 .f32)
  (x3 : Vec Ideal S128x128 .f32) (x4 : Vec Ideal S128 .f32) (x5 : Vec Ideal S1x128 .f32) (x6 : Vec Ideal S1 .f32)

/-! ## The operands' slices and casts at an index -/

theorem pay1_eq : k0_pay1 (F := Ideal) x0 = x0 := by
  unfold k0_pay1
  exact shapeCast_self x0 _

theorem pay2_apply (r : Fin 2048) (e : Fin 16) : k0_pay2 (F := Ideal) x0 (ix2 r e) = (featRowB x0 r).ddx e := by
  unfold k0_pay2
  rw [pay1_eq]
  exact slice2_axis1_apply 16 x0 _ r e (⟨16 + e.val, by omega⟩ : Fin 67) rfl

theorem pay3_apply (r : Fin 2048) (e : Fin 16) : k0_pay3 (F := Ideal) x0 (ix2 r e) = (featRowB x0 r).ddy e := by
  unfold k0_pay3
  rw [pay1_eq]
  exact slice2_axis1_apply 32 x0 _ r e (⟨32 + e.val, by omega⟩ : Fin 67) rfl

theorem pay4_apply (r : Fin 2048) (e : Fin 16) : k0_pay4 (F := Ideal) x0 (ix2 r e) = (featRowB x0 r).ddz e := by
  unfold k0_pay4
  rw [pay1_eq]
  exact slice2_axis1_apply 48 x0 _ r e (⟨48 + e.val, by omega⟩ : Fin 67) rfl

/-- The first sixteen columns of the first layer's matrix. -/
theorem pay5_apply (j : Fin 128) (e : Fin 16) :
    k0_pay5 (F := Ideal) x1 (ix2 j e) = (wtsB x1 x2 x3 x4 x5 x6).W0 j (Fin.castAdd 3 e) := by
  unfold k0_pay5
  rw [truncf_apply]
  exact slice2_axis1_apply 0 x1 _ j e (Fin.castAdd 3 e) (Nat.zero_add _).symm

/-- Its last three columns. -/
theorem pay6_apply (j : Fin 128) (a : Fin 3) :
    k0_pay6 (F := Ideal) x1 (ix2 j a) = (wtsB x1 x2 x3 x4 x5 x6).W0 j (Fin.natAdd 16 a) := by
  unfold k0_pay6
  rw [truncf_apply]
  exact slice2_axis1_apply 16 x1 _ j a (Fin.natAdd 16 a) rfl

theorem pay7_apply (j k : Fin 128) : k0_pay7 (F := Ideal) x3 (ix2 j k) = (wtsB x1 x2 x3 x4 x5 x6).W1 j k := rfl

theorem pay8_apply (k : Fin 128) : k0_pay8 (F := Ideal) x5 (ix2 (0 : Fin 1) k) = (wtsB x1 x2 x3 x4 x5 x6).Wo k := rfl

/-- A bias vector cast to one row and broadcast over the rows reads the bias at the column. -/
theorem bias_apply (b : Vec Ideal S128 .f32) (r : Fin 2048) (j : Fin 128) :
    broadcastTo S2048x128 (shapeCast S1x128 b shapeCasts_S128_S1x128) broadcasts_S1x128_S2048x128 (ix2 r j) = b (ix1 j) := by
  rw [broadcastTo_1b_ab_apply]
  exact shapeCast_a_1a_apply b _ 0 j

/-- The sine and cosine of a vector read at an index. -/
theorem sin_apply {s : Shape} {φ : FTy} (v : FVec Ideal s φ) (i : s.Idx) : sin v i = Ideal.sin (v i) := rfl
theorem cos_apply {s : Shape} {φ : FTy} (v : FVec Ideal s φ) (i : s.Idx) : cos v i = Ideal.cos (v i) := rfl

theorem emb_apply (r : Fin 2048) (e : Fin 16) :
    extractStridedSlice S2048x16 ![0, 0] (k0_pay1 (F := Ideal) x0) slices_S2048x67_o0_0_S2048x16 (ix2 r e)
      = (featRowB x0 r).emb e := by
  rw [pay1_eq]
  exact slice2_axis1_apply 0 x0 _ r e (⟨e.val, by omega⟩ : Fin 67) (Nat.zero_add _).symm

theorem pos_apply (r : Fin 2048) (a : Fin 3) :
    extractStridedSlice S2048x3 ![0, 64] (k0_pay1 (F := Ideal) x0) slices_S2048x67_o0_64_S2048x3 (ix2 r a)
      = (featRowB x0 r).p a := by
  rw [pay1_eq]
  exact slice2_axis1_apply 64 x0 _ r a (⟨64 + a.val, by omega⟩ : Fin 67) rfl

/-- The last layer's row broadcast over the rows reads the weight at the column. -/
theorem wo_row_apply (r : Fin 2048) (j : Fin 128) :
    broadcastTo S2048x128 (shapeCast S1x128 x5 shapeCasts_S1x128_S1x128) broadcasts_S1x128_S2048x128 (ix2 r j)
      = (wtsB x1 x2 x3 x4 x5 x6).Wo j := by
  rw [broadcastTo_1b_ab_apply, shapeCast_self]
  rfl

/-- The output bias broadcast down the column. -/
theorem bo_apply (r : Fin 2048) :
    broadcastTo S2048x1 (shapeCast S1x1 x6 shapeCasts_S1_S1x1) broadcasts_S1x1_S2048x1 (ix2 r (0 : Fin 1))
      = (wtsB x1 x2 x3 x4 x5 x6).bo := by
  rw [broadcastTo_1b_ab_apply]
  exact shapeCast_a_1a_apply x6 _ 0 0

/-- A sum over the sixteen lanes of a row, cast to a column. -/
theorem lanesum_apply (v : FVec Ideal S2048x16 .f32) (hφ : FKind.Formats .f32)
    (hacc : (0x00000000#32 : BitVec FTy.f32.bits) = FKind.add.neutral .f32 hφ) (r : Fin 2048) :
    shapeCast S2048x1 (multiReduction (F := Ideal) .add [1] S2048 v 0x00000000#32 reduces_S2048x16_S2048 hφ hacc)
        shapeCasts_S2048_S2048x1 (ix2 r (0 : Fin 1)) = ∑ e : Fin 16, v (ix2 r e) := by
  refine (shapeCast_apply _ _ _ (ix1 r) ?_).trans ?_
  · rw [Shape.rowMajor_val_two, Shape.rowMajor_val_one]
    show r.val = r.val * 1 + 0
    omega
  refine (Ideal.multiReduction_add_single v _ reduces_S2048x16_S2048 hφ hacc (ix1 r)).trans ?_
  refine Finset.sum_congr rfl fun e _ => congrArg v ?_
  funext a
  match a with
  | ⟨0, _⟩ => rfl
  | ⟨1, _⟩ => rfl

/-! ## The transposed weight operands at an index -/

theorem w0emb_T_apply (k : Fin 16) (j : Fin 128) :
    transpose S16x128 [1, 0] (k0_pay5 (F := Ideal) x1) transposes_S128x16_p1_0_S16x128 (ix2 k j)
      = (wtsB x1 x2 x3 x4 x5 x6).W0 j (Fin.castAdd 3 k) :=
  (transpose_ix2_apply _ _ k j).trans (pay5_apply x1 x2 x3 x4 x5 x6 j k)

theorem w0pos_T_apply (k : Fin 3) (j : Fin 128) :
    transpose S3x128 [1, 0] (k0_pay6 (F := Ideal) x1) transposes_S128x3_p1_0_S3x128 (ix2 k j)
      = (wtsB x1 x2 x3 x4 x5 x6).W0 j (Fin.natAdd 16 k) :=
  (transpose_ix2_apply _ _ k j).trans (pay6_apply x1 x2 x3 x4 x5 x6 j k)

theorem w1_T_apply (k j : Fin 128) :
    transpose S128x128 [1, 0] (k0_pay7 (F := Ideal) x3) transposes_S128x128_p1_0_S128x128 (ix2 k j)
      = (wtsB x1 x2 x3 x4 x5 x6).W1 j k :=
  (transpose_ix2_apply _ _ k j).trans (pay7_apply x1 x2 x3 x4 x5 x6 j k)

theorem wo_T_apply (k : Fin 128) :
    transpose S128x1 [1, 0] (k0_pay8 (F := Ideal) x5) transposes_S1x128_p1_0_S128x1 (ix2 k (0 : Fin 1))
      = (wtsB x1 x2 x3 x4 x5 x6).Wo k :=
  (transpose_ix2_apply _ _ k (0 : Fin 1)).trans (pay8_apply x1 x2 x3 x4 x5 x6 k)

/-! ## The first layer -/

theorem pay9_apply (r : Fin 2048) (j : Fin 128) :
    k0_pay9 (F := Ideal) x0 x1 x2 (ix2 r j) = Cert.Spec.karg0 (wtsB x1 x2 x3 x4 x5 x6) (featRowB x0 r) j := by
  unfold k0_pay9
  simp only [mulf_apply, addf_apply, broadcast_apply]
  rw [matmul_plain_apply _ rfl rfl rfl rfl rfl rfl, matmul_plain_apply _ rfl rfl rfl rfl rfl rfl, bias_apply]
  simp only [truncf_apply, emb_apply, pos_apply, w0emb_T_apply x1 x2 x3 x4 x5 x6, w0pos_T_apply x1 x2 x3 x4 x5 x6]
  rfl

theorem pay10_apply (r : Fin 2048) (j : Fin 128) :
    k0_pay10 (F := Ideal) x0 x1 x2 (ix2 r j) = Cert.Spec.kc0 (wtsB x1 x2 x3 x4 x5 x6) (featRowB x0 r) j := by
  unfold k0_pay10
  rw [cos_apply, pay9_apply x0 x1 x2 x3 x4 x5 x6]
  rfl

/-! ## The second layer and the output -/

theorem pay11_apply (r : Fin 2048) (j : Fin 128) :
    k0_pay11 (F := Ideal) x0 x1 x2 x3 x4 (ix2 r j) = Cert.Spec.karg1 (wtsB x1 x2 x3 x4 x5 x6) (featRowB x0 r) j := by
  unfold k0_pay11
  simp only [mulf_apply, addf_apply, broadcast_apply]
  rw [matmul_plain_apply _ rfl rfl rfl rfl rfl rfl, bias_apply]
  simp only [truncf_apply, sin_apply, pay9_apply x0 x1 x2 x3 x4 x5 x6, w1_T_apply x1 x2 x3 x4 x5 x6]
  rfl

theorem pay12_apply (r : Fin 2048) (j : Fin 128) :
    k0_pay12 (F := Ideal) x0 x1 x2 x3 x4 (ix2 r j) = Cert.Spec.ka1 (wtsB x1 x2 x3 x4 x5 x6) (featRowB x0 r) j := by
  unfold k0_pay12
  rw [sin_apply, pay11_apply x0 x1 x2 x3 x4 x5 x6]
  rfl

theorem pay13_apply (r : Fin 2048) (j : Fin 128) :
    k0_pay13 (F := Ideal) x0 x1 x2 x3 x4 (ix2 r j) = Cert.Spec.kc1 (wtsB x1 x2 x3 x4 x5 x6) (featRowB x0 r) j := by
  unfold k0_pay13
  rw [cos_apply, pay11_apply x0 x1 x2 x3 x4 x5 x6]
  rfl

theorem pay_out (r : Fin 2048) :
    k0_pay14 (F := Ideal) x6 (k0_pay8 x5) (k0_pay12 x0 x1 x2 x3 x4) (ix2 r (0 : Fin 1))
      = Cert.Spec.kout (wtsB x1 x2 x3 x4 x5 x6) (featRowB x0 r) := by
  unfold k0_pay14
  simp only [addf_apply]
  rw [matmul_plain_apply _ rfl rfl rfl rfl rfl rfl, bo_apply x1 x2 x3 x4 x5 x6]
  simp only [truncf_apply, pay12_apply x0 x1 x2 x3 x4 x5 x6, wo_T_apply x1 x2 x3 x4 x5 x6]
  rfl

/-! ## The backward pass -/

theorem pay15_apply (r : Fin 2048) (k : Fin 128) :
    k0_pay15 (F := Ideal) x5 (k0_pay7 x3) (k0_pay10 x0 x1 x2) (k0_pay13 x0 x1 x2 x3 x4) (ix2 r k)
      = Cert.Spec.kgz0 (wtsB x1 x2 x3 x4 x5 x6) (featRowB x0 r) k := by
  unfold k0_pay15
  simp only [truncf_apply, mulf_apply, broadcast_apply]
  rw [matmul_plain_apply _ rfl rfl rfl rfl rfl rfl]
  simp only [truncf_apply, mulf_apply, broadcast_apply, wo_row_apply x1 x2 x3 x4 x5 x6,
    pay13_apply x0 x1 x2 x3 x4 x5 x6, pay10_apply x0 x1 x2 x3 x4 x5 x6, pay7_apply x1 x2 x3 x4 x5 x6]
  rfl

theorem pay16_apply (r : Fin 2048) (e : Fin 16) :
    k0_pay16 (F := Ideal) x5 (k0_pay5 x1) (k0_pay7 x3) (k0_pay10 x0 x1 x2) (k0_pay13 x0 x1 x2 x3 x4) (ix2 r e)
      = Cert.Spec.kdemb (wtsB x1 x2 x3 x4 x5 x6) (featRowB x0 r) e := by
  unfold k0_pay16
  rw [matmul_plain_apply _ rfl rfl rfl rfl rfl rfl]
  simp only [pay15_apply x0 x1 x2 x3 x4 x5 x6, pay5_apply x1 x2 x3 x4 x5 x6]
  rfl

theorem pay17_apply (r : Fin 2048) (a : Fin 3) :
    k0_pay17 (F := Ideal) x5 (k0_pay6 x1) (k0_pay7 x3) (k0_pay10 x0 x1 x2) (k0_pay13 x0 x1 x2 x3 x4) (ix2 r a)
      = Cert.Spec.kdpos (wtsB x1 x2 x3 x4 x5 x6) (featRowB x0 r) a := by
  unfold k0_pay17
  rw [matmul_plain_apply _ rfl rfl rfl rfl rfl rfl]
  simp only [pay15_apply x0 x1 x2 x3 x4 x5 x6, pay6_apply x1 x2 x3 x4 x5 x6]
  rfl

/-! ## The three gradient columns -/

theorem pay_gx (r : Fin 2048) :
    k0_pay18 (F := Ideal) (k0_pay2 x0) x5 (k0_pay5 x1) (k0_pay6 x1) (k0_pay7 x3) (k0_pay10 x0 x1 x2)
        (k0_pay13 x0 x1 x2 x3 x4) (ix2 r (0 : Fin 1))
      = Cert.Spec.kg (wtsB x1 x2 x3 x4 x5 x6) (featRowB x0 r) 0 := by
  unfold k0_pay18
  simp only [addf_apply]
  refine congrArg₂ (· + ·) ?_ ((lanesum_apply _ _ _ r).trans ?_)
  · exact (slice2_axis1_apply 0 _ _ r (0 : Fin 1) (0 : Fin 3) rfl).trans (pay17_apply x0 x1 x2 x3 x4 x5 x6 r 0)
  · refine Finset.sum_congr rfl fun e _ => ?_
    rw [mulf_apply, pay2_apply, pay16_apply x0 x1 x2 x3 x4 x5 x6]
    rfl

theorem pay_gy (r : Fin 2048) :
    k0_pay19 (F := Ideal) (k0_pay3 x0) x5 (k0_pay5 x1) (k0_pay6 x1) (k0_pay7 x3) (k0_pay10 x0 x1 x2)
        (k0_pay13 x0 x1 x2 x3 x4) (ix2 r (0 : Fin 1))
      = Cert.Spec.kg (wtsB x1 x2 x3 x4 x5 x6) (featRowB x0 r) 1 := by
  unfold k0_pay19
  simp only [addf_apply]
  refine congrArg₂ (· + ·) ?_ ((lanesum_apply _ _ _ r).trans ?_)
  · exact (slice2_axis1_apply 1 _ _ r (0 : Fin 1) (1 : Fin 3) rfl).trans (pay17_apply x0 x1 x2 x3 x4 x5 x6 r 1)
  · refine Finset.sum_congr rfl fun e _ => ?_
    rw [mulf_apply, pay3_apply, pay16_apply x0 x1 x2 x3 x4 x5 x6]
    rfl

theorem pay_gz (r : Fin 2048) :
    k0_pay20 (F := Ideal) (k0_pay4 x0) x5 (k0_pay5 x1) (k0_pay6 x1) (k0_pay7 x3) (k0_pay10 x0 x1 x2)
        (k0_pay13 x0 x1 x2 x3 x4) (ix2 r (0 : Fin 1))
      = Cert.Spec.kg (wtsB x1 x2 x3 x4 x5 x6) (featRowB x0 r) 2 := by
  unfold k0_pay20
  simp only [addf_apply]
  refine congrArg₂ (· + ·) ?_ ((lanesum_apply _ _ _ r).trans ?_)
  · exact (slice2_axis1_apply 2 _ _ r (0 : Fin 1) (2 : Fin 3) rfl).trans (pay17_apply x0 x1 x2 x3 x4 x5 x6 r 2)
  · refine Finset.sum_congr rfl fun e _ => ?_
    rw [mulf_apply, pay4_apply, pay16_apply x0 x1 x2 x3 x4 x5 x6]
    rfl

end Payloads

end Cert.KernelIdeal.Pay

end
-- ==== Proof.Atoms.lean ====
/-
  From arrays to one point's data.  The fractional coordinates, the position and the eight corner rows of sample
  point `n` are read off the reference's own stages (its slices of the fractional-coordinate array, its
  affine image of the positions, its eight gathers); the weights are the argument arrays read entry by entry; a
  feature row is a row of the kernel's 67-column feature matrix, cut at columns 16, 32, 48 and 64.
-/
import proofs.«171612_j42777874268460_1_alg».proof.Proof.RefRead
import proofs.«171612_j42777874268460_1_alg».proof.Proof.Spec
import Idealize.ShloMosaic.Lib.ValueIdx

noncomputable section

namespace Cert.Atoms

open Idealize.ShloMosaic Idealize.ShloMosaic.ValueIdx Cert.ReferenceIdeal Cert.ReferenceIdeal.ReadP

/-- A float array of shape `s` at the ideal instance: a function from its indices to the extended reals. -/
abbrev Arr (s : Shape) := (⟨s, .f32⟩ : BufTy).Contents (Elt Ideal)

/-- The eight corner rows, as the reference's eight gathers (corner `4·dx + 2·dy + dz`). -/
def Gs (c : Fin 8) (x0 : Arr S524288x3) (x1 : Arr S128x128x128x16) : Arr S524288x16 :=
  match c with
  | 0 => val_main_v51 (F := Ideal) x0 x1
  | 1 => val_main_v86 (F := Ideal) x0 x1
  | 2 => val_main_v125 (F := Ideal) x0 x1
  | 3 => val_main_v160 (F := Ideal) x0 x1
  | 4 => val_main_v203 (F := Ideal) x0 x1
  | 5 => val_main_v238 (F := Ideal) x0 x1
  | 6 => val_main_v277 (F := Ideal) x0 x1
  | 7 => val_main_v312 (F := Ideal) x0 x1

/-- The flat row index of corner `c` into the 2097152-row table, after the wrap of a negative index: the
    reference's eight index selections. -/
def Idx (c : Fin 8) (x0 : Arr S524288x3) : (⟨S524288, .i32⟩ : BufTy).Contents (Elt Ideal) :=
  match c with
  | 0 => val_main_v49 (F := Ideal) x0
  | 1 => val_main_v84 (F := Ideal) x0
  | 2 => val_main_v123 (F := Ideal) x0
  | 3 => val_main_v158 (F := Ideal) x0
  | 4 => val_main_v201 (F := Ideal) x0
  | 5 => val_main_v236 (F := Ideal) x0
  | 6 => val_main_v275 (F := Ideal) x0
  | 7 => val_main_v310 (F := Ideal) x0

/-- Every corner's row index lies inside the table, as signed 32-bit words. -/
def InRange (x0 : Arr S524288x3) : Prop :=
  ∀ (c : Fin 8) (n : Fin 524288), (0#32).sle (Idx c x0 (ix1 n)) = true ∧ (Idx c x0 (ix1 n)).sle 2097151#32 = true

/-- Sample point `n`'s data, from the positions `x0` and the grid `x1`. -/
def ptOf (x0 : Arr S524288x3) (x1 : Arr S128x128x128x16) (n : Fin 524288) : Spec.Pt where
  fx := val_main_v14 (F := Ideal) x0 (ix1 n)
  fy := val_main_v18 (F := Ideal) x0 (ix1 n)
  fz := val_main_v22 (F := Ideal) x0 (ix1 n)
  p a := val_main_v3 (F := Ideal) x0 (ix2 n a)
  G c e := Gs c x0 x1 (ix2 n e)

/-- The weights, from the six weight arrays. -/
def wtsOf (x2 : Arr S128x19) (x3 : Arr S128) (x4 : Arr S128x128) (x5 : Arr S128) (x6 : Arr S1x128) (x7 : Arr S1) : Spec.Wts where
  W0 j k := x2 (ix2 j k)
  b0 j := x3 (ix1 j)
  W1 j k := x4 (ix2 j k)
  b1 j := x5 (ix1 j)
  Wo k := x6 (ix2 (0 : Fin 1) k)
  bo := x7 (ix1 (0 : Fin 1))

/-- Row `n` of a 67-column feature matrix, cut into embedding, three derivative rows and position. -/
def featRow (feat : Arr ⟨2, ![524288, 67]⟩) (n : Fin 524288) : Spec.Feat where
  emb e := feat (ix2 n (⟨e.val, by omega⟩ : Fin 67))
  ddx e := feat (ix2 n (⟨16 + e.val, by omega⟩ : Fin 67))
  ddy e := feat (ix2 n (⟨32 + e.val, by omega⟩ : Fin 67))
  ddz e := feat (ix2 n (⟨48 + e.val, by omega⟩ : Fin 67))
  p a := feat (ix2 n (⟨64 + a.val, by omega⟩ : Fin 67))

end Cert.Atoms

end
-- ==== Proof.KValue.lean ====
/-
  The kernel program's two results, read off its frame.

  The region runs on 256 grid points; point `t` reads rows `2048·t … 2048·t + 2047` of the 524288x67 feature matrix and
  the six weight arrays whole, and writes rows `2048·t … 2048·t + 2047` of a 524288x4 result: column 0 the network's
  value at the row, columns 1, 2, 3 its partial derivatives in the three position coordinates.  The body stores the four
  columns of its 2048x4 block one at a time; each column's payload at row `r` is the one-point function of the
  weights and of row `r` of the feature block.  So the block point `t` writes back is block `t` of ONE function of the
  arrays the region finds, the blocks tile the result, and the result array ends holding that function.  Two host slices
  then cut it into column 0 and columns 1..3, the program's results.
-/
import proofs.«171612_j42777874268460_1_alg».proof.Proof.KFrame
import proofs.«171612_j42777874268460_1_alg».proof.Proof.KPay
import proofs.«171612_j42777874268460_1_alg».proof.Proof.Atoms
import Idealize.ShloMosaic.Lib.Pipeline.Value
import Idealize.ShloMosaic.Lib.Pipeline.FrameSuffix
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Value

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

/-! ## One block: the four stored columns, row by row -/

/-- One row of the result: column 0 the network's value, columns 1, 2, 3 its three partial derivatives. -/
def rowOut (W : Cert.Spec.Wts) (φ : Cert.Spec.Feat) : Fin 4 → EReal
  | ⟨0, _⟩ => Cert.Spec.kout W φ
  | ⟨k + 1, h⟩ => Cert.Spec.kg W φ ⟨k, by omega⟩

/-- Every index of the 2048x4 block lies in one of its four columns. -/
theorem cover_cols (p0 p1 p2 p3 : S2048x1.Idx → Elt Ideal .f32) (y : S2048x4.Idx) :
    ∃ p ∈ ([⟨col3, p3⟩, ⟨col2, p2⟩, ⟨col1, p1⟩, ⟨col0, p0⟩] : List (View.Piece (Elt Ideal) S2048x4 .f32)), y ∈ p.1.set := by
  have h0 : (y 0).val < 2048 := (y 0).isLt
  have h1 : (y 1).val < 4 := (y 1).isLt
  have hc : (y 1).val = 0 ∨ (y 1).val = 1 ∨ (y 1).val = 2 ∨ (y 1).val = 3 := by omega
  rcases hc with h | h | h | h
  · refine ⟨⟨col0, p0⟩, by simp, ?_⟩
    show y ∈ (Rect.unit (s := S2048x4) ![0, 0] S2048x1.size inb_S2048x4_S2048x1_0_0).set
    rw [Rect.mem_set_unit]
    intro a
    match a with
    | ⟨0, _⟩ => show 0 ≤ (y 0).val ∧ (y 0).val < 0 + 2048; omega
    | ⟨1, _⟩ => show 0 ≤ (y 1).val ∧ (y 1).val < 0 + 1; omega
  · refine ⟨⟨col1, p1⟩, by simp, ?_⟩
    show y ∈ (Rect.unit (s := S2048x4) ![0, 1] S2048x1.size inb_S2048x4_S2048x1_0_1).set
    rw [Rect.mem_set_unit]
    intro a
    match a with
    | ⟨0, _⟩ => show 0 ≤ (y 0).val ∧ (y 0).val < 0 + 2048; omega
    | ⟨1, _⟩ => show 1 ≤ (y 1).val ∧ (y 1).val < 1 + 1; omega
  · refine ⟨⟨col2, p2⟩, by simp, ?_⟩
    show y ∈ (Rect.unit (s := S2048x4) ![0, 2] S2048x1.size inb_S2048x4_S2048x1_0_2).set
    rw [Rect.mem_set_unit]
    intro a
    match a with
    | ⟨0, _⟩ => show 0 ≤ (y 0).val ∧ (y 0).val < 0 + 2048; omega
    | ⟨1, _⟩ => show 2 ≤ (y 1).val ∧ (y 1).val < 2 + 1; omega
  · refine ⟨⟨col3, p3⟩, by simp, ?_⟩
    show y ∈ (Rect.unit (s := S2048x4) ![0, 3] S2048x1.size inb_S2048x4_S2048x1_0_3).set
    rw [Rect.mem_set_unit]
    intro a
    match a with
    | ⟨0, _⟩ => show 0 ≤ (y 0).val ∧ (y 0).val < 0 + 2048; omega
    | ⟨1, _⟩ => show 3 ≤ (y 1).val ∧ (y 1).val < 3 + 1; omega

section Block
variable (x0 : Vec Ideal S2048x67 .f32) (x1 : Vec Ideal S128x19 .f32) (x2 : Vec Ideal S128 .f32)
  (x3 : Vec Ideal S128x128 .f32) (x4 : Vec Ideal S128 .f32) (x5 : Vec Ideal S1x128 .f32) (x6 : Vec Ideal S1 .f32)

/-- The block the body leaves, row by row: each of its 2048 rows is the network's value and gradient at that row of
    the feature block. -/
theorem out_eq : out0_7 (F := Ideal) x0 x1 x2 x3 x4 x5 x6
    = fun y : S2048x4.Idx => rowOut (Pay.wtsB x1 x2 x3 x4 x5 x6) (Pay.featRowB x0 (y 0)) (y 1) := by
  funext y
  unfold out0_7
  refine View.canon_apply_of_pieces (fun y : S2048x4.Idx => rowOut (Pay.wtsB x1 x2 x3 x4 x5 x6) (Pay.featRowB x0 (y 0)) (y 1)) _
    (fun p hp j => ?_) y (cover_cols _ _ _ _ y)
  simp only [List.mem_cons, List.mem_nil_iff, or_false] at hp
  rcases hp with rfl | rfl | rfl | rfl
  · obtain ⟨r, q, rfl⟩ : ∃ (r : Fin 2048) (q : Fin 1), j = ix2 r q := ⟨j 0, j 1, eq_ix2 j⟩
    obtain rfl : q = 0 := Subsingleton.elim _ _
    refine (Pay.pay_gz x0 x1 x2 x3 x4 x5 x6 r).trans ?_
    have e0 : col3.emb (ix2 r (0 : Fin 1)) 0 = r := Fin.ext (by show 0 + 1 * r.val = r.val; omega)
    have e1 : col3.emb (ix2 r (0 : Fin 1)) 1 = (3 : Fin 4) := Fin.ext (by show 3 + 1 * 0 = 3; omega)
    show _ = rowOut _ (Pay.featRowB x0 (col3.emb (ix2 r (0 : Fin 1)) 0)) (col3.emb (ix2 r (0 : Fin 1)) 1)
    rw [e0, e1]
    rfl
  · obtain ⟨r, q, rfl⟩ : ∃ (r : Fin 2048) (q : Fin 1), j = ix2 r q := ⟨j 0, j 1, eq_ix2 j⟩
    obtain rfl : q = 0 := Subsingleton.elim _ _
    refine (Pay.pay_gy x0 x1 x2 x3 x4 x5 x6 r).trans ?_
    have e0 : col2.emb (ix2 r (0 : Fin 1)) 0 = r := Fin.ext (by show 0 + 1 * r.val = r.val; omega)
    have e1 : col2.emb (ix2 r (0 : Fin 1)) 1 = (2 : Fin 4) := Fin.ext (by show 2 + 1 * 0 = 2; omega)
    show _ = rowOut _ (Pay.featRowB x0 (col2.emb (ix2 r (0 : Fin 1)) 0)) (col2.emb (ix2 r (0 : Fin 1)) 1)
    rw [e0, e1]
    rfl
  · obtain ⟨r, q, rfl⟩ : ∃ (r : Fin 2048) (q : Fin 1), j = ix2 r q := ⟨j 0, j 1, eq_ix2 j⟩
    obtain rfl : q = 0 := Subsingleton.elim _ _
    refine (Pay.pay_gx x0 x1 x2 x3 x4 x5 x6 r).trans ?_
    have e0 : col1.emb (ix2 r (0 : Fin 1)) 0 = r := Fin.ext (by show 0 + 1 * r.val = r.val; omega)
    have e1 : col1.emb (ix2 r (0 : Fin 1)) 1 = (1 : Fin 4) := Fin.ext (by show 1 + 1 * 0 = 1; omega)
    show _ = rowOut _ (Pay.featRowB x0 (col1.emb (ix2 r (0 : Fin 1)) 0)) (col1.emb (ix2 r (0 : Fin 1)) 1)
    rw [e0, e1]
    rfl
  · obtain ⟨r, q, rfl⟩ : ∃ (r : Fin 2048) (q : Fin 1), j = ix2 r q := ⟨j 0, j 1, eq_ix2 j⟩
    obtain rfl : q = 0 := Subsingleton.elim _ _
    refine (Pay.pay_out x0 x1 x2 x3 x4 x5 x6 r).trans ?_
    have e0 : col0.emb (ix2 r (0 : Fin 1)) 0 = r := Fin.ext (by show 0 + 1 * r.val = r.val; omega)
    have e1 : col0.emb (ix2 r (0 : Fin 1)) 1 = (0 : Fin 4) := Fin.ext (by show 0 + 1 * 0 = 0; omega)
    show _ = rowOut _ (Pay.featRowB x0 (col0.emb (ix2 r (0 : Fin 1)) 0)) (col0.emb (ix2 r (0 : Fin 1)) 1)
    rw [e0, e1]
    rfl

end Block

/-! ## From blocks to the array -/

variable (m : (ℓ : Loc nD τ sig) → Buf (Elt Ideal) ℓ) (ρ : Dev nD → PrngReg)

/-- The whole 524288x4 result as one function of the weights and of the feature matrix: row `n` is the network's value
    and gradient at row `n` of the feature matrix. -/
def Gof (W : Cert.Spec.Wts) (feat : Cert.Atoms.Arr ⟨2, ![524288, 67]⟩) : S524288x4.Idx → EReal :=
  fun i => rowOut W (Cert.Atoms.featRow feat (i 0)) (i 1)

/-- The index maps over the grid: the feature window and the result window move together, one block of 2048 rows a
    point, at column block 0; every weight window stays at block 0. -/
theorem idx_facts : ∀ t : Fin cfg0.N, win0_7.index t (0 : Fin 2) = t.val ∧ win0_7.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- A feature row read off a block and off the matrix agree when the block's row is the matrix's row, column by
    column. -/
theorem featRow_of_block (feat : Cert.Atoms.Arr ⟨2, ![524288, 67]⟩) (x0 : Vec Ideal S2048x67 .f32) (n : Fin 524288)
    (r : Fin 2048) (h : ∀ col : Fin 67, x0 (ix2 r col) = feat (ix2 n col)) :
    Pay.featRowB x0 r = Cert.Atoms.featRow feat n := by
  unfold Pay.featRowB Cert.Atoms.featRow
  simp only [h]

/-- The weights read off six blocks that are the six arrays. -/
theorem wts_congr {x1 x1' : Vec Ideal S128x19 .f32} {x2 x2' : Vec Ideal S128 .f32} {x3 x3' : Vec Ideal S128x128 .f32}
    {x4 x4' : Vec Ideal S128 .f32} {x5 x5' : Vec Ideal S1x128 .f32} {x6 x6' : Vec Ideal S1 .f32}
    (h1 : x1 = x1') (h2 : x2 = x2') (h3 : x3 = x3') (h4 : x4 = x4') (h5 : x5 = x5') (h6 : x6 = x6') :
    Pay.wtsB x1 x2 x3 x4 x5 x6 = Cert.Atoms.wtsOf x1' x2' x3' x4' x5' x6' := by
  subst h1 h2 h3 h4 h5 h6
  rfl

/-! Each window's block at a point, read off ANY contents of its array. -/

/-- Row `r` of the feature window's block at point `t` is row `2048·t + r` of its array. -/
theorem read_blk0 (c : Dev nD) (t : Fin cfg0.N) (A : Buf (Elt Ideal) ((c : Thread nD τ).loc (Pipeline.arrRef spec0 0)))
    (r : Fin 2048) (col : Fin 67) (n : Fin 524288) (hn : n.val = t.val * 2048 + r.val) :
    (((cfg0.win 0).blk t).view.read (Elt Ideal) A : Vec Ideal S2048x67 .f32) (ix2 r col) = A (ix2 n col) := by
  obtain ⟨-, -, e0, e1, -⟩ := idx_facts t
  rw [View.read_apply]
  show A (((cfg0.win 0).blk t).view.emb (ix2 r col)) = A (ix2 n col)
  refine congrArg A (funext fun a => Fin.ext ?_)
  match a with
  | ⟨0, _⟩ => show win0_0.index t (0 : Fin 2) * 2048 + 1 * r.val = n.val; omega
  | ⟨1, _⟩ => show win0_0.index t (1 : Fin 2) * 67 + 1 * col.val = col.val; omega

/-- A weight window's block is its whole array, at every point. -/
theorem read_blk1 (c : Dev nD) (t : Fin cfg0.N) (A : Buf (Elt Ideal) ((c : Thread nD τ).loc (Pipeline.arrRef spec0 1))) :
    (((cfg0.win 1).blk t).view.read (Elt Ideal) A : Vec Ideal S128x19 .f32) = A := by
  obtain ⟨-, -, -, -, e0, e1, -⟩ := idx_facts t
  funext y
  rw [View.read_apply]
  show A (((cfg0.win 1).blk t).view.emb y) = A y
  refine congrArg A (funext fun a => Fin.ext ?_)
  match a with
  | ⟨0, _⟩ => show win0_1.index t (0 : Fin 2) * 128 + 1 * (y 0).val = (y 0).val; omega
  | ⟨1, _⟩ => show win0_1.index t (1 : Fin 2) * 19 + 1 * (y 1).val = (y 1).val; omega

theorem read_blk2 (c : Dev nD) (t : Fin cfg0.N) (A : Buf (Elt Ideal) ((c : Thread nD τ).loc (Pipeline.arrRef spec0 2))) :
    (((cfg0.win 2).blk t).view.read (Elt Ideal) A : Vec Ideal S128 .f32) = A := by
  obtain ⟨-, -, -, -, -, -, e0, -⟩ := idx_facts t
  funext y
  rw [View.read_apply]
  show A (((cfg0.win 2).blk t).view.emb y) = A y
  refine congrArg A (funext fun a => Fin.ext ?_)
  match a with
  | ⟨0, _⟩ => show win0_2.index t (0 : Fin 1) * 128 + 1 * (y 0).val = (y 0).val; omega

theorem read_blk3 (c : Dev nD) (t : Fin cfg0.N) (A : Buf (Elt Ideal) ((c : Thread nD τ).loc (Pipeline.arrRef spec0 3))) :
    (((cfg0.win 3).blk t).view.read (Elt Ideal) A : Vec Ideal S128x128 .f32) = A := by
  obtain ⟨-, -, -, -, -, -, -, e0, e1, -⟩ := idx_facts t
  funext y
  rw [View.read_apply]
  show A (((cfg0.win 3).blk t).view.emb y) = A y
  refine congrArg A (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem read_blk4 (c : Dev nD) (t : Fin cfg0.N) (A : Buf (Elt Ideal) ((c : Thread nD τ).loc (Pipeline.arrRef spec0 4))) :
    (((cfg0.win 4).blk t).view.read (Elt Ideal) A : Vec Ideal S128 .f32) = A := by
  obtain ⟨-, -, -, -, -, -, -, -, -, e0, -⟩ := idx_facts t
  funext y
  rw [View.read_apply]
  show A (((cfg0.win 4).blk t).view.emb y) = A y
  refine congrArg A (funext fun a => Fin.ext ?_)
  match a with
  | ⟨0, _⟩ => show win0_4.index t (0 : Fin 1) * 128 + 1 * (y 0).val = (y 0).val; omega

theorem read_blk5 (c : Dev nD) (t : Fin cfg0.N) (A : Buf (Elt Ideal) ((c : Thread nD τ).loc (Pipeline.arrRef spec0 5))) :
    (((cfg0.win 5).blk t).view.read (Elt Ideal) A : Vec Ideal S1x128 .f32) = A := by
  obtain ⟨-, -, -, -, -, -, -, -, -, -, e0, e1, -⟩ := idx_facts t
  funext y
  rw [View.read_apply]
  show A (((cfg0.win 5).blk t).view.emb y) = A y
  refine congrArg A (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem read_blk6 (c : Dev nD) (t : Fin cfg0.N) (A : Buf (Elt Ideal) ((c : Thread nD τ).loc (Pipeline.arrRef spec0 6))) :
    (((cfg0.win 6).blk t).view.read (Elt Ideal) A : Vec Ideal S1 .f32) = A := by
  obtain ⟨-, -, -, -, -, -, -, -, -, -, -, -, e0⟩ := idx_facts t
  funext y
  rw [View.read_apply]
  show A (((cfg0.win 6).blk t).view.emb y) = A y
  refine congrArg A (funext fun a => Fin.ext ?_)
  match a with
  | ⟨0, _⟩ => show win0_6.index t (0 : Fin 1) * 1 + 1 * (y 0).val = (y 0).val; omega

/-- What the body leaves at point `t`, cut to what is written back, is block `t` of the whole-array function of the
    seven arrays' contents. -/
theorem point_eq (c : Dev nD) (t : Fin cfg0.N)
    (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2)))
    (A3 : Buf (Elt Ideal) ((c : Thread nD τ).loc (Pipeline.arrRef spec0 3)))
    (A4 : Buf (Elt Ideal) ((c : Thread nD τ).loc (Pipeline.arrRef spec0 4)))
    (A5 : Buf (Elt Ideal) ((c : Thread nD τ).loc (Pipeline.arrRef spec0 5)))
    (A6 : Buf (Elt Ideal) ((c : Thread nD τ).loc (Pipeline.arrRef spec0 6))) :
    (cfg0.win 7).cut (grid0.coords t)
        (out0_7 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6))
      = ((cfg0.win 7).blk t).view.read (Elt Ideal) (Gof (Cert.Atoms.wtsOf A1 A2 A3 A4 A5 A6) A0) := by
  have ho := out_eq (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) (((cfg0.win 5).blk t).view.read (Elt Ideal) A5)
    (((cfg0.win 6).blk t).view.read (Elt Ideal) A6)
  rw [ho]
  obtain ⟨e0, e1, -⟩ := idx_facts t
  funext y
  show rowOut (Pay.wtsB (((cfg0.win 1).blk t).view.read (Elt Ideal) A1) (((cfg0.win 2).blk t).view.read (Elt Ideal) A2)
        (((cfg0.win 3).blk t).view.read (Elt Ideal) A3) (((cfg0.win 4).blk t).view.read (Elt Ideal) A4)
        (((cfg0.win 5).blk t).view.read (Elt Ideal) A5) (((cfg0.win 6).blk t).view.read (Elt Ideal) A6))
      (Pay.featRowB (((cfg0.win 0).blk t).view.read (Elt Ideal) A0) (y 0)) (y 1)
    = Gof (Cert.Atoms.wtsOf A1 A2 A3 A4 A5 A6) A0 (((cfg0.win 7).blk t).view.emb y)
  have hW := wts_congr (read_blk1 c t A1) (read_blk2 c t A2) (read_blk3 c t A3) (read_blk4 c t A4) (read_blk5 c t A5)
    (read_blk6 c t A6)
  have hφ : Pay.featRowB (((cfg0.win 0).blk t).view.read (Elt Ideal) A0) (y 0)
      = Cert.Atoms.featRow A0 ((((cfg0.win 7).blk t).view.emb y) 0) :=
    featRow_of_block A0 (((cfg0.win 0).blk t).view.read (Elt Ideal) A0) _ (y 0) fun col => read_blk0 c t A0 (y 0) col _
      (by show win0_7.index t (0 : Fin 2) * 2048 + 1 * (y 0).val = t.val * 2048 + (y 0).val; omega)
  have h1 : (y 1 : Fin 4) = (((cfg0.win 7).blk t).view.emb y) 1 :=
    Fin.ext (by show (y 1).val = win0_7.index t (1 : Fin 2) * 4 + 1 * (y 1).val; omega)
  exact congr (congrArg₂ rowOut hW hφ) h1

/-- The weights as the region finds them. -/
abbrev Wof (c : Dev nD) : Cert.Spec.Wts :=
  Cert.Atoms.wtsOf (V m c main_arg2) (V m c main_arg3) (V m c main_arg4) (V m c main_arg5) (V m c main_arg6) (V m c main_arg7)

/-- The region's whole result, of the arrays the region finds. -/
def G (c : Dev nD) : Buf (Elt Ideal) ((c : Thread nD τ).loc main_v421) := Gof (Wof m c) (V m c main_v420)

/-- What point `t` writes back is block `t` of the whole result. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  exact point_eq c t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6))

/-- An index of the result is in point `t`'s block iff each coordinate is in the block's range on its axis. -/
theorem mem_blk (t : Fin cfg0.N) (i : S524288x4.Idx) :
    i ∈ ((cfg0.win 7).blk t).view.set ↔ ∀ a : Fin 2, win0_7.index t a * S2048x4.size a ≤ (i a).val
      ∧ (i a).val < win0_7.index t a * S2048x4.size a + S2048x4.size a := by
  show i ∈ ((View.whole main_v421).slice (win0_7.rect t)).set ↔ _
  rw [View.set_slice_whole, Rect.mem_set_unit]
  exact Iff.rfl

/-- Row `n` of the result lies in the block of point `n / 2048`. -/
theorem cover (i : S524288x4.Idx) :
    ∃ t : Fin cfg0.N, (cfg0.win 7).flush t = true ∧ i ∈ ((cfg0.win 7).blk t).view.set := by
  have h0 : (i 0).val < 524288 := (i 0).isLt
  have h1 : (i 1).val < 4 := (i 1).isLt
  have hN : (i 0).val / 2048 < cfg0.N := by show _ < grid0.N; rw [N_0]; omega
  refine ⟨⟨(i 0).val / 2048, hN⟩, flush0_7 _, ?_⟩
  rw [mem_blk]
  obtain ⟨e0, e1, -⟩ := idx_facts ⟨(i 0).val / 2048, hN⟩
  have e0' : win0_7.index ⟨(i 0).val / 2048, hN⟩ (0 : Fin 2) = (i 0).val / 2048 := e0
  intro a
  match a with
  | ⟨0, _⟩ =>
    show win0_7.index ⟨(i 0).val / 2048, hN⟩ (0 : Fin 2) * 2048 ≤ (i 0).val
      ∧ (i 0).val < win0_7.index ⟨(i 0).val / 2048, hN⟩ (0 : Fin 2) * 2048 + 2048
    omega
  | ⟨1, _⟩ =>
    show win0_7.index ⟨(i 0).val / 2048, hN⟩ (1 : Fin 2) * 4 ≤ (i 1).val
      ∧ (i 1).val < win0_7.index ⟨(i 0).val / 2048, hN⟩ (1 : Fin 2) * 4 + 4
    omega

/-- So the result array after the region is the whole-array function. -/
theorem final (c : Dev nD) : (dats m 0 c).arrAt 7 cfg0.N = G m c :=
  (dats m 0 c).arrAt_eq_of_cover 7 (G m c) (fun t _ => flushed_eq m c t) cover

/-! ## The two closing slices and the run -/

/-- The region's result array after the region, among the buffers the two closing slices read. -/
theorem exit_v421 (c : Dev nD) :
    Pipeline.withArrays spec0 c (V0 m c) (fun w => (dats m 0 c).arrAt w cfg0.N) (Proc.devRef .tc main_v421) = G m c :=
  (Pipeline.withArrays_arr spec0 launch0.win.arr_inj c _ _ 7).trans (final m c)

/-- The first result: column 0 of the region's result, row by row the network's value. -/
theorem tail_v422 (c : Dev nD) (n : Fin 524288) :
    Pipeline.afterTail₀ cfgs (dats m) 0 (V0 m) [hostOps1] c main_v422 (ix2 n (0 : Fin 1))
      = Cert.Spec.kout (Wof m c) (Cert.Atoms.featRow (V m c main_v420) n) := by
  unfold Pipeline.afterTail₀
  show StableHlo.after hostOps1 _ (Proc.devRef .tc main_v422) (ix2 n (0 : Fin 1)) = _
  after_results
  refine (extractStridedSlice_apply _ _ _ (ix2 n (0 : Fin 1)) (ix2 n (0 : Fin 4)) (fun a => ?_)).trans ?_
  · match a with
    | ⟨0, _⟩ => show n.val = 0 + n.val; omega
    | ⟨1, _⟩ => show 0 = 0 + 0; rfl
  · exact congrFun (exit_v421 m c) (ix2 n (0 : Fin 4))

/-- The second result: columns 1, 2, 3 of the region's result, row by row the gradient. -/
theorem tail_v423 (c : Dev nD) (n : Fin 524288) (a : Fin 3) :
    Pipeline.afterTail₀ cfgs (dats m) 0 (V0 m) [hostOps1] c main_v423 (ix2 n a)
      = Cert.Spec.kg (Wof m c) (Cert.Atoms.featRow (V m c main_v420) n) a := by
  unfold Pipeline.afterTail₀
  show StableHlo.after hostOps1 _ (Proc.devRef .tc main_v423) (ix2 n a) = _
  after_results
  refine (extractStridedSlice_apply _ _ _ (ix2 n a) (ix2 n (⟨a.val + 1, by omega⟩ : Fin 4)) (fun b => ?_)).trans ?_
  · match b with
    | ⟨0, _⟩ => show n.val = 0 + n.val; omega
    | ⟨1, _⟩ => show a.val + 1 = 1 + a.val; omega
  · exact congrFun (exit_v421 m c) (ix2 n (⟨a.val + 1, by omega⟩ : Fin 4))

/-- The weights the region finds are the weight arguments as launched: no host operation before the region writes an
    argument. -/
theorem Wof_eq (c : Dev nD) :
    Wof m c = Cert.Atoms.wtsOf (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) := by
  unfold Wof
  rw [V_main_arg2 m c, V_main_arg3 m c, V_main_arg4 m c, V_main_arg5 m c, V_main_arg6 m c, V_main_arg7 m c]

/-- The program's run, read off its frame run: the first result is the network's value at every sample point, the
    second its gradient, both as functions of the weights as launched and of the feature matrix the host prefix builds;
    the arguments are unchanged (the closing slices leave alone the two that no window stages; the six staged as inputs are
    never written back). -/
theorem run_value : θ_run defs (onTc (τ := τ) (main (F := Ideal))) ⟨m, fun _ => 0, ρ⟩ fun r => ∀ c : Dev nD,
      (∀ n : Fin 524288, r.2.mem ((c.tc : Thread nD τ).loc main_v422) (ix2 n (0 : Fin 1))
        = Cert.Spec.kout (Cert.Atoms.wtsOf (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)))
          (Cert.Atoms.featRow (Hand.V0 m c (Proc.devRef .tc main_v420)) n))
      ∧ (∀ (n : Fin 524288) (a : Fin 3), r.2.mem ((c.tc : Thread nD τ).loc main_v423) (ix2 n a)
        = Cert.Spec.kg (Cert.Atoms.wtsOf (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)))
          (Cert.Atoms.featRow (Hand.V0 m c (Proc.devRef .tc main_v420)) n) a)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨
      fun n => (congrFun ((h c).2 main_v422 (Pipeline.mem_restRefs_of main_v422 rfl (by decide))) (ix2 n (0 : Fin 1))).trans
        ((tail_v422 m c n).trans (by rw [Wof_eq])),
      fun n a => (congrFun ((h c).2 main_v423 (Pipeline.mem_restRefs_of main_v423 rfl (by decide))) (ix2 n a)).trans
        ((tail_v423 m c n a).trans (by rw [Wof_eq])),
      ((h c).2 main_arg0 (Pipeline.mem_restRefs_of main_arg0 rfl (by decide))).trans (W_main_arg0 m c),
      ((h c).2 main_arg1 (Pipeline.mem_restRefs_of main_arg1 rfl (by decide))).trans (W_main_arg1 m c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c)))⟩)
    (run_main m ρ)

end Cert.KernelIdeal.Value

end
-- ==== Proof.KHostLib.lean ====
/-
  Three readings of the host program's operations at one element, over arbitrary arrays: a clamped row
  lookup whose validity mask is everywhere one returns the looked-up rows; one step of the weighted
  accumulation of a looked-up row; and the five-piece concatenation along the columns, read in each piece.
-/
import proofs.«171612_j42777874268460_1_alg».proof.Proof.Gen.KernelIdeal
import Idealize.ShloMosaic.Lib.ValueIdx
import Idealize.ShloMosaic.Lib.Pipeline.Value
import Idealize.ShloMosaic.PureOps.Reduce

noncomputable section

namespace Cert.KernelIdeal.HostLib

open Cert.KernelIdeal Cert.KernelIdeal.Gen Idealize.ShloMosaic Idealize.ShloMosaic.ValueIdx

/-! ## Broadcasts read at an element -/

/-- A vector kept as a one-column array reads, in row `p 0`, the vector there. -/
theorem col_apply {α : Type} (v : S524288.Idx → α) (p : S524288x1.Idx) :
    broadcastInDim S524288x1 ![0] bcast_S524288_S524288x1_0 v p = v (ix1 (p 0)) := by
  simp only [broadcastInDim]
  congr 1
  funext a
  match a with
  | ⟨0, _⟩ =>
    apply Fin.ext
    split
    · next h1 => exact absurd (show (524288 : Nat) = 1 from h1) (by decide)
    · rfl

/-- A vector laid along the rows of a sixteen-column array reads, at row `n`, the vector at `n`. -/
theorem rows_apply {α : Type} (v : S524288.Idx → α) (n : Fin 524288) (e : Fin 16) :
    broadcastInDim S524288x16 ![0, 1] bcast_S524288x1_S524288x16_0_1
      (broadcastInDim S524288x1 ![0] bcast_S524288_S524288x1_0 v) (ix2 n e) = v (ix1 n) := by
  simp only [broadcastInDim]
  congr 1
  funext a
  match a with
  | ⟨0, _⟩ =>
    apply Fin.ext
    split
    · next h1 => exact absurd (show (524288 : Nat) = 1 from h1) (by decide)
    · split
      · next h2 => exact absurd (show (524288 : Nat) = 1 from h2) (by decide)
      · rfl

/-! ## A reduction by `and` of ones -/

theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1) (1#1) = 1#1 := by decide
    rw [List.foldl_cons, h a List.mem_cons_self, e]
    exact foldl_andi_ones f l fun n hn => h n (List.mem_cons_of_mem _ hn)

theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1)
    (j : t.Idx) : Host.reduce IntOp.andi x init h hu j = 1#1 := by
  rw [Host.reduce_eq_foldl, hi]
  exact foldl_andi_ones x _ fun n _ => hx n

/-! ## (L1) the lookup with an everywhere-valid mask -/

theorem take_fill (tbl : (⟨S2097152x16, .f32⟩ : BufTy).Contents (Elt Ideal))
    (i : (⟨S524288, .i32⟩ : BufTy).Contents (Elt Ideal))
    (h : ∀ n : Fin 524288, (0#32).sle (i (ix1 n)) = true ∧ (i (ix1 n)).sle 2097151#32 = true) :
    select
      (broadcastInDim S524288x16 ![0] bcast_S524288_S524288x16_0
        (Host.reduce IntOp.andi
          (andi
            (cmpi .sge (broadcastInDim S524288x1 ![0] bcast_S524288_S524288x1_0 i)
              (broadcastInDim S524288x1 ![] bcast_S_S524288x1 (constantI S_ 32 0#32)))
            (cmpi .sle (broadcastInDim S524288x1 ![0] bcast_S524288_S524288x1_0 i)
              (broadcastInDim S524288x1 ![0, 1] bcast_S1x1_S524288x1_0_1
                (broadcastInDim S1x1 ![1] bcast_S1_S1x1_1 (constantI S1 32 2097151#32)))))
          (constantI S_ 1 1#1) reducesTo_S524288x1_S524288_d1 h_S_))
      (Host.gather gather_S2097152x16_S524288x1_S524288x16_1_0_n_n_0_1_116 tbl (broadcastInDim S524288x1 ![0] bcast_S524288_S524288x1_0 i))
      (broadcastInDim S524288x16 ![] bcast_S_S524288x16 (constant (F := Ideal) S_ .f32 0x7FC00000#32))
    = Host.gather gather_S2097152x16_S524288x1_S524288x16_1_0_n_n_0_1_116 tbl (broadcastInDim S524288x1 ![0] bcast_S524288_S524288x1_0 i) := by
  funext j
  rw [select_apply]
  have hm : ∀ q : S524288.Idx,
      Host.reduce IntOp.andi
          (andi
            (cmpi .sge (broadcastInDim S524288x1 ![0] bcast_S524288_S524288x1_0 i)
              (broadcastInDim S524288x1 ![] bcast_S_S524288x1 (constantI S_ 32 0#32)))
            (cmpi .sle (broadcastInDim S524288x1 ![0] bcast_S524288_S524288x1_0 i)
              (broadcastInDim S524288x1 ![0, 1] bcast_S1x1_S524288x1_0_1
                (broadcastInDim S1x1 ![1] bcast_S1_S1x1_1 (constantI S1 32 2097151#32)))))
          (constantI S_ 1 1#1) reducesTo_S524288x1_S524288_d1 h_S_ q = 1#1 := by
    intro q
    apply reduce_andi_ones
    · intro p
      show IntOp.andi (IntOp.cmpi .sge (broadcastInDim S524288x1 ![0] bcast_S524288_S524288x1_0 i p) 0#32)
        (IntOp.cmpi .sle (broadcastInDim S524288x1 ![0] bcast_S524288_S524288x1_0 i p) 2097151#32) = 1#1
      rw [col_apply]
      obtain ⟨h0, h1⟩ := h (p 0)
      have e0 : IntOp.cmpi .sge (i (ix1 (p 0))) 0#32 = 1#1 := by
        show BitVec.ofBool ((0#32).sle (i (ix1 (p 0)))) = 1#1
        rw [h0]; rfl
      have e1 : IntOp.cmpi .sle (i (ix1 (p 0))) 2097151#32 = 1#1 := by
        show BitVec.ofBool ((i (ix1 (p 0))).sle 2097151#32) = 1#1
        rw [h1]; rfl
      rw [e0, e1]; decide
    · rfl
  have hb : broadcastInDim S524288x16 ![0] bcast_S524288_S524288x16_0
      (Host.reduce IntOp.andi
          (andi
            (cmpi .sge (broadcastInDim S524288x1 ![0] bcast_S524288_S524288x1_0 i)
              (broadcastInDim S524288x1 ![] bcast_S_S524288x1 (constantI S_ 32 0#32)))
            (cmpi .sle (broadcastInDim S524288x1 ![0] bcast_S524288_S524288x1_0 i)
              (broadcastInDim S524288x1 ![0, 1] bcast_S1x1_S524288x1_0_1
                (broadcastInDim S1x1 ![1] bcast_S1_S1x1_1 (constantI S1 32 2097151#32)))))
          (constantI S_ 1 1#1) reducesTo_S524288x1_S524288_d1 h_S_) j = 1#1 := hm _
  rw [hb, select_one]

/-! ## (L2) one step of the accumulation, and the pointwise readings -/

theorem acc_step (acc g : (⟨S524288x16, .f32⟩ : BufTy).Contents (Elt Ideal))
    (w : (⟨S524288, .f32⟩ : BufTy).Contents (Elt Ideal)) (n : Fin 524288) (e : Fin 16) :
    addf (F := Ideal) (s := S524288x16) (φ := .f32) acc
        (mulf (F := Ideal) (s := S524288x16) (φ := .f32) g
          (broadcastInDim S524288x16 ![0, 1] bcast_S524288x1_S524288x16_0_1
            (broadcastInDim S524288x1 ![0] bcast_S524288_S524288x1_0 w))) (ix2 n e)
      = acc (ix2 n e) + g (ix2 n e) * w (ix1 n) := by
  show acc (ix2 n e) + g (ix2 n e) * (broadcastInDim S524288x16 ![0, 1] bcast_S524288x1_S524288x16_0_1
            (broadcastInDim S524288x1 ![0] bcast_S524288_S524288x1_0 w)) (ix2 n e) = _
  rw [rows_apply]

theorem mulf1 (a b : (⟨S524288, .f32⟩ : BufTy).Contents (Elt Ideal)) (n : Fin 524288) :
    mulf (F := Ideal) (s := S524288) (φ := .f32) a b (ix1 n) = a (ix1 n) * b (ix1 n) := rfl
theorem subf1 (a b : (⟨S524288, .f32⟩ : BufTy).Contents (Elt Ideal)) (n : Fin 524288) :
    subf (F := Ideal) (s := S524288) (φ := .f32) a b (ix1 n) = a (ix1 n) - b (ix1 n) := rfl
theorem addf1 (a b : (⟨S524288, .f32⟩ : BufTy).Contents (Elt Ideal)) (n : Fin 524288) :
    addf (F := Ideal) (s := S524288) (φ := .f32) a b (ix1 n) = a (ix1 n) + b (ix1 n) := rfl
theorem mulf2 (a b : (⟨S524288x16, .f32⟩ : BufTy).Contents (Elt Ideal)) (n : Fin 524288) (e : Fin 16) :
    mulf (F := Ideal) (s := S524288x16) (φ := .f32) a b (ix2 n e) = a (ix2 n e) * b (ix2 n e) := rfl
theorem addf2 (a b : (⟨S524288x16, .f32⟩ : BufTy).Contents (Elt Ideal)) (n : Fin 524288) (e : Fin 16) :
    addf (F := Ideal) (s := S524288x16) (φ := .f32) a b (ix2 n e) = a (ix2 n e) + b (ix2 n e) := rfl
/-- A scalar constant spread over the vector reads its value everywhere. -/
theorem const1 (b : BitVec 32) (n : Fin 524288) :
    broadcastInDim S524288 ![] bcast_S_S524288 (constant (F := Ideal) S_ .f32 b) (ix1 n) = Ideal.ofBits .f32 b := rfl
theorem const2 (b : BitVec 32) (n : Fin 524288) (e : Fin 16) :
    broadcastInDim S524288x16 ![] bcast_S_S524288x16 (constant (F := Ideal) S_ .f32 b) (ix2 n e) = Ideal.ofBits .f32 b := rfl
theorem constI1 (b : BitVec 32) (n : Fin 524288) :
    broadcastInDim S524288 ![] bcast_S_S524288 (constantI S_ 32 b) (ix1 n) = b := rfl

/-! ## (L3) the five-piece concatenation along the columns, read in each piece -/

section Concat
variable {α : Type} (a b c d : S524288x16.Idx → α) (p : S524288x3.Idx → α) (n : Fin 524288)

theorem concat5_0 (e : Fin 16) :
    concatenate S524288x67 1 [⟨S524288x16, a⟩, ⟨S524288x16, b⟩, ⟨S524288x16, c⟩, ⟨S524288x16, d⟩, ⟨S524288x3, p⟩]
      concatenates_S524288x16_S524288x16_S524288x16_S524288x16_S524288x3_S524288x67_d1 (ix2 n ⟨e.val, by omega⟩) = a (ix2 n e) := by
  refine concatenate_apply_piece (t := S524288x67) (1 : Fin 2) _ _ _ 0 ?hk S524288x16 a ?hxk rfl 0 ?hpre (ix2 n e) ?hi ?ha
  case hk => simp
  case hxk => rfl
  case hpre => rfl
  case ha => exact Nat.zero_add _
  case hi =>
    intro b' hb'
    match b' with
    | ⟨0, _⟩ => rfl
    | ⟨1, _⟩ => exact absurd rfl hb'

theorem concat5_1 (e : Fin 16) :
    concatenate S524288x67 1 [⟨S524288x16, a⟩, ⟨S524288x16, b⟩, ⟨S524288x16, c⟩, ⟨S524288x16, d⟩, ⟨S524288x3, p⟩]
      concatenates_S524288x16_S524288x16_S524288x16_S524288x16_S524288x3_S524288x67_d1 (ix2 n ⟨16 + e.val, by omega⟩) = b (ix2 n e) := by
  refine concatenate_apply_piece (t := S524288x67) (1 : Fin 2) _ _ _ 1 ?hk S524288x16 b ?hxk rfl 16 ?hpre (ix2 n e) ?hi ?ha
  case hk => simp
  case hxk => rfl
  case hpre => rfl
  case ha => rfl
  case hi =>
    intro b' hb'
    match b' with
    | ⟨0, _⟩ => rfl
    | ⟨1, _⟩ => exact absurd rfl hb'

theorem concat5_2 (e : Fin 16) :
    concatenate S524288x67 1 [⟨S524288x16, a⟩, ⟨S524288x16, b⟩, ⟨S524288x16, c⟩, ⟨S524288x16, d⟩, ⟨S524288x3, p⟩]
      concatenates_S524288x16_S524288x16_S524288x16_S524288x16_S524288x3_S524288x67_d1 (ix2 n ⟨32 + e.val, by omega⟩) = c (ix2 n e) := by
  refine concatenate_apply_piece (t := S524288x67) (1 : Fin 2) _ _ _ 2 ?hk S524288x16 c ?hxk rfl 32 ?hpre (ix2 n e) ?hi ?ha
  case hk => simp
  case hxk => rfl
  case hpre => rfl
  case ha => rfl
  case hi =>
    intro b' hb'
    match b' with
    | ⟨0, _⟩ => rfl
    | ⟨1, _⟩ => exact absurd rfl hb'

theorem concat5_3 (e : Fin 16) :
    concatenate S524288x67 1 [⟨S524288x16, a⟩, ⟨S524288x16, b⟩, ⟨S524288x16, c⟩, ⟨S524288x16, d⟩, ⟨S524288x3, p⟩]
      concatenates_S524288x16_S524288x16_S524288x16_S524288x16_S524288x3_S524288x67_d1 (ix2 n ⟨48 + e.val, by omega⟩) = d (ix2 n e) := by
  refine concatenate_apply_piece (t := S524288x67) (1 : Fin 2) _ _ _ 3 ?hk S524288x16 d ?hxk rfl 48 ?hpre (ix2 n e) ?hi ?ha
  case hk => simp
  case hxk => rfl
  case hpre => rfl
  case ha => rfl
  case hi =>
    intro b' hb'
    match b' with
    | ⟨0, _⟩ => rfl
    | ⟨1, _⟩ => exact absurd rfl hb'

theorem concat5_4 (k : Fin 3) :
    concatenate S524288x67 1 [⟨S524288x16, a⟩, ⟨S524288x16, b⟩, ⟨S524288x16, c⟩, ⟨S524288x16, d⟩, ⟨S524288x3, p⟩]
      concatenates_S524288x16_S524288x16_S524288x16_S524288x16_S524288x3_S524288x67_d1 (ix2 n ⟨64 + k.val, by omega⟩) = p (ix2 n k) := by
  refine concatenate_apply_piece (t := S524288x67) (1 : Fin 2) _ _ _ 4 ?hk S524288x3 p ?hxk rfl 64 ?hpre (ix2 n k) ?hi ?ha
  case hk => simp
  case hxk => rfl
  case hpre => rfl
  case ha => rfl
  case hi =>
    intro b' hb'
    match b' with
    | ⟨0, _⟩ => rfl
    | ⟨1, _⟩ => exact absurd rfl hb'

end Concat

end Cert.KernelIdeal.HostLib

end
-- ==== Proof.KHostA.lean ====
/-
  The first part of the host prefix — the positions' affine image, the cell coordinates, and the first two corners of the
  trilinear lookup with its derivative rows — read stretch by stretch over an arbitrary valuation of the buffers: which
  references each stretch writes, that every other reference keeps its contents, and what the outgoing buffers hold as
  terms over the incoming ones, stated against the reference's stages where the operations coincide.
-/
import proofs.«171612_j42777874268460_1_alg».proof.Proof.Gen.KernelIdeal.Launch
import proofs.«171612_j42777874268460_1_alg».proof.Proof.Atoms
import proofs.«171612_j42777874268460_1_alg».proof.Proof.KHostLib
import Idealize.ShloMosaic.Lib.StableHlo.Run
import Idealize.ShloMosaic.Lib.ValueIdx

noncomputable section

namespace Cert.KernelIdeal.Host

open Idealize.ShloMosaic Idealize.ShloMosaic.TcCoe Idealize.SL.Sem Idealize.ShloMosaic.StableHlo Idealize.ShloMosaic.ValueIdx
open Cert.KernelIdeal Cert.KernelIdeal.Gen Cert.ReferenceIdeal.ReadP

/-! ## The pure functions of a lookup and of an accumulation step -/

/-- An index array of one entry a sample point. -/
abbrev IArr := (⟨S524288, .i32⟩ : BufTy).Contents (Elt Ideal)

/-- The index array wrapped: a negative index is moved up by the table's length. -/
def wrapIdx (idx : IArr) : IArr :=
  select (cmpi .slt idx (broadcastInDim (α := BitVec 32) S524288 ![] bcast_S_S524288 (constantI S_ 32 0#32)))
    (addi idx (broadcastInDim (α := BitVec 32) S524288 ![] bcast_S_S524288 (constantI S_ 32 2097152#32))) idx

/-- A lookup in fill mode on an index array already wrapped: the looked-up row is kept where the index lies inside the
    table and replaced by the NaN literal elsewhere. -/
def fillTake (tbl : Cert.Atoms.Arr S2097152x16) (i : IArr) : Cert.Atoms.Arr S524288x16 :=
  select (broadcastInDim S524288x16 ![0] bcast_S524288_S524288x16_0
      (Host.reduce IntOp.andi
        (andi (cmpi .sge (broadcastInDim S524288x1 ![0] bcast_S524288_S524288x1_0 i) (broadcastInDim S524288x1 ![] bcast_S_S524288x1 (constantI S_ 32 0#32)))
          (cmpi .sle (broadcastInDim S524288x1 ![0] bcast_S524288_S524288x1_0 i) (broadcastInDim S524288x1 ![0, 1] bcast_S1x1_S524288x1_0_1 (broadcastInDim S1x1 ![1] bcast_S1_S1x1_1 (constantI S1 32 2097151#32)))))
        (constantI S_ 1 1#1) reducesTo_S524288x1_S524288_d1 h_S_))
    (Host.gather gather_S2097152x16_S524288x1_S524288x16_1_0_n_n_0_1_116 tbl (broadcastInDim S524288x1 ![0] bcast_S524288_S524288x1_0 i))
    (broadcastInDim S524288x16 ![] bcast_S_S524288x16 (constant (F := Ideal) S_ .f32 0x7FC00000#32))

/-- A lookup in fill mode. -/
def takeFn (tbl : Cert.Atoms.Arr S2097152x16) (idx : IArr) : Cert.Atoms.Arr S524288x16 := fillTake tbl (wrapIdx idx)

/-- One corner added to an accumulator: acc + g · w, the weight the product of three per-point factors. -/
def accStep (acc g : Cert.Atoms.Arr S524288x16) (a b c : Cert.Atoms.Arr S524288) : Cert.Atoms.Arr S524288x16 :=
  addf (F := Ideal) (s := S524288x16) (φ := .f32) acc (mulf (F := Ideal) (s := S524288x16) (φ := .f32) g
    (broadcastInDim S524288x16 ![0, 1] bcast_S524288x1_S524288x16_0_1 (broadcastInDim S524288x1 ![0] bcast_S524288_S524288x1_0
      (mulf (F := Ideal) (s := S524288) (φ := .f32) (mulf (F := Ideal) (s := S524288) (φ := .f32) a b) c))))

/-- A float literal at every sample point. -/
def kc (bits : BitVec 32) : Cert.Atoms.Arr S524288 :=
  broadcastInDim S524288 ![] bcast_S_S524288 (constant (F := Ideal) S_ .f32 bits)

/-- The zero accumulator. -/
def zeros : Cert.Atoms.Arr S524288x16 :=
  broadcastInDim S524288x16 ![] bcast_S_S524288x16 (constant (F := Ideal) S_ .f32 0x00000000#32)

/-- An accumulation step read at one entry. -/
theorem accStep_apply (acc g : Cert.Atoms.Arr S524288x16) (a b c : Cert.Atoms.Arr S524288) (n : Fin 524288) (e : Fin 16) :
    accStep acc g a b c (ix2 n e) = acc (ix2 n e) + g (ix2 n e) * ((a (ix1 n) * b (ix1 n)) * c (ix1 n)) := by
  unfold accStep
  rw [HostLib.acc_step]
  rfl

/-! ## What each stretch writes, and that it leaves every other reference alone -/

/-- A single written reference that is in the list lies in the list's set of device buffers. -/
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references the affine image of the positions and the scaling to cells write. -/
abbrev S0_W : List (Ref sig .tc) :=
  [main_cst, main_v0, main_v1, main_cst_0, main_v2, main_v3, main_cst_1, main_v4, main_v5, main_v6, main_c, main_c_2]

theorem S0_writes : (hostOps0 (F := Ideal)).Forall fun op =>
    op.writes ⊆ (S0_W.map (Proc.devRef (τ := τ) .tc)).toFinset := by
  simp only [List.Forall]
  repeat' apply And.intro
  all_goals exact sub_of_mem (by decide)

theorem S0_of (V : Valuation τ sig (Elt Ideal)) (r : Ref sig .tc) (h : r ∉ S0_W) :
    StableHlo.after (hostOps0 (F := Ideal)) V (no_index (Proc.devRef .tc r)) = V (Proc.devRef .tc r) :=
  StableHlo.after_of_writes_sub _ V S0_writes h

/-- The references the clamp of the cell coordinates writes. -/
abbrev S1_W : List (Ref sig .tc) :=
  [main_call0_v0, main_call0_v1, main_call0_v2, main_call0_v3, main_call0_v4, main_v7]

theorem S1_writes : (hostOps0_1 (F := Ideal)).Forall fun op =>
    op.writes ⊆ (S1_W.map (Proc.devRef (τ := τ) .tc)).toFinset := by
  simp only [List.Forall]
  repeat' apply And.intro
  all_goals exact sub_of_mem (by decide)

theorem S1_of (V : Valuation τ sig (Elt Ideal)) (r : Ref sig .tc) (h : r ∉ S1_W) :
    StableHlo.after (hostOps0_1 (F := Ideal)) V (no_index (Proc.devRef .tc r)) = V (Proc.devRef .tc r) :=
  StableHlo.after_of_writes_sub _ V S1_writes h

/-- The references the cell coordinates, the fractional coordinates, the table's reshape, the zero accumulators and
    the index arithmetic of corner 0 write. -/
abbrev S2_W : List (Ref sig .tc) :=
  [main_v8, main_v9, main_v10, main_v11, main_v12, main_v13, main_v14, main_v15, main_v16, main_v17, main_cst_3, main_v18,
   main_cst_4, main_v19, main_cst_5, main_v20, main_cst_6, main_v21, main_cst_7, main_v22, main_v23, main_cst_8, main_v24,
   main_v25, main_cst_9, main_v26, main_v27, main_v28, main_v29, main_c_10, main_v30, main_v31, main_c_11, main_v32,
   main_v33, main_c_12, main_v34, main_v35, main_v36, main_v37, main_c_13, main_v38, main_v39, main_c_14, main_v40,
   main_v41, main_v42, main_v43, main_v44, main_c_15, main_v45, main_v46, main_v47]

theorem S2_writes : (hostOps0_2 (F := Ideal)).Forall fun op =>
    op.writes ⊆ (S2_W.map (Proc.devRef (τ := τ) .tc)).toFinset := by
  simp only [List.Forall]
  repeat' apply And.intro
  all_goals exact sub_of_mem (by decide)

theorem S2_of (V : Valuation τ sig (Elt Ideal)) (r : Ref sig .tc) (h : r ∉ S2_W) :
    StableHlo.after (hostOps0_2 (F := Ideal)) V (no_index (Proc.devRef .tc r)) = V (Proc.devRef .tc r) :=
  StableHlo.after_of_writes_sub _ V S2_writes h

/-- The references the lookup of corner 0 writes. -/
abbrev S3_W : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14,
   main_call1_cst, main_call1_v15, main_v48]

theorem S3_writes : (hostOps0_3 (F := Ideal)).Forall fun op =>
    op.writes ⊆ (S3_W.map (Proc.devRef (τ := τ) .tc)).toFinset := by
  simp only [List.Forall]
  repeat' apply And.intro
  all_goals exact sub_of_mem (by decide)

theorem S3_of (V : Valuation τ sig (Elt Ideal)) (r : Ref sig .tc) (h : r ∉ S3_W) :
    StableHlo.after (hostOps0_3 (F := Ideal)) V (no_index (Proc.devRef .tc r)) = V (Proc.devRef .tc r) :=
  StableHlo.after_of_writes_sub _ V S3_writes h

/-- The references the accumulation of corner 0 and the index arithmetic of corner 1 write. -/
abbrev S4_W : List (Ref sig .tc) :=
  [main_v49, main_v50, main_v51, main_v52, main_v53, main_v54, main_cst_16, main_v55, main_v56, main_v57, main_v58,
   main_v59, main_v60, main_v61, main_cst_17, main_v62, main_v63, main_v64, main_v65, main_v66, main_v67, main_v68,
   main_cst_18, main_v69, main_v70, main_v71, main_v72, main_v73, main_v74, main_v75, main_v76, main_v77, main_c_19,
   main_v78, main_v79, main_c_20, main_v80, main_v81, main_c_21, main_v82, main_v83, main_v84, main_v85, main_c_22,
   main_v86, main_v87, main_c_23, main_v88, main_v89, main_v90, main_v91, main_v92, main_c_24, main_v93, main_v94,
   main_v95]

theorem S4_writes : (hostOps0_4 (F := Ideal)).Forall fun op =>
    op.writes ⊆ (S4_W.map (Proc.devRef (τ := τ) .tc)).toFinset := by
  simp only [List.Forall]
  repeat' apply And.intro
  all_goals exact sub_of_mem (by decide)

theorem S4_of (V : Valuation τ sig (Elt Ideal)) (r : Ref sig .tc) (h : r ∉ S4_W) :
    StableHlo.after (hostOps0_4 (F := Ideal)) V (no_index (Proc.devRef .tc r)) = V (Proc.devRef .tc r) :=
  StableHlo.after_of_writes_sub _ V S4_writes h

/-- The references the lookup of corner 1 writes. -/
abbrev S5_W : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14,
   main_call2_cst, main_call2_v15, main_v96]

theorem S5_writes : (hostOps0_5 (F := Ideal)).Forall fun op =>
    op.writes ⊆ (S5_W.map (Proc.devRef (τ := τ) .tc)).toFinset := by
  simp only [List.Forall]
  repeat' apply And.intro
  all_goals exact sub_of_mem (by decide)

theorem S5_of (V : Valuation τ sig (Elt Ideal)) (r : Ref sig .tc) (h : r ∉ S5_W) :
    StableHlo.after (hostOps0_5 (F := Ideal)) V (no_index (Proc.devRef .tc r)) = V (Proc.devRef .tc r) :=
  StableHlo.after_of_writes_sub _ V S5_writes h

/-- The references the accumulation of corner 1, the near factor of the third axis and the index arithmetic of
    corner 2 write. -/
abbrev S6_W : List (Ref sig .tc) :=
  [main_v97, main_v98, main_v99, main_v100, main_v101, main_v102, main_cst_25, main_v103, main_v104, main_v105,
   main_v106, main_v107, main_v108, main_v109, main_cst_26, main_v110, main_v111, main_v112, main_v113, main_v114,
   main_v115, main_v116, main_cst_27, main_v117, main_v118, main_v119, main_v120, main_v121, main_v122, main_v123,
   main_cst_28, main_v124, main_v125, main_v126, main_v127, main_c_29, main_v128, main_v129, main_c_30, main_v130,
   main_v131, main_c_31, main_v132, main_v133, main_v134, main_v135, main_c_32, main_v136, main_v137, main_c_33,
   main_v138, main_v139, main_v140, main_v141, main_v142, main_c_34, main_v143, main_v144, main_v145]

theorem S6_writes : (hostOps0_6 (F := Ideal)).Forall fun op =>
    op.writes ⊆ (S6_W.map (Proc.devRef (τ := τ) .tc)).toFinset := by
  simp only [List.Forall]
  repeat' apply And.intro
  all_goals exact sub_of_mem (by decide)

theorem S6_of (V : Valuation τ sig (Elt Ideal)) (r : Ref sig .tc) (h : r ∉ S6_W) :
    StableHlo.after (hostOps0_6 (F := Ideal)) V (no_index (Proc.devRef .tc r)) = V (Proc.devRef .tc r) :=
  StableHlo.after_of_writes_sub _ V S6_writes h

/-! ## What each stretch computes, over an arbitrary valuation -/

section Results

variable (V : Valuation τ sig (Elt Ideal)) (x0 : Cert.Atoms.Arr S524288x3) (x1 : Cert.Atoms.Arr S128x128x128x16)

/-- The positions' affine image. -/
theorem S0_v3 (h0 : V (Proc.devRef .tc main_arg0) = x0) :
    StableHlo.after (hostOps0 (F := Ideal)) V (Proc.devRef .tc main_v3) = val_main_v3 (F := Ideal) x0 := by
  after_results_simp
  rw [h0]
  rfl

/-- The positions in cells. -/
theorem S0_v5 (h0 : V (Proc.devRef .tc main_arg0) = x0) :
    StableHlo.after (hostOps0 (F := Ideal)) V (Proc.devRef .tc main_v5) = val_main_v5 (F := Ideal) x0 := by
  after_results_simp
  rw [h0]
  rfl

/-- Their floors. -/
theorem S0_v6 (h0 : V (Proc.devRef .tc main_arg0) = x0) :
    StableHlo.after (hostOps0 (F := Ideal)) V (Proc.devRef .tc main_v6) = val_main_v6 (F := Ideal) x0 := by
  after_results_simp
  rw [h0]
  rfl

/-- The clamp's two bounds. -/
theorem S0_c : StableHlo.after (hostOps0 (F := Ideal)) V (Proc.devRef .tc main_c) = val_main_c (F := Ideal) := by
  after_results_simp
  rfl

theorem S0_c2 : StableHlo.after (hostOps0 (F := Ideal)) V (Proc.devRef .tc main_c_2) = val_main_c_2 (F := Ideal) := by
  after_results_simp
  rfl

/-- The clamped floors. -/
theorem S1_v7 (h6 : V (Proc.devRef .tc main_v6) = val_main_v6 (F := Ideal) x0)
    (hc : V (Proc.devRef .tc main_c) = val_main_c (F := Ideal)) (hc2 : V (Proc.devRef .tc main_c_2) = val_main_c_2 (F := Ideal)) :
    StableHlo.after (hostOps0_1 (F := Ideal)) V (Proc.devRef .tc main_v7) = val_main_v7 (F := Ideal) x0 := by
  unfold val_main_v7 val_main_call0_v4 val_main_call0_v3 val_main_call0_v2 val_main_call0_v1 val_main_call0_v0
  after_results_simp
  simp only [TRef.ofBuf, TRef.toBuf, cast_eq]
  rw [h6, hc, hc2]

/-- The cell coordinates. -/
theorem S2_v8 (h7 : V (Proc.devRef .tc main_v7) = val_main_v7 (F := Ideal) x0) :
    StableHlo.after (hostOps0_2 (F := Ideal)) V (Proc.devRef .tc main_v8) = val_main_v8 (F := Ideal) x0 := by
  after_results_simp
  rw [h7]
  rfl

/-- The table as rows. -/
theorem S2_v11 (h1 : V (Proc.devRef .tc main_arg1) = x1) :
    StableHlo.after (hostOps0_2 (F := Ideal)) V (Proc.devRef .tc main_v11) = val_main_v11 (F := Ideal) x1 := by
  after_results_simp
  rw [h1]
  rfl

/-- The three fractional coordinates and their complements. -/
theorem S2_v13 (h7 : V (Proc.devRef .tc main_v7) = val_main_v7 (F := Ideal) x0) (h5 : V (Proc.devRef .tc main_v5) = val_main_v5 (F := Ideal) x0) :
    StableHlo.after (hostOps0_2 (F := Ideal)) V (Proc.devRef .tc main_v13) = val_main_v14 (F := Ideal) x0 := by
  after_results_simp
  rw [h7, h5]
  rfl

theorem S2_v15 (h7 : V (Proc.devRef .tc main_v7) = val_main_v7 (F := Ideal) x0) (h5 : V (Proc.devRef .tc main_v5) = val_main_v5 (F := Ideal) x0) :
    StableHlo.after (hostOps0_2 (F := Ideal)) V (Proc.devRef .tc main_v15) = val_main_v18 (F := Ideal) x0 := by
  after_results_simp
  rw [h7, h5]
  rfl

theorem S2_v17 (h7 : V (Proc.devRef .tc main_v7) = val_main_v7 (F := Ideal) x0) (h5 : V (Proc.devRef .tc main_v5) = val_main_v5 (F := Ideal) x0) :
    StableHlo.after (hostOps0_2 (F := Ideal)) V (Proc.devRef .tc main_v17) = val_main_v22 (F := Ideal) x0 := by
  after_results_simp
  rw [h7, h5]
  rfl

theorem S2_v23 (h7 : V (Proc.devRef .tc main_v7) = val_main_v7 (F := Ideal) x0) (h5 : V (Proc.devRef .tc main_v5) = val_main_v5 (F := Ideal) x0) :
    StableHlo.after (hostOps0_2 (F := Ideal)) V (Proc.devRef .tc main_v23) = val_main_v16 (F := Ideal) x0 := by
  after_results_simp
  rw [h7, h5]
  rfl

theorem S2_v25 (h7 : V (Proc.devRef .tc main_v7) = val_main_v7 (F := Ideal) x0) (h5 : V (Proc.devRef .tc main_v5) = val_main_v5 (F := Ideal) x0) :
    StableHlo.after (hostOps0_2 (F := Ideal)) V (Proc.devRef .tc main_v25) = val_main_v20 (F := Ideal) x0 := by
  after_results_simp
  rw [h7, h5]
  rfl

theorem S2_v27 (h7 : V (Proc.devRef .tc main_v7) = val_main_v7 (F := Ideal) x0) (h5 : V (Proc.devRef .tc main_v5) = val_main_v5 (F := Ideal) x0) :
    StableHlo.after (hostOps0_2 (F := Ideal)) V (Proc.devRef .tc main_v27) = val_main_v24 (F := Ideal) x0 := by
  after_results_simp
  rw [h7, h5]
  rfl

/-- The four zero accumulators. -/
theorem S2_v18 : StableHlo.after (hostOps0_2 (F := Ideal)) V (Proc.devRef .tc main_v18) = zeros := by
  after_results_simp
  rfl
theorem S2_v19 : StableHlo.after (hostOps0_2 (F := Ideal)) V (Proc.devRef .tc main_v19) = zeros := by
  after_results_simp
  rfl
theorem S2_v20 : StableHlo.after (hostOps0_2 (F := Ideal)) V (Proc.devRef .tc main_v20) = zeros := by
  after_results_simp
  rfl
theorem S2_v21 : StableHlo.after (hostOps0_2 (F := Ideal)) V (Proc.devRef .tc main_v21) = zeros := by
  after_results_simp
  rfl

/-- Corner 0's row index. -/
theorem S2_v47 (h7 : V (Proc.devRef .tc main_v7) = val_main_v7 (F := Ideal) x0) :
    StableHlo.after (hostOps0_2 (F := Ideal)) V (Proc.devRef .tc main_v47) = val_main_v44 (F := Ideal) x0 := by
  after_results_simp
  rw [h7]
  rfl

/-- Corner 0's lookup. -/
theorem S3_v48 : StableHlo.after (hostOps0_3 (F := Ideal)) V (Proc.devRef .tc main_v48)
    = takeFn (V (Proc.devRef .tc main_v11)) (V (Proc.devRef .tc main_v47)) := by
  unfold takeFn fillTake wrapIdx
  after_results_simp
  simp only [TRef.ofBuf, TRef.toBuf, cast_eq]

/-- Corner 0 (near, near, near) added to the four accumulators. -/
theorem S4_v54 : StableHlo.after (hostOps0_4 (F := Ideal)) V (Proc.devRef .tc main_v54)
    = accStep (V (Proc.devRef .tc main_v18)) (V (Proc.devRef .tc main_v48)) (V (Proc.devRef .tc main_v23)) (V (Proc.devRef .tc main_v25)) (V (Proc.devRef .tc main_v27)) := by
  after_results_simp
  rfl
theorem S4_v61 : StableHlo.after (hostOps0_4 (F := Ideal)) V (Proc.devRef .tc main_v61)
    = accStep (V (Proc.devRef .tc main_v19)) (V (Proc.devRef .tc main_v48)) (kc 0xC2FE0000#32) (V (Proc.devRef .tc main_v25)) (V (Proc.devRef .tc main_v27)) := by
  after_results_simp
  rfl
theorem S4_v68 : StableHlo.after (hostOps0_4 (F := Ideal)) V (Proc.devRef .tc main_v68)
    = accStep (V (Proc.devRef .tc main_v20)) (V (Proc.devRef .tc main_v48)) (kc 0xC2FE0000#32) (V (Proc.devRef .tc main_v23)) (V (Proc.devRef .tc main_v27)) := by
  after_results_simp
  rfl
theorem S4_v75 : StableHlo.after (hostOps0_4 (F := Ideal)) V (Proc.devRef .tc main_v75)
    = accStep (V (Proc.devRef .tc main_v21)) (V (Proc.devRef .tc main_v48)) (kc 0xC2FE0000#32) (V (Proc.devRef .tc main_v23)) (V (Proc.devRef .tc main_v25)) := by
  after_results_simp
  rfl

/-- Corner 1's row index. -/
theorem S4_v95 (h8 : V (Proc.devRef .tc main_v8) = val_main_v8 (F := Ideal) x0) :
    StableHlo.after (hostOps0_4 (F := Ideal)) V (Proc.devRef .tc main_v95) = val_main_v79 (F := Ideal) x0 := by
  after_results_simp
  rw [h8]
  rfl

/-- Corner 1's lookup. -/
theorem S5_v96 : StableHlo.after (hostOps0_5 (F := Ideal)) V (Proc.devRef .tc main_v96)
    = takeFn (V (Proc.devRef .tc main_v11)) (V (Proc.devRef .tc main_v95)) := by
  unfold takeFn fillTake wrapIdx
  after_results_simp
  simp only [TRef.ofBuf, TRef.toBuf, cast_eq]

/-- Corner 1 (near, near, far) added to the four accumulators. -/
theorem S6_v102 : StableHlo.after (hostOps0_6 (F := Ideal)) V (Proc.devRef .tc main_v102)
    = accStep (V (Proc.devRef .tc main_v54)) (V (Proc.devRef .tc main_v96)) (V (Proc.devRef .tc main_v23)) (V (Proc.devRef .tc main_v25)) (V (Proc.devRef .tc main_v17)) := by
  after_results_simp
  rfl
theorem S6_v109 : StableHlo.after (hostOps0_6 (F := Ideal)) V (Proc.devRef .tc main_v109)
    = accStep (V (Proc.devRef .tc main_v61)) (V (Proc.devRef .tc main_v96)) (kc 0xC2FE0000#32) (V (Proc.devRef .tc main_v25)) (V (Proc.devRef .tc main_v17)) := by
  after_results_simp
  rfl
theorem S6_v116 : StableHlo.after (hostOps0_6 (F := Ideal)) V (Proc.devRef .tc main_v116)
    = accStep (V (Proc.devRef .tc main_v68)) (V (Proc.devRef .tc main_v96)) (kc 0xC2FE0000#32) (V (Proc.devRef .tc main_v23)) (V (Proc.devRef .tc main_v17)) := by
  after_results_simp
  rfl
theorem S6_v123 : StableHlo.after (hostOps0_6 (F := Ideal)) V (Proc.devRef .tc main_v123)
    = accStep (V (Proc.devRef .tc main_v75)) (V (Proc.devRef .tc main_v96)) (kc 0x42FE0000#32) (V (Proc.devRef .tc main_v23)) (V (Proc.devRef .tc main_v25)) := by
  after_results_simp
  rfl

/-- The third axis' near factor, computed again. -/
theorem S6_v125 (h17 : V (Proc.devRef .tc main_v17) = val_main_v22 (F := Ideal) x0) :
    StableHlo.after (hostOps0_6 (F := Ideal)) V (Proc.devRef .tc main_v125) = val_main_v24 (F := Ideal) x0 := by
  after_results_simp
  rw [h17]
  rfl

/-- Corner 2's row index. -/
theorem S6_v145 (h8 : V (Proc.devRef .tc main_v8) = val_main_v8 (F := Ideal) x0) :
    StableHlo.after (hostOps0_6 (F := Ideal)) V (Proc.devRef .tc main_v145) = val_main_v118 (F := Ideal) x0 := by
  after_results_simp
  rw [h8]
  rfl

end Results

end Cert.KernelIdeal.Host

end
-- ==== Proof.KHost1b.lean ====
/-
  The corners 2 and 3 of the trilinear lookup in the kernel program's host prefix, read stretch by stretch over an
  arbitrary valuation of the buffers: which references each stretch writes, that every other reference keeps its
  contents, what the outgoing buffers hold as terms over the incoming ones, and the four accumulated rows after
  both corners at one sample point.
-/
import proofs.«171612_j42777874268460_1_alg».proof.Proof.Gen.KernelIdeal.Launch
import proofs.«171612_j42777874268460_1_alg».proof.Proof.Atoms
import proofs.«171612_j42777874268460_1_alg».proof.Proof.KHostLib
import Idealize.ShloMosaic.Lib.StableHlo.Run
import Idealize.ShloMosaic.Lib.ValueIdx

noncomputable section

namespace Cert.KernelIdeal.Host1b

open Idealize.ShloMosaic Idealize.ShloMosaic.TcCoe Idealize.SL.Sem Idealize.ShloMosaic.StableHlo Idealize.ShloMosaic.ValueIdx
open Cert.KernelIdeal Cert.KernelIdeal.Gen Cert.ReferenceIdeal.ReadP

/-! ## What each stretch writes -/

/-- A single written reference that is in the list lies in the list's set of device buffers. -/
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references the lookup of corner 2 writes. -/
abbrev S7_W : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14,
   main_call3_cst, main_call3_v15, main_v146]

theorem S7_writes : (hostOps0_7 (F := Ideal)).Forall fun op =>
    op.writes ⊆ (S7_W.map (Proc.devRef (τ := τ) .tc)).toFinset := by
  simp only [List.Forall]
  repeat' apply And.intro
  all_goals exact sub_of_mem (by decide)

theorem S7_of (V : Valuation τ sig (Elt Ideal)) (r : Ref sig .tc) (h : r ∉ S7_W) :
    StableHlo.after (hostOps0_7 (F := Ideal)) V (no_index (Proc.devRef .tc r)) = V (Proc.devRef .tc r) :=
  StableHlo.after_of_writes_sub _ V S7_writes h

/-- The references the accumulation of corner 2 and the index arithmetic of corner 3 write. -/
abbrev S8_W : List (Ref sig .tc) :=
  [main_v147, main_v148, main_v149, main_v150, main_v151, main_v152, main_cst_35, main_v153, main_v154, main_v155,
   main_v156, main_v157, main_v158, main_v159, main_cst_36, main_v160, main_v161, main_v162, main_v163, main_v164,
   main_v165, main_v166, main_cst_37, main_v167, main_v168, main_v169, main_v170, main_v171, main_v172, main_v173,
   main_v174, main_v175, main_c_38, main_v176, main_v177, main_c_39, main_v178, main_v179, main_c_40, main_v180,
   main_v181, main_v182, main_v183, main_c_41, main_v184, main_v185, main_c_42, main_v186, main_v187, main_v188,
   main_v189, main_v190, main_c_43, main_v191, main_v192, main_v193]

theorem S8_writes : (hostOps0_8 (F := Ideal)).Forall fun op =>
    op.writes ⊆ (S8_W.map (Proc.devRef (τ := τ) .tc)).toFinset := by
  simp only [List.Forall]
  repeat' apply And.intro
  all_goals exact sub_of_mem (by decide)

theorem S8_of (V : Valuation τ sig (Elt Ideal)) (r : Ref sig .tc) (h : r ∉ S8_W) :
    StableHlo.after (hostOps0_8 (F := Ideal)) V (no_index (Proc.devRef .tc r)) = V (Proc.devRef .tc r) :=
  StableHlo.after_of_writes_sub _ V S8_writes h

/-- The references the lookup of corner 3 writes. -/
abbrev S9_W : List (Ref sig .tc) :=
  [main_call4_c, main_call4_v0, main_call4_v1, main_call4_c_0, main_call4_v2, main_call4_v3, main_call4_v4,
   main_call4_v5, main_call4_c_1, main_call4_c_2, main_call4_v6, main_call4_v7, main_call4_v8, main_call4_v9,
   main_call4_v10, main_call4_v11, main_call4_c_3, main_call4_v12, main_call4_v13, main_call4_v14,
   main_call4_cst, main_call4_v15, main_v194]

theorem S9_writes : (hostOps0_9 (F := Ideal)).Forall fun op =>
    op.writes ⊆ (S9_W.map (Proc.devRef (τ := τ) .tc)).toFinset := by
  simp only [List.Forall]
  repeat' apply And.intro
  all_goals exact sub_of_mem (by decide)

theorem S9_of (V : Valuation τ sig (Elt Ideal)) (r : Ref sig .tc) (h : r ∉ S9_W) :
    StableHlo.after (hostOps0_9 (F := Ideal)) V (no_index (Proc.devRef .tc r)) = V (Proc.devRef .tc r) :=
  StableHlo.after_of_writes_sub _ V S9_writes h

/-- The references the accumulation of corner 3, the near factors of the second and third axes and the index
    arithmetic of corner 4 write. -/
abbrev S10_W : List (Ref sig .tc) :=
  [main_v195, main_v196, main_v197, main_v198, main_v199, main_v200, main_cst_44, main_v201, main_v202, main_v203,
   main_v204, main_v205, main_v206, main_v207, main_cst_45, main_v208, main_v209, main_v210, main_v211, main_v212,
   main_v213, main_v214, main_cst_46, main_v215, main_v216, main_v217, main_v218, main_v219, main_v220, main_v221,
   main_cst_47, main_v222, main_v223, main_cst_48, main_v224, main_v225,
   main_v226, main_v227, main_c_49, main_v228, main_v229, main_c_50, main_v230, main_v231, main_c_51, main_v232,
   main_v233, main_v234, main_v235, main_c_52, main_v236, main_v237, main_c_53, main_v238, main_v239, main_v240,
   main_v241, main_v242, main_c_54, main_v243, main_v244, main_v245]

theorem S10_writes : (hostOps0_10 (F := Ideal)).Forall fun op =>
    op.writes ⊆ (S10_W.map (Proc.devRef (τ := τ) .tc)).toFinset := by
  simp only [List.Forall]
  repeat' apply And.intro
  all_goals exact sub_of_mem (by decide)

theorem S10_of (V : Valuation τ sig (Elt Ideal)) (r : Ref sig .tc) (h : r ∉ S10_W) :
    StableHlo.after (hostOps0_10 (F := Ideal)) V (no_index (Proc.devRef .tc r)) = V (Proc.devRef .tc r) :=
  StableHlo.after_of_writes_sub _ V S10_writes h

/-! ## The terms the stretches compute -/

/-- An index array of one entry a sample point. -/
abbrev IArr := (⟨S524288, .i32⟩ : BufTy).Contents (Elt Ideal)

/-- The index array wrapped: a negative index is moved up by the table's length. -/
def wrapIdx (idx : IArr) : IArr :=
  select (cmpi .slt idx (broadcastInDim (α := BitVec 32) S524288 ![] bcast_S_S524288 (constantI S_ 32 0#32)))
    (addi idx (broadcastInDim (α := BitVec 32) S524288 ![] bcast_S_S524288 (constantI S_ 32 2097152#32))) idx

/-- A row lookup on an index array already wrapped: the looked-up row is kept where the index lies inside the
    table and replaced by the not-a-number literal elsewhere. -/
def fillTake (tbl : Cert.Atoms.Arr S2097152x16) (i : IArr) : Cert.Atoms.Arr S524288x16 :=
  select (broadcastInDim S524288x16 ![0] bcast_S524288_S524288x16_0
      (Host.reduce IntOp.andi
        (andi (cmpi .sge (broadcastInDim S524288x1 ![0] bcast_S524288_S524288x1_0 i) (broadcastInDim S524288x1 ![] bcast_S_S524288x1 (constantI S_ 32 0#32)))
          (cmpi .sle (broadcastInDim S524288x1 ![0] bcast_S524288_S524288x1_0 i) (broadcastInDim S524288x1 ![0, 1] bcast_S1x1_S524288x1_0_1 (broadcastInDim S1x1 ![1] bcast_S1_S1x1_1 (constantI S1 32 2097151#32)))))
        (constantI S_ 1 1#1) reducesTo_S524288x1_S524288_d1 h_S_))
    (Host.gather gather_S2097152x16_S524288x1_S524288x16_1_0_n_n_0_1_116 tbl (broadcastInDim S524288x1 ![0] bcast_S524288_S524288x1_0 i))
    (broadcastInDim S524288x16 ![] bcast_S_S524288x16 (constant (F := Ideal) S_ .f32 0x7FC00000#32))

/-- The row lookup on a raw index array. -/
def takeFn (tbl : Cert.Atoms.Arr S2097152x16) (idx : IArr) : Cert.Atoms.Arr S524288x16 := fillTake tbl (wrapIdx idx)

/-- A per-point weight spread over the sixteen features. -/
def bb (w : Cert.Atoms.Arr S524288) : Cert.Atoms.Arr S524288x16 :=
  broadcastInDim S524288x16 ![0, 1] bcast_S524288x1_S524288x16_0_1 (broadcastInDim S524288x1 ![0] bcast_S524288_S524288x1_0 w)

/-- One corner added to an accumulator: acc + g · w, the weight the product of three per-point factors. -/
def accStep (acc g : Cert.Atoms.Arr S524288x16) (a b c : Cert.Atoms.Arr S524288) : Cert.Atoms.Arr S524288x16 :=
  addf (F := Ideal) (s := S524288x16) (φ := .f32) acc (mulf (F := Ideal) (s := S524288x16) (φ := .f32) g
    (bb (mulf (F := Ideal) (s := S524288) (φ := .f32) (mulf (F := Ideal) (s := S524288) (φ := .f32) a b) c)))

/-- A float literal at every sample point. -/
def kc (bits : BitVec 32) : Cert.Atoms.Arr S524288 :=
  broadcastInDim S524288 ![] bcast_S_S524288 (constant (F := Ideal) S_ .f32 bits)

/-- One accumulation step at (n, e). -/
theorem accStep_apply (acc g : Cert.Atoms.Arr S524288x16) (a b c : Cert.Atoms.Arr S524288) (n : Fin 524288)
    (e : Fin 16) :
    accStep acc g a b c (ix2 n e) = acc (ix2 n e) + g (ix2 n e) * ((a (ix1 n) * b (ix1 n)) * c (ix1 n)) := by
  unfold accStep bb
  rw [HostLib.acc_step]
  rfl

/-! ## What each stretch leaves in the buffers it writes, over the incoming valuation -/

section Stretches
variable (V : Valuation τ sig (Elt Ideal))

theorem S7_take : StableHlo.after (hostOps0_7 (F := Ideal)) V (Proc.devRef .tc main_v146)
    = takeFn (V (Proc.devRef .tc main_v11)) (V (Proc.devRef .tc main_v145)) := by
  after_results_simp
  simp only [TRef.ofBuf, TRef.toBuf, cast_eq]
  rfl

theorem S8_emb : StableHlo.after (hostOps0_8 (F := Ideal)) V (Proc.devRef .tc main_v152)
    = accStep (V (Proc.devRef .tc main_v102)) (V (Proc.devRef .tc main_v146)) (V (Proc.devRef .tc main_v23)) (V (Proc.devRef .tc main_v15)) (V (Proc.devRef .tc main_v125)) := by
  after_results_simp
  rfl

theorem S8_ddx : StableHlo.after (hostOps0_8 (F := Ideal)) V (Proc.devRef .tc main_v159)
    = accStep (V (Proc.devRef .tc main_v109)) (V (Proc.devRef .tc main_v146)) (kc 0xC2FE0000#32) (V (Proc.devRef .tc main_v15)) (V (Proc.devRef .tc main_v125)) := by
  after_results_simp
  rfl

theorem S8_ddy : StableHlo.after (hostOps0_8 (F := Ideal)) V (Proc.devRef .tc main_v166)
    = accStep (V (Proc.devRef .tc main_v116)) (V (Proc.devRef .tc main_v146)) (kc 0x42FE0000#32) (V (Proc.devRef .tc main_v23)) (V (Proc.devRef .tc main_v125)) := by
  after_results_simp
  rfl

theorem S8_ddz : StableHlo.after (hostOps0_8 (F := Ideal)) V (Proc.devRef .tc main_v173)
    = accStep (V (Proc.devRef .tc main_v123)) (V (Proc.devRef .tc main_v146)) (kc 0xC2FE0000#32) (V (Proc.devRef .tc main_v23)) (V (Proc.devRef .tc main_v15)) := by
  after_results_simp
  rfl

theorem S8_idx (x0 : Cert.Atoms.Arr S524288x3) (h8 : V (Proc.devRef .tc main_v8) = val_main_v8 (F := Ideal) x0) :
    StableHlo.after (hostOps0_8 (F := Ideal)) V (Proc.devRef .tc main_v193) = val_main_v153 (F := Ideal) x0 := by
  after_results_simp
  rw [h8]
  rfl

theorem S9_take : StableHlo.after (hostOps0_9 (F := Ideal)) V (Proc.devRef .tc main_v194)
    = takeFn (V (Proc.devRef .tc main_v11)) (V (Proc.devRef .tc main_v193)) := by
  after_results_simp
  simp only [TRef.ofBuf, TRef.toBuf, cast_eq]
  rfl

theorem S10_emb : StableHlo.after (hostOps0_10 (F := Ideal)) V (Proc.devRef .tc main_v200)
    = accStep (V (Proc.devRef .tc main_v152)) (V (Proc.devRef .tc main_v194)) (V (Proc.devRef .tc main_v23)) (V (Proc.devRef .tc main_v15)) (V (Proc.devRef .tc main_v17)) := by
  after_results_simp
  rfl

theorem S10_ddx : StableHlo.after (hostOps0_10 (F := Ideal)) V (Proc.devRef .tc main_v207)
    = accStep (V (Proc.devRef .tc main_v159)) (V (Proc.devRef .tc main_v194)) (kc 0xC2FE0000#32) (V (Proc.devRef .tc main_v15)) (V (Proc.devRef .tc main_v17)) := by
  after_results_simp
  rfl

theorem S10_ddy : StableHlo.after (hostOps0_10 (F := Ideal)) V (Proc.devRef .tc main_v214)
    = accStep (V (Proc.devRef .tc main_v166)) (V (Proc.devRef .tc main_v194)) (kc 0x42FE0000#32) (V (Proc.devRef .tc main_v23)) (V (Proc.devRef .tc main_v17)) := by
  after_results_simp
  rfl

theorem S10_ddz : StableHlo.after (hostOps0_10 (F := Ideal)) V (Proc.devRef .tc main_v221)
    = accStep (V (Proc.devRef .tc main_v173)) (V (Proc.devRef .tc main_v194)) (kc 0x42FE0000#32) (V (Proc.devRef .tc main_v23)) (V (Proc.devRef .tc main_v15)) := by
  after_results_simp
  rfl

theorem S10_ny : StableHlo.after (hostOps0_10 (F := Ideal)) V (Proc.devRef .tc main_v223)
    = subf (F := Ideal) (s := S524288) (φ := .f32) (kc 0x3F800000#32) (V (Proc.devRef .tc main_v15)) := by
  after_results_simp
  rfl

theorem S10_nz : StableHlo.after (hostOps0_10 (F := Ideal)) V (Proc.devRef .tc main_v225)
    = subf (F := Ideal) (s := S524288) (φ := .f32) (kc 0x3F800000#32) (V (Proc.devRef .tc main_v17)) := by
  after_results_simp
  rfl

theorem S10_idx (x0 : Cert.Atoms.Arr S524288x3) (h8 : V (Proc.devRef .tc main_v8) = val_main_v8 (F := Ideal) x0) :
    StableHlo.after (hostOps0_10 (F := Ideal)) V (Proc.devRef .tc main_v245) = val_main_v196 (F := Ideal) x0 := by
  after_results_simp
  rw [h8]
  rfl

end Stretches

/-! ## The two corners' row arrays are the reference's gathers -/

section Rows
variable (x0 : Cert.Atoms.Arr S524288x3) (x1 : Cert.Atoms.Arr S128x128x128x16)

/-- Corner 2's rows: the lookup at the raw index is the gather at the wrapped index, which lies in the table. -/
theorem take_G2 (hin : Cert.Atoms.InRange x0) :
    takeFn (val_main_v11 (F := Ideal) x1) (val_main_v118 (F := Ideal) x0) = Cert.Atoms.Gs 2 x0 x1 :=
  HostLib.take_fill (val_main_v11 (F := Ideal) x1) (val_main_v123 (F := Ideal) x0) (hin 2)

/-- Corner 3's rows. -/
theorem take_G3 (hin : Cert.Atoms.InRange x0) :
    takeFn (val_main_v11 (F := Ideal) x1) (val_main_v153 (F := Ideal) x0) = Cert.Atoms.Gs 3 x0 x1 :=
  HostLib.take_fill (val_main_v11 (F := Ideal) x1) (val_main_v158 (F := Ideal) x0) (hin 3)

end Rows

/-! ## The four stretches together -/

/-- The valuation after the lookup of corner 2. -/
abbrev a7 (V : Valuation τ sig (Elt Ideal)) : Valuation τ sig (Elt Ideal) :=
  StableHlo.after (hostOps0_7 (F := Ideal)) V
/-- The valuation after the accumulation of corner 2. -/
abbrev a8 (V : Valuation τ sig (Elt Ideal)) : Valuation τ sig (Elt Ideal) :=
  StableHlo.after (hostOps0_8 (F := Ideal)) (a7 V)
/-- The valuation after the lookup of corner 3. -/
abbrev a9 (V : Valuation τ sig (Elt Ideal)) : Valuation τ sig (Elt Ideal) :=
  StableHlo.after (hostOps0_9 (F := Ideal)) (a8 V)

/-- The valuation after the four stretches. -/
abbrev mid4 (V : Valuation τ sig (Elt Ideal)) : Valuation τ sig (Elt Ideal) :=
  StableHlo.after (hostOps0_10 (F := Ideal)) (StableHlo.after (hostOps0_9 (F := Ideal)) (StableHlo.after (hostOps0_8 (F := Ideal)) (StableHlo.after (hostOps0_7 (F := Ideal)) V)))

/-- After corners 2 and 3: each of the four accumulated rows has gained the two corners' rows times their weights
    (the trilinear weight for the embedding, its three derivatives for the derivative rows), the near factors of the
    second and third axes and corner 4's raw row index are the reference's, and nothing else has changed. -/
theorem mid_quarter (V : Valuation τ sig (Elt Ideal)) (x0 : Cert.Atoms.Arr S524288x3) (x1 : Cert.Atoms.Arr S128x128x128x16)
    (hin : Cert.Atoms.InRange x0)
    (h8 : V (Proc.devRef .tc main_v8) = val_main_v8 (F := Ideal) x0)
    (h11 : V (Proc.devRef .tc main_v11) = val_main_v11 (F := Ideal) x1)
    (h15 : V (Proc.devRef .tc main_v15) = val_main_v18 (F := Ideal) x0)
    (h17 : V (Proc.devRef .tc main_v17) = val_main_v22 (F := Ideal) x0)
    (h23 : V (Proc.devRef .tc main_v23) = val_main_v16 (F := Ideal) x0)
    (h125 : V (Proc.devRef .tc main_v125) = val_main_v24 (F := Ideal) x0)
    (h145 : V (Proc.devRef .tc main_v145) = val_main_v118 (F := Ideal) x0)
    (E X Y Z : Cert.Atoms.Arr S524288x16)
    (hE : V (Proc.devRef .tc main_v102) = E) (hX : V (Proc.devRef .tc main_v109) = X)
    (hY : V (Proc.devRef .tc main_v116) = Y) (hZ : V (Proc.devRef .tc main_v123) = Z)
    (n : Fin 524288) :
    let P := Cert.Atoms.ptOf x0 x1 n
    (∀ e : Fin 16, (mid4 V (Proc.devRef .tc main_v200) : Cert.Atoms.Arr S524288x16) (ix2 n e) = (E (ix2 n e) + P.G 2 e * Cert.Spec.wt P 2) + P.G 3 e * Cert.Spec.wt P 3)
    ∧ (∀ e : Fin 16, (mid4 V (Proc.devRef .tc main_v207) : Cert.Atoms.Arr S524288x16) (ix2 n e) = (X (ix2 n e) + P.G 2 e * Cert.Spec.ux P 2) + P.G 3 e * Cert.Spec.ux P 3)
    ∧ (∀ e : Fin 16, (mid4 V (Proc.devRef .tc main_v214) : Cert.Atoms.Arr S524288x16) (ix2 n e) = (Y (ix2 n e) + P.G 2 e * Cert.Spec.uy P 2) + P.G 3 e * Cert.Spec.uy P 3)
    ∧ (∀ e : Fin 16, (mid4 V (Proc.devRef .tc main_v221) : Cert.Atoms.Arr S524288x16) (ix2 n e) = (Z (ix2 n e) + P.G 2 e * Cert.Spec.uz P 2) + P.G 3 e * Cert.Spec.uz P 3)
    ∧ mid4 V (Proc.devRef .tc main_v223) = val_main_v20 (F := Ideal) x0
    ∧ mid4 V (Proc.devRef .tc main_v225) = val_main_v24 (F := Ideal) x0
    ∧ mid4 V (Proc.devRef .tc main_v245) = val_main_v196 (F := Ideal) x0
    ∧ (∀ r : Ref sig .tc, r ∉ S7_W → r ∉ S8_W → r ∉ S9_W → r ∉ S10_W → mid4 V (Proc.devRef .tc r) = V (Proc.devRef .tc r)) := by
  intro P
  -- what the earlier stretches keep
  have k7 : ∀ r : Ref sig .tc, r ∉ S7_W → a7 V (Proc.devRef .tc r) = V (Proc.devRef .tc r) :=
    fun r h => S7_of V r h
  have k8 : ∀ r : Ref sig .tc, r ∉ S7_W → r ∉ S8_W → a8 V (Proc.devRef .tc r) = V (Proc.devRef .tc r) :=
    fun r h7 h8 => (S8_of (a7 V) r h8).trans (k7 r h7)
  have k9 : ∀ r : Ref sig .tc, r ∉ S7_W → r ∉ S8_W → r ∉ S9_W →
      a9 V (Proc.devRef .tc r) = V (Proc.devRef .tc r) :=
    fun r h7 h8 h9 => (S9_of (a8 V) r h9).trans (k8 r h7 h8)
  -- corner 2
  have g2 : a7 V (Proc.devRef .tc main_v146) = Cert.Atoms.Gs 2 x0 x1 := by
    rw [show a7 V (Proc.devRef .tc main_v146) = _ from S7_take V, h11, h145]
    exact take_G2 x0 x1 hin
  have e8 : a8 V (Proc.devRef .tc main_v152) = accStep E (Cert.Atoms.Gs 2 x0 x1) (val_main_v16 (F := Ideal) x0)
      (val_main_v18 (F := Ideal) x0) (val_main_v24 (F := Ideal) x0) := by
    rw [show a8 V (Proc.devRef .tc main_v152) = _ from S8_emb (a7 V), g2, k7 main_v102 (by decide), k7 main_v23 (by decide),
      k7 main_v15 (by decide), k7 main_v125 (by decide), hE, h23, h15, h125]
  have x8 : a8 V (Proc.devRef .tc main_v159) = accStep X (Cert.Atoms.Gs 2 x0 x1) (kc 0xC2FE0000#32)
      (val_main_v18 (F := Ideal) x0) (val_main_v24 (F := Ideal) x0) := by
    rw [show a8 V (Proc.devRef .tc main_v159) = _ from S8_ddx (a7 V), g2, k7 main_v109 (by decide), k7 main_v15 (by decide),
      k7 main_v125 (by decide), hX, h15, h125]
  have y8 : a8 V (Proc.devRef .tc main_v166) = accStep Y (Cert.Atoms.Gs 2 x0 x1) (kc 0x42FE0000#32)
      (val_main_v16 (F := Ideal) x0) (val_main_v24 (F := Ideal) x0) := by
    rw [show a8 V (Proc.devRef .tc main_v166) = _ from S8_ddy (a7 V), g2, k7 main_v116 (by decide), k7 main_v23 (by decide),
      k7 main_v125 (by decide), hY, h23, h125]
  have z8 : a8 V (Proc.devRef .tc main_v173) = accStep Z (Cert.Atoms.Gs 2 x0 x1) (kc 0xC2FE0000#32)
      (val_main_v16 (F := Ideal) x0) (val_main_v18 (F := Ideal) x0) := by
    rw [show a8 V (Proc.devRef .tc main_v173) = _ from S8_ddz (a7 V), g2, k7 main_v123 (by decide), k7 main_v23 (by decide),
      k7 main_v15 (by decide), hZ, h23, h15]
  have i8 : a8 V (Proc.devRef .tc main_v193) = val_main_v153 (F := Ideal) x0 :=
    S8_idx (a7 V) x0 ((k7 main_v8 (by decide)).trans h8)
  -- corner 3
  have g3 : a9 V (Proc.devRef .tc main_v194) = Cert.Atoms.Gs 3 x0 x1 := by
    rw [show a9 V (Proc.devRef .tc main_v194) = _ from S9_take (a8 V), k8 main_v11 (by decide) (by decide), h11, i8]
    exact take_G3 x0 x1 hin
  have f23 : a9 V (Proc.devRef .tc main_v23) = val_main_v16 (F := Ideal) x0 := (k9 main_v23 (by decide) (by decide) (by decide)).trans h23
  have f15 : a9 V (Proc.devRef .tc main_v15) = val_main_v18 (F := Ideal) x0 := (k9 main_v15 (by decide) (by decide) (by decide)).trans h15
  have f17 : a9 V (Proc.devRef .tc main_v17) = val_main_v22 (F := Ideal) x0 := (k9 main_v17 (by decide) (by decide) (by decide)).trans h17
  have e10 : mid4 V (Proc.devRef .tc main_v200) = accStep (accStep E (Cert.Atoms.Gs 2 x0 x1) (val_main_v16 (F := Ideal) x0)
      (val_main_v18 (F := Ideal) x0) (val_main_v24 (F := Ideal) x0)) (Cert.Atoms.Gs 3 x0 x1)
      (val_main_v16 (F := Ideal) x0) (val_main_v18 (F := Ideal) x0) (val_main_v22 (F := Ideal) x0) := by
    rw [show mid4 V (Proc.devRef .tc main_v200) = _ from S10_emb (a9 V), g3, f23, f15, f17,
      show a9 V (Proc.devRef .tc main_v152) = _ from S9_of (a8 V) main_v152 (by decide), e8]
  have x10 : mid4 V (Proc.devRef .tc main_v207) = accStep (accStep X (Cert.Atoms.Gs 2 x0 x1) (kc 0xC2FE0000#32)
      (val_main_v18 (F := Ideal) x0) (val_main_v24 (F := Ideal) x0)) (Cert.Atoms.Gs 3 x0 x1)
      (kc 0xC2FE0000#32) (val_main_v18 (F := Ideal) x0) (val_main_v22 (F := Ideal) x0) := by
    rw [show mid4 V (Proc.devRef .tc main_v207) = _ from S10_ddx (a9 V), g3, f15, f17,
      show a9 V (Proc.devRef .tc main_v159) = _ from S9_of (a8 V) main_v159 (by decide), x8]
  have y10 : mid4 V (Proc.devRef .tc main_v214) = accStep (accStep Y (Cert.Atoms.Gs 2 x0 x1) (kc 0x42FE0000#32)
      (val_main_v16 (F := Ideal) x0) (val_main_v24 (F := Ideal) x0)) (Cert.Atoms.Gs 3 x0 x1)
      (kc 0x42FE0000#32) (val_main_v16 (F := Ideal) x0) (val_main_v22 (F := Ideal) x0) := by
    rw [show mid4 V (Proc.devRef .tc main_v214) = _ from S10_ddy (a9 V), g3, f23, f17,
      show a9 V (Proc.devRef .tc main_v166) = _ from S9_of (a8 V) main_v166 (by decide), y8]
  have z10 : mid4 V (Proc.devRef .tc main_v221) = accStep (accStep Z (Cert.Atoms.Gs 2 x0 x1) (kc 0xC2FE0000#32)
      (val_main_v16 (F := Ideal) x0) (val_main_v18 (F := Ideal) x0)) (Cert.Atoms.Gs 3 x0 x1)
      (kc 0x42FE0000#32) (val_main_v16 (F := Ideal) x0) (val_main_v18 (F := Ideal) x0) := by
    rw [show mid4 V (Proc.devRef .tc main_v221) = _ from S10_ddz (a9 V), g3, f23, f15,
      show a9 V (Proc.devRef .tc main_v173) = _ from S9_of (a8 V) main_v173 (by decide), z8]
  refine ⟨fun e => ?_, fun e => ?_, fun e => ?_, fun e => ?_, ?_, ?_, ?_, ?_⟩
  · rw [e10, accStep_apply, accStep_apply]; rfl
  · rw [x10, accStep_apply, accStep_apply]; rfl
  · rw [y10, accStep_apply, accStep_apply]; rfl
  · rw [z10, accStep_apply, accStep_apply]; rfl
  · rw [show mid4 V (Proc.devRef .tc main_v223) = _ from S10_ny (a9 V), f15]; rfl
  · rw [show mid4 V (Proc.devRef .tc main_v225) = _ from S10_nz (a9 V), f17]; rfl
  · exact S10_idx (a9 V) x0 ((k9 main_v8 (by decide) (by decide) (by decide)).trans h8)
  · exact fun r h7 h8' h9 h10 => (S10_of (a9 V) r h10).trans (k9 r h7 h8' h9)

end Cert.KernelIdeal.Host1b

end
-- ==== Proof.KHost2.lean ====
/-
  The second half of the host prefix (the corners 4 to 7 of the trilinear lookup and the final concatenate), read
  stretch by stretch over an arbitrary valuation of the buffers: which references each stretch writes, that every
  other reference keeps its contents, and what the outgoing buffers hold as terms over the incoming ones.
-/
import proofs.«171612_j42777874268460_1_alg».proof.Proof.Gen.KernelIdeal.Launch
import proofs.«171612_j42777874268460_1_alg».proof.Proof.Atoms
import Idealize.ShloMosaic.Lib.StableHlo.Run
import Idealize.ShloMosaic.Lib.ValueIdx
import proofs.«171612_j42777874268460_1_alg».proof.Proof.KHostLib

-- telling apart two of the program's 711 references by evaluation recurses past the default depth
set_option maxRecDepth 8192

noncomputable section

namespace Cert.KernelIdeal.Host2

open Idealize.ShloMosaic Idealize.ShloMosaic.TcCoe Idealize.SL.Sem Idealize.ShloMosaic.StableHlo
open Cert.KernelIdeal Cert.KernelIdeal.Gen Cert.ReferenceIdeal.ReadP
open Idealize.ShloMosaic.ValueIdx

/-! ## What each stretch writes -/

/-- A single written reference that is in the list lies in the list's set of device buffers. -/
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references the lookup of corner 4 writes. -/
abbrev S11_W : List (Ref sig .tc) :=
  [main_call5_c, main_call5_v0, main_call5_v1, main_call5_c_0, main_call5_v2, main_call5_v3, main_call5_v4,
   main_call5_v5, main_call5_c_1, main_call5_c_2, main_call5_v6, main_call5_v7, main_call5_v8, main_call5_v9,
   main_call5_v10, main_call5_v11, main_call5_c_3, main_call5_v12, main_call5_v13, main_call5_v14,
   main_call5_cst, main_call5_v15, main_v246]

theorem S11_writes : (hostOps0_11 (F := Ideal)).Forall fun op =>
    op.writes ⊆ (S11_W.map (Proc.devRef (τ := τ) .tc)).toFinset := by
  simp only [List.Forall]
  repeat' apply And.intro
  all_goals exact sub_of_mem (by decide)

theorem S11_of (V : Valuation τ sig (Elt Ideal)) (r : Ref sig .tc) (h : r ∉ S11_W) :
    StableHlo.after (hostOps0_11 (F := Ideal)) V (no_index (Proc.devRef .tc r)) = V (Proc.devRef .tc r) :=
  StableHlo.after_of_writes_sub _ V S11_writes h

/-- The references the accumulation of corner 4 and the index arithmetic of corner 5 write. -/
abbrev S12_W : List (Ref sig .tc) :=
  [main_v247, main_v248, main_v249, main_v250, main_v251, main_v252, main_cst_55, main_v253, main_v254, main_v255,
   main_v256, main_v257, main_v258, main_v259, main_cst_56, main_v260, main_v261, main_v262, main_v263, main_v264,
   main_v265, main_v266, main_cst_57, main_v267, main_v268, main_v269, main_v270, main_v271, main_v272, main_v273,
   main_v274, main_v275, main_c_58, main_v276, main_v277, main_c_59, main_v278, main_v279, main_c_60, main_v280,
   main_v281, main_v282, main_v283, main_c_61, main_v284, main_v285, main_c_62, main_v286, main_v287, main_v288,
   main_v289, main_v290, main_c_63, main_v291, main_v292, main_v293]

theorem S12_writes : (hostOps0_12 (F := Ideal)).Forall fun op =>
    op.writes ⊆ (S12_W.map (Proc.devRef (τ := τ) .tc)).toFinset := by
  simp only [List.Forall]
  repeat' apply And.intro
  all_goals exact sub_of_mem (by decide)

theorem S12_of (V : Valuation τ sig (Elt Ideal)) (r : Ref sig .tc) (h : r ∉ S12_W) :
    StableHlo.after (hostOps0_12 (F := Ideal)) V (no_index (Proc.devRef .tc r)) = V (Proc.devRef .tc r) :=
  StableHlo.after_of_writes_sub _ V S12_writes h

/-- The references the lookup of corner 5 writes. -/
abbrev S13_W : List (Ref sig .tc) :=
  [main_call6_c, main_call6_v0, main_call6_v1, main_call6_c_0, main_call6_v2, main_call6_v3, main_call6_v4,
   main_call6_v5, main_call6_c_1, main_call6_c_2, main_call6_v6, main_call6_v7, main_call6_v8, main_call6_v9,
   main_call6_v10, main_call6_v11, main_call6_c_3, main_call6_v12, main_call6_v13, main_call6_v14,
   main_call6_cst, main_call6_v15, main_v294]

theorem S13_writes : (hostOps0_13 (F := Ideal)).Forall fun op =>
    op.writes ⊆ (S13_W.map (Proc.devRef (τ := τ) .tc)).toFinset := by
  simp only [List.Forall]
  repeat' apply And.intro
  all_goals exact sub_of_mem (by decide)

theorem S13_of (V : Valuation τ sig (Elt Ideal)) (r : Ref sig .tc) (h : r ∉ S13_W) :
    StableHlo.after (hostOps0_13 (F := Ideal)) V (no_index (Proc.devRef .tc r)) = V (Proc.devRef .tc r) :=
  StableHlo.after_of_writes_sub _ V S13_writes h

/-- The references the accumulation of corner 5, the near factor of the third axis and the index arithmetic of
    corner 6 write. -/
abbrev S14_W : List (Ref sig .tc) :=
  [main_v295, main_v296, main_v297, main_v298, main_v299, main_v300, main_cst_64, main_v301, main_v302, main_v303,
   main_v304, main_v305, main_v306, main_v307, main_cst_65, main_v308, main_v309, main_v310, main_v311, main_v312,
   main_v313, main_v314, main_cst_66, main_v315, main_v316, main_v317, main_v318, main_v319, main_v320, main_v321,
   main_cst_67, main_v322, main_v323,
   main_v324, main_v325, main_c_68, main_v326, main_v327, main_c_69, main_v328, main_v329, main_c_70, main_v330,
   main_v331, main_v332, main_v333, main_c_71, main_v334, main_v335, main_c_72, main_v336, main_v337, main_v338,
   main_v339, main_v340, main_c_73, main_v341, main_v342, main_v343]

theorem S14_writes : (hostOps0_14 (F := Ideal)).Forall fun op =>
    op.writes ⊆ (S14_W.map (Proc.devRef (τ := τ) .tc)).toFinset := by
  simp only [List.Forall]
  repeat' apply And.intro
  all_goals exact sub_of_mem (by decide)

theorem S14_of (V : Valuation τ sig (Elt Ideal)) (r : Ref sig .tc) (h : r ∉ S14_W) :
    StableHlo.after (hostOps0_14 (F := Ideal)) V (no_index (Proc.devRef .tc r)) = V (Proc.devRef .tc r) :=
  StableHlo.after_of_writes_sub _ V S14_writes h

/-- The references the lookup of corner 6 writes. -/
abbrev S15_W : List (Ref sig .tc) :=
  [main_call7_c, main_call7_v0, main_call7_v1, main_call7_c_0, main_call7_v2, main_call7_v3, main_call7_v4,
   main_call7_v5, main_call7_c_1, main_call7_c_2, main_call7_v6, main_call7_v7, main_call7_v8, main_call7_v9,
   main_call7_v10, main_call7_v11, main_call7_c_3, main_call7_v12, main_call7_v13, main_call7_v14,
   main_call7_cst, main_call7_v15, main_v344]

theorem S15_writes : (hostOps0_15 (F := Ideal)).Forall fun op =>
    op.writes ⊆ (S15_W.map (Proc.devRef (τ := τ) .tc)).toFinset := by
  simp only [List.Forall]
  repeat' apply And.intro
  all_goals exact sub_of_mem (by decide)

theorem S15_of (V : Valuation τ sig (Elt Ideal)) (r : Ref sig .tc) (h : r ∉ S15_W) :
    StableHlo.after (hostOps0_15 (F := Ideal)) V (no_index (Proc.devRef .tc r)) = V (Proc.devRef .tc r) :=
  StableHlo.after_of_writes_sub _ V S15_writes h

/-- The references the accumulation of corner 6 and the index arithmetic of corner 7 write. -/
abbrev S16_W : List (Ref sig .tc) :=
  [main_v345, main_v346, main_v347, main_v348, main_v349, main_v350, main_cst_74, main_v351, main_v352, main_v353,
   main_v354, main_v355, main_v356, main_v357, main_cst_75, main_v358, main_v359, main_v360, main_v361, main_v362,
   main_v363, main_v364, main_cst_76, main_v365, main_v366, main_v367, main_v368, main_v369, main_v370, main_v371,
   main_v372, main_v373, main_c_77, main_v374, main_v375, main_c_78, main_v376, main_v377, main_c_79, main_v378,
   main_v379, main_v380, main_v381, main_c_80, main_v382, main_v383, main_c_81, main_v384, main_v385, main_v386,
   main_v387, main_v388, main_c_82, main_v389, main_v390, main_v391]

theorem S16_writes : (hostOps0_16 (F := Ideal)).Forall fun op =>
    op.writes ⊆ (S16_W.map (Proc.devRef (τ := τ) .tc)).toFinset := by
  simp only [List.Forall]
  repeat' apply And.intro
  all_goals exact sub_of_mem (by decide)

theorem S16_of (V : Valuation τ sig (Elt Ideal)) (r : Ref sig .tc) (h : r ∉ S16_W) :
    StableHlo.after (hostOps0_16 (F := Ideal)) V (no_index (Proc.devRef .tc r)) = V (Proc.devRef .tc r) :=
  StableHlo.after_of_writes_sub _ V S16_writes h

/-- The references the lookup of corner 7 writes. -/
abbrev S17_W : List (Ref sig .tc) :=
  [main_call8_c, main_call8_v0, main_call8_v1, main_call8_c_0, main_call8_v2, main_call8_v3, main_call8_v4,
   main_call8_v5, main_call8_c_1, main_call8_c_2, main_call8_v6, main_call8_v7, main_call8_v8, main_call8_v9,
   main_call8_v10, main_call8_v11, main_call8_c_3, main_call8_v12, main_call8_v13, main_call8_v14,
   main_call8_cst, main_call8_v15, main_v392]

theorem S17_writes : (hostOps0_17 (F := Ideal)).Forall fun op =>
    op.writes ⊆ (S17_W.map (Proc.devRef (τ := τ) .tc)).toFinset := by
  simp only [List.Forall]
  repeat' apply And.intro
  all_goals exact sub_of_mem (by decide)

theorem S17_of (V : Valuation τ sig (Elt Ideal)) (r : Ref sig .tc) (h : r ∉ S17_W) :
    StableHlo.after (hostOps0_17 (F := Ideal)) V (no_index (Proc.devRef .tc r)) = V (Proc.devRef .tc r) :=
  StableHlo.after_of_writes_sub _ V S17_writes h

/-- The references the accumulation of corner 7 and the concatenate of the four rows with the position write. -/
abbrev S18_W : List (Ref sig .tc) :=
  [main_v393, main_v394, main_v395, main_v396, main_v397, main_v398, main_cst_83, main_v399, main_v400, main_v401,
   main_v402, main_v403, main_v404, main_v405, main_cst_84, main_v406, main_v407, main_v408, main_v409, main_v410,
   main_v411, main_v412, main_cst_85, main_v413, main_v414, main_v415, main_v416, main_v417, main_v418, main_v419,
   main_v420]

theorem S18_writes : (hostOps0_18 (F := Ideal)).Forall fun op =>
    op.writes ⊆ (S18_W.map (Proc.devRef (τ := τ) .tc)).toFinset := by
  simp only [List.Forall]
  repeat' apply And.intro
  all_goals exact sub_of_mem (by decide)

theorem S18_of (V : Valuation τ sig (Elt Ideal)) (r : Ref sig .tc) (h : r ∉ S18_W) :
    StableHlo.after (hostOps0_18 (F := Ideal)) V (no_index (Proc.devRef .tc r)) = V (Proc.devRef .tc r) :=
  StableHlo.after_of_writes_sub _ V S18_writes h

/-! ## The lookups -/

/-- The wrap of a negative row index by the table's length. -/
def wrapIdx (i : (⟨S524288, .i32⟩ : BufTy).Contents (Elt Ideal)) : (⟨S524288, .i32⟩ : BufTy).Contents (Elt Ideal) :=
  select (cmpi .slt i (broadcastInDim S524288 ![] bcast_S_S524288 (constantI S_ 32 0#32)))
    (addi i (broadcastInDim S524288 ![] bcast_S_S524288 (constantI S_ 32 2097152#32))) i

/-- The row lookup with its validity mask and its fill. -/
def takeFill (tbl : (⟨S2097152x16, .f32⟩ : BufTy).Contents (Elt Ideal))
    (i : (⟨S524288, .i32⟩ : BufTy).Contents (Elt Ideal)) : (⟨S524288x16, .f32⟩ : BufTy).Contents (Elt Ideal) :=
  select
    (broadcastInDim S524288x16 ![0] bcast_S524288_S524288x16_0
      (Host.reduce IntOp.andi
        (andi
          (cmpi .sge (broadcastInDim S524288x1 ![0] bcast_S524288_S524288x1_0 i)
            (broadcastInDim S524288x1 ![] bcast_S_S524288x1 (constantI S_ 32 0#32)))
          (cmpi .sle (broadcastInDim S524288x1 ![0] bcast_S524288_S524288x1_0 i)
            (broadcastInDim S524288x1 ![0, 1] bcast_S1x1_S524288x1_0_1
              (broadcastInDim S1x1 ![1] bcast_S1_S1x1_1 (constantI S1 32 2097151#32)))))
        (constantI S_ 1 1#1) reducesTo_S524288x1_S524288_d1 h_S_))
    (Host.gather gather_S2097152x16_S524288x1_S524288x16_1_0_n_n_0_1_116 tbl (broadcastInDim S524288x1 ![0] bcast_S524288_S524288x1_0 i))
    (broadcastInDim S524288x16 ![] bcast_S_S524288x16 (constant (F := Ideal) S_ .f32 0x7FC00000#32))

/-- The lookup of corner 4, over any valuation. -/
theorem R11 (V : Valuation τ sig (Elt Ideal)) :
    StableHlo.after (hostOps0_11 (F := Ideal)) V (Proc.devRef .tc main_v246)
      = takeFill (V (Proc.devRef .tc main_v11)) (wrapIdx (V (Proc.devRef .tc main_v245))) := by
  unfold takeFill wrapIdx
  after_results_simp
  simp only [TRef.ofBuf, TRef.toBuf, cast_eq]

/-! ## The accumulations -/

/-- One step of the weighted accumulation of looked-up rows: the accumulator plus the rows times a per-point weight. -/
def accW (acc g : (⟨S524288x16, .f32⟩ : BufTy).Contents (Elt Ideal))
    (w : (⟨S524288, .f32⟩ : BufTy).Contents (Elt Ideal)) : (⟨S524288x16, .f32⟩ : BufTy).Contents (Elt Ideal) :=
  addf (F := Ideal) (s := S524288x16) (φ := .f32) acc
    (mulf (F := Ideal) (s := S524288x16) (φ := .f32) g
      (broadcastInDim S524288x16 ![0, 1] bcast_S524288x1_S524288x16_0_1
        (broadcastInDim S524288x1 ![0] bcast_S524288_S524288x1_0 w)))

/-- A product of three per-point factors, the first two multiplied first. -/
def w3 (a b c : (⟨S524288, .f32⟩ : BufTy).Contents (Elt Ideal)) : (⟨S524288, .f32⟩ : BufTy).Contents (Elt Ideal) :=
  mulf (F := Ideal) (s := S524288) (φ := .f32) (mulf (F := Ideal) (s := S524288) (φ := .f32) a b) c

/-- A scalar literal spread over the points. -/
def kc (b : BitVec 32) : (⟨S524288, .f32⟩ : BufTy).Contents (Elt Ideal) :=
  broadcastInDim S524288 ![] bcast_S_S524288 (constant (F := Ideal) S_ .f32 b)

theorem accW_apply (acc g : (⟨S524288x16, .f32⟩ : BufTy).Contents (Elt Ideal))
    (w : (⟨S524288, .f32⟩ : BufTy).Contents (Elt Ideal)) (n : Fin 524288) (e : Fin 16) :
    accW acc g w (ix2 n e) = acc (ix2 n e) + g (ix2 n e) * w (ix1 n) :=
  HostLib.acc_step acc g w n e

theorem w3_apply (a b c : (⟨S524288, .f32⟩ : BufTy).Contents (Elt Ideal)) (n : Fin 524288) :
    w3 a b c (ix1 n) = (a (ix1 n) * b (ix1 n)) * c (ix1 n) := rfl

theorem kc_apply (b : BitVec 32) (n : Fin 524288) : kc b (ix1 n) = Ideal.ofBits .f32 b := rfl

/-- The accumulation of corner 4, over any valuation. -/
theorem R12_emb (V : Valuation τ sig (Elt Ideal)) :
    StableHlo.after (hostOps0_12 (F := Ideal)) V (Proc.devRef .tc main_v252)
      = accW (V (Proc.devRef .tc main_v200)) (V (Proc.devRef .tc main_v246))
          (w3 (V (Proc.devRef .tc main_v13)) (V (Proc.devRef .tc main_v223)) (V (Proc.devRef .tc main_v225))) := by
  unfold accW w3
  after_results_simp <;> rfl

theorem R12_ddx (V : Valuation τ sig (Elt Ideal)) :
    StableHlo.after (hostOps0_12 (F := Ideal)) V (Proc.devRef .tc main_v259)
      = accW (V (Proc.devRef .tc main_v207)) (V (Proc.devRef .tc main_v246))
          (w3 (kc 0x42FE0000#32) (V (Proc.devRef .tc main_v223)) (V (Proc.devRef .tc main_v225))) := by
  unfold accW w3 kc
  after_results_simp <;> rfl

theorem R12_ddy (V : Valuation τ sig (Elt Ideal)) :
    StableHlo.after (hostOps0_12 (F := Ideal)) V (Proc.devRef .tc main_v266)
      = accW (V (Proc.devRef .tc main_v214)) (V (Proc.devRef .tc main_v246))
          (w3 (kc 0xC2FE0000#32) (V (Proc.devRef .tc main_v13)) (V (Proc.devRef .tc main_v225))) := by
  unfold accW w3 kc
  after_results_simp <;> rfl

theorem R12_ddz (V : Valuation τ sig (Elt Ideal)) :
    StableHlo.after (hostOps0_12 (F := Ideal)) V (Proc.devRef .tc main_v273)
      = accW (V (Proc.devRef .tc main_v221)) (V (Proc.devRef .tc main_v246))
          (w3 (kc 0xC2FE0000#32) (V (Proc.devRef .tc main_v13)) (V (Proc.devRef .tc main_v223))) := by
  unfold accW w3 kc
  after_results_simp <;> rfl

/-- The raw row index of corner 5, over any valuation that holds the integer cell coordinates. -/
theorem R12_idx (V : Valuation τ sig (Elt Ideal)) (x0 : Cert.Atoms.Arr S524288x3)
    (h8 : V (Proc.devRef .tc main_v8) = val_main_v8 (F := Ideal) x0) :
    StableHlo.after (hostOps0_12 (F := Ideal)) V (Proc.devRef .tc main_v293) = val_main_v231 (F := Ideal) x0 := by
  after_results_simp
  rw [h8]
  rfl

/-- The lookup of corner 5, over any valuation. -/
theorem R13 (V : Valuation τ sig (Elt Ideal)) :
    StableHlo.after (hostOps0_13 (F := Ideal)) V (Proc.devRef .tc main_v294)
      = takeFill (V (Proc.devRef .tc main_v11)) (wrapIdx (V (Proc.devRef .tc main_v293))) := by
  unfold takeFill wrapIdx
  after_results_simp
  simp only [TRef.ofBuf, TRef.toBuf, cast_eq]

/-- The accumulation of corner 5, over any valuation. -/
theorem R14_emb (V : Valuation τ sig (Elt Ideal)) :
    StableHlo.after (hostOps0_14 (F := Ideal)) V (Proc.devRef .tc main_v300)
      = accW (V (Proc.devRef .tc main_v252)) (V (Proc.devRef .tc main_v294))
          (w3 (V (Proc.devRef .tc main_v13)) (V (Proc.devRef .tc main_v223)) (V (Proc.devRef .tc main_v17))) := by
  unfold accW w3
  after_results_simp <;> rfl

theorem R14_ddx (V : Valuation τ sig (Elt Ideal)) :
    StableHlo.after (hostOps0_14 (F := Ideal)) V (Proc.devRef .tc main_v307)
      = accW (V (Proc.devRef .tc main_v259)) (V (Proc.devRef .tc main_v294))
          (w3 (kc 0x42FE0000#32) (V (Proc.devRef .tc main_v223)) (V (Proc.devRef .tc main_v17))) := by
  unfold accW w3 kc
  after_results_simp <;> rfl

theorem R14_ddy (V : Valuation τ sig (Elt Ideal)) :
    StableHlo.after (hostOps0_14 (F := Ideal)) V (Proc.devRef .tc main_v314)
      = accW (V (Proc.devRef .tc main_v266)) (V (Proc.devRef .tc main_v294))
          (w3 (kc 0xC2FE0000#32) (V (Proc.devRef .tc main_v13)) (V (Proc.devRef .tc main_v17))) := by
  unfold accW w3 kc
  after_results_simp <;> rfl

theorem R14_ddz (V : Valuation τ sig (Elt Ideal)) :
    StableHlo.after (hostOps0_14 (F := Ideal)) V (Proc.devRef .tc main_v321)
      = accW (V (Proc.devRef .tc main_v273)) (V (Proc.devRef .tc main_v294))
          (w3 (kc 0x42FE0000#32) (V (Proc.devRef .tc main_v13)) (V (Proc.devRef .tc main_v223))) := by
  unfold accW w3 kc
  after_results_simp <;> rfl

/-- The near factor of the third axis, recomputed. -/
theorem R14_nz (V : Valuation τ sig (Elt Ideal)) :
    StableHlo.after (hostOps0_14 (F := Ideal)) V (Proc.devRef .tc main_v323)
      = subf (F := Ideal) (s := S524288) (φ := .f32) (kc 0x3F800000#32) (V (Proc.devRef .tc main_v17)) := by
  unfold kc
  after_results_simp <;> rfl

/-- The raw row index of corner 6. -/
theorem R14_idx (V : Valuation τ sig (Elt Ideal)) (x0 : Cert.Atoms.Arr S524288x3)
    (h8 : V (Proc.devRef .tc main_v8) = val_main_v8 (F := Ideal) x0) :
    StableHlo.after (hostOps0_14 (F := Ideal)) V (Proc.devRef .tc main_v343) = val_main_v270 (F := Ideal) x0 := by
  after_results_simp
  rw [h8]
  rfl

/-- The lookup of corner 6, over any valuation. -/
theorem R15 (V : Valuation τ sig (Elt Ideal)) :
    StableHlo.after (hostOps0_15 (F := Ideal)) V (Proc.devRef .tc main_v344)
      = takeFill (V (Proc.devRef .tc main_v11)) (wrapIdx (V (Proc.devRef .tc main_v343))) := by
  unfold takeFill wrapIdx
  after_results_simp
  simp only [TRef.ofBuf, TRef.toBuf, cast_eq]

/-- The accumulation of corner 6, over any valuation. -/
theorem R16_emb (V : Valuation τ sig (Elt Ideal)) :
    StableHlo.after (hostOps0_16 (F := Ideal)) V (Proc.devRef .tc main_v350)
      = accW (V (Proc.devRef .tc main_v300)) (V (Proc.devRef .tc main_v344))
          (w3 (V (Proc.devRef .tc main_v13)) (V (Proc.devRef .tc main_v15)) (V (Proc.devRef .tc main_v323))) := by
  unfold accW w3
  after_results_simp <;> rfl

theorem R16_ddx (V : Valuation τ sig (Elt Ideal)) :
    StableHlo.after (hostOps0_16 (F := Ideal)) V (Proc.devRef .tc main_v357)
      = accW (V (Proc.devRef .tc main_v307)) (V (Proc.devRef .tc main_v344))
          (w3 (kc 0x42FE0000#32) (V (Proc.devRef .tc main_v15)) (V (Proc.devRef .tc main_v323))) := by
  unfold accW w3 kc
  after_results_simp <;> rfl

theorem R16_ddy (V : Valuation τ sig (Elt Ideal)) :
    StableHlo.after (hostOps0_16 (F := Ideal)) V (Proc.devRef .tc main_v364)
      = accW (V (Proc.devRef .tc main_v314)) (V (Proc.devRef .tc main_v344))
          (w3 (kc 0x42FE0000#32) (V (Proc.devRef .tc main_v13)) (V (Proc.devRef .tc main_v323))) := by
  unfold accW w3 kc
  after_results_simp <;> rfl

theorem R16_ddz (V : Valuation τ sig (Elt Ideal)) :
    StableHlo.after (hostOps0_16 (F := Ideal)) V (Proc.devRef .tc main_v371)
      = accW (V (Proc.devRef .tc main_v321)) (V (Proc.devRef .tc main_v344))
          (w3 (kc 0xC2FE0000#32) (V (Proc.devRef .tc main_v13)) (V (Proc.devRef .tc main_v15))) := by
  unfold accW w3 kc
  after_results_simp <;> rfl

/-- The raw row index of corner 7. -/
theorem R16_idx (V : Valuation τ sig (Elt Ideal)) (x0 : Cert.Atoms.Arr S524288x3)
    (h8 : V (Proc.devRef .tc main_v8) = val_main_v8 (F := Ideal) x0) :
    StableHlo.after (hostOps0_16 (F := Ideal)) V (Proc.devRef .tc main_v391) = val_main_v305 (F := Ideal) x0 := by
  after_results_simp
  rw [h8]
  rfl

/-- The lookup of corner 7, over any valuation. -/
theorem R17 (V : Valuation τ sig (Elt Ideal)) :
    StableHlo.after (hostOps0_17 (F := Ideal)) V (Proc.devRef .tc main_v392)
      = takeFill (V (Proc.devRef .tc main_v11)) (wrapIdx (V (Proc.devRef .tc main_v391))) := by
  unfold takeFill wrapIdx
  after_results_simp
  simp only [TRef.ofBuf, TRef.toBuf, cast_eq]

/-- The accumulation of corner 7, over any valuation. -/
theorem R18_emb (V : Valuation τ sig (Elt Ideal)) :
    StableHlo.after (hostOps0_18 (F := Ideal)) V (Proc.devRef .tc main_v398)
      = accW (V (Proc.devRef .tc main_v350)) (V (Proc.devRef .tc main_v392))
          (w3 (V (Proc.devRef .tc main_v13)) (V (Proc.devRef .tc main_v15)) (V (Proc.devRef .tc main_v17))) := by
  unfold accW w3
  after_results_simp <;> rfl

theorem R18_ddx (V : Valuation τ sig (Elt Ideal)) :
    StableHlo.after (hostOps0_18 (F := Ideal)) V (Proc.devRef .tc main_v405)
      = accW (V (Proc.devRef .tc main_v357)) (V (Proc.devRef .tc main_v392))
          (w3 (kc 0x42FE0000#32) (V (Proc.devRef .tc main_v15)) (V (Proc.devRef .tc main_v17))) := by
  unfold accW w3 kc
  after_results_simp <;> rfl

theorem R18_ddy (V : Valuation τ sig (Elt Ideal)) :
    StableHlo.after (hostOps0_18 (F := Ideal)) V (Proc.devRef .tc main_v412)
      = accW (V (Proc.devRef .tc main_v364)) (V (Proc.devRef .tc main_v392))
          (w3 (kc 0x42FE0000#32) (V (Proc.devRef .tc main_v13)) (V (Proc.devRef .tc main_v17))) := by
  unfold accW w3 kc
  after_results_simp <;> rfl

theorem R18_ddz (V : Valuation τ sig (Elt Ideal)) :
    StableHlo.after (hostOps0_18 (F := Ideal)) V (Proc.devRef .tc main_v419)
      = accW (V (Proc.devRef .tc main_v371)) (V (Proc.devRef .tc main_v392))
          (w3 (kc 0x42FE0000#32) (V (Proc.devRef .tc main_v13)) (V (Proc.devRef .tc main_v15))) := by
  unfold accW w3 kc
  after_results_simp <;> rfl

/-- The position, which the last stretch does not write. -/
theorem R18_pos (V : Valuation τ sig (Elt Ideal)) :
    StableHlo.after (hostOps0_18 (F := Ideal)) V (Proc.devRef .tc main_v3) = V (Proc.devRef .tc main_v3) :=
  S18_of V main_v3 (by decide)

/-- The feature matrix: the four accumulated arrays and the position side by side, each as the last stretch leaves it. -/
theorem R18_cat (V : Valuation τ sig (Elt Ideal)) :
    StableHlo.after (hostOps0_18 (F := Ideal)) V (Proc.devRef .tc main_v420)
      = concatenate S524288x67 1
          [⟨S524288x16, StableHlo.after (hostOps0_18 (F := Ideal)) V (Proc.devRef .tc main_v398)⟩,
           ⟨S524288x16, StableHlo.after (hostOps0_18 (F := Ideal)) V (Proc.devRef .tc main_v405)⟩,
           ⟨S524288x16, StableHlo.after (hostOps0_18 (F := Ideal)) V (Proc.devRef .tc main_v412)⟩,
           ⟨S524288x16, StableHlo.after (hostOps0_18 (F := Ideal)) V (Proc.devRef .tc main_v419)⟩,
           ⟨S524288x3, StableHlo.after (hostOps0_18 (F := Ideal)) V (Proc.devRef .tc main_v3)⟩]
          concatenates_S524288x16_S524288x16_S524288x16_S524288x16_S524288x3_S524288x67_d1 := by
  simp only [after_cons, after_nil]
  rw [nary_result]
  rw [nary_result_ne]; rotate_left; decide
  rw [nary_result_ne]; rotate_left; decide
  rw [nary_result_ne]; rotate_left; decide
  rw [nary_result_ne]; rotate_left; decide
  rw [nary_result_ne]; rotate_left; decide
  rfl

/-! ## The buffers the eight stretches only read -/

/-- The buffers every stretch of this half reads and none writes: the position, the integer cell coordinates, the
    table, the three fractional coordinates and the two near factors computed before. -/
abbrev Pers : List (Ref sig .tc) :=
  [main_v3, main_v8, main_v11, main_v13, main_v15, main_v17, main_v223, main_v225]

theorem pers_not : ∀ r ∈ Pers, r ∉ S11_W ∧ r ∉ S12_W ∧ r ∉ S13_W ∧ r ∉ S14_W ∧ r ∉ S15_W ∧ r ∉ S16_W
    ∧ r ∉ S17_W ∧ r ∉ S18_W := by
  decide

/-- The read-only buffers hold the reference's stages of the arguments. -/
structure Ok (V : Valuation τ sig (Elt Ideal)) (x0 : Cert.Atoms.Arr S524288x3) (x1 : Cert.Atoms.Arr S128x128x128x16) : Prop where
  h3 : V (Proc.devRef .tc main_v3) = val_main_v3 (F := Ideal) x0
  h8 : V (Proc.devRef .tc main_v8) = val_main_v8 (F := Ideal) x0
  h11 : V (Proc.devRef .tc main_v11) = val_main_v11 (F := Ideal) x1
  h13 : V (Proc.devRef .tc main_v13) = val_main_v14 (F := Ideal) x0
  h15 : V (Proc.devRef .tc main_v15) = val_main_v18 (F := Ideal) x0
  h17 : V (Proc.devRef .tc main_v17) = val_main_v22 (F := Ideal) x0
  h223 : V (Proc.devRef .tc main_v223) = val_main_v20 (F := Ideal) x0
  h225 : V (Proc.devRef .tc main_v225) = val_main_v24 (F := Ideal) x0

theorem Ok.of_keep {V V' : Valuation τ sig (Elt Ideal)} {x0 : Cert.Atoms.Arr S524288x3} {x1 : Cert.Atoms.Arr S128x128x128x16}
    (h : Ok V x0 x1) (k : ∀ r ∈ Pers, V' (Proc.devRef .tc r) = V (Proc.devRef .tc r)) : Ok V' x0 x1 :=
  ⟨(k main_v3 (by decide)).trans h.h3, (k main_v8 (by decide)).trans h.h8, (k main_v11 (by decide)).trans h.h11,
   (k main_v13 (by decide)).trans h.h13, (k main_v15 (by decide)).trans h.h15, (k main_v17 (by decide)).trans h.h17,
   (k main_v223 (by decide)).trans h.h223, (k main_v225 (by decide)).trans h.h225⟩

section Keep
variable {V : Valuation τ sig (Elt Ideal)} {x0 : Cert.Atoms.Arr S524288x3} {x1 : Cert.Atoms.Arr S128x128x128x16}

theorem ok11 (h : Ok V x0 x1) : Ok (StableHlo.after (hostOps0_11 (F := Ideal)) V) x0 x1 :=
  h.of_keep fun r hr => S11_of V r (pers_not r hr).1
theorem ok12 (h : Ok V x0 x1) : Ok (StableHlo.after (hostOps0_12 (F := Ideal)) V) x0 x1 :=
  h.of_keep fun r hr => S12_of V r (pers_not r hr).2.1
theorem ok13 (h : Ok V x0 x1) : Ok (StableHlo.after (hostOps0_13 (F := Ideal)) V) x0 x1 :=
  h.of_keep fun r hr => S13_of V r (pers_not r hr).2.2.1
theorem ok14 (h : Ok V x0 x1) : Ok (StableHlo.after (hostOps0_14 (F := Ideal)) V) x0 x1 :=
  h.of_keep fun r hr => S14_of V r (pers_not r hr).2.2.2.1
theorem ok15 (h : Ok V x0 x1) : Ok (StableHlo.after (hostOps0_15 (F := Ideal)) V) x0 x1 :=
  h.of_keep fun r hr => S15_of V r (pers_not r hr).2.2.2.2.1
theorem ok16 (h : Ok V x0 x1) : Ok (StableHlo.after (hostOps0_16 (F := Ideal)) V) x0 x1 :=
  h.of_keep fun r hr => S16_of V r (pers_not r hr).2.2.2.2.2.1
theorem ok17 (h : Ok V x0 x1) : Ok (StableHlo.after (hostOps0_17 (F := Ideal)) V) x0 x1 :=
  h.of_keep fun r hr => S17_of V r (pers_not r hr).2.2.2.2.2.2.1

end Keep

/-! ## The four lookups return the reference's corner rows -/

section Takes
variable (x0 : Cert.Atoms.Arr S524288x3) (x1 : Cert.Atoms.Arr S128x128x128x16) (hin : Cert.Atoms.InRange x0)
include hin

theorem take4 : takeFill (val_main_v11 (F := Ideal) x1) (wrapIdx (val_main_v196 (F := Ideal) x0)) = Cert.Atoms.Gs 4 x0 x1 := by
  have e : wrapIdx (val_main_v196 (F := Ideal) x0) = Cert.Atoms.Idx 4 x0 := rfl
  rw [e]
  unfold takeFill
  rw [HostLib.take_fill _ _ (hin 4)]
  rfl

theorem take5 : takeFill (val_main_v11 (F := Ideal) x1) (wrapIdx (val_main_v231 (F := Ideal) x0)) = Cert.Atoms.Gs 5 x0 x1 := by
  have e : wrapIdx (val_main_v231 (F := Ideal) x0) = Cert.Atoms.Idx 5 x0 := rfl
  rw [e]
  unfold takeFill
  rw [HostLib.take_fill _ _ (hin 5)]
  rfl

theorem take6 : takeFill (val_main_v11 (F := Ideal) x1) (wrapIdx (val_main_v270 (F := Ideal) x0)) = Cert.Atoms.Gs 6 x0 x1 := by
  have e : wrapIdx (val_main_v270 (F := Ideal) x0) = Cert.Atoms.Idx 6 x0 := rfl
  rw [e]
  unfold takeFill
  rw [HostLib.take_fill _ _ (hin 6)]
  rfl

theorem take7 : takeFill (val_main_v11 (F := Ideal) x1) (wrapIdx (val_main_v305 (F := Ideal) x0)) = Cert.Atoms.Gs 7 x0 x1 := by
  have e : wrapIdx (val_main_v305 (F := Ideal) x0) = Cert.Atoms.Idx 7 x0 := rfl
  rw [e]
  unfold takeFill
  rw [HostLib.take_fill _ _ (hin 7)]
  rfl

end Takes

/-! ## One corner at a time: a lookup, then the four accumulations -/

section Stages
variable (U : Valuation τ sig (Elt Ideal)) (x0 : Cert.Atoms.Arr S524288x3) (x1 : Cert.Atoms.Arr S128x128x128x16)
  (hin : Cert.Atoms.InRange x0) (o : Ok U x0 x1) (A B C D : Cert.Atoms.Arr S524288x16)
include hin o

/-- Corner 4: the near side of the second and third axes. -/
theorem stage4 (hidx : U (Proc.devRef .tc main_v245) = val_main_v196 (F := Ideal) x0)
    (hA : U (Proc.devRef .tc main_v200) = A) (hB : U (Proc.devRef .tc main_v207) = B)
    (hC : U (Proc.devRef .tc main_v214) = C) (hD : U (Proc.devRef .tc main_v221) = D) :
    StableHlo.after (hostOps0_12 (F := Ideal)) (StableHlo.after (hostOps0_11 (F := Ideal)) U) (Proc.devRef .tc main_v252)
        = accW A (Cert.Atoms.Gs 4 x0 x1) (w3 (val_main_v14 (F := Ideal) x0) (val_main_v20 (F := Ideal) x0) (val_main_v24 (F := Ideal) x0))
    ∧ StableHlo.after (hostOps0_12 (F := Ideal)) (StableHlo.after (hostOps0_11 (F := Ideal)) U) (Proc.devRef .tc main_v259)
        = accW B (Cert.Atoms.Gs 4 x0 x1) (w3 (kc 0x42FE0000#32) (val_main_v20 (F := Ideal) x0) (val_main_v24 (F := Ideal) x0))
    ∧ StableHlo.after (hostOps0_12 (F := Ideal)) (StableHlo.after (hostOps0_11 (F := Ideal)) U) (Proc.devRef .tc main_v266)
        = accW C (Cert.Atoms.Gs 4 x0 x1) (w3 (kc 0xC2FE0000#32) (val_main_v14 (F := Ideal) x0) (val_main_v24 (F := Ideal) x0))
    ∧ StableHlo.after (hostOps0_12 (F := Ideal)) (StableHlo.after (hostOps0_11 (F := Ideal)) U) (Proc.devRef .tc main_v273)
        = accW D (Cert.Atoms.Gs 4 x0 x1) (w3 (kc 0xC2FE0000#32) (val_main_v14 (F := Ideal) x0) (val_main_v20 (F := Ideal) x0))
    ∧ StableHlo.after (hostOps0_12 (F := Ideal)) (StableHlo.after (hostOps0_11 (F := Ideal)) U) (Proc.devRef .tc main_v293)
        = val_main_v231 (F := Ideal) x0 := by
  have o1 := ok11 o
  have g : StableHlo.after (hostOps0_11 (F := Ideal)) U (Proc.devRef .tc main_v246) = Cert.Atoms.Gs 4 x0 x1 := by
    rw [R11, o.h11, hidx]; exact take4 x0 x1 hin
  have a : StableHlo.after (hostOps0_11 (F := Ideal)) U (Proc.devRef .tc main_v200) = A := (S11_of U _ (by decide)).trans hA
  have b : StableHlo.after (hostOps0_11 (F := Ideal)) U (Proc.devRef .tc main_v207) = B := (S11_of U _ (by decide)).trans hB
  have c : StableHlo.after (hostOps0_11 (F := Ideal)) U (Proc.devRef .tc main_v214) = C := (S11_of U _ (by decide)).trans hC
  have d : StableHlo.after (hostOps0_11 (F := Ideal)) U (Proc.devRef .tc main_v221) = D := (S11_of U _ (by decide)).trans hD
  refine ⟨?_, ?_, ?_, ?_, ?_⟩
  · rw [R12_emb, a, g, o1.h13, o1.h223, o1.h225]
  · rw [R12_ddx, b, g, o1.h223, o1.h225]
  · rw [R12_ddy, c, g, o1.h13, o1.h225]
  · rw [R12_ddz, d, g, o1.h13, o1.h223]
  · exact R12_idx _ x0 o1.h8

/-- Corner 5: the near side of the second axis, the far side of the third; the near factor of the third axis is recomputed. -/
theorem stage5 (hidx : U (Proc.devRef .tc main_v293) = val_main_v231 (F := Ideal) x0)
    (hA : U (Proc.devRef .tc main_v252) = A) (hB : U (Proc.devRef .tc main_v259) = B)
    (hC : U (Proc.devRef .tc main_v266) = C) (hD : U (Proc.devRef .tc main_v273) = D) :
    StableHlo.after (hostOps0_14 (F := Ideal)) (StableHlo.after (hostOps0_13 (F := Ideal)) U) (Proc.devRef .tc main_v300)
        = accW A (Cert.Atoms.Gs 5 x0 x1) (w3 (val_main_v14 (F := Ideal) x0) (val_main_v20 (F := Ideal) x0) (val_main_v22 (F := Ideal) x0))
    ∧ StableHlo.after (hostOps0_14 (F := Ideal)) (StableHlo.after (hostOps0_13 (F := Ideal)) U) (Proc.devRef .tc main_v307)
        = accW B (Cert.Atoms.Gs 5 x0 x1) (w3 (kc 0x42FE0000#32) (val_main_v20 (F := Ideal) x0) (val_main_v22 (F := Ideal) x0))
    ∧ StableHlo.after (hostOps0_14 (F := Ideal)) (StableHlo.after (hostOps0_13 (F := Ideal)) U) (Proc.devRef .tc main_v314)
        = accW C (Cert.Atoms.Gs 5 x0 x1) (w3 (kc 0xC2FE0000#32) (val_main_v14 (F := Ideal) x0) (val_main_v22 (F := Ideal) x0))
    ∧ StableHlo.after (hostOps0_14 (F := Ideal)) (StableHlo.after (hostOps0_13 (F := Ideal)) U) (Proc.devRef .tc main_v321)
        = accW D (Cert.Atoms.Gs 5 x0 x1) (w3 (kc 0x42FE0000#32) (val_main_v14 (F := Ideal) x0) (val_main_v20 (F := Ideal) x0))
    ∧ StableHlo.after (hostOps0_14 (F := Ideal)) (StableHlo.after (hostOps0_13 (F := Ideal)) U) (Proc.devRef .tc main_v343)
        = val_main_v270 (F := Ideal) x0
    ∧ StableHlo.after (hostOps0_14 (F := Ideal)) (StableHlo.after (hostOps0_13 (F := Ideal)) U) (Proc.devRef .tc main_v323)
        = val_main_v24 (F := Ideal) x0 := by
  have o1 := ok13 o
  have g : StableHlo.after (hostOps0_13 (F := Ideal)) U (Proc.devRef .tc main_v294) = Cert.Atoms.Gs 5 x0 x1 := by
    rw [R13, o.h11, hidx]; exact take5 x0 x1 hin
  have a : StableHlo.after (hostOps0_13 (F := Ideal)) U (Proc.devRef .tc main_v252) = A := (S13_of U _ (by decide)).trans hA
  have b : StableHlo.after (hostOps0_13 (F := Ideal)) U (Proc.devRef .tc main_v259) = B := (S13_of U _ (by decide)).trans hB
  have c : StableHlo.after (hostOps0_13 (F := Ideal)) U (Proc.devRef .tc main_v266) = C := (S13_of U _ (by decide)).trans hC
  have d : StableHlo.after (hostOps0_13 (F := Ideal)) U (Proc.devRef .tc main_v273) = D := (S13_of U _ (by decide)).trans hD
  refine ⟨?_, ?_, ?_, ?_, ?_, ?_⟩
  · rw [R14_emb, a, g, o1.h13, o1.h223, o1.h17]
  · rw [R14_ddx, b, g, o1.h223, o1.h17]
  · rw [R14_ddy, c, g, o1.h13, o1.h17]
  · rw [R14_ddz, d, g, o1.h13, o1.h223]
  · exact R14_idx _ x0 o1.h8
  · rw [R14_nz, o1.h17]; rfl

/-- Corner 6: the far side of the second axis, the near side of the third. -/
theorem stage6 (hidx : U (Proc.devRef .tc main_v343) = val_main_v270 (F := Ideal) x0)
    (hnz : U (Proc.devRef .tc main_v323) = val_main_v24 (F := Ideal) x0)
    (hA : U (Proc.devRef .tc main_v300) = A) (hB : U (Proc.devRef .tc main_v307) = B)
    (hC : U (Proc.devRef .tc main_v314) = C) (hD : U (Proc.devRef .tc main_v321) = D) :
    StableHlo.after (hostOps0_16 (F := Ideal)) (StableHlo.after (hostOps0_15 (F := Ideal)) U) (Proc.devRef .tc main_v350)
        = accW A (Cert.Atoms.Gs 6 x0 x1) (w3 (val_main_v14 (F := Ideal) x0) (val_main_v18 (F := Ideal) x0) (val_main_v24 (F := Ideal) x0))
    ∧ StableHlo.after (hostOps0_16 (F := Ideal)) (StableHlo.after (hostOps0_15 (F := Ideal)) U) (Proc.devRef .tc main_v357)
        = accW B (Cert.Atoms.Gs 6 x0 x1) (w3 (kc 0x42FE0000#32) (val_main_v18 (F := Ideal) x0) (val_main_v24 (F := Ideal) x0))
    ∧ StableHlo.after (hostOps0_16 (F := Ideal)) (StableHlo.after (hostOps0_15 (F := Ideal)) U) (Proc.devRef .tc main_v364)
        = accW C (Cert.Atoms.Gs 6 x0 x1) (w3 (kc 0x42FE0000#32) (val_main_v14 (F := Ideal) x0) (val_main_v24 (F := Ideal) x0))
    ∧ StableHlo.after (hostOps0_16 (F := Ideal)) (StableHlo.after (hostOps0_15 (F := Ideal)) U) (Proc.devRef .tc main_v371)
        = accW D (Cert.Atoms.Gs 6 x0 x1) (w3 (kc 0xC2FE0000#32) (val_main_v14 (F := Ideal) x0) (val_main_v18 (F := Ideal) x0))
    ∧ StableHlo.after (hostOps0_16 (F := Ideal)) (StableHlo.after (hostOps0_15 (F := Ideal)) U) (Proc.devRef .tc main_v391)
        = val_main_v305 (F := Ideal) x0 := by
  have o1 := ok15 o
  have g : StableHlo.after (hostOps0_15 (F := Ideal)) U (Proc.devRef .tc main_v344) = Cert.Atoms.Gs 6 x0 x1 := by
    rw [R15, o.h11, hidx]; exact take6 x0 x1 hin
  have z : StableHlo.after (hostOps0_15 (F := Ideal)) U (Proc.devRef .tc main_v323) = val_main_v24 (F := Ideal) x0 :=
    (S15_of U _ (by decide)).trans hnz
  have a : StableHlo.after (hostOps0_15 (F := Ideal)) U (Proc.devRef .tc main_v300) = A := (S15_of U _ (by decide)).trans hA
  have b : StableHlo.after (hostOps0_15 (F := Ideal)) U (Proc.devRef .tc main_v307) = B := (S15_of U _ (by decide)).trans hB
  have c : StableHlo.after (hostOps0_15 (F := Ideal)) U (Proc.devRef .tc main_v314) = C := (S15_of U _ (by decide)).trans hC
  have d : StableHlo.after (hostOps0_15 (F := Ideal)) U (Proc.devRef .tc main_v321) = D := (S15_of U _ (by decide)).trans hD
  refine ⟨?_, ?_, ?_, ?_, ?_⟩
  · rw [R16_emb, a, g, o1.h13, o1.h15, z]
  · rw [R16_ddx, b, g, o1.h15, z]
  · rw [R16_ddy, c, g, o1.h13, z]
  · rw [R16_ddz, d, g, o1.h13, o1.h15]
  · exact R16_idx _ x0 o1.h8

/-- Corner 7: the far side of every axis. -/
theorem stage7 (hidx : U (Proc.devRef .tc main_v391) = val_main_v305 (F := Ideal) x0)
    (hA : U (Proc.devRef .tc main_v350) = A) (hB : U (Proc.devRef .tc main_v357) = B)
    (hC : U (Proc.devRef .tc main_v364) = C) (hD : U (Proc.devRef .tc main_v371) = D) :
    StableHlo.after (hostOps0_18 (F := Ideal)) (StableHlo.after (hostOps0_17 (F := Ideal)) U) (Proc.devRef .tc main_v398)
        = accW A (Cert.Atoms.Gs 7 x0 x1) (w3 (val_main_v14 (F := Ideal) x0) (val_main_v18 (F := Ideal) x0) (val_main_v22 (F := Ideal) x0))
    ∧ StableHlo.after (hostOps0_18 (F := Ideal)) (StableHlo.after (hostOps0_17 (F := Ideal)) U) (Proc.devRef .tc main_v405)
        = accW B (Cert.Atoms.Gs 7 x0 x1) (w3 (kc 0x42FE0000#32) (val_main_v18 (F := Ideal) x0) (val_main_v22 (F := Ideal) x0))
    ∧ StableHlo.after (hostOps0_18 (F := Ideal)) (StableHlo.after (hostOps0_17 (F := Ideal)) U) (Proc.devRef .tc main_v412)
        = accW C (Cert.Atoms.Gs 7 x0 x1) (w3 (kc 0x42FE0000#32) (val_main_v14 (F := Ideal) x0) (val_main_v22 (F := Ideal) x0))
    ∧ StableHlo.after (hostOps0_18 (F := Ideal)) (StableHlo.after (hostOps0_17 (F := Ideal)) U) (Proc.devRef .tc main_v419)
        = accW D (Cert.Atoms.Gs 7 x0 x1) (w3 (kc 0x42FE0000#32) (val_main_v14 (F := Ideal) x0) (val_main_v18 (F := Ideal) x0))
    ∧ StableHlo.after (hostOps0_18 (F := Ideal)) (StableHlo.after (hostOps0_17 (F := Ideal)) U) (Proc.devRef .tc main_v3)
        = val_main_v3 (F := Ideal) x0 := by
  have o1 := ok17 o
  have g : StableHlo.after (hostOps0_17 (F := Ideal)) U (Proc.devRef .tc main_v392) = Cert.Atoms.Gs 7 x0 x1 := by
    rw [R17, o.h11, hidx]; exact take7 x0 x1 hin
  have a : StableHlo.after (hostOps0_17 (F := Ideal)) U (Proc.devRef .tc main_v350) = A := (S17_of U _ (by decide)).trans hA
  have b : StableHlo.after (hostOps0_17 (F := Ideal)) U (Proc.devRef .tc main_v357) = B := (S17_of U _ (by decide)).trans hB
  have c : StableHlo.after (hostOps0_17 (F := Ideal)) U (Proc.devRef .tc main_v364) = C := (S17_of U _ (by decide)).trans hC
  have d : StableHlo.after (hostOps0_17 (F := Ideal)) U (Proc.devRef .tc main_v371) = D := (S17_of U _ (by decide)).trans hD
  refine ⟨?_, ?_, ?_, ?_, ?_⟩
  · rw [R18_emb, a, g, o1.h13, o1.h15, o1.h17]
  · rw [R18_ddx, b, g, o1.h15, o1.h17]
  · rw [R18_ddy, c, g, o1.h13, o1.h17]
  · rw [R18_ddz, d, g, o1.h13, o1.h15]
  · rw [R18_pos]; exact o1.h3

end Stages

/-! ## The whole half -/

/-- The buffers after the eight stretches, from the buffers before them. -/
abbrev tail8 (V : Valuation τ sig (Elt Ideal)) : Valuation τ sig (Elt Ideal) :=
  StableHlo.after (hostOps0_18 (F := Ideal)) (StableHlo.after (hostOps0_17 (F := Ideal)) (StableHlo.after (hostOps0_16 (F := Ideal)) (StableHlo.after (hostOps0_15 (F := Ideal)) (StableHlo.after (hostOps0_14 (F := Ideal)) (StableHlo.after (hostOps0_13 (F := Ideal)) (StableHlo.after (hostOps0_12 (F := Ideal)) (StableHlo.after (hostOps0_11 (F := Ideal)) V)))))))

theorem second_half (V : Valuation τ sig (Elt Ideal)) (x0 : Cert.Atoms.Arr S524288x3) (x1 : Cert.Atoms.Arr S128x128x128x16)
    (hin : Cert.Atoms.InRange x0)
    (h3 : V (Proc.devRef .tc main_v3) = val_main_v3 (F := Ideal) x0)
    (h8 : V (Proc.devRef .tc main_v8) = val_main_v8 (F := Ideal) x0)
    (h11 : V (Proc.devRef .tc main_v11) = val_main_v11 (F := Ideal) x1)
    (h13 : V (Proc.devRef .tc main_v13) = val_main_v14 (F := Ideal) x0)
    (h15 : V (Proc.devRef .tc main_v15) = val_main_v18 (F := Ideal) x0)
    (h17 : V (Proc.devRef .tc main_v17) = val_main_v22 (F := Ideal) x0)
    (h223 : V (Proc.devRef .tc main_v223) = val_main_v20 (F := Ideal) x0)
    (h225 : V (Proc.devRef .tc main_v225) = val_main_v24 (F := Ideal) x0)
    (h245 : V (Proc.devRef .tc main_v245) = val_main_v196 (F := Ideal) x0)
    (E X Y Z : Cert.Atoms.Arr S524288x16)
    (hE : V (Proc.devRef .tc main_v200) = E) (hX : V (Proc.devRef .tc main_v207) = X)
    (hY : V (Proc.devRef .tc main_v214) = Y) (hZ : V (Proc.devRef .tc main_v221) = Z)
    (n : Fin 524288) :
    let P := Cert.Atoms.ptOf x0 x1 n
    let φ := Cert.Atoms.featRow (tail8 V (Proc.devRef .tc main_v420)) n
    (∀ e, φ.emb e = (((E (ix2 n e) + P.G 4 e * Cert.Spec.wt P 4) + P.G 5 e * Cert.Spec.wt P 5) + P.G 6 e * Cert.Spec.wt P 6) + P.G 7 e * Cert.Spec.wt P 7)
    ∧ (∀ e, φ.ddx e = (((X (ix2 n e) + P.G 4 e * Cert.Spec.ux P 4) + P.G 5 e * Cert.Spec.ux P 5) + P.G 6 e * Cert.Spec.ux P 6) + P.G 7 e * Cert.Spec.ux P 7)
    ∧ (∀ e, φ.ddy e = (((Y (ix2 n e) + P.G 4 e * Cert.Spec.uy P 4) + P.G 5 e * Cert.Spec.uy P 5) + P.G 6 e * Cert.Spec.uy P 6) + P.G 7 e * Cert.Spec.uy P 7)
    ∧ (∀ e, φ.ddz e = (((Z (ix2 n e) + P.G 4 e * Cert.Spec.uz P 4) + P.G 5 e * Cert.Spec.uz P 5) + P.G 6 e * Cert.Spec.uz P 6) + P.G 7 e * Cert.Spec.uz P 7)
    ∧ (∀ a, φ.p a = P.p a) := by
  intro P φ
  have o0 : Ok V x0 x1 := ⟨h3, h8, h11, h13, h15, h17, h223, h225⟩
  obtain ⟨a4, b4, c4, d4, i4⟩ := stage4 V x0 x1 hin o0 E X Y Z h245 hE hX hY hZ
  have o2 := ok12 (ok11 o0)
  obtain ⟨a5, b5, c5, d5, i5, z5⟩ := stage5 _ x0 x1 hin o2 _ _ _ _ i4 a4 b4 c4 d4
  have o4 := ok14 (ok13 o2)
  obtain ⟨a6, b6, c6, d6, i6⟩ := stage6 _ x0 x1 hin o4 _ _ _ _ i5 z5 a5 b5 c5 d5
  have o6 := ok16 (ok15 o4)
  obtain ⟨a7, b7, c7, d7, p7⟩ := stage7 _ x0 x1 hin o6 _ _ _ _ i6 a6 b6 c6 d6
  have cat := R18_cat (StableHlo.after (hostOps0_17 (F := Ideal)) (StableHlo.after (hostOps0_16 (F := Ideal)) (StableHlo.after (hostOps0_15 (F := Ideal)) (StableHlo.after (hostOps0_14 (F := Ideal)) (StableHlo.after (hostOps0_13 (F := Ideal)) (StableHlo.after (hostOps0_12 (F := Ideal)) (StableHlo.after (hostOps0_11 (F := Ideal)) V)))))))
  rw [a7, b7, c7, d7, p7] at cat
  refine ⟨fun e => ?_, fun e => ?_, fun e => ?_, fun e => ?_, fun a => ?_⟩
  · show tail8 V (Proc.devRef .tc main_v420) (ix2 n (⟨e.val, _⟩ : Fin 67)) = _
    unfold tail8
    rw [cat, HostLib.concat5_0]
    simp only [accW_apply, w3_apply, kc_apply]
    rfl
  · show tail8 V (Proc.devRef .tc main_v420) (ix2 n (⟨16 + e.val, _⟩ : Fin 67)) = _
    unfold tail8
    rw [cat, HostLib.concat5_1]
    simp only [accW_apply, w3_apply, kc_apply]
    rfl
  · show tail8 V (Proc.devRef .tc main_v420) (ix2 n (⟨32 + e.val, _⟩ : Fin 67)) = _
    unfold tail8
    rw [cat, HostLib.concat5_2]
    simp only [accW_apply, w3_apply, kc_apply]
    rfl
  · show tail8 V (Proc.devRef .tc main_v420) (ix2 n (⟨48 + e.val, _⟩ : Fin 67)) = _
    unfold tail8
    rw [cat, HostLib.concat5_3]
    simp only [accW_apply, w3_apply, kc_apply]
    rfl
  · show tail8 V (Proc.devRef .tc main_v420) (ix2 n (⟨64 + a.val, _⟩ : Fin 67)) = _
    unfold tail8
    rw [cat, HostLib.concat5_4]
    rfl

end Cert.KernelIdeal.Host2

end
-- ==== Proof.KHost.lean ====
/-
  The host prefix assembled.  The first seven stretches are followed from the launch contents: the positions' affine
  image, the cell and fractional coordinates, the table as rows, and corners 0 and 1 of the trilinear lookup — each
  lookup, its wrapped index lying inside the table, is the reference's gather, and each accumulator read at one entry
  has gained the corner's row times the corner's weight (the trilinear weight for the embedding, its derivative in a
  coordinate for that coordinate's derivative row).  Corners 2 and 3, then corners 4 to 7 and the five-piece
  concatenation, continue from there; row n of the feature matrix is then the feature row of sample point n, the
  eight corners accumulated in order onto zero.
-/
import proofs.«171612_j42777874268460_1_alg».proof.Proof.Gen.KernelIdeal.Launch
import proofs.«171612_j42777874268460_1_alg».proof.Proof.Atoms
import proofs.«171612_j42777874268460_1_alg».proof.Proof.KHostLib
import proofs.«171612_j42777874268460_1_alg».proof.Proof.KHostA
import proofs.«171612_j42777874268460_1_alg».proof.Proof.KHost1b
import proofs.«171612_j42777874268460_1_alg».proof.Proof.KHost2
import Idealize.ShloMosaic.Lib.StableHlo.Run
import Idealize.ShloMosaic.Lib.ValueIdx

noncomputable section

namespace Cert.KernelIdeal.Host

open Idealize.ShloMosaic Idealize.ShloMosaic.TcCoe Idealize.SL.Sem Idealize.ShloMosaic.StableHlo Idealize.ShloMosaic.ValueIdx
open Cert.KernelIdeal Cert.KernelIdeal.Gen Cert.ReferenceIdeal.ReadP

/-! ## A lookup whose wrapped index lies in the table is the reference's gather -/

section Takes

variable (x0 : Cert.Atoms.Arr S524288x3) (x1 : Cert.Atoms.Arr S128x128x128x16) (hin : Cert.Atoms.InRange x0)
include hin

theorem take0 : takeFn (val_main_v11 (F := Ideal) x1) (val_main_v44 (F := Ideal) x0) = Cert.Atoms.Gs 0 x0 x1 :=
  HostLib.take_fill (val_main_v11 (F := Ideal) x1) (val_main_v49 (F := Ideal) x0) (hin 0)

theorem take1 : takeFn (val_main_v11 (F := Ideal) x1) (val_main_v79 (F := Ideal) x0) = Cert.Atoms.Gs 1 x0 x1 :=
  HostLib.take_fill (val_main_v11 (F := Ideal) x1) (val_main_v84 (F := Ideal) x0) (hin 1)

end Takes

/-! ## The per-point factors and the corners' weights -/

section Weights

variable (x0 : Cert.Atoms.Arr S524288x3) (x1 : Cert.Atoms.Arr S128x128x128x16) (n : Fin 524288)

theorem near_x : val_main_v16 (F := Ideal) x0 (ix1 n) = Cert.Spec.c1 - (Cert.Atoms.ptOf x0 x1 n).fx := rfl
theorem near_y : val_main_v20 (F := Ideal) x0 (ix1 n) = Cert.Spec.c1 - (Cert.Atoms.ptOf x0 x1 n).fy := rfl
theorem near_z : val_main_v24 (F := Ideal) x0 (ix1 n) = Cert.Spec.c1 - (Cert.Atoms.ptOf x0 x1 n).fz := rfl
theorem far_x : val_main_v14 (F := Ideal) x0 (ix1 n) = (Cert.Atoms.ptOf x0 x1 n).fx := rfl
theorem far_y : val_main_v18 (F := Ideal) x0 (ix1 n) = (Cert.Atoms.ptOf x0 x1 n).fy := rfl
theorem far_z : val_main_v22 (F := Ideal) x0 (ix1 n) = (Cert.Atoms.ptOf x0 x1 n).fz := rfl
theorem kc_m127 : kc 0xC2FE0000#32 (ix1 n) = Cert.Spec.cm127 := rfl
theorem kc_127 : kc 0x42FE0000#32 (ix1 n) = Cert.Spec.c127 := rfl
theorem zeros_apply (e : Fin 16) : zeros (ix2 n e) = Cert.Spec.c0 := rfl

variable (P : Cert.Spec.Pt)

theorem wt_0 : Cert.Spec.wt P 0 = ((Cert.Spec.c1 - P.fx) * (Cert.Spec.c1 - P.fy)) * (Cert.Spec.c1 - P.fz) := rfl
theorem ux_0 : Cert.Spec.ux P 0 = (Cert.Spec.cm127 * (Cert.Spec.c1 - P.fy)) * (Cert.Spec.c1 - P.fz) := rfl
theorem uy_0 : Cert.Spec.uy P 0 = (Cert.Spec.cm127 * (Cert.Spec.c1 - P.fx)) * (Cert.Spec.c1 - P.fz) := rfl
theorem uz_0 : Cert.Spec.uz P 0 = (Cert.Spec.cm127 * (Cert.Spec.c1 - P.fx)) * (Cert.Spec.c1 - P.fy) := rfl
theorem wt_1 : Cert.Spec.wt P 1 = ((Cert.Spec.c1 - P.fx) * (Cert.Spec.c1 - P.fy)) * P.fz := rfl
theorem ux_1 : Cert.Spec.ux P 1 = (Cert.Spec.cm127 * (Cert.Spec.c1 - P.fy)) * P.fz := rfl
theorem uy_1 : Cert.Spec.uy P 1 = (Cert.Spec.cm127 * (Cert.Spec.c1 - P.fx)) * P.fz := rfl
theorem uz_1 : Cert.Spec.uz P 1 = (Cert.Spec.c127 * (Cert.Spec.c1 - P.fx)) * (Cert.Spec.c1 - P.fy) := rfl

end Weights

/-! ## The first seven stretches from the launch contents -/

section Chain

variable (m : (ℓ : Loc nD τ sig) → Buf (Elt Ideal) ℓ) (c : Dev nD)

/-- The device's buffers at launch, and after each of the first seven stretches. -/
def W00 : Valuation τ sig (Elt Ideal) := fun b => m (c, b)
def W0 : Valuation τ sig (Elt Ideal) := StableHlo.after (hostOps0 (F := Ideal)) (W00 m c)
def W1 : Valuation τ sig (Elt Ideal) := StableHlo.after (hostOps0_1 (F := Ideal)) (W0 m c)
def W2 : Valuation τ sig (Elt Ideal) := StableHlo.after (hostOps0_2 (F := Ideal)) (W1 m c)
def W3 : Valuation τ sig (Elt Ideal) := StableHlo.after (hostOps0_3 (F := Ideal)) (W2 m c)
def W4 : Valuation τ sig (Elt Ideal) := StableHlo.after (hostOps0_4 (F := Ideal)) (W3 m c)
def W5 : Valuation τ sig (Elt Ideal) := StableHlo.after (hostOps0_5 (F := Ideal)) (W4 m c)
def W6 : Valuation τ sig (Elt Ideal) := StableHlo.after (hostOps0_6 (F := Ideal)) (W5 m c)

/-- The positions and the table, as launched. -/
abbrev X0 : Cert.Atoms.Arr S524288x3 := m ((c.tc : Thread nD τ).loc main_arg0)
abbrev X1 : Cert.Atoms.Arr S128x128x128x16 := m ((c.tc : Thread nD τ).loc main_arg1)

theorem W00_arg0 : W00 m c (Proc.devRef .tc main_arg0) = X0 m c := rfl
theorem W00_arg1 : W00 m c (Proc.devRef .tc main_arg1) = X1 m c := rfl

/-- A reference none of the stretches 3 to 6 writes holds after them what it held before. -/
theorem carry3 (r : Ref sig .tc) (h3 : r ∉ S3_W) : W3 m c (Proc.devRef .tc r) = W2 m c (Proc.devRef .tc r) :=
  S3_of _ r h3
theorem carry4 (r : Ref sig .tc) (h3 : r ∉ S3_W) (h4 : r ∉ S4_W) : W4 m c (Proc.devRef .tc r) = W2 m c (Proc.devRef .tc r) :=
  (S4_of _ r h4).trans (carry3 m c r h3)
theorem carry5 (r : Ref sig .tc) (h3 : r ∉ S3_W) (h4 : r ∉ S4_W) (h5 : r ∉ S5_W) :
    W5 m c (Proc.devRef .tc r) = W2 m c (Proc.devRef .tc r) :=
  (S5_of _ r h5).trans (carry4 m c r h3 h4)
/-- A reference the lookup of corner 1 does not write holds after it what it held before. -/
theorem step5 (r : Ref sig .tc) (h5 : r ∉ S5_W) : W5 m c (Proc.devRef .tc r) = W4 m c (Proc.devRef .tc r) :=
  S5_of _ r h5
theorem carry6 (r : Ref sig .tc) (h3 : r ∉ S3_W) (h4 : r ∉ S4_W) (h5 : r ∉ S5_W) (h6 : r ∉ S6_W) :
    W6 m c (Proc.devRef .tc r) = W2 m c (Proc.devRef .tc r) :=
  (S6_of _ r h6).trans (carry5 m c r h3 h4 h5)

/-! ### Stretches 0 to 2 -/

theorem W0_v3 : W0 m c (Proc.devRef .tc main_v3) = val_main_v3 (F := Ideal) (X0 m c) := S0_v3 _ _ (W00_arg0 m c)
theorem W0_v5 : W0 m c (Proc.devRef .tc main_v5) = val_main_v5 (F := Ideal) (X0 m c) := S0_v5 _ _ (W00_arg0 m c)
theorem W0_v6 : W0 m c (Proc.devRef .tc main_v6) = val_main_v6 (F := Ideal) (X0 m c) := S0_v6 _ _ (W00_arg0 m c)
theorem W1_v7 : W1 m c (Proc.devRef .tc main_v7) = val_main_v7 (F := Ideal) (X0 m c) :=
  S1_v7 _ _ (W0_v6 m c) (S0_c _) (S0_c2 _)
theorem W1_v5 : W1 m c (Proc.devRef .tc main_v5) = val_main_v5 (F := Ideal) (X0 m c) :=
  (S1_of _ main_v5 (by decide)).trans (W0_v5 m c)
theorem W1_arg1 : W1 m c (Proc.devRef .tc main_arg1) = X1 m c :=
  (S1_of _ main_arg1 (by decide)).trans ((S0_of _ main_arg1 (by decide)).trans (W00_arg1 m c))
theorem W2_v3 : W2 m c (Proc.devRef .tc main_v3) = val_main_v3 (F := Ideal) (X0 m c) :=
  (S2_of _ main_v3 (by decide)).trans ((S1_of _ main_v3 (by decide)).trans (W0_v3 m c))
theorem W2_v8 : W2 m c (Proc.devRef .tc main_v8) = val_main_v8 (F := Ideal) (X0 m c) := S2_v8 _ _ (W1_v7 m c)
theorem W2_v11 : W2 m c (Proc.devRef .tc main_v11) = val_main_v11 (F := Ideal) (X1 m c) := S2_v11 _ _ (W1_arg1 m c)
theorem W2_v13 : W2 m c (Proc.devRef .tc main_v13) = val_main_v14 (F := Ideal) (X0 m c) := S2_v13 _ _ (W1_v7 m c) (W1_v5 m c)
theorem W2_v15 : W2 m c (Proc.devRef .tc main_v15) = val_main_v18 (F := Ideal) (X0 m c) := S2_v15 _ _ (W1_v7 m c) (W1_v5 m c)
theorem W2_v17 : W2 m c (Proc.devRef .tc main_v17) = val_main_v22 (F := Ideal) (X0 m c) := S2_v17 _ _ (W1_v7 m c) (W1_v5 m c)
theorem W2_v23 : W2 m c (Proc.devRef .tc main_v23) = val_main_v16 (F := Ideal) (X0 m c) := S2_v23 _ _ (W1_v7 m c) (W1_v5 m c)
theorem W2_v25 : W2 m c (Proc.devRef .tc main_v25) = val_main_v20 (F := Ideal) (X0 m c) := S2_v25 _ _ (W1_v7 m c) (W1_v5 m c)
theorem W2_v27 : W2 m c (Proc.devRef .tc main_v27) = val_main_v24 (F := Ideal) (X0 m c) := S2_v27 _ _ (W1_v7 m c) (W1_v5 m c)
theorem W2_v47 : W2 m c (Proc.devRef .tc main_v47) = val_main_v44 (F := Ideal) (X0 m c) := S2_v47 _ _ (W1_v7 m c)

/-! ### Corners 0 and 1 -/

variable (hin : Cert.Atoms.InRange (X0 m c))
include hin

theorem W3_v48 : W3 m c (Proc.devRef .tc main_v48) = Cert.Atoms.Gs 0 (X0 m c) (X1 m c) := by
  refine (S3_v48 _).trans ?_
  rw [W2_v11, W2_v47]
  exact take0 _ _ hin

theorem W4_v95 : W4 m c (Proc.devRef .tc main_v95) = val_main_v79 (F := Ideal) (X0 m c) :=
  S4_v95 _ _ ((carry3 m c main_v8 (by decide)).trans (W2_v8 m c))

theorem W5_v96 : W5 m c (Proc.devRef .tc main_v96) = Cert.Atoms.Gs 1 (X0 m c) (X1 m c) := by
  refine (S5_v96 _).trans ?_
  rw [carry4 m c main_v11 (by decide) (by decide), W2_v11, W4_v95 m c hin]
  exact take1 _ _ hin

end Chain

/-! ## The four accumulators after corners 0 and 1, read at one entry -/

section Acc

variable (m : (ℓ : Loc nD τ sig) → Buf (Elt Ideal) ℓ) (c : Dev nD) (hin : Cert.Atoms.InRange (X0 m c))
include hin

theorem W4_v54 : W4 m c (Proc.devRef .tc main_v54)
    = accStep zeros (Cert.Atoms.Gs 0 (X0 m c) (X1 m c)) (val_main_v16 (F := Ideal) (X0 m c)) (val_main_v20 (F := Ideal) (X0 m c)) (val_main_v24 (F := Ideal) (X0 m c)) := by
  refine (S4_v54 _).trans ?_
  rw [carry3 m c main_v18 (by decide), carry3 m c main_v23 (by decide), carry3 m c main_v25 (by decide),
    carry3 m c main_v27 (by decide), W3_v48 m c hin, W2_v23, W2_v25, W2_v27,
    show W2 m c (Proc.devRef .tc main_v18) = zeros from S2_v18 _]
theorem W4_v61 : W4 m c (Proc.devRef .tc main_v61)
    = accStep zeros (Cert.Atoms.Gs 0 (X0 m c) (X1 m c)) (kc 0xC2FE0000#32) (val_main_v20 (F := Ideal) (X0 m c)) (val_main_v24 (F := Ideal) (X0 m c)) := by
  refine (S4_v61 _).trans ?_
  rw [carry3 m c main_v19 (by decide), carry3 m c main_v25 (by decide),
    carry3 m c main_v27 (by decide), W3_v48 m c hin, W2_v25, W2_v27,
    show W2 m c (Proc.devRef .tc main_v19) = zeros from S2_v19 _]
theorem W4_v68 : W4 m c (Proc.devRef .tc main_v68)
    = accStep zeros (Cert.Atoms.Gs 0 (X0 m c) (X1 m c)) (kc 0xC2FE0000#32) (val_main_v16 (F := Ideal) (X0 m c)) (val_main_v24 (F := Ideal) (X0 m c)) := by
  refine (S4_v68 _).trans ?_
  rw [carry3 m c main_v20 (by decide), carry3 m c main_v23 (by decide),
    carry3 m c main_v27 (by decide), W3_v48 m c hin, W2_v23, W2_v27,
    show W2 m c (Proc.devRef .tc main_v20) = zeros from S2_v20 _]
theorem W4_v75 : W4 m c (Proc.devRef .tc main_v75)
    = accStep zeros (Cert.Atoms.Gs 0 (X0 m c) (X1 m c)) (kc 0xC2FE0000#32) (val_main_v16 (F := Ideal) (X0 m c)) (val_main_v20 (F := Ideal) (X0 m c)) := by
  refine (S4_v75 _).trans ?_
  rw [carry3 m c main_v21 (by decide), carry3 m c main_v23 (by decide),
    carry3 m c main_v25 (by decide), W3_v48 m c hin, W2_v23, W2_v25,
    show W2 m c (Proc.devRef .tc main_v21) = zeros from S2_v21 _]

theorem W6_v102 : W6 m c (Proc.devRef .tc main_v102)
    = accStep (W4 m c (Proc.devRef .tc main_v54)) (Cert.Atoms.Gs 1 (X0 m c) (X1 m c)) (val_main_v16 (F := Ideal) (X0 m c)) (val_main_v20 (F := Ideal) (X0 m c)) (val_main_v22 (F := Ideal) (X0 m c)) := by
  refine (S6_v102 _).trans ?_
  rw [step5 m c main_v54 (by decide), W5_v96 m c hin, carry5 m c main_v23 (by decide) (by decide) (by decide),
    carry5 m c main_v25 (by decide) (by decide) (by decide), carry5 m c main_v17 (by decide) (by decide) (by decide),
    W2_v23, W2_v25, W2_v17]
theorem W6_v109 : W6 m c (Proc.devRef .tc main_v109)
    = accStep (W4 m c (Proc.devRef .tc main_v61)) (Cert.Atoms.Gs 1 (X0 m c) (X1 m c)) (kc 0xC2FE0000#32) (val_main_v20 (F := Ideal) (X0 m c)) (val_main_v22 (F := Ideal) (X0 m c)) := by
  refine (S6_v109 _).trans ?_
  rw [step5 m c main_v61 (by decide), W5_v96 m c hin,
    carry5 m c main_v25 (by decide) (by decide) (by decide), carry5 m c main_v17 (by decide) (by decide) (by decide),
    W2_v25, W2_v17]
theorem W6_v116 : W6 m c (Proc.devRef .tc main_v116)
    = accStep (W4 m c (Proc.devRef .tc main_v68)) (Cert.Atoms.Gs 1 (X0 m c) (X1 m c)) (kc 0xC2FE0000#32) (val_main_v16 (F := Ideal) (X0 m c)) (val_main_v22 (F := Ideal) (X0 m c)) := by
  refine (S6_v116 _).trans ?_
  rw [step5 m c main_v68 (by decide), W5_v96 m c hin,
    carry5 m c main_v23 (by decide) (by decide) (by decide), carry5 m c main_v17 (by decide) (by decide) (by decide),
    W2_v23, W2_v17]
theorem W6_v123 : W6 m c (Proc.devRef .tc main_v123)
    = accStep (W4 m c (Proc.devRef .tc main_v75)) (Cert.Atoms.Gs 1 (X0 m c) (X1 m c)) (kc 0x42FE0000#32) (val_main_v16 (F := Ideal) (X0 m c)) (val_main_v20 (F := Ideal) (X0 m c)) := by
  refine (S6_v123 _).trans ?_
  rw [step5 m c main_v75 (by decide), W5_v96 m c hin,
    carry5 m c main_v23 (by decide) (by decide) (by decide), carry5 m c main_v25 (by decide) (by decide) (by decide),
    W2_v23, W2_v25]

variable (n : Fin 524288) (e : Fin 16)

theorem W6_emb : (W6 m c (Proc.devRef .tc main_v102) : Cert.Atoms.Arr S524288x16) (ix2 n e)
    = (Cert.Spec.c0 + (Cert.Atoms.ptOf (X0 m c) (X1 m c) n).G 0 e * Cert.Spec.wt (Cert.Atoms.ptOf (X0 m c) (X1 m c) n) 0)
      + (Cert.Atoms.ptOf (X0 m c) (X1 m c) n).G 1 e * Cert.Spec.wt (Cert.Atoms.ptOf (X0 m c) (X1 m c) n) 1 := by
  rw [W6_v102 m c hin, accStep_apply, W4_v54 m c hin, accStep_apply, wt_0, wt_1, zeros_apply,
    near_x _ (X1 m c), near_y _ (X1 m c), near_z _ (X1 m c), far_z _ (X1 m c)]
  rfl
theorem W6_ddx : (W6 m c (Proc.devRef .tc main_v109) : Cert.Atoms.Arr S524288x16) (ix2 n e)
    = (Cert.Spec.c0 + (Cert.Atoms.ptOf (X0 m c) (X1 m c) n).G 0 e * Cert.Spec.ux (Cert.Atoms.ptOf (X0 m c) (X1 m c) n) 0)
      + (Cert.Atoms.ptOf (X0 m c) (X1 m c) n).G 1 e * Cert.Spec.ux (Cert.Atoms.ptOf (X0 m c) (X1 m c) n) 1 := by
  rw [W6_v109 m c hin, accStep_apply, W4_v61 m c hin, accStep_apply, ux_0, ux_1, zeros_apply, kc_m127,
    near_y _ (X1 m c), near_z _ (X1 m c), far_z _ (X1 m c)]
  rfl
theorem W6_ddy : (W6 m c (Proc.devRef .tc main_v116) : Cert.Atoms.Arr S524288x16) (ix2 n e)
    = (Cert.Spec.c0 + (Cert.Atoms.ptOf (X0 m c) (X1 m c) n).G 0 e * Cert.Spec.uy (Cert.Atoms.ptOf (X0 m c) (X1 m c) n) 0)
      + (Cert.Atoms.ptOf (X0 m c) (X1 m c) n).G 1 e * Cert.Spec.uy (Cert.Atoms.ptOf (X0 m c) (X1 m c) n) 1 := by
  rw [W6_v116 m c hin, accStep_apply, W4_v68 m c hin, accStep_apply, uy_0, uy_1, zeros_apply, kc_m127,
    near_x _ (X1 m c), near_z _ (X1 m c), far_z _ (X1 m c)]
  rfl
theorem W6_ddz : (W6 m c (Proc.devRef .tc main_v123) : Cert.Atoms.Arr S524288x16) (ix2 n e)
    = (Cert.Spec.c0 + (Cert.Atoms.ptOf (X0 m c) (X1 m c) n).G 0 e * Cert.Spec.uz (Cert.Atoms.ptOf (X0 m c) (X1 m c) n) 0)
      + (Cert.Atoms.ptOf (X0 m c) (X1 m c) n).G 1 e * Cert.Spec.uz (Cert.Atoms.ptOf (X0 m c) (X1 m c) n) 1 := by
  rw [W6_v123 m c hin, accStep_apply, W4_v75 m c hin, accStep_apply, uz_0, uz_1, zeros_apply, kc_m127, kc_127,
    near_x _ (X1 m c), near_y _ (X1 m c)]
  rfl

end Acc

/-! ## The whole prefix -/

section Whole

variable (m : (ℓ : Loc nD τ sig) → Buf (Elt Ideal) ℓ) (c : Dev nD)

/-- The device's buffers after the nineteen stretches of the host prefix. -/
abbrev V0 (m : (ℓ : Loc nD τ sig) → Buf (Elt Ideal) ℓ) (c : Dev nD) : Valuation τ sig (Elt Ideal) :=
  StableHlo.after (List.flatten [hostOps0, hostOps0_1, hostOps0_2, hostOps0_3, hostOps0_4, hostOps0_5, hostOps0_6, hostOps0_7,
    hostOps0_8, hostOps0_9, hostOps0_10, hostOps0_11, hostOps0_12, hostOps0_13, hostOps0_14, hostOps0_15, hostOps0_16,
    hostOps0_17, hostOps0_18]) (fun b => m (c, b))

/-- The prefix is the first seven stretches, then corners 2 and 3, then corners 4 to 7 and the concatenation. -/
theorem V0_eq : V0 m c = Host2.tail8 (Host1b.mid4 (W6 m c)) := by
  unfold V0 W6 W5 W4 W3 W2 W1 W0 W00 Host2.tail8 Host1b.mid4
  simp only [List.flatten_cons, List.flatten_nil, StableHlo.after_append, StableHlo.after_nil]

/-- Row n of the feature matrix is the feature row of sample point n. -/
theorem feat_row (m : (ℓ : Loc nD τ sig) → Buf (Elt Ideal) ℓ) (c : Dev nD)
    (hin : Cert.Atoms.InRange (m ((c.tc : Thread nD τ).loc main_arg0))) (n : Fin 524288) :
    Cert.Atoms.featRow (V0 m c (Proc.devRef .tc main_v420)) n
      = Cert.Spec.featOf (Cert.Atoms.ptOf (m ((c.tc : Thread nD τ).loc main_arg0)) (m ((c.tc : Thread nD τ).loc main_arg1)) n) := by
  rw [V0_eq]
  have c6 : ∀ r : Ref sig .tc, r ∉ S3_W → r ∉ S4_W → r ∉ S5_W → r ∉ S6_W →
      W6 m c (Proc.devRef .tc r) = W2 m c (Proc.devRef .tc r) := fun r => carry6 m c r
  have h8 := (c6 main_v8 (by decide) (by decide) (by decide) (by decide)).trans (W2_v8 m c)
  have h11 := (c6 main_v11 (by decide) (by decide) (by decide) (by decide)).trans (W2_v11 m c)
  have h13 := (c6 main_v13 (by decide) (by decide) (by decide) (by decide)).trans (W2_v13 m c)
  have h15 := (c6 main_v15 (by decide) (by decide) (by decide) (by decide)).trans (W2_v15 m c)
  have h17 := (c6 main_v17 (by decide) (by decide) (by decide) (by decide)).trans (W2_v17 m c)
  have h23 := (c6 main_v23 (by decide) (by decide) (by decide) (by decide)).trans (W2_v23 m c)
  have h3 := (c6 main_v3 (by decide) (by decide) (by decide) (by decide)).trans (W2_v3 m c)
  have h125 : W6 m c (Proc.devRef .tc main_v125) = val_main_v24 (F := Ideal) (X0 m c) :=
    S6_v125 _ _ ((carry5 m c main_v17 (by decide) (by decide) (by decide)).trans (W2_v17 m c))
  have h145 : W6 m c (Proc.devRef .tc main_v145) = val_main_v118 (F := Ideal) (X0 m c) :=
    S6_v145 _ _ ((carry5 m c main_v8 (by decide) (by decide) (by decide)).trans (W2_v8 m c))
  obtain ⟨mE, mX, mY, mZ, h223, h225, h245, hfr⟩ :=
    Host1b.mid_quarter (W6 m c) (X0 m c) (X1 m c) hin h8 h11 h15 h17 h23 h125 h145 _ _ _ _ rfl rfl rfl rfl n
  obtain ⟨tE, tX, tY, tZ, tP⟩ :=
    Host2.second_half (Host1b.mid4 (W6 m c)) (X0 m c) (X1 m c) hin
      ((hfr main_v3 (by decide) (by decide) (by decide) (by decide)).trans h3)
      ((hfr main_v8 (by decide) (by decide) (by decide) (by decide)).trans h8)
      ((hfr main_v11 (by decide) (by decide) (by decide) (by decide)).trans h11)
      ((hfr main_v13 (by decide) (by decide) (by decide) (by decide)).trans h13)
      ((hfr main_v15 (by decide) (by decide) (by decide) (by decide)).trans h15)
      ((hfr main_v17 (by decide) (by decide) (by decide) (by decide)).trans h17)
      h223 h225 h245 _ _ _ _ rfl rfl rfl rfl n
  unfold Cert.Spec.featOf
  show Cert.Spec.Feat.mk _ _ _ _ _ = Cert.Spec.Feat.mk _ _ _ _ _
  congr 1
  · funext e
    refine (tE e).trans ?_
    rw [mE e, W6_emb m c hin n e]
    rfl
  · funext e
    refine (tX e).trans ?_
    rw [mX e, W6_ddx m c hin n e]
    rfl
  · funext e
    refine (tY e).trans ?_
    rw [mY e, W6_ddy m c hin n e]
    rfl
  · funext e
    refine (tZ e).trans ?_
    rw [mZ e, W6_ddz m c hin n e]
    rfl
  · funext a
    exact tP a

end Whole

end Cert.KernelIdeal.Host

end
-- ==== Proof.RefStages.lean ====
import proofs.«171612_j42777874268460_1_alg».proof.Proof.RefRead
import proofs.«171612_j42777874268460_1_alg».proof.Proof.RefOps
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! What the device's buffers hold after each window of @main, read at every buffer a later window reads (or @main returns):
    its stage of RefRead.lean at the arguments' contents. A buffer written in the window is read off the window's operations
    (each operation's result at its own buffer is its function of its operands' contents; the operands written before the
    window are at their stages by the previous window's facts) and equals its stage by unfolding the stages' definitions;
    a buffer written earlier is kept, since the window does not write it. -/

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl

/-- The device's buffer contents after @main's first 1 window. -/
def val1 (V0 : Valuation τ sig (Elt F)) : Valuation τ sig (Elt F) := after ops0 (val0 V0)
/-- A buffer that window main_part0 does not write keeps its contents through it. -/
theorem val1_keep (V0 : Valuation τ sig (Elt F)) (r : Ref sig .tc) (h : r ∉ ops0_W) :
    val1 V0 (Proc.devRef .tc r) = val0 V0 (Proc.devRef .tc r) :=
  after_of_writes_sub ops0 _ ops0_writes h
-- from here on the contents after this window are read through the facts below only
attribute [local irreducible] val1
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
set_option maxRecDepth 8192 in
set_option maxHeartbeats 4000000 in
theorem val1_main_v3 (V0 : Valuation τ sig (Elt F)) : val1 V0 (no_index (Proc.devRef .tc main_v3)) = ReadP.val_main_v3 (F := F) (V0 (Proc.devRef .tc main_arg0)) := by
  unfold val1
  simp only [ops0]
  after_results_simp
  simp only [val0_main_arg0] <;> rfl
set_option maxRecDepth 8192 in
set_option maxHeartbeats 4000000 in
theorem val1_main_v8 (V0 : Valuation τ sig (Elt F)) : val1 V0 (no_index (Proc.devRef .tc main_v8)) = ReadP.val_main_v8 (F := F) (V0 (Proc.devRef .tc main_arg0)) := by
  unfold val1
  simp only [ops0]
  after_results_simp
  try simp only [TRef.ofBuf, TRef.toBuf, cast_eq]
  simp only [val0_main_arg0] <;> rfl
set_option maxRecDepth 8192 in
set_option maxHeartbeats 4000000 in
theorem val1_main_v10 (V0 : Valuation τ sig (Elt F)) : val1 V0 (no_index (Proc.devRef .tc main_v10)) = ReadP.val_main_v10 (F := F) (V0 (Proc.devRef .tc main_arg0)) := by
  unfold val1
  simp only [ops0]
  after_results_simp
  try simp only [TRef.ofBuf, TRef.toBuf, cast_eq]
  simp only [val0_main_arg0] <;> rfl
set_option maxRecDepth 8192 in
set_option maxHeartbeats 4000000 in
theorem val1_main_v11 (V0 : Valuation τ sig (Elt F)) : val1 V0 (no_index (Proc.devRef .tc main_v11)) = ReadP.val_main_v11 (F := F) (V0 (Proc.devRef .tc main_arg1)) := by
  unfold val1
  simp only [ops0]
  after_results_simp
  simp only [val0_main_arg1] <;> rfl
set_option maxRecDepth 8192 in
set_option maxHeartbeats 4000000 in
theorem val1_main_v12 (V0 : Valuation τ sig (Elt F)) : val1 V0 (no_index (Proc.devRef .tc main_v12)) = ReadP.val_main_v12 (F := F) := by
  unfold val1
  simp only [ops0]
  after_results_simp
  all_goals rfl
set_option maxRecDepth 8192 in
set_option maxHeartbeats 4000000 in
theorem val1_main_v16 (V0 : Valuation τ sig (Elt F)) : val1 V0 (no_index (Proc.devRef .tc main_v16)) = ReadP.val_main_v16 (F := F) (V0 (Proc.devRef .tc main_arg0)) := by
  unfold val1
  simp only [ops0]
  after_results_simp
  try simp only [TRef.ofBuf, TRef.toBuf, cast_eq]
  simp only [val0_main_arg0] <;> rfl
set_option maxRecDepth 8192 in
set_option maxHeartbeats 4000000 in
theorem val1_main_v20 (V0 : Valuation τ sig (Elt F)) : val1 V0 (no_index (Proc.devRef .tc main_v20)) = ReadP.val_main_v20 (F := F) (V0 (Proc.devRef .tc main_arg0)) := by
  unfold val1
  simp only [ops0]
  after_results_simp
  try simp only [TRef.ofBuf, TRef.toBuf, cast_eq]
  simp only [val0_main_arg0] <;> rfl
set_option maxRecDepth 8192 in
set_option maxHeartbeats 4000000 in
theorem val1_main_v24 (V0 : Valuation τ sig (Elt F)) : val1 V0 (no_index (Proc.devRef .tc main_v24)) = ReadP.val_main_v24 (F := F) (V0 (Proc.devRef .tc main_arg0)) := by
  unfold val1
  simp only [ops0]
  after_results_simp
  try simp only [TRef.ofBuf, TRef.toBuf, cast_eq]
  simp only [val0_main_arg0] <;> rfl
set_option maxRecDepth 8192 in
set_option maxHeartbeats 4000000 in
theorem val1_main_v44 (V0 : Valuation τ sig (Elt F)) : val1 V0 (no_index (Proc.devRef .tc main_v44)) = ReadP.val_main_v44 (F := F) (V0 (Proc.devRef .tc main_arg0)) := by
  unfold val1
  simp only [ops0]
  after_results_simp
  try simp only [TRef.ofBuf, TRef.toBuf, cast_eq]
  simp only [val0_main_arg0] <;> rfl

/-- The device's buffer contents after @main's first 2 windows. -/
def val2 (V0 : Valuation τ sig (Elt F)) : Valuation τ sig (Elt F) := after ops1 (val1 V0)
/-- A buffer that window main_part1 does not write keeps its contents through it. -/
theorem val2_keep (V0 : Valuation τ sig (Elt F)) (r : Ref sig .tc) (h : r ∉ ops1_W) :
    val2 V0 (Proc.devRef .tc r) = val1 V0 (Proc.devRef .tc r) :=
  after_of_writes_sub ops1 _ ops1_writes h
-- from here on the contents after this window are read through the facts below only
attribute [local irreducible] val2
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_v3 (V0 : Valuation τ sig (Elt F)) : val2 V0 (no_index (Proc.devRef .tc main_v3)) = ReadP.val_main_v3 (F := F) (V0 (Proc.devRef .tc main_arg0)) :=
  (val2_keep V0 main_v3 (by decide)).trans (val1_main_v3 V0)
theorem val2_main_v8 (V0 : Valuation τ sig (Elt F)) : val2 V0 (no_index (Proc.devRef .tc main_v8)) = ReadP.val_main_v8 (F := F) (V0 (Proc.devRef .tc main_arg0)) :=
  (val2_keep V0 main_v8 (by decide)).trans (val1_main_v8 V0)
theorem val2_main_v10 (V0 : Valuation τ sig (Elt F)) : val2 V0 (no_index (Proc.devRef .tc main_v10)) = ReadP.val_main_v10 (F := F) (V0 (Proc.devRef .tc main_arg0)) :=
  (val2_keep V0 main_v10 (by decide)).trans (val1_main_v10 V0)
theorem val2_main_v11 (V0 : Valuation τ sig (Elt F)) : val2 V0 (no_index (Proc.devRef .tc main_v11)) = ReadP.val_main_v11 (F := F) (V0 (Proc.devRef .tc main_arg1)) :=
  (val2_keep V0 main_v11 (by decide)).trans (val1_main_v11 V0)
theorem val2_main_v16 (V0 : Valuation τ sig (Elt F)) : val2 V0 (no_index (Proc.devRef .tc main_v16)) = ReadP.val_main_v16 (F := F) (V0 (Proc.devRef .tc main_arg0)) :=
  (val2_keep V0 main_v16 (by decide)).trans (val1_main_v16 V0)
theorem val2_main_v20 (V0 : Valuation τ sig (Elt F)) : val2 V0 (no_index (Proc.devRef .tc main_v20)) = ReadP.val_main_v20 (F := F) (V0 (Proc.devRef .tc main_arg0)) :=
  (val2_keep V0 main_v20 (by decide)).trans (val1_main_v20 V0)
theorem val2_main_v24 (V0 : Valuation τ sig (Elt F)) : val2 V0 (no_index (Proc.devRef .tc main_v24)) = ReadP.val_main_v24 (F := F) (V0 (Proc.devRef .tc main_arg0)) :=
  (val2_keep V0 main_v24 (by decide)).trans (val1_main_v24 V0)
set_option maxRecDepth 8192 in
set_option maxHeartbeats 4000000 in
theorem val2_main_v51 (V0 : Valuation τ sig (Elt F)) : val2 V0 (no_index (Proc.devRef .tc main_v51)) = ReadP.val_main_v51 (F := F) (V0 (Proc.devRef .tc main_arg0)) (V0 (Proc.devRef .tc main_arg1)) := by
  unfold val2
  simp only [ops1]
  after_results_simp
  simp only [val1_main_v44, val1_main_v11] <;> rfl
set_option maxRecDepth 8192 in
set_option maxHeartbeats 4000000 in
theorem val2_main_v52 (V0 : Valuation τ sig (Elt F)) : val2 V0 (no_index (Proc.devRef .tc main_v52)) = ReadP.val_main_v52 (F := F) (V0 (Proc.devRef .tc main_arg0)) := by
  unfold val2
  simp only [ops1]
  after_results_simp
  simp only [val1_main_v20, val1_main_v16] <;> rfl
set_option maxRecDepth 8192 in
set_option maxHeartbeats 4000000 in
theorem val2_main_v59 (V0 : Valuation τ sig (Elt F)) : val2 V0 (no_index (Proc.devRef .tc main_v59)) = ReadP.val_main_v59 (F := F) (V0 (Proc.devRef .tc main_arg0)) := by
  unfold val2
  simp only [ops1]
  after_results_simp
  simp only [val1_main_v10] <;> rfl
set_option maxRecDepth 8192 in
set_option maxHeartbeats 4000000 in
theorem val2_main_v86 (V0 : Valuation τ sig (Elt F)) : val2 V0 (no_index (Proc.devRef .tc main_v86)) = ReadP.val_main_v86 (F := F) (V0 (Proc.devRef .tc main_arg0)) (V0 (Proc.devRef .tc main_arg1)) := by
  unfold val2
  simp only [ops1]
  after_results_simp
  simp only [val1_main_v8, val1_main_v11] <;> rfl
set_option maxRecDepth 8192 in
set_option maxHeartbeats 4000000 in
theorem val2_main_v87 (V0 : Valuation τ sig (Elt F)) : val2 V0 (no_index (Proc.devRef .tc main_v87)) = ReadP.val_main_v87 (F := F) (V0 (Proc.devRef .tc main_arg0)) := by
  unfold val2
  simp only [ops1]
  after_results_simp
  simp only [val1_main_v20, val1_main_v16] <;> rfl
set_option maxRecDepth 8192 in
set_option maxHeartbeats 4000000 in
theorem val2_main_v92 (V0 : Valuation τ sig (Elt F)) : val2 V0 (no_index (Proc.devRef .tc main_v92)) = ReadP.val_main_v92 (F := F) (V0 (Proc.devRef .tc main_arg0)) (V0 (Proc.devRef .tc main_arg1)) := by
  unfold val2
  simp only [ops1]
  after_results_simp
  simp only [val1_main_v10, val1_main_v20, val1_main_v16, val1_main_v8, val1_main_v11, val1_main_v24, val1_main_v44, val1_main_v12] <;> rfl
set_option maxRecDepth 8192 in
set_option maxHeartbeats 4000000 in
theorem val2_main_v94 (V0 : Valuation τ sig (Elt F)) : val2 V0 (no_index (Proc.devRef .tc main_v94)) = ReadP.val_main_v94 (F := F) (V0 (Proc.devRef .tc main_arg0)) := by
  unfold val2
  simp only [ops1]
  after_results_simp
  simp only [val1_main_v10] <;> rfl

/-- The device's buffer contents after @main's first 3 windows. -/
def val3 (V0 : Valuation τ sig (Elt F)) : Valuation τ sig (Elt F) := after ops2 (val2 V0)
/-- A buffer that window main_part2 does not write keeps its contents through it. -/
theorem val3_keep (V0 : Valuation τ sig (Elt F)) (r : Ref sig .tc) (h : r ∉ ops2_W) :
    val3 V0 (Proc.devRef .tc r) = val2 V0 (Proc.devRef .tc r) :=
  after_of_writes_sub ops2 _ ops2_writes h
-- from here on the contents after this window are read through the facts below only
attribute [local irreducible] val3
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_v3 (V0 : Valuation τ sig (Elt F)) : val3 V0 (no_index (Proc.devRef .tc main_v3)) = ReadP.val_main_v3 (F := F) (V0 (Proc.devRef .tc main_arg0)) :=
  (val3_keep V0 main_v3 (by decide)).trans (val2_main_v3 V0)
theorem val3_main_v8 (V0 : Valuation τ sig (Elt F)) : val3 V0 (no_index (Proc.devRef .tc main_v8)) = ReadP.val_main_v8 (F := F) (V0 (Proc.devRef .tc main_arg0)) :=
  (val3_keep V0 main_v8 (by decide)).trans (val2_main_v8 V0)
theorem val3_main_v10 (V0 : Valuation τ sig (Elt F)) : val3 V0 (no_index (Proc.devRef .tc main_v10)) = ReadP.val_main_v10 (F := F) (V0 (Proc.devRef .tc main_arg0)) :=
  (val3_keep V0 main_v10 (by decide)).trans (val2_main_v10 V0)
theorem val3_main_v11 (V0 : Valuation τ sig (Elt F)) : val3 V0 (no_index (Proc.devRef .tc main_v11)) = ReadP.val_main_v11 (F := F) (V0 (Proc.devRef .tc main_arg1)) :=
  (val3_keep V0 main_v11 (by decide)).trans (val2_main_v11 V0)
theorem val3_main_v16 (V0 : Valuation τ sig (Elt F)) : val3 V0 (no_index (Proc.devRef .tc main_v16)) = ReadP.val_main_v16 (F := F) (V0 (Proc.devRef .tc main_arg0)) :=
  (val3_keep V0 main_v16 (by decide)).trans (val2_main_v16 V0)
theorem val3_main_v20 (V0 : Valuation τ sig (Elt F)) : val3 V0 (no_index (Proc.devRef .tc main_v20)) = ReadP.val_main_v20 (F := F) (V0 (Proc.devRef .tc main_arg0)) :=
  (val3_keep V0 main_v20 (by decide)).trans (val2_main_v20 V0)
theorem val3_main_v24 (V0 : Valuation τ sig (Elt F)) : val3 V0 (no_index (Proc.devRef .tc main_v24)) = ReadP.val_main_v24 (F := F) (V0 (Proc.devRef .tc main_arg0)) :=
  (val3_keep V0 main_v24 (by decide)).trans (val2_main_v24 V0)
theorem val3_main_v51 (V0 : Valuation τ sig (Elt F)) : val3 V0 (no_index (Proc.devRef .tc main_v51)) = ReadP.val_main_v51 (F := F) (V0 (Proc.devRef .tc main_arg0)) (V0 (Proc.devRef .tc main_arg1)) :=
  (val3_keep V0 main_v51 (by decide)).trans (val2_main_v51 V0)
theorem val3_main_v52 (V0 : Valuation τ sig (Elt F)) : val3 V0 (no_index (Proc.devRef .tc main_v52)) = ReadP.val_main_v52 (F := F) (V0 (Proc.devRef .tc main_arg0)) :=
  (val3_keep V0 main_v52 (by decide)).trans (val2_main_v52 V0)
theorem val3_main_v59 (V0 : Valuation τ sig (Elt F)) : val3 V0 (no_index (Proc.devRef .tc main_v59)) = ReadP.val_main_v59 (F := F) (V0 (Proc.devRef .tc main_arg0)) :=
  (val3_keep V0 main_v59 (by decide)).trans (val2_main_v59 V0)
theorem val3_main_v86 (V0 : Valuation τ sig (Elt F)) : val3 V0 (no_index (Proc.devRef .tc main_v86)) = ReadP.val_main_v86 (F := F) (V0 (Proc.devRef .tc main_arg0)) (V0 (Proc.devRef .tc main_arg1)) :=
  (val3_keep V0 main_v86 (by decide)).trans (val2_main_v86 V0)
theorem val3_main_v87 (V0 : Valuation τ sig (Elt F)) : val3 V0 (no_index (Proc.devRef .tc main_v87)) = ReadP.val_main_v87 (F := F) (V0 (Proc.devRef .tc main_arg0)) :=
  (val3_keep V0 main_v87 (by decide)).trans (val2_main_v87 V0)
theorem val3_main_v94 (V0 : Valuation τ sig (Elt F)) : val3 V0 (no_index (Proc.devRef .tc main_v94)) = ReadP.val_main_v94 (F := F) (V0 (Proc.devRef .tc main_arg0)) :=
  (val3_keep V0 main_v94 (by decide)).trans (val2_main_v94 V0)
set_option maxRecDepth 8192 in
set_option maxHeartbeats 4000000 in
theorem val3_main_v98 (V0 : Valuation τ sig (Elt F)) : val3 V0 (no_index (Proc.devRef .tc main_v98)) = ReadP.val_main_v98 (F := F) (V0 (Proc.devRef .tc main_arg0)) := by
  unfold val3
  simp only [ops2]
  after_results_simp
  simp only [val2_main_v10] <;> rfl
set_option maxRecDepth 8192 in
set_option maxHeartbeats 4000000 in
theorem val3_main_v125 (V0 : Valuation τ sig (Elt F)) : val3 V0 (no_index (Proc.devRef .tc main_v125)) = ReadP.val_main_v125 (F := F) (V0 (Proc.devRef .tc main_arg0)) (V0 (Proc.devRef .tc main_arg1)) := by
  unfold val3
  simp only [ops2]
  after_results_simp
  simp only [val2_main_v8, val2_main_v11] <;> rfl
set_option maxRecDepth 8192 in
set_option maxHeartbeats 4000000 in
theorem val3_main_v126 (V0 : Valuation τ sig (Elt F)) : val3 V0 (no_index (Proc.devRef .tc main_v126)) = ReadP.val_main_v126 (F := F) (V0 (Proc.devRef .tc main_arg0)) := by
  unfold val3
  simp only [ops2]
  after_results_simp
  simp only [val2_main_v94, val2_main_v16] <;> rfl
set_option maxRecDepth 8192 in
set_option maxHeartbeats 4000000 in
theorem val3_main_v131 (V0 : Valuation τ sig (Elt F)) : val3 V0 (no_index (Proc.devRef .tc main_v131)) = ReadP.val_main_v131 (F := F) (V0 (Proc.devRef .tc main_arg0)) (V0 (Proc.devRef .tc main_arg1)) := by
  unfold val3
  simp only [ops2]
  after_results_simp
  simp only [val2_main_v10, val2_main_v94, val2_main_v16, val2_main_v8, val2_main_v11, val2_main_v92] <;> rfl
set_option maxRecDepth 8192 in
set_option maxHeartbeats 4000000 in
theorem val3_main_v133 (V0 : Valuation τ sig (Elt F)) : val3 V0 (no_index (Proc.devRef .tc main_v133)) = ReadP.val_main_v133 (F := F) (V0 (Proc.devRef .tc main_arg0)) := by
  unfold val3
  simp only [ops2]
  after_results_simp
  simp only [val2_main_v10] <;> rfl
set_option maxRecDepth 8192 in
set_option maxHeartbeats 4000000 in
theorem val3_main_v141 (V0 : Valuation τ sig (Elt F)) : val3 V0 (no_index (Proc.devRef .tc main_v141)) = ReadP.val_main_v141 (F := F) (V0 (Proc.devRef .tc main_arg0)) := by
  unfold val3
  simp only [ops2]
  after_results_simp
  simp only [val2_main_v8] <;> rfl
set_option maxRecDepth 8192 in
set_option maxHeartbeats 4000000 in
theorem val3_main_v142 (V0 : Valuation τ sig (Elt F)) : val3 V0 (no_index (Proc.devRef .tc main_v142)) = ReadP.val_main_v142 (F := F) (V0 (Proc.devRef .tc main_arg0)) := by
  unfold val3
  simp only [ops2]
  after_results_simp
  simp only [val2_main_v8] <;> rfl

/-- The device's buffer contents after @main's first 4 windows. -/
def val4 (V0 : Valuation τ sig (Elt F)) : Valuation τ sig (Elt F) := after ops3 (val3 V0)
/-- A buffer that window main_part3 does not write keeps its contents through it. -/
theorem val4_keep (V0 : Valuation τ sig (Elt F)) (r : Ref sig .tc) (h : r ∉ ops3_W) :
    val4 V0 (Proc.devRef .tc r) = val3 V0 (Proc.devRef .tc r) :=
  after_of_writes_sub ops3 _ ops3_writes h
-- from here on the contents after this window are read through the facts below only
attribute [local irreducible] val4
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_v3 (V0 : Valuation τ sig (Elt F)) : val4 V0 (no_index (Proc.devRef .tc main_v3)) = ReadP.val_main_v3 (F := F) (V0 (Proc.devRef .tc main_arg0)) :=
  (val4_keep V0 main_v3 (by decide)).trans (val3_main_v3 V0)
theorem val4_main_v8 (V0 : Valuation τ sig (Elt F)) : val4 V0 (no_index (Proc.devRef .tc main_v8)) = ReadP.val_main_v8 (F := F) (V0 (Proc.devRef .tc main_arg0)) :=
  (val4_keep V0 main_v8 (by decide)).trans (val3_main_v8 V0)
theorem val4_main_v10 (V0 : Valuation τ sig (Elt F)) : val4 V0 (no_index (Proc.devRef .tc main_v10)) = ReadP.val_main_v10 (F := F) (V0 (Proc.devRef .tc main_arg0)) :=
  (val4_keep V0 main_v10 (by decide)).trans (val3_main_v10 V0)
theorem val4_main_v11 (V0 : Valuation τ sig (Elt F)) : val4 V0 (no_index (Proc.devRef .tc main_v11)) = ReadP.val_main_v11 (F := F) (V0 (Proc.devRef .tc main_arg1)) :=
  (val4_keep V0 main_v11 (by decide)).trans (val3_main_v11 V0)
theorem val4_main_v16 (V0 : Valuation τ sig (Elt F)) : val4 V0 (no_index (Proc.devRef .tc main_v16)) = ReadP.val_main_v16 (F := F) (V0 (Proc.devRef .tc main_arg0)) :=
  (val4_keep V0 main_v16 (by decide)).trans (val3_main_v16 V0)
theorem val4_main_v20 (V0 : Valuation τ sig (Elt F)) : val4 V0 (no_index (Proc.devRef .tc main_v20)) = ReadP.val_main_v20 (F := F) (V0 (Proc.devRef .tc main_arg0)) :=
  (val4_keep V0 main_v20 (by decide)).trans (val3_main_v20 V0)
theorem val4_main_v24 (V0 : Valuation τ sig (Elt F)) : val4 V0 (no_index (Proc.devRef .tc main_v24)) = ReadP.val_main_v24 (F := F) (V0 (Proc.devRef .tc main_arg0)) :=
  (val4_keep V0 main_v24 (by decide)).trans (val3_main_v24 V0)
theorem val4_main_v51 (V0 : Valuation τ sig (Elt F)) : val4 V0 (no_index (Proc.devRef .tc main_v51)) = ReadP.val_main_v51 (F := F) (V0 (Proc.devRef .tc main_arg0)) (V0 (Proc.devRef .tc main_arg1)) :=
  (val4_keep V0 main_v51 (by decide)).trans (val3_main_v51 V0)
theorem val4_main_v52 (V0 : Valuation τ sig (Elt F)) : val4 V0 (no_index (Proc.devRef .tc main_v52)) = ReadP.val_main_v52 (F := F) (V0 (Proc.devRef .tc main_arg0)) :=
  (val4_keep V0 main_v52 (by decide)).trans (val3_main_v52 V0)
theorem val4_main_v59 (V0 : Valuation τ sig (Elt F)) : val4 V0 (no_index (Proc.devRef .tc main_v59)) = ReadP.val_main_v59 (F := F) (V0 (Proc.devRef .tc main_arg0)) :=
  (val4_keep V0 main_v59 (by decide)).trans (val3_main_v59 V0)
theorem val4_main_v86 (V0 : Valuation τ sig (Elt F)) : val4 V0 (no_index (Proc.devRef .tc main_v86)) = ReadP.val_main_v86 (F := F) (V0 (Proc.devRef .tc main_arg0)) (V0 (Proc.devRef .tc main_arg1)) :=
  (val4_keep V0 main_v86 (by decide)).trans (val3_main_v86 V0)
theorem val4_main_v87 (V0 : Valuation τ sig (Elt F)) : val4 V0 (no_index (Proc.devRef .tc main_v87)) = ReadP.val_main_v87 (F := F) (V0 (Proc.devRef .tc main_arg0)) :=
  (val4_keep V0 main_v87 (by decide)).trans (val3_main_v87 V0)
theorem val4_main_v94 (V0 : Valuation τ sig (Elt F)) : val4 V0 (no_index (Proc.devRef .tc main_v94)) = ReadP.val_main_v94 (F := F) (V0 (Proc.devRef .tc main_arg0)) :=
  (val4_keep V0 main_v94 (by decide)).trans (val3_main_v94 V0)
theorem val4_main_v98 (V0 : Valuation τ sig (Elt F)) : val4 V0 (no_index (Proc.devRef .tc main_v98)) = ReadP.val_main_v98 (F := F) (V0 (Proc.devRef .tc main_arg0)) :=
  (val4_keep V0 main_v98 (by decide)).trans (val3_main_v98 V0)
theorem val4_main_v125 (V0 : Valuation τ sig (Elt F)) : val4 V0 (no_index (Proc.devRef .tc main_v125)) = ReadP.val_main_v125 (F := F) (V0 (Proc.devRef .tc main_arg0)) (V0 (Proc.devRef .tc main_arg1)) :=
  (val4_keep V0 main_v125 (by decide)).trans (val3_main_v125 V0)
theorem val4_main_v126 (V0 : Valuation τ sig (Elt F)) : val4 V0 (no_index (Proc.devRef .tc main_v126)) = ReadP.val_main_v126 (F := F) (V0 (Proc.devRef .tc main_arg0)) :=
  (val4_keep V0 main_v126 (by decide)).trans (val3_main_v126 V0)
theorem val4_main_v133 (V0 : Valuation τ sig (Elt F)) : val4 V0 (no_index (Proc.devRef .tc main_v133)) = ReadP.val_main_v133 (F := F) (V0 (Proc.devRef .tc main_arg0)) :=
  (val4_keep V0 main_v133 (by decide)).trans (val3_main_v133 V0)
set_option maxRecDepth 8192 in
set_option maxHeartbeats 4000000 in
theorem val4_main_v160 (V0 : Valuation τ sig (Elt F)) : val4 V0 (no_index (Proc.devRef .tc main_v160)) = ReadP.val_main_v160 (F := F) (V0 (Proc.devRef .tc main_arg0)) (V0 (Proc.devRef .tc main_arg1)) := by
  unfold val4
  simp only [ops3]
  after_results_simp
  simp only [val3_main_v8, val3_main_v142, val3_main_v141, val3_main_v11] <;> rfl
set_option maxRecDepth 8192 in
set_option maxHeartbeats 4000000 in
theorem val4_main_v161 (V0 : Valuation τ sig (Elt F)) : val4 V0 (no_index (Proc.devRef .tc main_v161)) = ReadP.val_main_v161 (F := F) (V0 (Proc.devRef .tc main_arg0)) := by
  unfold val4
  simp only [ops3]
  after_results_simp
  simp only [val3_main_v94, val3_main_v16] <;> rfl
set_option maxRecDepth 8192 in
set_option maxHeartbeats 4000000 in
theorem val4_main_v166 (V0 : Valuation τ sig (Elt F)) : val4 V0 (no_index (Proc.devRef .tc main_v166)) = ReadP.val_main_v166 (F := F) (V0 (Proc.devRef .tc main_arg0)) (V0 (Proc.devRef .tc main_arg1)) := by
  unfold val4
  simp only [ops3]
  after_results_simp
  simp only [val3_main_v133, val3_main_v94, val3_main_v16, val3_main_v8, val3_main_v142, val3_main_v141, val3_main_v11, val3_main_v131] <;> rfl
set_option maxRecDepth 8192 in
set_option maxHeartbeats 4000000 in
theorem val4_main_v168 (V0 : Valuation τ sig (Elt F)) : val4 V0 (no_index (Proc.devRef .tc main_v168)) = ReadP.val_main_v168 (F := F) (V0 (Proc.devRef .tc main_arg0)) := by
  unfold val4
  simp only [ops3]
  after_results_simp
  simp only [val3_main_v10] <;> rfl
set_option maxRecDepth 8192 in
set_option maxHeartbeats 4000000 in
theorem val4_main_v172 (V0 : Valuation τ sig (Elt F)) : val4 V0 (no_index (Proc.devRef .tc main_v172)) = ReadP.val_main_v172 (F := F) (V0 (Proc.devRef .tc main_arg0)) := by
  unfold val4
  simp only [ops3]
  after_results_simp
  simp only [val3_main_v10] <;> rfl
set_option maxRecDepth 8192 in
set_option maxHeartbeats 4000000 in
theorem val4_main_v176 (V0 : Valuation τ sig (Elt F)) : val4 V0 (no_index (Proc.devRef .tc main_v176)) = ReadP.val_main_v176 (F := F) (V0 (Proc.devRef .tc main_arg0)) := by
  unfold val4
  simp only [ops3]
  after_results_simp
  simp only [val3_main_v10] <;> rfl
set_option maxRecDepth 8192 in
set_option maxHeartbeats 4000000 in
theorem val4_main_v184 (V0 : Valuation τ sig (Elt F)) : val4 V0 (no_index (Proc.devRef .tc main_v184)) = ReadP.val_main_v184 (F := F) (V0 (Proc.devRef .tc main_arg0)) := by
  unfold val4
  simp only [ops3]
  after_results_simp
  simp only [val3_main_v8] <;> rfl
set_option maxRecDepth 8192 in
set_option maxHeartbeats 4000000 in
theorem val4_main_v190 (V0 : Valuation τ sig (Elt F)) : val4 V0 (no_index (Proc.devRef .tc main_v190)) = ReadP.val_main_v190 (F := F) (V0 (Proc.devRef .tc main_arg0)) := by
  unfold val4
  simp only [ops3]
  after_results_simp
  simp only [val3_main_v8] <;> rfl

/-- The device's buffer contents after @main's first 5 windows. -/
def val5 (V0 : Valuation τ sig (Elt F)) : Valuation τ sig (Elt F) := after ops4 (val4 V0)
/-- A buffer that window main_part4 does not write keeps its contents through it. -/
theorem val5_keep (V0 : Valuation τ sig (Elt F)) (r : Ref sig .tc) (h : r ∉ ops4_W) :
    val5 V0 (Proc.devRef .tc r) = val4 V0 (Proc.devRef .tc r) :=
  after_of_writes_sub ops4 _ ops4_writes h
-- from here on the contents after this window are read through the facts below only
attribute [local irreducible] val5
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_v3 (V0 : Valuation τ sig (Elt F)) : val5 V0 (no_index (Proc.devRef .tc main_v3)) = ReadP.val_main_v3 (F := F) (V0 (Proc.devRef .tc main_arg0)) :=
  (val5_keep V0 main_v3 (by decide)).trans (val4_main_v3 V0)
theorem val5_main_v8 (V0 : Valuation τ sig (Elt F)) : val5 V0 (no_index (Proc.devRef .tc main_v8)) = ReadP.val_main_v8 (F := F) (V0 (Proc.devRef .tc main_arg0)) :=
  (val5_keep V0 main_v8 (by decide)).trans (val4_main_v8 V0)
theorem val5_main_v10 (V0 : Valuation τ sig (Elt F)) : val5 V0 (no_index (Proc.devRef .tc main_v10)) = ReadP.val_main_v10 (F := F) (V0 (Proc.devRef .tc main_arg0)) :=
  (val5_keep V0 main_v10 (by decide)).trans (val4_main_v10 V0)
theorem val5_main_v11 (V0 : Valuation τ sig (Elt F)) : val5 V0 (no_index (Proc.devRef .tc main_v11)) = ReadP.val_main_v11 (F := F) (V0 (Proc.devRef .tc main_arg1)) :=
  (val5_keep V0 main_v11 (by decide)).trans (val4_main_v11 V0)
theorem val5_main_v16 (V0 : Valuation τ sig (Elt F)) : val5 V0 (no_index (Proc.devRef .tc main_v16)) = ReadP.val_main_v16 (F := F) (V0 (Proc.devRef .tc main_arg0)) :=
  (val5_keep V0 main_v16 (by decide)).trans (val4_main_v16 V0)
theorem val5_main_v20 (V0 : Valuation τ sig (Elt F)) : val5 V0 (no_index (Proc.devRef .tc main_v20)) = ReadP.val_main_v20 (F := F) (V0 (Proc.devRef .tc main_arg0)) :=
  (val5_keep V0 main_v20 (by decide)).trans (val4_main_v20 V0)
theorem val5_main_v24 (V0 : Valuation τ sig (Elt F)) : val5 V0 (no_index (Proc.devRef .tc main_v24)) = ReadP.val_main_v24 (F := F) (V0 (Proc.devRef .tc main_arg0)) :=
  (val5_keep V0 main_v24 (by decide)).trans (val4_main_v24 V0)
theorem val5_main_v51 (V0 : Valuation τ sig (Elt F)) : val5 V0 (no_index (Proc.devRef .tc main_v51)) = ReadP.val_main_v51 (F := F) (V0 (Proc.devRef .tc main_arg0)) (V0 (Proc.devRef .tc main_arg1)) :=
  (val5_keep V0 main_v51 (by decide)).trans (val4_main_v51 V0)
theorem val5_main_v52 (V0 : Valuation τ sig (Elt F)) : val5 V0 (no_index (Proc.devRef .tc main_v52)) = ReadP.val_main_v52 (F := F) (V0 (Proc.devRef .tc main_arg0)) :=
  (val5_keep V0 main_v52 (by decide)).trans (val4_main_v52 V0)
theorem val5_main_v59 (V0 : Valuation τ sig (Elt F)) : val5 V0 (no_index (Proc.devRef .tc main_v59)) = ReadP.val_main_v59 (F := F) (V0 (Proc.devRef .tc main_arg0)) :=
  (val5_keep V0 main_v59 (by decide)).trans (val4_main_v59 V0)
theorem val5_main_v86 (V0 : Valuation τ sig (Elt F)) : val5 V0 (no_index (Proc.devRef .tc main_v86)) = ReadP.val_main_v86 (F := F) (V0 (Proc.devRef .tc main_arg0)) (V0 (Proc.devRef .tc main_arg1)) :=
  (val5_keep V0 main_v86 (by decide)).trans (val4_main_v86 V0)
theorem val5_main_v87 (V0 : Valuation τ sig (Elt F)) : val5 V0 (no_index (Proc.devRef .tc main_v87)) = ReadP.val_main_v87 (F := F) (V0 (Proc.devRef .tc main_arg0)) :=
  (val5_keep V0 main_v87 (by decide)).trans (val4_main_v87 V0)
theorem val5_main_v94 (V0 : Valuation τ sig (Elt F)) : val5 V0 (no_index (Proc.devRef .tc main_v94)) = ReadP.val_main_v94 (F := F) (V0 (Proc.devRef .tc main_arg0)) :=
  (val5_keep V0 main_v94 (by decide)).trans (val4_main_v94 V0)
theorem val5_main_v98 (V0 : Valuation τ sig (Elt F)) : val5 V0 (no_index (Proc.devRef .tc main_v98)) = ReadP.val_main_v98 (F := F) (V0 (Proc.devRef .tc main_arg0)) :=
  (val5_keep V0 main_v98 (by decide)).trans (val4_main_v98 V0)
theorem val5_main_v125 (V0 : Valuation τ sig (Elt F)) : val5 V0 (no_index (Proc.devRef .tc main_v125)) = ReadP.val_main_v125 (F := F) (V0 (Proc.devRef .tc main_arg0)) (V0 (Proc.devRef .tc main_arg1)) :=
  (val5_keep V0 main_v125 (by decide)).trans (val4_main_v125 V0)
theorem val5_main_v126 (V0 : Valuation τ sig (Elt F)) : val5 V0 (no_index (Proc.devRef .tc main_v126)) = ReadP.val_main_v126 (F := F) (V0 (Proc.devRef .tc main_arg0)) :=
  (val5_keep V0 main_v126 (by decide)).trans (val4_main_v126 V0)
theorem val5_main_v133 (V0 : Valuation τ sig (Elt F)) : val5 V0 (no_index (Proc.devRef .tc main_v133)) = ReadP.val_main_v133 (F := F) (V0 (Proc.devRef .tc main_arg0)) :=
  (val5_keep V0 main_v133 (by decide)).trans (val4_main_v133 V0)
theorem val5_main_v160 (V0 : Valuation τ sig (Elt F)) : val5 V0 (no_index (Proc.devRef .tc main_v160)) = ReadP.val_main_v160 (F := F) (V0 (Proc.devRef .tc main_arg0)) (V0 (Proc.devRef .tc main_arg1)) :=
  (val5_keep V0 main_v160 (by decide)).trans (val4_main_v160 V0)
theorem val5_main_v161 (V0 : Valuation τ sig (Elt F)) : val5 V0 (no_index (Proc.devRef .tc main_v161)) = ReadP.val_main_v161 (F := F) (V0 (Proc.devRef .tc main_arg0)) :=
  (val5_keep V0 main_v161 (by decide)).trans (val4_main_v161 V0)
theorem val5_main_v168 (V0 : Valuation τ sig (Elt F)) : val5 V0 (no_index (Proc.devRef .tc main_v168)) = ReadP.val_main_v168 (F := F) (V0 (Proc.devRef .tc main_arg0)) :=
  (val5_keep V0 main_v168 (by decide)).trans (val4_main_v168 V0)
theorem val5_main_v172 (V0 : Valuation τ sig (Elt F)) : val5 V0 (no_index (Proc.devRef .tc main_v172)) = ReadP.val_main_v172 (F := F) (V0 (Proc.devRef .tc main_arg0)) :=
  (val5_keep V0 main_v172 (by decide)).trans (val4_main_v172 V0)
theorem val5_main_v176 (V0 : Valuation τ sig (Elt F)) : val5 V0 (no_index (Proc.devRef .tc main_v176)) = ReadP.val_main_v176 (F := F) (V0 (Proc.devRef .tc main_arg0)) :=
  (val5_keep V0 main_v176 (by decide)).trans (val4_main_v176 V0)
set_option maxRecDepth 8192 in
set_option maxHeartbeats 4000000 in
theorem val5_main_v203 (V0 : Valuation τ sig (Elt F)) : val5 V0 (no_index (Proc.devRef .tc main_v203)) = ReadP.val_main_v203 (F := F) (V0 (Proc.devRef .tc main_arg0)) (V0 (Proc.devRef .tc main_arg1)) := by
  unfold val5
  simp only [ops4]
  after_results_simp
  simp only [val4_main_v8, val4_main_v190, val4_main_v184, val4_main_v11] <;> rfl
set_option maxRecDepth 8192 in
set_option maxHeartbeats 4000000 in
theorem val5_main_v204 (V0 : Valuation τ sig (Elt F)) : val5 V0 (no_index (Proc.devRef .tc main_v204)) = ReadP.val_main_v204 (F := F) (V0 (Proc.devRef .tc main_arg0)) := by
  unfold val5
  simp only [ops4]
  after_results_simp
  simp only [val4_main_v172, val4_main_v168] <;> rfl
set_option maxRecDepth 8192 in
set_option maxHeartbeats 4000000 in
theorem val5_main_v209 (V0 : Valuation τ sig (Elt F)) : val5 V0 (no_index (Proc.devRef .tc main_v209)) = ReadP.val_main_v209 (F := F) (V0 (Proc.devRef .tc main_arg0)) (V0 (Proc.devRef .tc main_arg1)) := by
  unfold val5
  simp only [ops4]
  after_results_simp
  simp only [val4_main_v176, val4_main_v172, val4_main_v168, val4_main_v8, val4_main_v190, val4_main_v184, val4_main_v11, val4_main_v166] <;> rfl
set_option maxRecDepth 8192 in
set_option maxHeartbeats 4000000 in
theorem val5_main_v211 (V0 : Valuation τ sig (Elt F)) : val5 V0 (no_index (Proc.devRef .tc main_v211)) = ReadP.val_main_v211 (F := F) (V0 (Proc.devRef .tc main_arg0)) := by
  unfold val5
  simp only [ops4]
  after_results_simp
  simp only [val4_main_v10] <;> rfl
set_option maxRecDepth 8192 in
set_option maxHeartbeats 4000000 in
theorem val5_main_v238 (V0 : Valuation τ sig (Elt F)) : val5 V0 (no_index (Proc.devRef .tc main_v238)) = ReadP.val_main_v238 (F := F) (V0 (Proc.devRef .tc main_arg0)) (V0 (Proc.devRef .tc main_arg1)) := by
  unfold val5
  simp only [ops4]
  after_results_simp
  simp only [val4_main_v8, val4_main_v11] <;> rfl
set_option maxRecDepth 8192 in
set_option maxHeartbeats 4000000 in
theorem val5_main_v239 (V0 : Valuation τ sig (Elt F)) : val5 V0 (no_index (Proc.devRef .tc main_v239)) = ReadP.val_main_v239 (F := F) (V0 (Proc.devRef .tc main_arg0)) := by
  unfold val5
  simp only [ops4]
  after_results_simp
  simp only [val4_main_v172, val4_main_v168] <;> rfl

/-- The device's buffer contents after @main's first 6 windows. -/
def val6 (V0 : Valuation τ sig (Elt F)) : Valuation τ sig (Elt F) := after ops5 (val5 V0)
/-- A buffer that window main_part5 does not write keeps its contents through it. -/
theorem val6_keep (V0 : Valuation τ sig (Elt F)) (r : Ref sig .tc) (h : r ∉ ops5_W) :
    val6 V0 (Proc.devRef .tc r) = val5 V0 (Proc.devRef .tc r) :=
  after_of_writes_sub ops5 _ ops5_writes h
-- from here on the contents after this window are read through the facts below only
attribute [local irreducible] val6
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_v3 (V0 : Valuation τ sig (Elt F)) : val6 V0 (no_index (Proc.devRef .tc main_v3)) = ReadP.val_main_v3 (F := F) (V0 (Proc.devRef .tc main_arg0)) :=
  (val6_keep V0 main_v3 (by decide)).trans (val5_main_v3 V0)
theorem val6_main_v8 (V0 : Valuation τ sig (Elt F)) : val6 V0 (no_index (Proc.devRef .tc main_v8)) = ReadP.val_main_v8 (F := F) (V0 (Proc.devRef .tc main_arg0)) :=
  (val6_keep V0 main_v8 (by decide)).trans (val5_main_v8 V0)
theorem val6_main_v11 (V0 : Valuation τ sig (Elt F)) : val6 V0 (no_index (Proc.devRef .tc main_v11)) = ReadP.val_main_v11 (F := F) (V0 (Proc.devRef .tc main_arg1)) :=
  (val6_keep V0 main_v11 (by decide)).trans (val5_main_v11 V0)
theorem val6_main_v16 (V0 : Valuation τ sig (Elt F)) : val6 V0 (no_index (Proc.devRef .tc main_v16)) = ReadP.val_main_v16 (F := F) (V0 (Proc.devRef .tc main_arg0)) :=
  (val6_keep V0 main_v16 (by decide)).trans (val5_main_v16 V0)
theorem val6_main_v20 (V0 : Valuation τ sig (Elt F)) : val6 V0 (no_index (Proc.devRef .tc main_v20)) = ReadP.val_main_v20 (F := F) (V0 (Proc.devRef .tc main_arg0)) :=
  (val6_keep V0 main_v20 (by decide)).trans (val5_main_v20 V0)
theorem val6_main_v24 (V0 : Valuation τ sig (Elt F)) : val6 V0 (no_index (Proc.devRef .tc main_v24)) = ReadP.val_main_v24 (F := F) (V0 (Proc.devRef .tc main_arg0)) :=
  (val6_keep V0 main_v24 (by decide)).trans (val5_main_v24 V0)
theorem val6_main_v51 (V0 : Valuation τ sig (Elt F)) : val6 V0 (no_index (Proc.devRef .tc main_v51)) = ReadP.val_main_v51 (F := F) (V0 (Proc.devRef .tc main_arg0)) (V0 (Proc.devRef .tc main_arg1)) :=
  (val6_keep V0 main_v51 (by decide)).trans (val5_main_v51 V0)
theorem val6_main_v52 (V0 : Valuation τ sig (Elt F)) : val6 V0 (no_index (Proc.devRef .tc main_v52)) = ReadP.val_main_v52 (F := F) (V0 (Proc.devRef .tc main_arg0)) :=
  (val6_keep V0 main_v52 (by decide)).trans (val5_main_v52 V0)
theorem val6_main_v59 (V0 : Valuation τ sig (Elt F)) : val6 V0 (no_index (Proc.devRef .tc main_v59)) = ReadP.val_main_v59 (F := F) (V0 (Proc.devRef .tc main_arg0)) :=
  (val6_keep V0 main_v59 (by decide)).trans (val5_main_v59 V0)
theorem val6_main_v86 (V0 : Valuation τ sig (Elt F)) : val6 V0 (no_index (Proc.devRef .tc main_v86)) = ReadP.val_main_v86 (F := F) (V0 (Proc.devRef .tc main_arg0)) (V0 (Proc.devRef .tc main_arg1)) :=
  (val6_keep V0 main_v86 (by decide)).trans (val5_main_v86 V0)
theorem val6_main_v87 (V0 : Valuation τ sig (Elt F)) : val6 V0 (no_index (Proc.devRef .tc main_v87)) = ReadP.val_main_v87 (F := F) (V0 (Proc.devRef .tc main_arg0)) :=
  (val6_keep V0 main_v87 (by decide)).trans (val5_main_v87 V0)
theorem val6_main_v94 (V0 : Valuation τ sig (Elt F)) : val6 V0 (no_index (Proc.devRef .tc main_v94)) = ReadP.val_main_v94 (F := F) (V0 (Proc.devRef .tc main_arg0)) :=
  (val6_keep V0 main_v94 (by decide)).trans (val5_main_v94 V0)
theorem val6_main_v98 (V0 : Valuation τ sig (Elt F)) : val6 V0 (no_index (Proc.devRef .tc main_v98)) = ReadP.val_main_v98 (F := F) (V0 (Proc.devRef .tc main_arg0)) :=
  (val6_keep V0 main_v98 (by decide)).trans (val5_main_v98 V0)
theorem val6_main_v125 (V0 : Valuation τ sig (Elt F)) : val6 V0 (no_index (Proc.devRef .tc main_v125)) = ReadP.val_main_v125 (F := F) (V0 (Proc.devRef .tc main_arg0)) (V0 (Proc.devRef .tc main_arg1)) :=
  (val6_keep V0 main_v125 (by decide)).trans (val5_main_v125 V0)
theorem val6_main_v126 (V0 : Valuation τ sig (Elt F)) : val6 V0 (no_index (Proc.devRef .tc main_v126)) = ReadP.val_main_v126 (F := F) (V0 (Proc.devRef .tc main_arg0)) :=
  (val6_keep V0 main_v126 (by decide)).trans (val5_main_v126 V0)
theorem val6_main_v133 (V0 : Valuation τ sig (Elt F)) : val6 V0 (no_index (Proc.devRef .tc main_v133)) = ReadP.val_main_v133 (F := F) (V0 (Proc.devRef .tc main_arg0)) :=
  (val6_keep V0 main_v133 (by decide)).trans (val5_main_v133 V0)
theorem val6_main_v160 (V0 : Valuation τ sig (Elt F)) : val6 V0 (no_index (Proc.devRef .tc main_v160)) = ReadP.val_main_v160 (F := F) (V0 (Proc.devRef .tc main_arg0)) (V0 (Proc.devRef .tc main_arg1)) :=
  (val6_keep V0 main_v160 (by decide)).trans (val5_main_v160 V0)
theorem val6_main_v161 (V0 : Valuation τ sig (Elt F)) : val6 V0 (no_index (Proc.devRef .tc main_v161)) = ReadP.val_main_v161 (F := F) (V0 (Proc.devRef .tc main_arg0)) :=
  (val6_keep V0 main_v161 (by decide)).trans (val5_main_v161 V0)
theorem val6_main_v168 (V0 : Valuation τ sig (Elt F)) : val6 V0 (no_index (Proc.devRef .tc main_v168)) = ReadP.val_main_v168 (F := F) (V0 (Proc.devRef .tc main_arg0)) :=
  (val6_keep V0 main_v168 (by decide)).trans (val5_main_v168 V0)
theorem val6_main_v172 (V0 : Valuation τ sig (Elt F)) : val6 V0 (no_index (Proc.devRef .tc main_v172)) = ReadP.val_main_v172 (F := F) (V0 (Proc.devRef .tc main_arg0)) :=
  (val6_keep V0 main_v172 (by decide)).trans (val5_main_v172 V0)
theorem val6_main_v176 (V0 : Valuation τ sig (Elt F)) : val6 V0 (no_index (Proc.devRef .tc main_v176)) = ReadP.val_main_v176 (F := F) (V0 (Proc.devRef .tc main_arg0)) :=
  (val6_keep V0 main_v176 (by decide)).trans (val5_main_v176 V0)
theorem val6_main_v203 (V0 : Valuation τ sig (Elt F)) : val6 V0 (no_index (Proc.devRef .tc main_v203)) = ReadP.val_main_v203 (F := F) (V0 (Proc.devRef .tc main_arg0)) (V0 (Proc.devRef .tc main_arg1)) :=
  (val6_keep V0 main_v203 (by decide)).trans (val5_main_v203 V0)
theorem val6_main_v204 (V0 : Valuation τ sig (Elt F)) : val6 V0 (no_index (Proc.devRef .tc main_v204)) = ReadP.val_main_v204 (F := F) (V0 (Proc.devRef .tc main_arg0)) :=
  (val6_keep V0 main_v204 (by decide)).trans (val5_main_v204 V0)
theorem val6_main_v211 (V0 : Valuation τ sig (Elt F)) : val6 V0 (no_index (Proc.devRef .tc main_v211)) = ReadP.val_main_v211 (F := F) (V0 (Proc.devRef .tc main_arg0)) :=
  (val6_keep V0 main_v211 (by decide)).trans (val5_main_v211 V0)
theorem val6_main_v238 (V0 : Valuation τ sig (Elt F)) : val6 V0 (no_index (Proc.devRef .tc main_v238)) = ReadP.val_main_v238 (F := F) (V0 (Proc.devRef .tc main_arg0)) (V0 (Proc.devRef .tc main_arg1)) :=
  (val6_keep V0 main_v238 (by decide)).trans (val5_main_v238 V0)
theorem val6_main_v239 (V0 : Valuation τ sig (Elt F)) : val6 V0 (no_index (Proc.devRef .tc main_v239)) = ReadP.val_main_v239 (F := F) (V0 (Proc.devRef .tc main_arg0)) :=
  (val6_keep V0 main_v239 (by decide)).trans (val5_main_v239 V0)
set_option maxRecDepth 8192 in
set_option maxHeartbeats 4000000 in
theorem val6_main_v246 (V0 : Valuation τ sig (Elt F)) : val6 V0 (no_index (Proc.devRef .tc main_v246)) = ReadP.val_main_v246 (F := F) (V0 (Proc.devRef .tc main_arg0)) := by
  unfold val6
  simp only [ops5]
  after_results_simp
  simp only [val5_main_v10] <;> rfl
set_option maxRecDepth 8192 in
set_option maxHeartbeats 4000000 in
theorem val6_main_v250 (V0 : Valuation τ sig (Elt F)) : val6 V0 (no_index (Proc.devRef .tc main_v250)) = ReadP.val_main_v250 (F := F) (V0 (Proc.devRef .tc main_arg0)) := by
  unfold val6
  simp only [ops5]
  after_results_simp
  simp only [val5_main_v10] <;> rfl
set_option maxRecDepth 8192 in
set_option maxHeartbeats 4000000 in
theorem val6_main_v277 (V0 : Valuation τ sig (Elt F)) : val6 V0 (no_index (Proc.devRef .tc main_v277)) = ReadP.val_main_v277 (F := F) (V0 (Proc.devRef .tc main_arg0)) (V0 (Proc.devRef .tc main_arg1)) := by
  unfold val6
  simp only [ops5]
  after_results_simp
  simp only [val5_main_v8, val5_main_v11] <;> rfl
set_option maxRecDepth 8192 in
set_option maxHeartbeats 4000000 in
theorem val6_main_v278 (V0 : Valuation τ sig (Elt F)) : val6 V0 (no_index (Proc.devRef .tc main_v278)) = ReadP.val_main_v278 (F := F) (V0 (Proc.devRef .tc main_arg0)) := by
  unfold val6
  simp only [ops5]
  after_results_simp
  simp only [val5_main_v10, val5_main_v168] <;> rfl
set_option maxRecDepth 8192 in
set_option maxHeartbeats 4000000 in
theorem val6_main_v283 (V0 : Valuation τ sig (Elt F)) : val6 V0 (no_index (Proc.devRef .tc main_v283)) = ReadP.val_main_v283 (F := F) (V0 (Proc.devRef .tc main_arg0)) (V0 (Proc.devRef .tc main_arg1)) := by
  unfold val6
  simp only [ops5]
  after_results_simp
  simp only [val5_main_v10, val5_main_v168, val5_main_v8, val5_main_v11, val5_main_v211, val5_main_v239, val5_main_v238, val5_main_v209] <;> rfl
set_option maxRecDepth 8192 in
set_option maxHeartbeats 4000000 in
theorem val6_main_v285 (V0 : Valuation τ sig (Elt F)) : val6 V0 (no_index (Proc.devRef .tc main_v285)) = ReadP.val_main_v285 (F := F) (V0 (Proc.devRef .tc main_arg0)) := by
  unfold val6
  simp only [ops5]
  after_results_simp
  simp only [val5_main_v10] <;> rfl
set_option maxRecDepth 8192 in
set_option maxHeartbeats 4000000 in
theorem val6_main_v289 (V0 : Valuation τ sig (Elt F)) : val6 V0 (no_index (Proc.devRef .tc main_v289)) = ReadP.val_main_v289 (F := F) (V0 (Proc.devRef .tc main_arg0)) := by
  unfold val6
  simp only [ops5]
  after_results_simp
  simp only [val5_main_v8] <;> rfl

/-- The device's buffer contents after @main's first 7 windows. -/
def val7 (V0 : Valuation τ sig (Elt F)) : Valuation τ sig (Elt F) := after ops6 (val6 V0)
/-- A buffer that window main_part6 does not write keeps its contents through it. -/
theorem val7_keep (V0 : Valuation τ sig (Elt F)) (r : Ref sig .tc) (h : r ∉ ops6_W) :
    val7 V0 (Proc.devRef .tc r) = val6 V0 (Proc.devRef .tc r) :=
  after_of_writes_sub ops6 _ ops6_writes h
-- from here on the contents after this window are read through the facts below only
attribute [local irreducible] val7
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_v16 (V0 : Valuation τ sig (Elt F)) : val7 V0 (no_index (Proc.devRef .tc main_v16)) = ReadP.val_main_v16 (F := F) (V0 (Proc.devRef .tc main_arg0)) :=
  (val7_keep V0 main_v16 (by decide)).trans (val6_main_v16 V0)
theorem val7_main_v20 (V0 : Valuation τ sig (Elt F)) : val7 V0 (no_index (Proc.devRef .tc main_v20)) = ReadP.val_main_v20 (F := F) (V0 (Proc.devRef .tc main_arg0)) :=
  (val7_keep V0 main_v20 (by decide)).trans (val6_main_v20 V0)
theorem val7_main_v24 (V0 : Valuation τ sig (Elt F)) : val7 V0 (no_index (Proc.devRef .tc main_v24)) = ReadP.val_main_v24 (F := F) (V0 (Proc.devRef .tc main_arg0)) :=
  (val7_keep V0 main_v24 (by decide)).trans (val6_main_v24 V0)
theorem val7_main_v51 (V0 : Valuation τ sig (Elt F)) : val7 V0 (no_index (Proc.devRef .tc main_v51)) = ReadP.val_main_v51 (F := F) (V0 (Proc.devRef .tc main_arg0)) (V0 (Proc.devRef .tc main_arg1)) :=
  (val7_keep V0 main_v51 (by decide)).trans (val6_main_v51 V0)
theorem val7_main_v52 (V0 : Valuation τ sig (Elt F)) : val7 V0 (no_index (Proc.devRef .tc main_v52)) = ReadP.val_main_v52 (F := F) (V0 (Proc.devRef .tc main_arg0)) :=
  (val7_keep V0 main_v52 (by decide)).trans (val6_main_v52 V0)
theorem val7_main_v59 (V0 : Valuation τ sig (Elt F)) : val7 V0 (no_index (Proc.devRef .tc main_v59)) = ReadP.val_main_v59 (F := F) (V0 (Proc.devRef .tc main_arg0)) :=
  (val7_keep V0 main_v59 (by decide)).trans (val6_main_v59 V0)
theorem val7_main_v86 (V0 : Valuation τ sig (Elt F)) : val7 V0 (no_index (Proc.devRef .tc main_v86)) = ReadP.val_main_v86 (F := F) (V0 (Proc.devRef .tc main_arg0)) (V0 (Proc.devRef .tc main_arg1)) :=
  (val7_keep V0 main_v86 (by decide)).trans (val6_main_v86 V0)
theorem val7_main_v87 (V0 : Valuation τ sig (Elt F)) : val7 V0 (no_index (Proc.devRef .tc main_v87)) = ReadP.val_main_v87 (F := F) (V0 (Proc.devRef .tc main_arg0)) :=
  (val7_keep V0 main_v87 (by decide)).trans (val6_main_v87 V0)
theorem val7_main_v94 (V0 : Valuation τ sig (Elt F)) : val7 V0 (no_index (Proc.devRef .tc main_v94)) = ReadP.val_main_v94 (F := F) (V0 (Proc.devRef .tc main_arg0)) :=
  (val7_keep V0 main_v94 (by decide)).trans (val6_main_v94 V0)
theorem val7_main_v98 (V0 : Valuation τ sig (Elt F)) : val7 V0 (no_index (Proc.devRef .tc main_v98)) = ReadP.val_main_v98 (F := F) (V0 (Proc.devRef .tc main_arg0)) :=
  (val7_keep V0 main_v98 (by decide)).trans (val6_main_v98 V0)
theorem val7_main_v125 (V0 : Valuation τ sig (Elt F)) : val7 V0 (no_index (Proc.devRef .tc main_v125)) = ReadP.val_main_v125 (F := F) (V0 (Proc.devRef .tc main_arg0)) (V0 (Proc.devRef .tc main_arg1)) :=
  (val7_keep V0 main_v125 (by decide)).trans (val6_main_v125 V0)
theorem val7_main_v126 (V0 : Valuation τ sig (Elt F)) : val7 V0 (no_index (Proc.devRef .tc main_v126)) = ReadP.val_main_v126 (F := F) (V0 (Proc.devRef .tc main_arg0)) :=
  (val7_keep V0 main_v126 (by decide)).trans (val6_main_v126 V0)
theorem val7_main_v133 (V0 : Valuation τ sig (Elt F)) : val7 V0 (no_index (Proc.devRef .tc main_v133)) = ReadP.val_main_v133 (F := F) (V0 (Proc.devRef .tc main_arg0)) :=
  (val7_keep V0 main_v133 (by decide)).trans (val6_main_v133 V0)
theorem val7_main_v160 (V0 : Valuation τ sig (Elt F)) : val7 V0 (no_index (Proc.devRef .tc main_v160)) = ReadP.val_main_v160 (F := F) (V0 (Proc.devRef .tc main_arg0)) (V0 (Proc.devRef .tc main_arg1)) :=
  (val7_keep V0 main_v160 (by decide)).trans (val6_main_v160 V0)
theorem val7_main_v161 (V0 : Valuation τ sig (Elt F)) : val7 V0 (no_index (Proc.devRef .tc main_v161)) = ReadP.val_main_v161 (F := F) (V0 (Proc.devRef .tc main_arg0)) :=
  (val7_keep V0 main_v161 (by decide)).trans (val6_main_v161 V0)
theorem val7_main_v168 (V0 : Valuation τ sig (Elt F)) : val7 V0 (no_index (Proc.devRef .tc main_v168)) = ReadP.val_main_v168 (F := F) (V0 (Proc.devRef .tc main_arg0)) :=
  (val7_keep V0 main_v168 (by decide)).trans (val6_main_v168 V0)
theorem val7_main_v172 (V0 : Valuation τ sig (Elt F)) : val7 V0 (no_index (Proc.devRef .tc main_v172)) = ReadP.val_main_v172 (F := F) (V0 (Proc.devRef .tc main_arg0)) :=
  (val7_keep V0 main_v172 (by decide)).trans (val6_main_v172 V0)
theorem val7_main_v176 (V0 : Valuation τ sig (Elt F)) : val7 V0 (no_index (Proc.devRef .tc main_v176)) = ReadP.val_main_v176 (F := F) (V0 (Proc.devRef .tc main_arg0)) :=
  (val7_keep V0 main_v176 (by decide)).trans (val6_main_v176 V0)
theorem val7_main_v203 (V0 : Valuation τ sig (Elt F)) : val7 V0 (no_index (Proc.devRef .tc main_v203)) = ReadP.val_main_v203 (F := F) (V0 (Proc.devRef .tc main_arg0)) (V0 (Proc.devRef .tc main_arg1)) :=
  (val7_keep V0 main_v203 (by decide)).trans (val6_main_v203 V0)
theorem val7_main_v204 (V0 : Valuation τ sig (Elt F)) : val7 V0 (no_index (Proc.devRef .tc main_v204)) = ReadP.val_main_v204 (F := F) (V0 (Proc.devRef .tc main_arg0)) :=
  (val7_keep V0 main_v204 (by decide)).trans (val6_main_v204 V0)
theorem val7_main_v211 (V0 : Valuation τ sig (Elt F)) : val7 V0 (no_index (Proc.devRef .tc main_v211)) = ReadP.val_main_v211 (F := F) (V0 (Proc.devRef .tc main_arg0)) :=
  (val7_keep V0 main_v211 (by decide)).trans (val6_main_v211 V0)
theorem val7_main_v238 (V0 : Valuation τ sig (Elt F)) : val7 V0 (no_index (Proc.devRef .tc main_v238)) = ReadP.val_main_v238 (F := F) (V0 (Proc.devRef .tc main_arg0)) (V0 (Proc.devRef .tc main_arg1)) :=
  (val7_keep V0 main_v238 (by decide)).trans (val6_main_v238 V0)
theorem val7_main_v239 (V0 : Valuation τ sig (Elt F)) : val7 V0 (no_index (Proc.devRef .tc main_v239)) = ReadP.val_main_v239 (F := F) (V0 (Proc.devRef .tc main_arg0)) :=
  (val7_keep V0 main_v239 (by decide)).trans (val6_main_v239 V0)
theorem val7_main_v246 (V0 : Valuation τ sig (Elt F)) : val7 V0 (no_index (Proc.devRef .tc main_v246)) = ReadP.val_main_v246 (F := F) (V0 (Proc.devRef .tc main_arg0)) :=
  (val7_keep V0 main_v246 (by decide)).trans (val6_main_v246 V0)
theorem val7_main_v250 (V0 : Valuation τ sig (Elt F)) : val7 V0 (no_index (Proc.devRef .tc main_v250)) = ReadP.val_main_v250 (F := F) (V0 (Proc.devRef .tc main_arg0)) :=
  (val7_keep V0 main_v250 (by decide)).trans (val6_main_v250 V0)
theorem val7_main_v277 (V0 : Valuation τ sig (Elt F)) : val7 V0 (no_index (Proc.devRef .tc main_v277)) = ReadP.val_main_v277 (F := F) (V0 (Proc.devRef .tc main_arg0)) (V0 (Proc.devRef .tc main_arg1)) :=
  (val7_keep V0 main_v277 (by decide)).trans (val6_main_v277 V0)
theorem val7_main_v278 (V0 : Valuation τ sig (Elt F)) : val7 V0 (no_index (Proc.devRef .tc main_v278)) = ReadP.val_main_v278 (F := F) (V0 (Proc.devRef .tc main_arg0)) :=
  (val7_keep V0 main_v278 (by decide)).trans (val6_main_v278 V0)
theorem val7_main_v285 (V0 : Valuation τ sig (Elt F)) : val7 V0 (no_index (Proc.devRef .tc main_v285)) = ReadP.val_main_v285 (F := F) (V0 (Proc.devRef .tc main_arg0)) :=
  (val7_keep V0 main_v285 (by decide)).trans (val6_main_v285 V0)
set_option maxRecDepth 8192 in
set_option maxHeartbeats 4000000 in
theorem val7_main_v312 (V0 : Valuation τ sig (Elt F)) : val7 V0 (no_index (Proc.devRef .tc main_v312)) = ReadP.val_main_v312 (F := F) (V0 (Proc.devRef .tc main_arg0)) (V0 (Proc.devRef .tc main_arg1)) := by
  unfold val7
  simp only [ops6]
  after_results_simp
  simp only [val6_main_v8, val6_main_v289, val6_main_v11] <;> rfl
set_option maxRecDepth 8192 in
set_option maxHeartbeats 4000000 in
theorem val7_main_v313 (V0 : Valuation τ sig (Elt F)) : val7 V0 (no_index (Proc.devRef .tc main_v313)) = ReadP.val_main_v313 (F := F) (V0 (Proc.devRef .tc main_arg0)) := by
  unfold val7
  simp only [ops6]
  after_results_simp
  simp only [val6_main_v246, val6_main_v168] <;> rfl
set_option maxRecDepth 8192 in
set_option maxHeartbeats 4000000 in
theorem val7_main_v320 (V0 : Valuation τ sig (Elt F)) : val7 V0 (no_index (Proc.devRef .tc main_v320)) = ReadP.val_main_v320 (F := F) (V0 (Proc.devRef .tc main_arg2)) := by
  unfold val7
  simp only [ops6]
  after_results_simp
  simp only [val6_main_arg2] <;> rfl
set_option maxRecDepth 8192 in
set_option maxHeartbeats 4000000 in
theorem val7_main_v328 (V0 : Valuation τ sig (Elt F)) : val7 V0 (no_index (Proc.devRef .tc main_v328)) = ReadP.val_main_v328 (F := F) (V0 (Proc.devRef .tc main_arg0)) (V0 (Proc.devRef .tc main_arg1)) (V0 (Proc.devRef .tc main_arg2)) (V0 (Proc.devRef .tc main_arg3)) := by
  unfold val7
  simp only [ops6]
  after_results_simp
  simp only [val6_main_arg3, val6_main_arg2, val6_main_v3, val6_main_v285, val6_main_v246, val6_main_v168, val6_main_v8, val6_main_v289, val6_main_v11, val6_main_v283] <;> rfl
set_option maxRecDepth 8192 in
set_option maxHeartbeats 4000000 in
theorem val7_main_v329 (V0 : Valuation τ sig (Elt F)) : val7 V0 (no_index (Proc.devRef .tc main_v329)) = ReadP.val_main_v329 (F := F) (V0 (Proc.devRef .tc main_arg4)) := by
  unfold val7
  simp only [ops6]
  after_results_simp
  simp only [val6_main_arg4] <;> rfl
set_option maxRecDepth 8192 in
set_option maxHeartbeats 4000000 in
theorem val7_main_v337 (V0 : Valuation τ sig (Elt F)) : val7 V0 (no_index (Proc.devRef .tc main_v337)) = ReadP.val_main_v337 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val7
  simp only [ops6]
  after_results_simp
  simp only [val6_main_arg5, val6_main_arg4, val6_main_arg3, val6_main_arg2, val6_main_v3, val6_main_v285, val6_main_v246, val6_main_v168, val6_main_v8, val6_main_v289, val6_main_v11, val6_main_v283] <;> rfl
set_option maxRecDepth 8192 in
set_option maxHeartbeats 4000000 in
theorem val7_main_v338 (V0 : Valuation τ sig (Elt F)) : val7 V0 (no_index (Proc.devRef .tc main_v338)) = ReadP.val_main_v338 (F := F) (V0 (Proc.devRef .tc main_arg6)) := by
  unfold val7
  simp only [ops6]
  after_results_simp
  simp only [val6_main_arg6] <;> rfl
set_option maxRecDepth 8192 in
set_option maxHeartbeats 4000000 in
theorem val7_main_v339 (V0 : Valuation τ sig (Elt F)) : val7 V0 (no_index (Proc.devRef .tc main_v339)) = ReadP.val_main_v339 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val7
  simp only [ops6]
  after_results_simp
  simp only [val6_main_arg6, val6_main_arg5, val6_main_arg4, val6_main_arg3, val6_main_arg2, val6_main_v3, val6_main_v285, val6_main_v246, val6_main_v168, val6_main_v8, val6_main_v289, val6_main_v11, val6_main_v283] <;> rfl
set_option maxRecDepth 8192 in
set_option maxHeartbeats 4000000 in
theorem val7_main_v340 (V0 : Valuation τ sig (Elt F)) : val7 V0 (no_index (Proc.devRef .tc main_v340)) = ReadP.val_main_v340 (F := F) (V0 (Proc.devRef .tc main_arg7)) := by
  unfold val7
  simp only [ops6]
  after_results_simp
  simp only [val6_main_arg7] <;> rfl

/-- The device's buffer contents after @main's first 8 windows. -/
def val8 (V0 : Valuation τ sig (Elt F)) : Valuation τ sig (Elt F) := after ops7 (val7 V0)
/-- A buffer that window main_part7 does not write keeps its contents through it. -/
theorem val8_keep (V0 : Valuation τ sig (Elt F)) (r : Ref sig .tc) (h : r ∉ ops7_W) :
    val8 V0 (Proc.devRef .tc r) = val7 V0 (Proc.devRef .tc r) :=
  after_of_writes_sub ops7 _ ops7_writes h
-- from here on the contents after this window are read through the facts below only
attribute [local irreducible] val8
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_v16 (V0 : Valuation τ sig (Elt F)) : val8 V0 (no_index (Proc.devRef .tc main_v16)) = ReadP.val_main_v16 (F := F) (V0 (Proc.devRef .tc main_arg0)) :=
  (val8_keep V0 main_v16 (by decide)).trans (val7_main_v16 V0)
theorem val8_main_v20 (V0 : Valuation τ sig (Elt F)) : val8 V0 (no_index (Proc.devRef .tc main_v20)) = ReadP.val_main_v20 (F := F) (V0 (Proc.devRef .tc main_arg0)) :=
  (val8_keep V0 main_v20 (by decide)).trans (val7_main_v20 V0)
theorem val8_main_v24 (V0 : Valuation τ sig (Elt F)) : val8 V0 (no_index (Proc.devRef .tc main_v24)) = ReadP.val_main_v24 (F := F) (V0 (Proc.devRef .tc main_arg0)) :=
  (val8_keep V0 main_v24 (by decide)).trans (val7_main_v24 V0)
theorem val8_main_v51 (V0 : Valuation τ sig (Elt F)) : val8 V0 (no_index (Proc.devRef .tc main_v51)) = ReadP.val_main_v51 (F := F) (V0 (Proc.devRef .tc main_arg0)) (V0 (Proc.devRef .tc main_arg1)) :=
  (val8_keep V0 main_v51 (by decide)).trans (val7_main_v51 V0)
theorem val8_main_v52 (V0 : Valuation τ sig (Elt F)) : val8 V0 (no_index (Proc.devRef .tc main_v52)) = ReadP.val_main_v52 (F := F) (V0 (Proc.devRef .tc main_arg0)) :=
  (val8_keep V0 main_v52 (by decide)).trans (val7_main_v52 V0)
theorem val8_main_v59 (V0 : Valuation τ sig (Elt F)) : val8 V0 (no_index (Proc.devRef .tc main_v59)) = ReadP.val_main_v59 (F := F) (V0 (Proc.devRef .tc main_arg0)) :=
  (val8_keep V0 main_v59 (by decide)).trans (val7_main_v59 V0)
theorem val8_main_v86 (V0 : Valuation τ sig (Elt F)) : val8 V0 (no_index (Proc.devRef .tc main_v86)) = ReadP.val_main_v86 (F := F) (V0 (Proc.devRef .tc main_arg0)) (V0 (Proc.devRef .tc main_arg1)) :=
  (val8_keep V0 main_v86 (by decide)).trans (val7_main_v86 V0)
theorem val8_main_v87 (V0 : Valuation τ sig (Elt F)) : val8 V0 (no_index (Proc.devRef .tc main_v87)) = ReadP.val_main_v87 (F := F) (V0 (Proc.devRef .tc main_arg0)) :=
  (val8_keep V0 main_v87 (by decide)).trans (val7_main_v87 V0)
theorem val8_main_v94 (V0 : Valuation τ sig (Elt F)) : val8 V0 (no_index (Proc.devRef .tc main_v94)) = ReadP.val_main_v94 (F := F) (V0 (Proc.devRef .tc main_arg0)) :=
  (val8_keep V0 main_v94 (by decide)).trans (val7_main_v94 V0)
theorem val8_main_v98 (V0 : Valuation τ sig (Elt F)) : val8 V0 (no_index (Proc.devRef .tc main_v98)) = ReadP.val_main_v98 (F := F) (V0 (Proc.devRef .tc main_arg0)) :=
  (val8_keep V0 main_v98 (by decide)).trans (val7_main_v98 V0)
theorem val8_main_v125 (V0 : Valuation τ sig (Elt F)) : val8 V0 (no_index (Proc.devRef .tc main_v125)) = ReadP.val_main_v125 (F := F) (V0 (Proc.devRef .tc main_arg0)) (V0 (Proc.devRef .tc main_arg1)) :=
  (val8_keep V0 main_v125 (by decide)).trans (val7_main_v125 V0)
theorem val8_main_v126 (V0 : Valuation τ sig (Elt F)) : val8 V0 (no_index (Proc.devRef .tc main_v126)) = ReadP.val_main_v126 (F := F) (V0 (Proc.devRef .tc main_arg0)) :=
  (val8_keep V0 main_v126 (by decide)).trans (val7_main_v126 V0)
theorem val8_main_v133 (V0 : Valuation τ sig (Elt F)) : val8 V0 (no_index (Proc.devRef .tc main_v133)) = ReadP.val_main_v133 (F := F) (V0 (Proc.devRef .tc main_arg0)) :=
  (val8_keep V0 main_v133 (by decide)).trans (val7_main_v133 V0)
theorem val8_main_v160 (V0 : Valuation τ sig (Elt F)) : val8 V0 (no_index (Proc.devRef .tc main_v160)) = ReadP.val_main_v160 (F := F) (V0 (Proc.devRef .tc main_arg0)) (V0 (Proc.devRef .tc main_arg1)) :=
  (val8_keep V0 main_v160 (by decide)).trans (val7_main_v160 V0)
theorem val8_main_v161 (V0 : Valuation τ sig (Elt F)) : val8 V0 (no_index (Proc.devRef .tc main_v161)) = ReadP.val_main_v161 (F := F) (V0 (Proc.devRef .tc main_arg0)) :=
  (val8_keep V0 main_v161 (by decide)).trans (val7_main_v161 V0)
theorem val8_main_v168 (V0 : Valuation τ sig (Elt F)) : val8 V0 (no_index (Proc.devRef .tc main_v168)) = ReadP.val_main_v168 (F := F) (V0 (Proc.devRef .tc main_arg0)) :=
  (val8_keep V0 main_v168 (by decide)).trans (val7_main_v168 V0)
theorem val8_main_v172 (V0 : Valuation τ sig (Elt F)) : val8 V0 (no_index (Proc.devRef .tc main_v172)) = ReadP.val_main_v172 (F := F) (V0 (Proc.devRef .tc main_arg0)) :=
  (val8_keep V0 main_v172 (by decide)).trans (val7_main_v172 V0)
theorem val8_main_v176 (V0 : Valuation τ sig (Elt F)) : val8 V0 (no_index (Proc.devRef .tc main_v176)) = ReadP.val_main_v176 (F := F) (V0 (Proc.devRef .tc main_arg0)) :=
  (val8_keep V0 main_v176 (by decide)).trans (val7_main_v176 V0)
theorem val8_main_v203 (V0 : Valuation τ sig (Elt F)) : val8 V0 (no_index (Proc.devRef .tc main_v203)) = ReadP.val_main_v203 (F := F) (V0 (Proc.devRef .tc main_arg0)) (V0 (Proc.devRef .tc main_arg1)) :=
  (val8_keep V0 main_v203 (by decide)).trans (val7_main_v203 V0)
theorem val8_main_v204 (V0 : Valuation τ sig (Elt F)) : val8 V0 (no_index (Proc.devRef .tc main_v204)) = ReadP.val_main_v204 (F := F) (V0 (Proc.devRef .tc main_arg0)) :=
  (val8_keep V0 main_v204 (by decide)).trans (val7_main_v204 V0)
set_option maxRecDepth 8192 in
set_option maxHeartbeats 4000000 in
theorem val8_main_v342 (V0 : Valuation τ sig (Elt F)) : val8 V0 (no_index (Proc.devRef .tc main_v342)) = ReadP.val_main_v342 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val8
  simp only [ops7]
  after_results_simp
  simp only [val7_main_v340, val7_main_v339] <;> rfl
set_option maxRecDepth 8192 in
set_option maxHeartbeats 4000000 in
theorem val8_main_v353 (V0 : Valuation τ sig (Elt F)) : val8 V0 (no_index (Proc.devRef .tc main_v353)) = ReadP.val_main_v353 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val8
  simp only [ops7]
  after_results_simp
  simp only [val7_main_v320, val7_main_v328, val7_main_v329, val7_main_v337, val7_main_v338] <;> rfl
set_option maxRecDepth 8192 in
set_option maxHeartbeats 4000000 in
theorem val8_main_v354 (V0 : Valuation τ sig (Elt F)) : val8 V0 (no_index (Proc.devRef .tc main_v354)) = ReadP.val_main_v354 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val8
  simp only [ops7]
  after_results_simp
  simp only [val7_main_v320, val7_main_v328, val7_main_v329, val7_main_v337, val7_main_v338] <;> rfl
set_option maxRecDepth 8192 in
set_option maxHeartbeats 4000000 in
theorem val8_main_v374 (V0 : Valuation τ sig (Elt F)) : val8 V0 (no_index (Proc.devRef .tc main_v374)) = ReadP.val_main_v374 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val8
  simp only [ops7]
  after_results_simp
  simp only [val7_main_v246, val7_main_v250, val7_main_v320, val7_main_v328, val7_main_v329, val7_main_v337, val7_main_v338, val7_main_v277, val7_main_v285, val7_main_v312] <;> rfl
set_option maxRecDepth 8192 in
set_option maxHeartbeats 4000000 in
theorem val8_main_v381 (V0 : Valuation τ sig (Elt F)) : val8 V0 (no_index (Proc.devRef .tc main_v381)) = ReadP.val_main_v381 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val8
  simp only [ops7]
  after_results_simp
  simp only [val7_main_v250, val7_main_v320, val7_main_v328, val7_main_v329, val7_main_v337, val7_main_v338, val7_main_v277, val7_main_v168, val7_main_v285, val7_main_v312, val7_main_v278, val7_main_v313] <;> rfl
set_option maxRecDepth 8192 in
set_option maxHeartbeats 4000000 in
theorem val8_main_v386 (V0 : Valuation τ sig (Elt F)) : val8 V0 (no_index (Proc.devRef .tc main_v386)) = ReadP.val_main_v386 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val8
  simp only [ops7]
  after_results_simp
  simp only [val7_main_v320, val7_main_v328, val7_main_v329, val7_main_v337, val7_main_v338, val7_main_v238, val7_main_v239] <;> rfl
set_option maxRecDepth 8192 in
set_option maxHeartbeats 4000000 in
theorem val8_main_v387 (V0 : Valuation τ sig (Elt F)) : val8 V0 (no_index (Proc.devRef .tc main_v387)) = ReadP.val_main_v387 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val8
  simp only [ops7]
  after_results_simp
  simp only [val7_main_v211, val7_main_v320, val7_main_v328, val7_main_v329, val7_main_v337, val7_main_v338, val7_main_v238] <;> rfl
set_option maxRecDepth 8192 in
set_option maxHeartbeats 4000000 in
theorem val8_main_v388 (V0 : Valuation τ sig (Elt F)) : val8 V0 (no_index (Proc.devRef .tc main_v388)) = ReadP.val_main_v388 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val8
  simp only [ops7]
  after_results_simp
  simp only [val7_main_v211, val7_main_v320, val7_main_v328, val7_main_v329, val7_main_v337, val7_main_v338, val7_main_v238, val7_main_v168] <;> rfl

/-- The device's buffer contents after @main's first 9 windows. -/
def val9 (V0 : Valuation τ sig (Elt F)) : Valuation τ sig (Elt F) := after ops8 (val8 V0)
/-- A buffer that window main_part8 does not write keeps its contents through it. -/
theorem val9_keep (V0 : Valuation τ sig (Elt F)) (r : Ref sig .tc) (h : r ∉ ops8_W) :
    val9 V0 (Proc.devRef .tc r) = val8 V0 (Proc.devRef .tc r) :=
  after_of_writes_sub ops8 _ ops8_writes h
-- from here on the contents after this window are read through the facts below only
attribute [local irreducible] val9
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_v16 (V0 : Valuation τ sig (Elt F)) : val9 V0 (no_index (Proc.devRef .tc main_v16)) = ReadP.val_main_v16 (F := F) (V0 (Proc.devRef .tc main_arg0)) :=
  (val9_keep V0 main_v16 (by decide)).trans (val8_main_v16 V0)
theorem val9_main_v20 (V0 : Valuation τ sig (Elt F)) : val9 V0 (no_index (Proc.devRef .tc main_v20)) = ReadP.val_main_v20 (F := F) (V0 (Proc.devRef .tc main_arg0)) :=
  (val9_keep V0 main_v20 (by decide)).trans (val8_main_v20 V0)
theorem val9_main_v24 (V0 : Valuation τ sig (Elt F)) : val9 V0 (no_index (Proc.devRef .tc main_v24)) = ReadP.val_main_v24 (F := F) (V0 (Proc.devRef .tc main_arg0)) :=
  (val9_keep V0 main_v24 (by decide)).trans (val8_main_v24 V0)
theorem val9_main_v51 (V0 : Valuation τ sig (Elt F)) : val9 V0 (no_index (Proc.devRef .tc main_v51)) = ReadP.val_main_v51 (F := F) (V0 (Proc.devRef .tc main_arg0)) (V0 (Proc.devRef .tc main_arg1)) :=
  (val9_keep V0 main_v51 (by decide)).trans (val8_main_v51 V0)
theorem val9_main_v52 (V0 : Valuation τ sig (Elt F)) : val9 V0 (no_index (Proc.devRef .tc main_v52)) = ReadP.val_main_v52 (F := F) (V0 (Proc.devRef .tc main_arg0)) :=
  (val9_keep V0 main_v52 (by decide)).trans (val8_main_v52 V0)
theorem val9_main_v59 (V0 : Valuation τ sig (Elt F)) : val9 V0 (no_index (Proc.devRef .tc main_v59)) = ReadP.val_main_v59 (F := F) (V0 (Proc.devRef .tc main_arg0)) :=
  (val9_keep V0 main_v59 (by decide)).trans (val8_main_v59 V0)
theorem val9_main_v86 (V0 : Valuation τ sig (Elt F)) : val9 V0 (no_index (Proc.devRef .tc main_v86)) = ReadP.val_main_v86 (F := F) (V0 (Proc.devRef .tc main_arg0)) (V0 (Proc.devRef .tc main_arg1)) :=
  (val9_keep V0 main_v86 (by decide)).trans (val8_main_v86 V0)
theorem val9_main_v87 (V0 : Valuation τ sig (Elt F)) : val9 V0 (no_index (Proc.devRef .tc main_v87)) = ReadP.val_main_v87 (F := F) (V0 (Proc.devRef .tc main_arg0)) :=
  (val9_keep V0 main_v87 (by decide)).trans (val8_main_v87 V0)
theorem val9_main_v342 (V0 : Valuation τ sig (Elt F)) : val9 V0 (no_index (Proc.devRef .tc main_v342)) = ReadP.val_main_v342 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val9_keep V0 main_v342 (by decide)).trans (val8_main_v342 V0)
theorem val9_main_v353 (V0 : Valuation τ sig (Elt F)) : val9 V0 (no_index (Proc.devRef .tc main_v353)) = ReadP.val_main_v353 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val9_keep V0 main_v353 (by decide)).trans (val8_main_v353 V0)
theorem val9_main_v354 (V0 : Valuation τ sig (Elt F)) : val9 V0 (no_index (Proc.devRef .tc main_v354)) = ReadP.val_main_v354 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val9_keep V0 main_v354 (by decide)).trans (val8_main_v354 V0)
set_option maxRecDepth 8192 in
set_option maxHeartbeats 4000000 in
theorem val9_main_v425 (V0 : Valuation τ sig (Elt F)) : val9 V0 (no_index (Proc.devRef .tc main_v425)) = ReadP.val_main_v425 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val9
  simp only [ops8]
  after_results_simp
  simp only [val8_main_v353, val8_main_v160, val8_main_v161, val8_main_v172, val8_main_v176, val8_main_v203, val8_main_v387, val8_main_v374, val8_main_v168, val8_main_v388, val8_main_v204, val8_main_v386, val8_main_v381] <;> rfl
set_option maxRecDepth 8192 in
set_option maxHeartbeats 4000000 in
theorem val9_main_v433 (V0 : Valuation τ sig (Elt F)) : val9 V0 (no_index (Proc.devRef .tc main_v433)) = ReadP.val_main_v433 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val9
  simp only [ops8]
  after_results_simp
  simp only [val8_main_v98, val8_main_v353, val8_main_v125, val8_main_v16, val8_main_v133, val8_main_v160] <;> rfl
set_option maxRecDepth 8192 in
set_option maxHeartbeats 4000000 in
theorem val9_main_v435 (V0 : Valuation τ sig (Elt F)) : val9 V0 (no_index (Proc.devRef .tc main_v435)) = ReadP.val_main_v435 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val9
  simp only [ops8]
  after_results_simp
  simp only [val8_main_v94, val8_main_v98, val8_main_v353, val8_main_v125, val8_main_v133, val8_main_v160] <;> rfl
set_option maxRecDepth 8192 in
set_option maxHeartbeats 4000000 in
theorem val9_main_v437 (V0 : Valuation τ sig (Elt F)) : val9 V0 (no_index (Proc.devRef .tc main_v437)) = ReadP.val_main_v437 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val9
  simp only [ops8]
  after_results_simp
  simp only [val8_main_v353, val8_main_v125, val8_main_v126] <;> rfl

/-- The device's buffer contents after @main's first 10 windows. -/
def val10 (V0 : Valuation τ sig (Elt F)) : Valuation τ sig (Elt F) := after ops9 (val9 V0)
/-- A buffer that window main_part9 does not write keeps its contents through it. -/
theorem val10_keep (V0 : Valuation τ sig (Elt F)) (r : Ref sig .tc) (h : r ∉ ops9_W) :
    val10 V0 (Proc.devRef .tc r) = val9 V0 (Proc.devRef .tc r) :=
  after_of_writes_sub ops9 _ ops9_writes h
-- from here on the contents after this window are read through the facts below only
attribute [local irreducible] val10
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_v342 (V0 : Valuation τ sig (Elt F)) : val10 V0 (no_index (Proc.devRef .tc main_v342)) = ReadP.val_main_v342 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val10_keep V0 main_v342 (by decide)).trans (val9_main_v342 V0)
set_option maxRecDepth 8192 in
set_option maxHeartbeats 4000000 in
theorem val10_main_v479 (V0 : Valuation τ sig (Elt F)) : val10 V0 (no_index (Proc.devRef .tc main_v479)) = ReadP.val_main_v479 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val10
  simp only [ops9]
  after_results_simp
  simp only [val9_main_v20, val9_main_v24, val9_main_v353, val9_main_v51, val9_main_v59, val9_main_v86, val9_main_v435, val9_main_v16, val9_main_v52, val9_main_v87, val9_main_v433, val9_main_v437, val9_main_v425, val9_main_v354] <;> rfl

end Cert.ReferenceIdeal.HandRun

end
-- ==== Proof.RefRun.lean ====
import proofs.«171612_j42777874268460_1_alg».proof.Proof.RefStages
import Idealize.ShloMosaic.Lib.StableHlo.Run

/-! The run of the reference program, stated over the stages of its reading.

@main is ten windows of operations run in a row; the operation lists of the windows, appended, are @main's
operations (`main_eq`: a line of two lists run one after the other is their concatenation run as one). What the
buffers hold after the whole list is what they hold after the tenth window from what they held after the ninth, and
so on down (`after_ops`: the contents after a concatenation are the contents after its second part from those
after its first). The stage facts of the windows then give each result buffer at its stage of the arguments'
launch contents, and each argument, which no operation writes, at its launch contents. -/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 598 operations, in order: the ten windows' lists in a row. -/
abbrev ops : List (HloOp τ sig (Elt F)) :=
  ops0 ++ (ops1 ++ (ops2 ++ (ops3 ++ (ops4 ++ (ops5 ++ (ops6 ++ (ops7 ++ (ops8 ++ (ops9)))))))))

set_option maxRecDepth 8192 in
/-- @main is the line of its operations: window by window. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h]

/-- Every operation determines its results (none allocates a buffer): window by window. -/
theorem ops_fresh : ∀ op ∈ (ops : List (HloOp τ sig (Elt F))), op.fresh = ∅ := fun op h => by
  simp only [ops, List.mem_append] at h
  rcases h with h | h | h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h]

/-- The contents after all of @main's operations are the contents after its tenth window. -/
theorem after_ops (V0 : Valuation τ sig (Elt F)) : after ops V0 = val10 V0 := by
  simp only [ops, after_append]
  rfl

/-- On every device, for any float values, from any memory with zero counters: every weakly fair execution of
    @main terminates with each result at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v342) = ReadP.val_main_v342 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v479) = ReadP.val_main_v479 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v342).trans (by simp only [after_ops]; exact val10_main_v342 (launchContents m c)),
      (h c main_v479).trans (by simp only [after_ops]; exact val10_main_v479 (launchContents m c)),
      (h c main_arg0).trans (by simp only [after_ops]; exact val10_main_arg0 (launchContents m c)),
      (h c main_arg1).trans (by simp only [after_ops]; exact val10_main_arg1 (launchContents m c)),
      (h c main_arg2).trans (by simp only [after_ops]; exact val10_main_arg2 (launchContents m c)),
      (h c main_arg3).trans (by simp only [after_ops]; exact val10_main_arg3 (launchContents m c)),
      (h c main_arg4).trans (by simp only [after_ops]; exact val10_main_arg4 (launchContents m c)),
      (h c main_arg5).trans (by simp only [after_ops]; exact val10_main_arg5 (launchContents m c)),
      (h c main_arg6).trans (by simp only [after_ops]; exact val10_main_arg6 (launchContents m c)),
      (h c main_arg7).trans (by simp only [after_ops]; exact val10_main_arg7 (launchContents m c))⟩)
    (run_seq scopedRefs_eq scopedSems_eq defs main (fun _ => ops) main_eq (fun _ => ops_sub) m ρ (fun _ => ops_fresh))

end Cert.ReferenceIdeal.HandRun

end
-- ==== Proof.PreFin.lean ====
/-
  Finiteness of the inputs.  The precondition is the conjunction, over the eight float input arrays, of
  all (|x| < +∞).  An and-reduction over every axis that is 1 had a 1 at every index; there the comparison
  max x (-x) < +∞ holds on the extended reals, which rules out x = +∞ and x = -∞, so x is a real.
-/
import proofs.«171612_j42777874268460_1_alg».proof.Defs
import proofs.«171612_j42777874268460_1_alg».proof.Proof.Gen.Pre_finite_inputs
import proofs.«171612_j42777874268460_1_alg».proof.Proof.Spec
import Idealize.ShloMosaic.Lib.ReduceAll
import Idealize.ShloMosaic.Lib.ValueIdx

noncomputable section

namespace Cert.PreFin

open Idealize.ShloMosaic Idealize.SL.Sem

/-- The rank-zero shape has one index. -/
instance : Subsingleton Cert.Pre_finite_inputs.S_.Idx := ⟨fun a b => funext fun d => d.elim0⟩

/-- An extended real whose absolute value, max x (-x), lies strictly below +∞ is a real. -/
theorem fin1_of_abs_lt_top (x : EReal) (h : max x (-x) < ⊤) : Cert.Spec.Fin1 x := by
  induction x using EReal.rec with
  | bot => simp at h
  | coe r => exact ⟨r, rfl⟩
  | top => simp at h

/-- The f32 pattern 0x7F800000 denotes +∞. -/
theorem inf_eq_top : Ideal.ofBits .f32 0x7F800000#32 = ⊤ := by simp [Ideal.ofBits, Ideal.ieee]

/-- all (|x| < +∞) = 1 over any shape gives every entry real. -/
theorem fin1_of_all {s : Shape} {ax : List (Fin s.rank)} (x : FVec Ideal s .f32)
    (b : Cert.Pre_finite_inputs.S_.BroadcastsInDim s (![] : Fin 0 → Fin s.rank))
    (h : s.ReducesTo ax Cert.Pre_finite_inputs.S_) (hu : 0 < Cert.Pre_finite_inputs.S_.numel)
    (j : Cert.Pre_finite_inputs.S_.Idx)
    (e : Host.reduce IntOp.andi
          (cmpf .olt (Host.absf x)
            (broadcastInDim s ![] b (constant (F := Ideal) Cert.Pre_finite_inputs.S_ .f32 0x7F800000#32)))
          (constantI Cert.Pre_finite_inputs.S_ 1 1#1) h hu j = 1#1) :
    ∀ i, Cert.Spec.Fin1 (x i) := by
  intro i
  have hi := Host.reduce_andi_all _ _ h hu j e i
  apply fin1_of_abs_lt_top
  simp only [cmpf, Host.absf, broadcastInDim, constant] at hi
  change Ideal.cmp .olt (max (x i) (-(x i))) (Ideal.ofBits .f32 0x7F800000#32) = 1#1 at hi
  rw [inf_eq_top] at hi
  by_contra hn
  simp [Ideal.cmp, hn] at hi

theorem finite_of_pre [Cert.Pre_finite_inputs.Facts] (x0 : (⟨Cert.KernelIdeal.S524288x3, .f32⟩ : BufTy).Contents (Elt Ideal)) (x1 : (⟨Cert.KernelIdeal.S128x128x128x16, .f32⟩ : BufTy).Contents (Elt Ideal)) (x2 : (⟨Cert.KernelIdeal.S128x19, .f32⟩ : BufTy).Contents (Elt Ideal)) (x3 : (⟨Cert.KernelIdeal.S128, .f32⟩ : BufTy).Contents (Elt Ideal)) (x4 : (⟨Cert.KernelIdeal.S128x128, .f32⟩ : BufTy).Contents (Elt Ideal)) (x5 : (⟨Cert.KernelIdeal.S128, .f32⟩ : BufTy).Contents (Elt Ideal)) (x6 : (⟨Cert.KernelIdeal.S1x128, .f32⟩ : BufTy).Contents (Elt Ideal)) (x7 : (⟨Cert.KernelIdeal.S1, .f32⟩ : BufTy).Contents (Elt Ideal))
    (h : Cert.Pre_finite_inputs.fn (F := Ideal) x0 x1 x2 x3 x4 x5 x6 x7 = (fun _ => 1#1)) :
    (∀ i, Cert.Spec.Fin1 (x0 i)) ∧ (∀ i, Cert.Spec.Fin1 (x1 i)) ∧ (∀ i, Cert.Spec.Fin1 (x2 i)) ∧ (∀ i, Cert.Spec.Fin1 (x3 i)) ∧ (∀ i, Cert.Spec.Fin1 (x4 i)) ∧ (∀ i, Cert.Spec.Fin1 (x5 i)) ∧ (∀ i, Cert.Spec.Fin1 (x6 i)) ∧ (∀ i, Cert.Spec.Fin1 (x7 i)) := by
  have h0 := congrFun h ValueIdx.ix0
  dsimp only [Cert.Pre_finite_inputs.fn, Cert.Pre_finite_inputs.fn_part1, Cert.Pre_finite_inputs.fn_part2, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fin1_of_all x0 _ _ _ _ e0, fin1_of_all x1 _ _ _ _ e1, fin1_of_all x2 _ _ _ _ e2, fin1_of_all x3 _ _ _ _ e3,
    fin1_of_all x4 _ _ _ _ e4, fin1_of_all x5 _ _ _ _ e5, fin1_of_all x6 _ _ _ _ e6, fin1_of_all x7 _ _ _ _ e7⟩

theorem finite_of_Pre_KernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Spec.Fin1 ((m ((c.tc : Thread Cert.KernelIdeal.nD Cert.KernelIdeal.τ).loc Cert.KernelIdeal.main_arg0)) i))
    ∧ (∀ i, Cert.Spec.Fin1 ((m ((c.tc : Thread Cert.KernelIdeal.nD Cert.KernelIdeal.τ).loc Cert.KernelIdeal.main_arg1)) i))
    ∧ (∀ i, Cert.Spec.Fin1 ((m ((c.tc : Thread Cert.KernelIdeal.nD Cert.KernelIdeal.τ).loc Cert.KernelIdeal.main_arg2)) i))
    ∧ (∀ i, Cert.Spec.Fin1 ((m ((c.tc : Thread Cert.KernelIdeal.nD Cert.KernelIdeal.τ).loc Cert.KernelIdeal.main_arg3)) i))
    ∧ (∀ i, Cert.Spec.Fin1 ((m ((c.tc : Thread Cert.KernelIdeal.nD Cert.KernelIdeal.τ).loc Cert.KernelIdeal.main_arg4)) i))
    ∧ (∀ i, Cert.Spec.Fin1 ((m ((c.tc : Thread Cert.KernelIdeal.nD Cert.KernelIdeal.τ).loc Cert.KernelIdeal.main_arg5)) i))
    ∧ (∀ i, Cert.Spec.Fin1 ((m ((c.tc : Thread Cert.KernelIdeal.nD Cert.KernelIdeal.τ).loc Cert.KernelIdeal.main_arg6)) i))
    ∧ (∀ i, Cert.Spec.Fin1 ((m ((c.tc : Thread Cert.KernelIdeal.nD Cert.KernelIdeal.τ).loc Cert.KernelIdeal.main_arg7)) i)) :=
  finite_of_pre _ _ _ _ _ _ _ _ (h c)

end Cert.PreFin

end
-- ==== Proof.PtFin.lean ====
/-
  Finiteness of one sample point's data and of the weights, and the range of the eight corner row indices,
  for real inputs.
-/
import proofs.«171612_j42777874268460_1_alg».proof.Proof.Atoms
import Idealize.ShloMosaic.Lib.ValueIdx
import Idealize.ShloMosaic.Lib.Pipeline.Value
import Idealize.ShloMosaic.PureOps.Ideal.Laws
import Mathlib.Algebra.Order.Floor.Ring
import Mathlib.Tactic.NormNum
import Mathlib.Tactic.Push

noncomputable section

namespace Cert.PtFin

open Cert.Atoms Cert.Spec Cert.ReferenceIdeal Cert.ReferenceIdeal.ReadP Idealize.ShloMosaic Idealize.ShloMosaic.ValueIdx

/-- Real weight arrays give real weights. -/
theorem wts_finite (x2 : Arr S128x19) (x3 : Arr S128) (x4 : Arr S128x128) (x5 : Arr S128) (x6 : Arr S1x128)
    (x7 : Arr S1) (h2 : ∀ i, Fin1 (x2 i)) (h3 : ∀ i, Fin1 (x3 i)) (h4 : ∀ i, Fin1 (x4 i))
    (h5 : ∀ i, Fin1 (x5 i)) (h6 : ∀ i, Fin1 (x6 i)) (h7 : ∀ i, Fin1 (x7 i)) :
    (wtsOf x2 x3 x4 x5 x6 x7).Finite :=
  ⟨fun j k => h2 _, fun j => h3 _, fun j k => h4 _, fun j => h5 _, fun k => h6 _, h7 _⟩

/-! ## Reals are closed under the ring operations -/

theorem fin1_add {a b : EReal} (ha : Fin1 a) (hb : Fin1 b) : Fin1 (a + b) := by
  obtain ⟨x, rfl⟩ := ha; obtain ⟨y, rfl⟩ := hb; exact ⟨x + y, (EReal.coe_add x y).symm⟩

theorem fin1_mul {a b : EReal} (ha : Fin1 a) (hb : Fin1 b) : Fin1 (a * b) := by
  obtain ⟨x, rfl⟩ := ha; obtain ⟨y, rfl⟩ := hb; exact ⟨x * y, (EReal.coe_mul x y).symm⟩

theorem fin1_sub {a b : EReal} (ha : Fin1 a) (hb : Fin1 b) : Fin1 (a - b) := by
  obtain ⟨x, rfl⟩ := ha; obtain ⟨y, rfl⟩ := hb; exact ⟨x - y, (EReal.coe_sub x y).symm⟩

/-- The literal one half. -/
theorem half_eq : Ideal.ofBits .f32 0x3F000000#32 = ((1 / 2 : ℝ) : EReal) := by
  simp [Ideal.ofBits, Ideal.ieee, -EReal.coe_mul]; norm_num

/-- The literal 127. -/
theorem c127_eq : Ideal.ofBits .f32 0x42FE0000#32 = ((127 : ℝ) : EReal) := by
  simp [Ideal.ofBits, Ideal.ieee, -EReal.coe_mul]; norm_num

section Point
variable (x0 : Arr S524288x3) (h0 : ∀ i, Fin1 (x0 i))
include h0

/-- The position, `x0 / 2 + 1 / 2`, is real. -/
theorem v3_real (i : S524288x3.Idx) : Fin1 (val_main_v3 (F := Ideal) x0 i) := by
  rw [val_main_v3_apply, val_main_v1_apply, val_main_v0_apply, val_main_v2_apply, val_main_cst_apply,
    val_main_cst_0_apply]
  exact fin1_add (fin1_mul (h0 i) ⟨_, half_eq⟩) ⟨_, half_eq⟩

/-- The position in cells, `127` times the position, is real. -/
theorem v5_real (i : S524288x3.Idx) : Fin1 (val_main_v5 (F := Ideal) x0 i) := by
  rw [val_main_v5_apply, val_main_v4_apply, val_main_cst_1_apply]
  exact fin1_mul (v3_real x0 h0 i) ⟨_, c127_eq⟩

/-- The fractional coordinates, the position in cells less the (integer) cell, are real. -/
theorem v10_real (i : S524288x3.Idx) : Fin1 (val_main_v10 (F := Ideal) x0 i) := by
  rw [val_main_v10_apply, val_main_v9_apply]
  exact fin1_sub (v5_real x0 h0 i) ⟨_, rfl⟩

/-- The clipped cell coordinate, `min 126 (max 0 ⌊x⌋)`, is an integer between 0 and 126. -/
theorem v7_int (i : S524288x3.Idx) :
    ∃ k : ℤ, 0 ≤ k ∧ k ≤ 126 ∧ val_main_v7 (F := Ideal) x0 i = ((k : ℝ) : EReal) := by
  obtain ⟨x, hx⟩ := v5_real x0 h0 i
  refine ⟨min 126 (max 0 ⌊x⌋), le_min (by norm_num) (le_max_left _ _), min_le_left _ _, ?_⟩
  rw [val_main_v7_apply, val_main_call0_v4_apply, val_main_call0_v3_apply, val_main_c_2_apply,
    val_main_call0_v2_apply, val_main_call0_v1_apply, val_main_call0_v0_apply, val_main_c_apply,
    val_main_v6_apply, hx]
  show min ((((126#32 : BitVec 32).toInt : ℝ)) : EReal)
      (max ((((0#32 : BitVec 32).toInt : ℝ)) : EReal) ((((⌊x⌋ : ℤ) : ℝ)) : EReal)) = _
  rw [show (126#32 : BitVec 32).toInt = 126 from by decide, show (0#32 : BitVec 32).toInt = 0 from by decide,
    ← EReal.coe_strictMono.monotone.map_max, ← EReal.coe_strictMono.monotone.map_min]
  norm_cast

/-- The cell coordinate as a 32-bit word: the word of a natural number at most 126. -/
theorem v8_word (i : S524288x3.Idx) :
    ∃ k : ℕ, k ≤ 126 ∧ val_main_v8 (F := Ideal) x0 i = BitVec.ofNat 32 k := by
  obtain ⟨k, hk0, hk1, hk⟩ := v7_int x0 h0 i
  obtain ⟨m, rfl⟩ := Int.eq_ofNat_of_zero_le hk0
  refine ⟨m, by omega, ?_⟩
  rw [val_main_v8_apply, hk]
  show Ideal.fptosi 32 (((m : ℤ) : ℝ) : EReal) = _
  rw [Ideal.fptosi, Ideal.toIntClamped_coe, if_pos (by exact_mod_cast hk0), Int.floor_intCast]
  have key : ∀ z : ℤ, z = (m : ℤ) → BitVec.ofInt 32 z = BitVec.ofNat 32 m := fun z hz => by
    rw [hz, BitVec.ofInt_natCast]
  apply key
  norm_num
  omega

theorem v8_le (i : S524288x3.Idx) : (val_main_v8 (F := Ideal) x0 i).toNat ≤ 126 := by
  obtain ⟨k, hk, h⟩ := v8_word x0 h0 i
  rw [h, BitVec.toNat_ofNat]; omega

end Point

/-! ## The corner row indices -/

/-- The flat row index of a corner in 32-bit words, `((a + dx)·128)·128 + (b + dy)·128 + (c + dz)`. -/
def cornerIdx (a b c dx dy dz : BitVec 32) : BitVec 32 :=
  IntOp.addi (IntOp.addi (IntOp.muli (IntOp.muli (IntOp.addi a dx) 128#32) 128#32)
    (IntOp.muli (IntOp.addi b dy) 128#32)) (IntOp.addi c dz)

/-- The wrap of a negative index by the table's 2097152 rows. -/
def wrapIdx (s : BitVec 32) : BitVec 32 := Scalar.select (IntOp.cmpi .slt s 0#32) (IntOp.addi s 2097152#32) s

/-- With cell coordinates at most 126 and offsets at most 1, the flat index is at most
    `127·16384 + 127·128 + 127 = 2097151 < 2^31`: no word operation wraps, the index is not negative as a signed word,
    the wrap keeps it, and it lies in `[0, 2097151]`. -/
theorem corner_range (a b c dx dy dz : BitVec 32) (ha : a.toNat ≤ 126) (hb : b.toNat ≤ 126) (hc : c.toNat ≤ 126)
    (hdx : dx.toNat ≤ 1) (hdy : dy.toNat ≤ 1) (hdz : dz.toNat ≤ 1) :
    (0#32).sle (wrapIdx (cornerIdx a b c dx dy dz)) = true
      ∧ (wrapIdx (cornerIdx a b c dx dy dz)).sle 2097151#32 = true := by
  have hs : (cornerIdx a b c dx dy dz).toNat
      = ((a.toNat + dx.toNat) * 128) * 128 + (b.toNat + dy.toNat) * 128 + (c.toNat + dz.toNat) := by
    simp only [cornerIdx, IntOp.addi, IntOp.muli, BitVec.toNat_add, BitVec.toNat_mul, BitVec.toNat_ofNat]
    omega
  generalize cornerIdx a b c dx dy dz = s at hs ⊢
  have hN : s.toNat ≤ 2097151 := by omega
  have hi : s.toInt = (s.toNat : Int) := BitVec.toInt_eq_toNat_of_lt (by omega)
  have hlt : s.slt 0#32 = false := by
    rw [BitVec.slt_eq_decide, hi, BitVec.toInt_zero]
    exact decide_eq_false (by omega)
  have hw : wrapIdx s = s := by
    unfold wrapIdx IntOp.cmpi
    simp only [hlt]
    rfl
  rw [hw, BitVec.sle_eq_decide, BitVec.sle_eq_decide, hi, BitVec.toInt_zero]
  have h2 : (2097151#32 : BitVec 32).toInt = 2097151 := by decide
  rw [h2]
  exact ⟨decide_eq_true (by omega), decide_eq_true (by omega)⟩

/-- Every corner's row index lies inside the table. Each corner's index is `cornerIdx` of the three cell-coordinate
    words (slices of the cell array, reshaped) and that corner's three offset literals, then wrapped. -/
theorem inRange (x0 : Arr S524288x3) (h0 : ∀ i, Fin1 (x0 i)) : InRange x0 := by
  intro c n
  have hw := v8_le x0 h0
  match c with
  | 0 =>
    have ha : (val_main_v26 (F := Ideal) x0 (ix1 n)).toNat ≤ 126 := by
      rw [val_main_v26_apply, val_main_v25_apply]; exact hw _
    have hb : (val_main_v34 (F := Ideal) x0 (ix1 n)).toNat ≤ 126 := by
      rw [val_main_v34_apply, val_main_v33_apply]; exact hw _
    have hc : (val_main_v41 (F := Ideal) x0 (ix1 n)).toNat ≤ 126 := by
      rw [val_main_v41_apply, val_main_v40_apply]; exact hw _
    exact corner_range _ _ _ 0#32 0#32 0#32 ha hb hc (by decide) (by decide) (by decide)
  | 1 =>
    have ha : (val_main_v61 (F := Ideal) x0 (ix1 n)).toNat ≤ 126 := by
      rw [val_main_v61_apply, val_main_v60_apply]; exact hw _
    have hb : (val_main_v69 (F := Ideal) x0 (ix1 n)).toNat ≤ 126 := by
      rw [val_main_v69_apply, val_main_v68_apply]; exact hw _
    have hc : (val_main_v76 (F := Ideal) x0 (ix1 n)).toNat ≤ 126 := by
      rw [val_main_v76_apply, val_main_v75_apply]; exact hw _
    exact corner_range _ _ _ 0#32 0#32 1#32 ha hb hc (by decide) (by decide) (by decide)
  | 2 =>
    have ha : (val_main_v100 (F := Ideal) x0 (ix1 n)).toNat ≤ 126 := by
      rw [val_main_v100_apply, val_main_v99_apply]; exact hw _
    have hb : (val_main_v108 (F := Ideal) x0 (ix1 n)).toNat ≤ 126 := by
      rw [val_main_v108_apply, val_main_v107_apply]; exact hw _
    have hc : (val_main_v115 (F := Ideal) x0 (ix1 n)).toNat ≤ 126 := by
      rw [val_main_v115_apply, val_main_v114_apply]; exact hw _
    exact corner_range _ _ _ 0#32 1#32 0#32 ha hb hc (by decide) (by decide) (by decide)
  | 3 =>
    have ha : (val_main_v135 (F := Ideal) x0 (ix1 n)).toNat ≤ 126 := by
      rw [val_main_v135_apply, val_main_v134_apply]; exact hw _
    have hb : (val_main_v143 (F := Ideal) x0 (ix1 n)).toNat ≤ 126 := by
      rw [val_main_v143_apply, val_main_v142_apply]; exact hw _
    have hc : (val_main_v150 (F := Ideal) x0 (ix1 n)).toNat ≤ 126 := by
      rw [val_main_v150_apply, val_main_v149_apply]; exact hw _
    exact corner_range _ _ _ 0#32 1#32 1#32 ha hb hc (by decide) (by decide) (by decide)
  | 4 =>
    have ha : (val_main_v178 (F := Ideal) x0 (ix1 n)).toNat ≤ 126 := by
      rw [val_main_v178_apply, val_main_v177_apply]; exact hw _
    have hb : (val_main_v186 (F := Ideal) x0 (ix1 n)).toNat ≤ 126 := by
      rw [val_main_v186_apply, val_main_v185_apply]; exact hw _
    have hc : (val_main_v193 (F := Ideal) x0 (ix1 n)).toNat ≤ 126 := by
      rw [val_main_v193_apply, val_main_v192_apply]; exact hw _
    exact corner_range _ _ _ 1#32 0#32 0#32 ha hb hc (by decide) (by decide) (by decide)
  | 5 =>
    have ha : (val_main_v213 (F := Ideal) x0 (ix1 n)).toNat ≤ 126 := by
      rw [val_main_v213_apply, val_main_v212_apply]; exact hw _
    have hb : (val_main_v221 (F := Ideal) x0 (ix1 n)).toNat ≤ 126 := by
      rw [val_main_v221_apply, val_main_v220_apply]; exact hw _
    have hc : (val_main_v228 (F := Ideal) x0 (ix1 n)).toNat ≤ 126 := by
      rw [val_main_v228_apply, val_main_v227_apply]; exact hw _
    exact corner_range _ _ _ 1#32 0#32 1#32 ha hb hc (by decide) (by decide) (by decide)
  | 6 =>
    have ha : (val_main_v252 (F := Ideal) x0 (ix1 n)).toNat ≤ 126 := by
      rw [val_main_v252_apply, val_main_v251_apply]; exact hw _
    have hb : (val_main_v260 (F := Ideal) x0 (ix1 n)).toNat ≤ 126 := by
      rw [val_main_v260_apply, val_main_v259_apply]; exact hw _
    have hc : (val_main_v267 (F := Ideal) x0 (ix1 n)).toNat ≤ 126 := by
      rw [val_main_v267_apply, val_main_v266_apply]; exact hw _
    exact corner_range _ _ _ 1#32 1#32 0#32 ha hb hc (by decide) (by decide) (by decide)
  | 7 =>
    have ha : (val_main_v287 (F := Ideal) x0 (ix1 n)).toNat ≤ 126 := by
      rw [val_main_v287_apply, val_main_v286_apply]; exact hw _
    have hb : (val_main_v295 (F := Ideal) x0 (ix1 n)).toNat ≤ 126 := by
      rw [val_main_v295_apply, val_main_v294_apply]; exact hw _
    have hc : (val_main_v302 (F := Ideal) x0 (ix1 n)).toNat ≤ 126 := by
      rw [val_main_v302_apply, val_main_v301_apply]; exact hw _
    exact corner_range _ _ _ 1#32 1#32 1#32 ha hb hc (by decide) (by decide) (by decide)

/-- A real point: the fractional coordinates are entries of the (real) fractional-coordinate array, the position
    is real, and each corner row is a row of the reshaped grid, whose entries are entries of the grid. -/
theorem pt_finite (x0 : Arr S524288x3) (x1 : Arr S128x128x128x16) (h0 : ∀ i, Fin1 (x0 i)) (h1 : ∀ i, Fin1 (x1 i))
    (n : Fin 524288) : (ptOf x0 x1 n).Finite := by
  have h11 : ∀ i, Fin1 (val_main_v11 (F := Ideal) x1 i) := fun i => by
    rw [val_main_v11_apply]; exact h1 _
  refine ⟨?_, ?_, ?_, fun a => v3_real x0 h0 _, fun c e => ?_⟩
  · show Fin1 (val_main_v14 (F := Ideal) x0 (ix1 n))
    rw [val_main_v14_apply, val_main_v13_apply]; exact v10_real x0 h0 _
  · show Fin1 (val_main_v18 (F := Ideal) x0 (ix1 n))
    rw [val_main_v18_apply, val_main_v17_apply]; exact v10_real x0 h0 _
  · show Fin1 (val_main_v22 (F := Ideal) x0 (ix1 n))
    rw [val_main_v22_apply, val_main_v21_apply]; exact v10_real x0 h0 _
  · show Fin1 (Gs c x0 x1 (ix2 n e))
    match c with
    | 0 => exact h11 _
    | 1 => exact h11 _
    | 2 => exact h11 _
    | 3 => exact h11 _
    | 4 => exact h11 _
    | 5 => exact h11 _
    | 6 => exact h11 _
    | 7 => exact h11 _

end Cert.PtFin

end
-- ==== Proof.AlgNet.lean ====
/-
  The network, forward and backward, agrees on the two sides without distributivity: the first layer's
  sum over the nineteen input columns splits as the sum over the sixteen embedding columns and the three
  position columns, and the back-propagated factors differ only by the order and grouping of products.
  The second half shows that every quantity is a real number when the weights and the point are.
-/
import proofs.«171612_j42777874268460_1_alg».proof.Proof.Spec
import Idealize.ShloMosaic.PureOps.Ideal
import Mathlib.Data.EReal.Basic
import Mathlib.Data.EReal.Operations
import Mathlib.Algebra.BigOperators.Fin

noncomputable section

namespace Cert.Spec

open Idealize.ShloMosaic

/-! ## The reals are closed under the operations used -/

theorem Fin1.coe (r : ℝ) : Fin1 (r : EReal) := ⟨r, rfl⟩

theorem Fin1.zero : Fin1 (0 : EReal) := ⟨0, EReal.coe_zero.symm⟩

theorem Fin1.one : Fin1 (1 : EReal) := ⟨1, EReal.coe_one.symm⟩

theorem Fin1.add {x y : EReal} (hx : Fin1 x) (hy : Fin1 y) : Fin1 (x + y) := by
  obtain ⟨a, rfl⟩ := hx
  obtain ⟨b, rfl⟩ := hy
  exact ⟨a + b, (EReal.coe_add a b).symm⟩

theorem Fin1.mul {x y : EReal} (hx : Fin1 x) (hy : Fin1 y) : Fin1 (x * y) := by
  obtain ⟨a, rfl⟩ := hx
  obtain ⟨b, rfl⟩ := hy
  exact ⟨a * b, (EReal.coe_mul a b).symm⟩

theorem Fin1.neg {x : EReal} (hx : Fin1 x) : Fin1 (-x) := by
  obtain ⟨a, rfl⟩ := hx
  exact ⟨-a, (EReal.coe_neg a).symm⟩

theorem Fin1.sub {x y : EReal} (hx : Fin1 x) (hy : Fin1 y) : Fin1 (x - y) := by
  obtain ⟨a, rfl⟩ := hx
  obtain ⟨b, rfl⟩ := hy
  exact ⟨a - b, (EReal.coe_sub a b).symm⟩

theorem Fin1.sum {ι : Type*} (s : Finset ι) (f : ι → EReal) (h : ∀ i ∈ s, Fin1 (f i)) :
    Fin1 (∑ i ∈ s, f i) :=
  Finset.sum_induction f Fin1 (fun _ _ ha hb => Fin1.add ha hb) Fin1.zero h

theorem Fin1.sum_univ {n : ℕ} (f : Fin n → EReal) (h : ∀ i, Fin1 (f i)) : Fin1 (∑ i, f i) :=
  Fin1.sum Finset.univ f (fun i _ => h i)

theorem Fin1.sin {x : EReal} (hx : Fin1 x) : Fin1 (Ideal.sin x) := by
  obtain ⟨a, rfl⟩ := hx
  exact ⟨Real.sin a, rfl⟩

theorem Fin1.cos {x : EReal} (hx : Fin1 x) : Fin1 (Ideal.cos x) := by
  obtain ⟨a, rfl⟩ := hx
  exact ⟨Real.cos a, rfl⟩

/-! ## The literals -/

theorem c0_eq : c0 = 0 := by simp [c0, Ideal.ofBits, Ideal.ieee]

theorem c1_eq : c1 = 1 := by
  simp [c1, Ideal.ofBits, Ideal.ieee, -EReal.coe_mul]; norm_num

theorem c30_val : c30 = ((30 : ℝ) : EReal) := by
  simp [c30, Ideal.ofBits, Ideal.ieee, -EReal.coe_mul]; norm_num

theorem c127_val : c127 = ((127 : ℝ) : EReal) := by
  simp [c127, Ideal.ofBits, Ideal.ieee, -EReal.coe_mul]; norm_num

theorem cm127_val : cm127 = ((-127 : ℝ) : EReal) := by
  simp [cm127, Ideal.ofBits, Ideal.ieee, -EReal.coe_mul]; norm_num

theorem c0_fin : Fin1 c0 := c0_eq ▸ Fin1.zero
theorem c1_fin : Fin1 c1 := c1_eq ▸ Fin1.one
theorem c30_fin : Fin1 c30 := ⟨30, c30_val⟩
theorem c127_fin : Fin1 c127 := ⟨127, c127_val⟩
theorem cm127_fin : Fin1 cm127 := ⟨-127, cm127_val⟩

theorem cm127_eq : cm127 = -c127 := by
  rw [cm127_val, c127_val, EReal.coe_neg]

/-! ## The corner weights and the embedding are real -/

theorem fin_wsel {f : EReal} (hf : Fin1 f) (b : Bool) : Fin1 (wsel f b) := by
  cases b
  · exact Fin1.sub c1_fin hf
  · exact hf

theorem fin_ssel (b : Bool) : Fin1 (ssel b) := by
  cases b
  · exact cm127_fin
  · exact c127_fin

theorem fin_wx {P : Pt} (hP : P.Finite) (c : Fin 8) : Fin1 (wx P c) := fin_wsel hP.fx _
theorem fin_wy {P : Pt} (hP : P.Finite) (c : Fin 8) : Fin1 (wy P c) := fin_wsel hP.fy _
theorem fin_wz {P : Pt} (hP : P.Finite) (c : Fin 8) : Fin1 (wz P c) := fin_wsel hP.fz _

theorem fin_wt {P : Pt} (hP : P.Finite) (c : Fin 8) : Fin1 (wt P c) :=
  Fin1.mul (Fin1.mul (fin_wx hP c) (fin_wy hP c)) (fin_wz hP c)
theorem fin_ux {P : Pt} (hP : P.Finite) (c : Fin 8) : Fin1 (ux P c) :=
  Fin1.mul (Fin1.mul (fin_ssel _) (fin_wy hP c)) (fin_wz hP c)
theorem fin_uy {P : Pt} (hP : P.Finite) (c : Fin 8) : Fin1 (uy P c) :=
  Fin1.mul (Fin1.mul (fin_ssel _) (fin_wx hP c)) (fin_wz hP c)
theorem fin_uz {P : Pt} (hP : P.Finite) (c : Fin 8) : Fin1 (uz P c) :=
  Fin1.mul (Fin1.mul (fin_ssel _) (fin_wx hP c)) (fin_wy hP c)

theorem fin_chain8 {t : Fin 8 → EReal} (ht : ∀ c, Fin1 (t c)) : Fin1 (chain8 t) :=
  Fin1.add (Fin1.add (Fin1.add (Fin1.add (Fin1.add (Fin1.add (Fin1.add (Fin1.add c0_fin
    (ht 0)) (ht 1)) (ht 2)) (ht 3)) (ht 4)) (ht 5)) (ht 6)) (ht 7)

theorem fin_emb {P : Pt} (hP : P.Finite) (e : Fin 16) : Fin1 (emb P e) :=
  fin_chain8 fun c => Fin1.mul (hP.G c e) (fin_wt hP c)
theorem fin_ddx {P : Pt} (hP : P.Finite) (e : Fin 16) : Fin1 (ddx P e) :=
  fin_chain8 fun c => Fin1.mul (hP.G c e) (fin_ux hP c)
theorem fin_ddy {P : Pt} (hP : P.Finite) (e : Fin 16) : Fin1 (ddy P e) :=
  fin_chain8 fun c => Fin1.mul (hP.G c e) (fin_uy hP c)
theorem fin_ddz {P : Pt} (hP : P.Finite) (e : Fin 16) : Fin1 (ddz P e) :=
  fin_chain8 fun c => Fin1.mul (hP.G c e) (fin_uz hP c)

/-! ## Forward: the two networks are one -/

section Net
variable (W : Wts) (P : Pt)

/-- The sum over the nineteen input columns is the sum over the first sixteen plus the sum over the last three. -/
theorem kz0_eq (j : Fin 128) : kz0 W (featOf P) j = rz0 W P j := by
  have h : (∑ k : Fin 19, rh P k * W.W0 j k)
      = (∑ e : Fin 16, rh P (Fin.castAdd 3 e) * W.W0 j (Fin.castAdd 3 e))
        + ∑ a : Fin 3, rh P (Fin.natAdd 16 a) * W.W0 j (Fin.natAdd 16 a) :=
    Fin.sum_univ_add (fun k : Fin (16 + 3) => rh P k * W.W0 j k)
  unfold rz0
  rw [h]
  unfold kz0 rh featOf
  simp only [Fin.append_left, Fin.append_right]

theorem karg0_eq (j : Fin 128) : karg0 W (featOf P) j = rarg0 W P j := by
  unfold karg0 rarg0; rw [kz0_eq]
theorem ka0_eq (j : Fin 128) : ka0 W (featOf P) j = ra0 W P j := by
  unfold ka0 ra0; rw [karg0_eq]
theorem kc0_eq (j : Fin 128) : kc0 W (featOf P) j = rc0 W P j := by
  unfold kc0 rc0; rw [karg0_eq]
theorem kz1_eq (j : Fin 128) : kz1 W (featOf P) j = rz1 W P j := by
  unfold kz1 rz1; simp only [ka0_eq]
theorem karg1_eq (j : Fin 128) : karg1 W (featOf P) j = rarg1 W P j := by
  unfold karg1 rarg1; rw [kz1_eq]
theorem ka1_eq (j : Fin 128) : ka1 W (featOf P) j = ra1 W P j := by
  unfold ka1 ra1; rw [karg1_eq]
theorem kc1_eq (j : Fin 128) : kc1 W (featOf P) j = rc1 W P j := by
  unfold kc1 rc1; rw [karg1_eq]

theorem net_out : kout W (featOf P) = rout W P := by
  unfold kout rout; simp only [ka1_eq]

/-! ## Backward: the same products in another order -/

theorem kgz1_eq (j : Fin 128) : kgz1 W (featOf P) j = r347 W P j := by
  unfold kgz1 r347 r344
  rw [kc1_eq, c1_eq, one_mul]
  exact mul_left_comm _ _ _

theorem kga0_eq (k : Fin 128) : kga0 W (featOf P) k = r348 W P k := by
  unfold kga0 r348; simp only [kgz1_eq]

theorem kgz0_eq (k : Fin 128) : kgz0 W (featOf P) k = r351 W P k := by
  unfold kgz0 r351
  rw [kga0_eq, kc0_eq]
  exact mul_left_comm _ _ _

theorem net_demb (e : Fin 16) : kdemb W (featOf P) e = rD W P e := by
  unfold kdemb rD r352; simp only [kgz0_eq]

theorem net_dpos (a : Fin 3) : kdpos W (featOf P) a = rd3 W P a := by
  unfold kdpos rd3 r352; simp only [kgz0_eq]

/-! ## Every quantity of the network is real -/

variable {W P}

theorem fin_rz0 (hW : W.Finite) (hP : P.Finite) (j : Fin 128) : Fin1 (rz0 W P j) := by
  rw [← kz0_eq]
  exact Fin1.add (Fin1.add
    (Fin1.sum_univ _ fun e => Fin1.mul (fin_emb hP e) (hW.W0 j _))
    (Fin1.sum_univ _ fun a => Fin1.mul (hP.p a) (hW.W0 j _))) (hW.b0 j)

theorem fin_rarg0 (hW : W.Finite) (hP : P.Finite) (j : Fin 128) : Fin1 (rarg0 W P j) :=
  Fin1.mul c30_fin (fin_rz0 hW hP j)
theorem fin_ra0 (hW : W.Finite) (hP : P.Finite) (j : Fin 128) : Fin1 (ra0 W P j) :=
  Fin1.sin (fin_rarg0 hW hP j)
theorem fin_rc0 (hW : W.Finite) (hP : P.Finite) (j : Fin 128) : Fin1 (rc0 W P j) :=
  Fin1.cos (fin_rarg0 hW hP j)
theorem fin_rz1 (hW : W.Finite) (hP : P.Finite) (j : Fin 128) : Fin1 (rz1 W P j) :=
  Fin1.add (Fin1.sum_univ _ fun k => Fin1.mul (fin_ra0 hW hP k) (hW.W1 j k)) (hW.b1 j)
theorem fin_rarg1 (hW : W.Finite) (hP : P.Finite) (j : Fin 128) : Fin1 (rarg1 W P j) :=
  Fin1.mul c30_fin (fin_rz1 hW hP j)
theorem fin_ra1 (hW : W.Finite) (hP : P.Finite) (j : Fin 128) : Fin1 (ra1 W P j) :=
  Fin1.sin (fin_rarg1 hW hP j)
theorem fin_rc1 (hW : W.Finite) (hP : P.Finite) (j : Fin 128) : Fin1 (rc1 W P j) :=
  Fin1.cos (fin_rarg1 hW hP j)
theorem fin_rout (hW : W.Finite) (hP : P.Finite) : Fin1 (rout W P) :=
  Fin1.add (Fin1.sum_univ _ fun k => Fin1.mul (fin_ra1 hW hP k) (hW.Wo k)) hW.bo
theorem fin_r344 (hW : W.Finite) (j : Fin 128) : Fin1 (r344 W j) :=
  Fin1.mul c1_fin (hW.Wo j)
theorem fin_r347 (hW : W.Finite) (hP : P.Finite) (j : Fin 128) : Fin1 (r347 W P j) :=
  Fin1.mul c30_fin (Fin1.mul (fin_r344 hW j) (fin_rc1 hW hP j))
theorem fin_r348 (hW : W.Finite) (hP : P.Finite) (k : Fin 128) : Fin1 (r348 W P k) :=
  Fin1.sum_univ _ fun j => Fin1.mul (fin_r347 hW hP j) (hW.W1 j k)
theorem fin_r351 (hW : W.Finite) (hP : P.Finite) (k : Fin 128) : Fin1 (r351 W P k) :=
  Fin1.mul c30_fin (Fin1.mul (fin_r348 hW hP k) (fin_rc0 hW hP k))
theorem fin_r352 (hW : W.Finite) (hP : P.Finite) (i : Fin 19) : Fin1 (r352 W P i) :=
  Fin1.sum_univ _ fun k => Fin1.mul (fin_r351 hW hP k) (hW.W0 k i)

end Net

theorem fin_rD (W : Wts) (P : Pt) (hW : W.Finite) (hP : P.Finite) (e : Fin 16) : Fin1 (rD W P e) :=
  fin_r352 hW hP _

theorem fin_rd3 (W : Wts) (P : Pt) (hW : W.Finite) (hP : P.Finite) (a : Fin 3) : Fin1 (rd3 W P a) :=
  fin_r352 hW hP _

theorem fin_rS (W : Wts) (P : Pt) (hW : W.Finite) (hP : P.Finite) (c : Fin 8) : Fin1 (rS W P c) :=
  Fin1.sum_univ _ fun e => Fin1.mul (hP.G c e) (fin_rD W P hW hP e)

end Cert.Spec

end
-- ==== Proof.AlgTri.lean ====
/-
  The contraction of the embedding's derivative rows with a row D equals the trilinear combination of
  the eight corner scalars (the sum over e of G c e * D e), times 127.  Every quantity is a real number,
  so the statement is moved to the reals and closed there by distributivity.
-/
import proofs.«171612_j42777874268460_1_alg».proof.Proof.Spec
import Mathlib.Data.EReal.Basic
import Mathlib.Tactic.Ring
import Mathlib.Tactic.NormNum
import Mathlib.Tactic.FinCases

noncomputable section

namespace Cert.Spec

open Idealize.ShloMosaic

namespace Tri

/-! ## The literals are real numbers -/

theorem c0_eq : c0 = ((0 : ℝ) : EReal) := by
  unfold c0; simp [Ideal.ofBits, Ideal.ieee]

theorem c1_eq : c1 = ((1 : ℝ) : EReal) := by
  unfold c1; simp [Ideal.ofBits, Ideal.ieee, -EReal.coe_mul]; norm_num

theorem c127_eq : c127 = ((127 : ℝ) : EReal) := by
  unfold c127; simp [Ideal.ofBits, Ideal.ieee, -EReal.coe_mul]; norm_num

theorem cm127_eq : cm127 = ((-127 : ℝ) : EReal) := by
  unfold cm127; simp [Ideal.ofBits, Ideal.ieee, -EReal.coe_mul]; norm_num

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Real counterparts of the corner factors -/

/-- An axis' factor over the reals. -/
def rsel (f : ℝ) (far : Bool) : ℝ := if far then f else 1 - f
/-- Its signed slope over the reals. -/
def rss (far : Bool) : ℝ := if far then 127 else -127

theorem wsel_coe (f : ℝ) (b : Bool) : wsel (f : EReal) b = ((rsel f b : ℝ) : EReal) := by
  cases b
  · simp [wsel, rsel, c1_eq]
  · simp [wsel, rsel]

theorem ssel_coe (b : Bool) : ssel b = ((rss b : ℝ) : EReal) := by
  cases b <;> simp [ssel, rss, c127_eq, cm127_eq]

/-- The eight corners accumulated in order, over the reals. -/
theorem chain8_coe (t : Fin 8 → ℝ) :
    chain8 (fun c => ((t c : ℝ) : EReal))
      = ((0 + t 0 + t 1 + t 2 + t 3 + t 4 + t 5 + t 6 + t 7 : ℝ) : EReal) := by
  simp only [chain8, c0_eq, EReal.coe_add]

/-- Which side of the cell each corner lies on, axis by axis. -/
theorem corners :
    (dxOf 0 = false ∧ dxOf 1 = false ∧ dxOf 2 = false ∧ dxOf 3 = false
      ∧ dxOf 4 = true ∧ dxOf 5 = true ∧ dxOf 6 = true ∧ dxOf 7 = true)
    ∧ (dyOf 0 = false ∧ dyOf 1 = false ∧ dyOf 2 = true ∧ dyOf 3 = true
      ∧ dyOf 4 = false ∧ dyOf 5 = false ∧ dyOf 6 = true ∧ dyOf 7 = true)
    ∧ (dzOf 0 = false ∧ dzOf 1 = true ∧ dzOf 2 = false ∧ dzOf 3 = true
      ∧ dzOf 4 = false ∧ dzOf 5 = true ∧ dzOf 6 = false ∧ dzOf 7 = true) := by
  decide

/-- Contracting a chain of corner rows with a row: the sum over features goes inside. -/
theorem swap8 (g : Fin 8 → Fin 16 → ℝ) (d : Fin 16 → ℝ) (u : Fin 8 → ℝ) :
    (∑ e : Fin 16, (0 + g 0 e * u 0 + g 1 e * u 1 + g 2 e * u 2 + g 3 e * u 3
        + g 4 e * u 4 + g 5 e * u 5 + g 6 e * u 6 + g 7 e * u 7) * d e)
      = u 0 * (∑ e : Fin 16, g 0 e * d e) + u 1 * (∑ e : Fin 16, g 1 e * d e)
        + u 2 * (∑ e : Fin 16, g 2 e * d e) + u 3 * (∑ e : Fin 16, g 3 e * d e)
        + u 4 * (∑ e : Fin 16, g 4 e * d e) + u 5 * (∑ e : Fin 16, g 5 e * d e)
        + u 6 * (∑ e : Fin 16, g 6 e * d e) + u 7 * (∑ e : Fin 16, g 7 e * d e) := by
  simp only [Finset.mul_sum, ← Finset.sum_add_distrib]
  apply Finset.sum_congr rfl
  intro e _
  ring

/-- The kernel's side: a chain of corner rows weighted by real coefficients, contracted with a real row. -/
theorem lhs_coe (G : Fin 8 → Fin 16 → EReal) (D : Fin 16 → EReal) (u : Fin 8 → EReal)
    (g : Fin 8 → Fin 16 → ℝ) (d : Fin 16 → ℝ) (ur : Fin 8 → ℝ)
    (hg : ∀ c e, G c e = ((g c e : ℝ) : EReal)) (hd : ∀ e, D e = ((d e : ℝ) : EReal))
    (hu : ∀ c, u c = ((ur c : ℝ) : EReal)) :
    (∑ e : Fin 16, chain8 (fun c => G c e * u c) * D e)
      = ((ur 0 * (∑ e : Fin 16, g 0 e * d e) + ur 1 * (∑ e : Fin 16, g 1 e * d e)
        + ur 2 * (∑ e : Fin 16, g 2 e * d e) + ur 3 * (∑ e : Fin 16, g 3 e * d e)
        + ur 4 * (∑ e : Fin 16, g 4 e * d e) + ur 5 * (∑ e : Fin 16, g 5 e * d e)
        + ur 6 * (∑ e : Fin 16, g 6 e * d e) + ur 7 * (∑ e : Fin 16, g 7 e * d e) : ℝ) : EReal) := by
  rw [← swap8 g d ur, coe_sum]
  apply Finset.sum_congr rfl
  intro e _
  have h : (fun c => G c e * u c) = fun c => ((g c e * ur c : ℝ) : EReal) := by
    funext c; rw [hg, hu, EReal.coe_mul]
  rw [h, chain8_coe, hd, EReal.coe_mul]

end Tri

open Tri

/-! ## The identity -/

theorem tri (P : Pt) (hP : P.Finite) (D : Fin 16 → EReal) (hD : ∀ e, Fin1 (D e)) (a : Fin 3) :
    (∑ e : Fin 16, dd (featOf P) a e * D e) = T P (fun c => ∑ e : Fin 16, P.G c e * D e) a * c127 := by
  obtain ⟨fx, hfx⟩ := hP.fx
  obtain ⟨fy, hfy⟩ := hP.fy
  obtain ⟨fz, hfz⟩ := hP.fz
  choose g hg using hP.G
  choose d hd using hD
  have hwx : ∀ c, wx P c = ((rsel fx (dxOf c) : ℝ) : EReal) := fun c => by
    unfold wx; rw [hfx, wsel_coe]
  have hwy : ∀ c, wy P c = ((rsel fy (dyOf c) : ℝ) : EReal) := fun c => by
    unfold wy; rw [hfy, wsel_coe]
  have hwz : ∀ c, wz P c = ((rsel fz (dzOf c) : ℝ) : EReal) := fun c => by
    unfold wz; rw [hfz, wsel_coe]
  have hS : ∀ c, (∑ e : Fin 16, P.G c e * D e) = ((∑ e : Fin 16, g c e * d e : ℝ) : EReal) := by
    intro c; rw [coe_sum]; apply Finset.sum_congr rfl; intro e _; rw [hg, hd, EReal.coe_mul]
  have hux : ∀ c, ux P c
      = ((rss (dxOf c) * rsel fy (dyOf c) * rsel fz (dzOf c) : ℝ) : EReal) := fun c => by
    unfold ux; rw [hwy, hwz, ssel_coe, ← EReal.coe_mul, ← EReal.coe_mul]
  have huy : ∀ c, uy P c
      = ((rss (dyOf c) * rsel fx (dxOf c) * rsel fz (dzOf c) : ℝ) : EReal) := fun c => by
    unfold uy; rw [hwx, hwz, ssel_coe, ← EReal.coe_mul, ← EReal.coe_mul]
  have huz : ∀ c, uz P c
      = ((rss (dzOf c) * rsel fx (dxOf c) * rsel fy (dyOf c) : ℝ) : EReal) := fun c => by
    unfold uz; rw [hwx, hwy, ssel_coe, ← EReal.coe_mul, ← EReal.coe_mul]
  have htx : ∀ c, tx P (fun c => ∑ e : Fin 16, P.G c e * D e) c
      = (((∑ e : Fin 16, g c e * d e) * rsel fz (dzOf c) * rsel fy (dyOf c) : ℝ) : EReal) := fun c => by
    simp only [tx, hS, hwz, hwy, ← EReal.coe_mul]
  have hty : ∀ c, ty P (fun c => ∑ e : Fin 16, P.G c e * D e) c
      = ((rsel fx (dxOf c) * ((∑ e : Fin 16, g c e * d e) * rsel fz (dzOf c)) : ℝ) : EReal) := fun c => by
    simp only [ty, hS, hwx, hwz, ← EReal.coe_mul]
  have htz : ∀ c, tz P (fun c => ∑ e : Fin 16, P.G c e * D e) c
      = ((rsel fx (dxOf c) * rsel fy (dyOf c) * (∑ e : Fin 16, g c e * d e) : ℝ) : EReal) := fun c => by
    simp only [tz, hS, hwx, hwy, ← EReal.coe_mul]
  fin_cases a
  · show (∑ e : Fin 16, ddx P e * D e) = Tx P (fun c => ∑ e : Fin 16, P.G c e * D e) * c127
    unfold ddx
    rw [lhs_coe P.G D (ux P) g d _ hg hd hux]
    unfold Tx
    simp only [htx, c127_eq, ← EReal.coe_add, ← EReal.coe_neg, ← EReal.coe_mul]
    congr 1
    simp only [corners, rsel, rss, Bool.false_eq_true, ↓reduceIte]
    ring
  · show (∑ e : Fin 16, ddy P e * D e) = Ty P (fun c => ∑ e : Fin 16, P.G c e * D e) * c127
    unfold ddy
    rw [lhs_coe P.G D (uy P) g d _ hg hd huy]
    unfold Ty
    simp only [hty, c127_eq, ← EReal.coe_add, ← EReal.coe_neg, ← EReal.coe_mul]
    congr 1
    simp only [corners, rsel, rss, Bool.false_eq_true, ↓reduceIte]
    ring
  · show (∑ e : Fin 16, ddz P e * D e) = Tz P (fun c => ∑ e : Fin 16, P.G c e * D e) * c127
    unfold ddz
    rw [lhs_coe P.G D (uz P) g d _ hg hd huz]
    unfold Tz
    simp only [htz, c127_eq, ← EReal.coe_add, ← EReal.coe_neg, ← EReal.coe_mul]
    congr 1
    simp only [corners, rsel, rss, Bool.false_eq_true, ↓reduceIte]
    ring

end Cert.Spec

end
-- ==== Proof.RFwd.lean ====
/-
  The reference's network read at one sample point: its input row (the trilinear embedding followed by the
  position), the two sine layers and the output, and the reverse pass from the unit seed back to the cotangent of
  the input row, whose first sixteen entries are the embedding's cotangent and last three the position's.
-/
import proofs.«171612_j42777874268460_1_alg».proof.Proof.Atoms
import Idealize.ShloMosaic.Lib.ValueIdx
import Idealize.ShloMosaic.Lib.Pipeline.Value
import Idealize.ShloMosaic.Lib.ValueLayout
import Idealize.ShloMosaic.PureOps.Ideal.Laws

noncomputable section

namespace Cert.RFwd

open Cert.Atoms Cert.Spec Cert.ReferenceIdeal Cert.ReferenceIdeal.ReadP Idealize.ShloMosaic Idealize.ShloMosaic.ValueIdx

variable (x0 : Arr S524288x3) (x1 : Arr S128x128x128x16) (x2 : Arr S128x19) (x3 : Arr S128)
  (x4 : Arr S128x128) (x5 : Arr S128) (x6 : Arr S1x128) (x7 : Arr S1) (n : Fin 524288)

/-! ## The embedding: eight corner rows, each times its trilinear weight, accumulated onto zero -/

/-- A per-point scalar spread along the sixteen features reads, at (n, e), the scalar at n. -/
theorem spread_idx (e : Fin 16) :
    idx_main_v54 (idx_main_v55 (ix2 n e)) = ix1 n :=
  funext fun a => match a with | ⟨0, _⟩ => rfl

/-- The constant-one vector at a point. -/
theorem one15 : val_main_v15 (F := Ideal) (ix1 n) = c1 := by
  rw [val_main_v15_apply]; rfl
theorem one19 : val_main_v19 (F := Ideal) (ix1 n) = c1 := by
  rw [val_main_v19_apply]; rfl
theorem one23 : val_main_v23 (F := Ideal) (ix1 n) = c1 := by
  rw [val_main_v23_apply]; rfl
theorem one97 : val_main_v97 (F := Ideal) (ix1 n) = c1 := by
  rw [val_main_v97_apply]; rfl
theorem one171 : val_main_v171 (F := Ideal) (ix1 n) = c1 := by
  rw [val_main_v171_apply]; rfl
theorem one175 : val_main_v175 (F := Ideal) (ix1 n) = c1 := by
  rw [val_main_v175_apply]; rfl
theorem one249 : val_main_v249 (F := Ideal) (ix1 n) = c1 := by
  rw [val_main_v249_apply]; rfl

/-- The recomputed slices of the fractional coordinates are the first ones. -/
theorem fz59 : val_main_v59 (F := Ideal) x0 = val_main_v22 (F := Ideal) x0 := rfl
theorem fy94 : val_main_v94 (F := Ideal) x0 = val_main_v18 (F := Ideal) x0 := rfl
theorem fz96 : val_main_v96 (F := Ideal) x0 = val_main_v22 (F := Ideal) x0 := rfl
theorem fz133 : val_main_v133 (F := Ideal) x0 = val_main_v22 (F := Ideal) x0 := rfl
theorem fx168 : val_main_v168 (F := Ideal) x0 = val_main_v14 (F := Ideal) x0 := rfl
theorem fy170 : val_main_v170 (F := Ideal) x0 = val_main_v18 (F := Ideal) x0 := rfl
theorem fz174 : val_main_v174 (F := Ideal) x0 = val_main_v22 (F := Ideal) x0 := rfl
theorem fz211 : val_main_v211 (F := Ideal) x0 = val_main_v22 (F := Ideal) x0 := rfl
theorem fy246 : val_main_v246 (F := Ideal) x0 = val_main_v18 (F := Ideal) x0 := rfl
theorem fz248 : val_main_v248 (F := Ideal) x0 = val_main_v22 (F := Ideal) x0 := rfl
theorem fz285 : val_main_v285 (F := Ideal) x0 = val_main_v22 (F := Ideal) x0 := rfl

theorem w0 (e : Fin 16) : val_main_v55 (F := Ideal) x0 (ix2 n e) = wt (ptOf x0 x1 n) 0 := by
  rw [val_main_v55_apply, val_main_v54_apply]
  show val_main_v53 (F := Ideal) x0 (ix1 n) = _
  rw [val_main_v53_apply, val_main_v52_apply, val_main_v16_apply, val_main_v20_apply, val_main_v24_apply, one15, one19, one23]
  rfl

theorem w1 (e : Fin 16) : val_main_v90 (F := Ideal) x0 (ix2 n e) = wt (ptOf x0 x1 n) 1 := by
  rw [val_main_v90_apply, val_main_v89_apply]
  show val_main_v88 (F := Ideal) x0 (ix1 n) = _
  rw [val_main_v88_apply, val_main_v87_apply, val_main_v16_apply, val_main_v20_apply, one15, one19, fz59]
  rfl

theorem w2 (e : Fin 16) : val_main_v129 (F := Ideal) x0 (ix2 n e) = wt (ptOf x0 x1 n) 2 := by
  rw [val_main_v129_apply, val_main_v128_apply]
  show val_main_v127 (F := Ideal) x0 (ix1 n) = _
  rw [val_main_v127_apply, val_main_v126_apply, val_main_v16_apply, val_main_v98_apply, one15, one97, fy94, fz96]
  rfl

theorem w3 (e : Fin 16) : val_main_v164 (F := Ideal) x0 (ix2 n e) = wt (ptOf x0 x1 n) 3 := by
  rw [val_main_v164_apply, val_main_v163_apply]
  show val_main_v162 (F := Ideal) x0 (ix1 n) = _
  rw [val_main_v162_apply, val_main_v161_apply, val_main_v16_apply, one15, fy94, fz133]
  rfl

theorem w4 (e : Fin 16) : val_main_v207 (F := Ideal) x0 (ix2 n e) = wt (ptOf x0 x1 n) 4 := by
  rw [val_main_v207_apply, val_main_v206_apply]
  show val_main_v205 (F := Ideal) x0 (ix1 n) = _
  rw [val_main_v205_apply, val_main_v204_apply, val_main_v172_apply, val_main_v176_apply, one171, one175, fx168, fy170, fz174]
  rfl

theorem w5 (e : Fin 16) : val_main_v242 (F := Ideal) x0 (ix2 n e) = wt (ptOf x0 x1 n) 5 := by
  rw [val_main_v242_apply, val_main_v241_apply]
  show val_main_v240 (F := Ideal) x0 (ix1 n) = _
  rw [val_main_v240_apply, val_main_v239_apply, val_main_v172_apply, one171, fx168, fy170, fz211]
  rfl

theorem w6 (e : Fin 16) : val_main_v281 (F := Ideal) x0 (ix2 n e) = wt (ptOf x0 x1 n) 6 := by
  rw [val_main_v281_apply, val_main_v280_apply]
  show val_main_v279 (F := Ideal) x0 (ix1 n) = _
  rw [val_main_v279_apply, val_main_v278_apply, val_main_v250_apply, one249, fx168, fy246, fz248]
  rfl

theorem w7 (e : Fin 16) : val_main_v316 (F := Ideal) x0 (ix2 n e) = wt (ptOf x0 x1 n) 7 := by
  rw [val_main_v316_apply, val_main_v315_apply]
  show val_main_v314 (F := Ideal) x0 (ix1 n) = _
  rw [val_main_v314_apply, val_main_v313_apply, fx168, fy246, fz285]
  rfl

/-- The embedding at (n, e). -/
theorem emb_apply (e : Fin 16) :
    val_main_v318 (F := Ideal) x0 x1 (ix2 n e) = Spec.emb (ptOf x0 x1 n) e := by
  rw [val_main_v318_apply, val_main_v283_apply, val_main_v244_apply, val_main_v209_apply, val_main_v166_apply,
    val_main_v131_apply, val_main_v92_apply, val_main_v57_apply, val_main_v317_apply, val_main_v282_apply,
    val_main_v243_apply, val_main_v208_apply, val_main_v165_apply, val_main_v130_apply, val_main_v91_apply,
    val_main_v56_apply, w0 x0 x1 n e, w1 x0 x1 n e, w2 x0 x1 n e, w3 x0 x1 n e, w4 x0 x1 n e, w5 x0 x1 n e,
    w6 x0 x1 n e, w7 x0 x1 n e, val_main_v12_apply]
  rfl

/-! ## The input row: the embedding followed by the position -/

/-- The network's input row at (n, k). -/
theorem h_apply (k : Fin 19) :
    val_main_v319 (F := Ideal) x0 x1 (ix2 n k) = rh (ptOf x0 x1 n) k := by
  refine Fin.addCases (m := 16) (n := 3)
    (motive := fun k => val_main_v319 (F := Ideal) x0 x1 (ix2 n k) = rh (ptOf x0 x1 n) k)
    (fun e => ?_) (fun a => ?_) k
  · unfold val_main_v319 rh
    rw [concatenate_pair_apply_left (t := S524288x19) (s₁ := S524288x16) (s₂ := S524288x3) (1 : Fin 2) _ _ _
      (ix2 n (Fin.castAdd 3 e)) rfl (ix2 n e)
      (fun b => match b with | ⟨0, _⟩ => rfl | ⟨1, _⟩ => rfl), Fin.append_left]
    exact emb_apply x0 x1 n e
  · unfold val_main_v319 rh
    rw [concatenate_pair_apply_right (t := S524288x19) (s₁ := S524288x16) (s₂ := S524288x3) (1 : Fin 2) _ _ _
      (ix2 n (Fin.natAdd 16 a)) rfl rfl (ix2 n a)
      (fun b => match b with | ⟨0, _⟩ => fun _ => rfl | ⟨1, _⟩ => fun h => absurd rfl h)
      (by show a.val + 16 = 16 + a.val; omega), Fin.append_right]
    rfl

/-! ## The forward pass -/

section Forward
variable (j : Fin 128)

theorem z0_apply :
    val_main_v324 (F := Ideal) x0 x1 x2 x3 (ix2 n j) = rz0 (wtsOf x2 x3 x4 x5 x6 x7) (ptOf x0 x1 n) j := by
  rw [val_main_v324_apply, val_main_v321_apply, val_main_v323_apply, val_main_v322_apply, Ideal.addf_def]
  unfold rz0
  refine congrArg₂ (· + ·) (Finset.sum_congr rfl fun k _ => ?_) ?_
  · have el : lidx_main_v321 (ix2 n j) k = ix2 n k :=
      funext fun a => match a with | ⟨0, _⟩ => rfl | ⟨1, _⟩ => rfl
    have er : idx_main_v320 (ridx_main_v321 (ix2 n j) k) = ix2 j k :=
      funext fun a => match a with | ⟨0, _⟩ => rfl | ⟨1, _⟩ => rfl
    rw [el, h_apply, val_main_v320_apply, er]
    rfl
  · have eb : idx_main_v322 (idx_main_v323 (ix2 n j)) = ix1 j :=
      funext fun a => match a with | ⟨0, _⟩ => rfl
    rw [eb]
    rfl

end Forward

section Forward
variable (j : Fin 128)

theorem arg0_apply :
    val_main_v326 (F := Ideal) x0 x1 x2 x3 (ix2 n j) = rarg0 (wtsOf x2 x3 x4 x5 x6 x7) (ptOf x0 x1 n) j := by
  rw [val_main_v326_apply, val_main_v325_apply, z0_apply x0 x1 x2 x3 x4 x5 x6 x7 n j]
  rfl

theorem a0_apply :
    val_main_v327 (F := Ideal) x0 x1 x2 x3 (ix2 n j) = ra0 (wtsOf x2 x3 x4 x5 x6 x7) (ptOf x0 x1 n) j := by
  rw [val_main_v327_apply, arg0_apply x0 x1 x2 x3 x4 x5 x6 x7 n j]
  rfl

theorem c0_apply :
    val_main_v328 (F := Ideal) x0 x1 x2 x3 (ix2 n j) = rc0 (wtsOf x2 x3 x4 x5 x6 x7) (ptOf x0 x1 n) j := by
  rw [val_main_v328_apply, arg0_apply x0 x1 x2 x3 x4 x5 x6 x7 n j]
  rfl

theorem z1_apply :
    val_main_v333 (F := Ideal) x0 x1 x2 x3 x4 x5 (ix2 n j) = rz1 (wtsOf x2 x3 x4 x5 x6 x7) (ptOf x0 x1 n) j := by
  rw [val_main_v333_apply, val_main_v330_apply, val_main_v332_apply, val_main_v331_apply, Ideal.addf_def]
  unfold rz1
  refine congrArg₂ (· + ·) (Finset.sum_congr rfl fun k _ => ?_) ?_
  · have el : lidx_main_v330 (ix2 n j) k = ix2 n k :=
      funext fun a => match a with | ⟨0, _⟩ => rfl | ⟨1, _⟩ => rfl
    have er : idx_main_v329 (ridx_main_v330 (ix2 n j) k) = ix2 j k :=
      funext fun a => match a with | ⟨0, _⟩ => rfl | ⟨1, _⟩ => rfl
    rw [el, a0_apply x0 x1 x2 x3 x4 x5 x6 x7 n k, val_main_v329_apply, er]
    rfl
  · have eb : idx_main_v331 (idx_main_v332 (ix2 n j)) = ix1 j :=
      funext fun a => match a with | ⟨0, _⟩ => rfl
    rw [eb]
    rfl

theorem arg1_apply :
    val_main_v335 (F := Ideal) x0 x1 x2 x3 x4 x5 (ix2 n j) = rarg1 (wtsOf x2 x3 x4 x5 x6 x7) (ptOf x0 x1 n) j := by
  rw [val_main_v335_apply, val_main_v334_apply, z1_apply x0 x1 x2 x3 x4 x5 x6 x7 n j]
  rfl

theorem a1_apply :
    val_main_v336 (F := Ideal) x0 x1 x2 x3 x4 x5 (ix2 n j) = ra1 (wtsOf x2 x3 x4 x5 x6 x7) (ptOf x0 x1 n) j := by
  rw [val_main_v336_apply, arg1_apply x0 x1 x2 x3 x4 x5 x6 x7 n j]
  rfl

theorem c1_apply :
    val_main_v337 (F := Ideal) x0 x1 x2 x3 x4 x5 (ix2 n j) = rc1 (wtsOf x2 x3 x4 x5 x6 x7) (ptOf x0 x1 n) j := by
  rw [val_main_v337_apply, arg1_apply x0 x1 x2 x3 x4 x5 x6 x7 n j]
  rfl

end Forward

/-- The network's output at point n. -/
theorem out_apply :
    val_main_v342 (F := Ideal) x0 x1 x2 x3 x4 x5 x6 x7 (ix2 n (0 : Fin 1))
      = rout (wtsOf x2 x3 x4 x5 x6 x7) (ptOf x0 x1 n) := by
  rw [val_main_v342_apply, val_main_v339_apply, val_main_v341_apply, val_main_v340_apply, Ideal.addf_def]
  unfold rout
  refine congrArg₂ (· + ·) (Finset.sum_congr rfl fun k _ => ?_) ?_
  · have el : lidx_main_v339 (ix2 n (0 : Fin 1)) k = ix2 n k :=
      funext fun a => match a with | ⟨0, _⟩ => rfl | ⟨1, _⟩ => rfl
    have er : idx_main_v338 (ridx_main_v339 (ix2 n (0 : Fin 1)) k) = ix2 (0 : Fin 1) k :=
      funext fun a => match a with | ⟨0, _⟩ => rfl | ⟨1, _⟩ => rfl
    rw [el, a1_apply x0 x1 x2 x3 x4 x5 x6 x7 n k, val_main_v338_apply, er]
    rfl
  · have eb : idx_main_v340 (idx_main_v341 (ix2 n (0 : Fin 1))) = ix1 (0 : Fin 1) :=
      funext fun a => match a with | ⟨0, _⟩ => rfl
    rw [eb]
    rfl

/-! ## The reverse pass: from the unit seed to the cotangent of the input row -/

section Backward
variable (j : Fin 128)

theorem g344_apply :
    val_main_v344 (F := Ideal) x6 (ix2 n j) = r344 (wtsOf x2 x3 x4 x5 x6 x7) j := by
  rw [val_main_v344_apply, Fin.sum_univ_one, val_main_v343_apply, val_main_v338_apply]
  have er : idx_main_v338 (ridx_main_v344 (ix2 n j) (0 : Fin 1)) = ix2 (0 : Fin 1) j :=
    funext fun a => match a with | ⟨0, _⟩ => rfl | ⟨1, _⟩ => rfl
  rw [er]
  rfl

theorem g347_apply :
    val_main_v347 (F := Ideal) x0 x1 x2 x3 x4 x5 x6 (ix2 n j) = r347 (wtsOf x2 x3 x4 x5 x6 x7) (ptOf x0 x1 n) j := by
  rw [val_main_v347_apply, val_main_v346_apply, val_main_v345_apply, g344_apply x2 x3 x4 x5 x6 x7 n j,
    c1_apply x0 x1 x2 x3 x4 x5 x6 x7 n j]
  rfl

theorem g348_apply :
    val_main_v348 (F := Ideal) x0 x1 x2 x3 x4 x5 x6 (ix2 n j) = r348 (wtsOf x2 x3 x4 x5 x6 x7) (ptOf x0 x1 n) j := by
  rw [val_main_v348_apply]
  unfold r348
  refine Finset.sum_congr rfl fun k _ => ?_
  have el : lidx_main_v348 (ix2 n j) k = ix2 n k :=
    funext fun a => match a with | ⟨0, _⟩ => rfl | ⟨1, _⟩ => rfl
  have er : idx_main_v329 (ridx_main_v348 (ix2 n j) k) = ix2 k j :=
    funext fun a => match a with | ⟨0, _⟩ => rfl | ⟨1, _⟩ => rfl
  rw [el, g347_apply x0 x1 x2 x3 x4 x5 x6 x7 n k, val_main_v329_apply, er]
  rfl

theorem g351_apply :
    val_main_v351 (F := Ideal) x0 x1 x2 x3 x4 x5 x6 (ix2 n j) = r351 (wtsOf x2 x3 x4 x5 x6 x7) (ptOf x0 x1 n) j := by
  rw [val_main_v351_apply, val_main_v350_apply, val_main_v349_apply, g348_apply x0 x1 x2 x3 x4 x5 x6 x7 n j,
    c0_apply x0 x1 x2 x3 x4 x5 x6 x7 n j]
  rfl

end Backward

/-- The cotangent of the input row at (n, i). -/
theorem g352_apply (i : Fin 19) :
    val_main_v352 (F := Ideal) x0 x1 x2 x3 x4 x5 x6 (ix2 n i) = r352 (wtsOf x2 x3 x4 x5 x6 x7) (ptOf x0 x1 n) i := by
  rw [val_main_v352_apply]
  unfold r352
  refine Finset.sum_congr rfl fun k _ => ?_
  have el : lidx_main_v352 (ix2 n i) k = ix2 n k :=
    funext fun a => match a with | ⟨0, _⟩ => rfl | ⟨1, _⟩ => rfl
  have er : idx_main_v320 (ridx_main_v352 (ix2 n i) k) = ix2 k i :=
    funext fun a => match a with | ⟨0, _⟩ => rfl | ⟨1, _⟩ => rfl
  rw [el, g351_apply x0 x1 x2 x3 x4 x5 x6 x7 n k, val_main_v320_apply, er]
  rfl

/-- The embedding's cotangent: the first sixteen entries. -/
theorem D_apply (e : Fin 16) :
    val_main_v353 (F := Ideal) x0 x1 x2 x3 x4 x5 x6 (ix2 n e) = rD (wtsOf x2 x3 x4 x5 x6 x7) (ptOf x0 x1 n) e := by
  rw [val_main_v353_apply]
  have ei : idx_main_v353 (ix2 n e) = ix2 n (Fin.castAdd 3 e) :=
    funext fun a => match a with | ⟨0, _⟩ => rfl | ⟨1, _⟩ => rfl
  rw [ei, g352_apply x0 x1 x2 x3 x4 x5 x6 x7 n (Fin.castAdd 3 e)]
  rfl

/-- The position's direct cotangent: the last three entries. -/
theorem d3_apply (a : Fin 3) :
    val_main_v354 (F := Ideal) x0 x1 x2 x3 x4 x5 x6 (ix2 n a) = rd3 (wtsOf x2 x3 x4 x5 x6 x7) (ptOf x0 x1 n) a := by
  rw [val_main_v354_apply]
  have ei : idx_main_v354 (ix2 n a) = ix2 n (Fin.natAdd 16 a) :=
    funext fun b => match b with | ⟨0, _⟩ => rfl | ⟨1, _⟩ => rfl
  rw [ei, g352_apply x0 x1 x2 x3 x4 x5 x6 x7 n (Fin.natAdd 16 a)]
  rfl

end Cert.RFwd

end
-- ==== Proof.RBwd.lean ====
/-
  The tail of the reference's reverse-mode gradient, read at one row and one column.

  For each corner, 7 down to 0, the program multiplies the corner's grid row into the back-propagated embedding
  gradient, sums the sixteen features (a sum from zero, then a second sum from zero over a single entry) into the
  cotangent of the corner's scalar weight, multiplies that into the three partial products of the weight's factors,
  negates the near-side ones, pads each vector into one column of a three-column array (zero elsewhere) and
  accumulates.  Read at a column, the pads of the other two columns add zero and drop out; what is left is the
  order of products and sums the specification's Tx, Ty, Tz spell.  The last two operations scale by 127 and add
  the position columns' cotangent.
-/
import proofs.«171612_j42777874268460_1_alg».proof.Proof.Atoms
import Idealize.ShloMosaic.Lib.ValueIdx
import Idealize.ShloMosaic.Lib.Pipeline.Value
import Idealize.ShloMosaic.Lib.ValueLayout
import Idealize.ShloMosaic.PureOps.Ideal.Laws

noncomputable section

namespace Cert.RBwd

open Cert.Atoms Cert.Spec Cert.ReferenceIdeal Cert.ReferenceIdeal.ReadP Idealize.ShloMosaic Idealize.ShloMosaic.ValueIdx

/-- A column vector padded into column `k` of a three-column array, read at row `n`, column `a`: the vector's entry
    at `n` in column `k`, the padding value (zero) elsewhere. -/
theorem pad_read {k hi : Nat} (r : Arr S524288x1) (src : Arr S524288) (z : Arr S_)
    (h : S524288x1.Pads (![0, k] : Fin 2 → Nat) ![0, hi] ![0, 0] S524288x3) (hu : 0 < S_.numel)
    (hr : ∀ i, r i = src (idx_main_v363 i)) (hz : ∀ i, z i = FloatOps.ofBits (F := Ideal) .f32 0x00000000#32)
    (n : Fin 524288) (a : Fin 3) :
    pad S524288x3 (![0, k] : Fin 2 → Nat) ![0, hi] ![0, 0] r z h hu (ix2 n a)
      = if a.val = k then src (ix1 n) else 0 := by
  unfold pad
  by_cases ha : a.val = k
  · rw [if_pos ha]
    split
    · rw [hr]
      exact congrArg src (funext fun b => match b with
        | ⟨0, _⟩ => Fin.ext (by show (n.val - 0) / (0 + 1) = n.val; simp))
    · rename_i hne
      refine absurd (fun b => ?_) hne
      match b with
      | ⟨0, _⟩ =>
        show 0 ≤ n.val ∧ (n.val - 0) % (0 + 1) = 0 ∧ (n.val - 0) / (0 + 1) < 524288
        have := n.isLt
        simp; omega
      | ⟨1, _⟩ =>
        show k ≤ a.val ∧ (a.val - k) % (0 + 1) = 0 ∧ (a.val - k) / (0 + 1) < 1
        simp [ha]
  · rw [if_neg ha]
    split
    · rename_i hin
      exfalso
      have h1 : k ≤ a.val ∧ (a.val - k) % (0 + 1) = 0 ∧ (a.val - k) / (0 + 1) < 1 := hin (1 : Fin 2)
      have h2 := h1.2.2
      rw [Nat.zero_add, Nat.div_one] at h2
      have h3 := h1.1
      omega
    · rw [hz, Ideal.ofBits_def, Ideal.ofBits_zero_f32]

/-- The two-stage sum of a product over the sixteen features, read at row `n`: both stages start from zero and the
    second runs over a single entry. -/
theorem corner_sum {r2 r0 : Arr S524288} {r1 : Arr S524288x1} {m g d : Arr S524288x16} {z2 z0 : Arr S_}
    {hu2 hu0 : 0 < S_.numel}
    (h2 : ∀ i, r2 i = z2 (Shape.Idx.first hu2) + ∑ k : Fin 1, r1 (idx_main_v358 i k))
    (hz2 : ∀ i, z2 i = FloatOps.ofBits (F := Ideal) .f32 0x00000000#32)
    (h1 : ∀ i, r1 i = r0 (idx_main_v357 i))
    (h0 : ∀ i, r0 i = z0 (Shape.Idx.first hu0) + ∑ k : Fin 16, m (idx_main_v356 i k))
    (hz0 : ∀ i, z0 i = FloatOps.ofBits (F := Ideal) .f32 0x00000000#32)
    (hm : ∀ i, m i = FloatOps.mulf (F := Ideal) (φ := .f32) (g i) (d i)) (n : Fin 524288) :
    r2 (ix1 n) = ∑ e : Fin 16, g (ix2 n e) * d (ix2 n e) := by
  rw [h2, hz2, Fin.sum_univ_one, h1, h0, hz0, Ideal.ofBits_def, Ideal.ofBits_zero_f32, zero_add, zero_add]
  refine Finset.sum_congr rfl fun e _ => ?_
  rw [hm, Ideal.mulf_def]
  have hi : idx_main_v356 (idx_main_v357 (idx_main_v358 (ix1 n) 0)) e = ix2 n e :=
    funext fun b => match b with
      | ⟨0, _⟩ => Fin.ext (by show n.val * 1 + (0 : Fin 1).val = n.val; simp)
      | ⟨1, _⟩ => rfl
  rw [hi]

section Tail
variable (x0 : Arr S524288x3) (x1 : Arr S128x128x128x16) (x2 : Arr S128x19) (x3 : Arr S128) (x4 : Arr S128x128)
  (x5 : Arr S128) (x6 : Arr S1x128) (n : Fin 524288)

local notation "⟪" f "⟫" => f x0 x1 x2 x3 x4 x5 x6

/-! ### The one-axis factors of the corner weights at row `n`

The program slices the fractional coordinates again for every corner; each copy is the same slice of the same array. -/

theorem f168 : val_main_v168 (F := Ideal) x0 (ix1 n) = (ptOf x0 x1 n).fx := rfl
theorem f246 : val_main_v246 (F := Ideal) x0 (ix1 n) = (ptOf x0 x1 n).fy := rfl
theorem f94 : val_main_v94 (F := Ideal) x0 (ix1 n) = (ptOf x0 x1 n).fy := rfl
theorem f285 : val_main_v285 (F := Ideal) x0 (ix1 n) = (ptOf x0 x1 n).fz := rfl
theorem f211 : val_main_v211 (F := Ideal) x0 (ix1 n) = (ptOf x0 x1 n).fz := rfl
theorem f133 : val_main_v133 (F := Ideal) x0 (ix1 n) = (ptOf x0 x1 n).fz := rfl
theorem f59 : val_main_v59 (F := Ideal) x0 (ix1 n) = (ptOf x0 x1 n).fz := rfl
theorem f16 : val_main_v16 (F := Ideal) x0 (ix1 n) = c1 - (ptOf x0 x1 n).fx := rfl
theorem f172 : val_main_v172 (F := Ideal) x0 (ix1 n) = c1 - (ptOf x0 x1 n).fy := rfl
theorem f20 : val_main_v20 (F := Ideal) x0 (ix1 n) = c1 - (ptOf x0 x1 n).fy := rfl
theorem f250 : val_main_v250 (F := Ideal) x0 (ix1 n) = c1 - (ptOf x0 x1 n).fz := rfl
theorem f176 : val_main_v176 (F := Ideal) x0 (ix1 n) = c1 - (ptOf x0 x1 n).fz := rfl
theorem f98 : val_main_v98 (F := Ideal) x0 (ix1 n) = c1 - (ptOf x0 x1 n).fz := rfl
theorem f24 : val_main_v24 (F := Ideal) x0 (ix1 n) = c1 - (ptOf x0 x1 n).fz := rfl

/-! ### The cotangent of each corner's weight at row `n` -/

theorem s7 (D : Fin 16 → EReal) (hD : ∀ e, ⟪val_main_v353 (F := Ideal)⟫ (ix2 n e) = D e) :
    ⟪val_main_v358 (F := Ideal)⟫ (ix1 n) = ∑ e : Fin 16, (ptOf x0 x1 n).G 7 e * D e :=
  (corner_sum ⟪val_main_v358_apply⟫ val_main_cst_81_apply ⟪val_main_v357_apply⟫ ⟪val_main_v356_apply⟫
    val_main_cst_80_apply ⟪val_main_v355_apply⟫ n).trans (Finset.sum_congr rfl fun e _ => by rw [hD e]; rfl)

theorem s6 (D : Fin 16 → EReal) (hD : ∀ e, ⟪val_main_v353 (F := Ideal)⟫ (ix2 n e) = D e) :
    ⟪val_main_v368 (F := Ideal)⟫ (ix1 n) = ∑ e : Fin 16, (ptOf x0 x1 n).G 6 e * D e :=
  (corner_sum ⟪val_main_v368_apply⟫ val_main_cst_84_apply ⟪val_main_v367_apply⟫ ⟪val_main_v366_apply⟫
    val_main_cst_83_apply ⟪val_main_v365_apply⟫ n).trans (Finset.sum_congr rfl fun e _ => by rw [hD e]; rfl)

theorem s5 (D : Fin 16 → EReal) (hD : ∀ e, ⟪val_main_v353 (F := Ideal)⟫ (ix2 n e) = D e) :
    ⟪val_main_v385 (F := Ideal)⟫ (ix1 n) = ∑ e : Fin 16, (ptOf x0 x1 n).G 5 e * D e :=
  (corner_sum ⟪val_main_v385_apply⟫ val_main_cst_88_apply ⟪val_main_v384_apply⟫ ⟪val_main_v383_apply⟫
    val_main_cst_87_apply ⟪val_main_v382_apply⟫ n).trans (Finset.sum_congr rfl fun e _ => by rw [hD e]; rfl)

theorem s4 (D : Fin 16 → EReal) (hD : ∀ e, ⟪val_main_v353 (F := Ideal)⟫ (ix2 n e) = D e) :
    ⟪val_main_v397 (F := Ideal)⟫ (ix1 n) = ∑ e : Fin 16, (ptOf x0 x1 n).G 4 e * D e :=
  (corner_sum ⟪val_main_v397_apply⟫ val_main_cst_91_apply ⟪val_main_v396_apply⟫ ⟪val_main_v395_apply⟫
    val_main_cst_90_apply ⟪val_main_v394_apply⟫ n).trans (Finset.sum_congr rfl fun e _ => by rw [hD e]; rfl)

theorem s3 (D : Fin 16 → EReal) (hD : ∀ e, ⟪val_main_v353 (F := Ideal)⟫ (ix2 n e) = D e) :
    ⟪val_main_v418 (F := Ideal)⟫ (ix1 n) = ∑ e : Fin 16, (ptOf x0 x1 n).G 3 e * D e :=
  (corner_sum ⟪val_main_v418_apply⟫ val_main_cst_96_apply ⟪val_main_v417_apply⟫ ⟪val_main_v416_apply⟫
    val_main_cst_95_apply ⟪val_main_v415_apply⟫ n).trans (Finset.sum_congr rfl fun e _ => by rw [hD e]; rfl)

theorem s2 (D : Fin 16 → EReal) (hD : ∀ e, ⟪val_main_v353 (F := Ideal)⟫ (ix2 n e) = D e) :
    ⟪val_main_v429 (F := Ideal)⟫ (ix1 n) = ∑ e : Fin 16, (ptOf x0 x1 n).G 2 e * D e :=
  (corner_sum ⟪val_main_v429_apply⟫ val_main_cst_99_apply ⟪val_main_v428_apply⟫ ⟪val_main_v427_apply⟫
    val_main_cst_98_apply ⟪val_main_v426_apply⟫ n).trans (Finset.sum_congr rfl fun e _ => by rw [hD e]; rfl)

theorem s1 (D : Fin 16 → EReal) (hD : ∀ e, ⟪val_main_v353 (F := Ideal)⟫ (ix2 n e) = D e) :
    ⟪val_main_v446 (F := Ideal)⟫ (ix1 n) = ∑ e : Fin 16, (ptOf x0 x1 n).G 1 e * D e :=
  (corner_sum ⟪val_main_v446_apply⟫ val_main_cst_103_apply ⟪val_main_v445_apply⟫ ⟪val_main_v444_apply⟫
    val_main_cst_102_apply ⟪val_main_v443_apply⟫ n).trans (Finset.sum_congr rfl fun e _ => by rw [hD e]; rfl)

theorem s0 (D : Fin 16 → EReal) (hD : ∀ e, ⟪val_main_v353 (F := Ideal)⟫ (ix2 n e) = D e) :
    ⟪val_main_v458 (F := Ideal)⟫ (ix1 n) = ∑ e : Fin 16, (ptOf x0 x1 n).G 0 e * D e :=
  (corner_sum ⟪val_main_v458_apply⟫ val_main_cst_106_apply ⟪val_main_v457_apply⟫ ⟪val_main_v456_apply⟫
    val_main_cst_105_apply ⟪val_main_v455_apply⟫ n).trans (Finset.sum_congr rfl fun e _ => by rw [hD e]; rfl)

/-! ### The fourteen padded columns at row `n`, column `a` -/

theorem p364 (a : Fin 3) : ⟪val_main_v364 (F := Ideal)⟫ (ix2 n a)
    = if a.val = 2 then ⟪val_main_v359 (F := Ideal)⟫ (ix1 n) else 0 := by
  unfold val_main_v364
  exact pad_read _ _ _ _ _ ⟪val_main_v363_apply⟫ val_main_cst_82_apply n a

theorem p377 (a : Fin 3) : ⟪val_main_v377 (F := Ideal)⟫ (ix2 n a)
    = if a.val = 2 then ⟪val_main_v375 (F := Ideal)⟫ (ix1 n) else 0 := by
  unfold val_main_v377
  exact pad_read _ _ _ _ _ ⟪val_main_v376_apply⟫ val_main_cst_85_apply n a

theorem p380 (a : Fin 3) : ⟪val_main_v380 (F := Ideal)⟫ (ix2 n a)
    = if a.val = 1 then ⟪val_main_v372 (F := Ideal)⟫ (ix1 n) else 0 := by
  unfold val_main_v380
  exact pad_read _ _ _ _ _ ⟪val_main_v379_apply⟫ val_main_cst_86_apply n a

theorem p392 (a : Fin 3) : ⟪val_main_v392 (F := Ideal)⟫ (ix2 n a)
    = if a.val = 2 then ⟪val_main_v386 (F := Ideal)⟫ (ix1 n) else 0 := by
  unfold val_main_v392
  exact pad_read _ _ _ _ _ ⟪val_main_v391_apply⟫ val_main_cst_89_apply n a

theorem p406 (a : Fin 3) : ⟪val_main_v406 (F := Ideal)⟫ (ix2 n a)
    = if a.val = 2 then ⟪val_main_v404 (F := Ideal)⟫ (ix1 n) else 0 := by
  unfold val_main_v406
  exact pad_read _ _ _ _ _ ⟪val_main_v405_apply⟫ val_main_cst_92_apply n a

theorem p410 (a : Fin 3) : ⟪val_main_v410 (F := Ideal)⟫ (ix2 n a)
    = if a.val = 1 then ⟪val_main_v408 (F := Ideal)⟫ (ix1 n) else 0 := by
  unfold val_main_v410
  exact pad_read _ _ _ _ _ ⟪val_main_v409_apply⟫ val_main_cst_93_apply n a

theorem p413 (a : Fin 3) : ⟪val_main_v413 (F := Ideal)⟫ (ix2 n a)
    = if a.val = 0 then ⟪val_main_v403 (F := Ideal)⟫ (ix1 n) else 0 := by
  unfold val_main_v413
  exact pad_read _ _ _ _ _ ⟪val_main_v412_apply⟫ val_main_cst_94_apply n a

theorem p424 (a : Fin 3) : ⟪val_main_v424 (F := Ideal)⟫ (ix2 n a)
    = if a.val = 2 then ⟪val_main_v419 (F := Ideal)⟫ (ix1 n) else 0 := by
  unfold val_main_v424
  exact pad_read _ _ _ _ _ ⟪val_main_v423_apply⟫ val_main_cst_97_apply n a

theorem p438 (a : Fin 3) : ⟪val_main_v438 (F := Ideal)⟫ (ix2 n a)
    = if a.val = 2 then ⟪val_main_v436 (F := Ideal)⟫ (ix1 n) else 0 := by
  unfold val_main_v438
  exact pad_read _ _ _ _ _ ⟪val_main_v437_apply⟫ val_main_cst_100_apply n a

theorem p441 (a : Fin 3) : ⟪val_main_v441 (F := Ideal)⟫ (ix2 n a)
    = if a.val = 1 then ⟪val_main_v433 (F := Ideal)⟫ (ix1 n) else 0 := by
  unfold val_main_v441
  exact pad_read _ _ _ _ _ ⟪val_main_v440_apply⟫ val_main_cst_101_apply n a

theorem p453 (a : Fin 3) : ⟪val_main_v453 (F := Ideal)⟫ (ix2 n a)
    = if a.val = 2 then ⟪val_main_v447 (F := Ideal)⟫ (ix1 n) else 0 := by
  unfold val_main_v453
  exact pad_read _ _ _ _ _ ⟪val_main_v452_apply⟫ val_main_cst_104_apply n a

theorem p467 (a : Fin 3) : ⟪val_main_v467 (F := Ideal)⟫ (ix2 n a)
    = if a.val = 2 then ⟪val_main_v465 (F := Ideal)⟫ (ix1 n) else 0 := by
  unfold val_main_v467
  exact pad_read _ _ _ _ _ ⟪val_main_v466_apply⟫ val_main_cst_107_apply n a

theorem p471 (a : Fin 3) : ⟪val_main_v471 (F := Ideal)⟫ (ix2 n a)
    = if a.val = 1 then ⟪val_main_v469 (F := Ideal)⟫ (ix1 n) else 0 := by
  unfold val_main_v471
  exact pad_read _ _ _ _ _ ⟪val_main_v470_apply⟫ val_main_cst_108_apply n a

theorem p475 (a : Fin 3) : ⟪val_main_v475 (F := Ideal)⟫ (ix2 n a)
    = if a.val = 0 then ⟪val_main_v473 (F := Ideal)⟫ (ix1 n) else 0 := by
  unfold val_main_v475
  exact pad_read _ _ _ _ _ ⟪val_main_v474_apply⟫ val_main_cst_109_apply n a

/-! ### The three columns of the accumulated array at row `n`

In each column the pads of the other two columns contribute zero, which the sums drop; what is left is the
program's own order of products and sums. -/

theorem col2 (D : Fin 16 → EReal) (hD : ∀ e, ⟪val_main_v353 (F := Ideal)⟫ (ix2 n e) = D e) :
    ⟪val_main_v476 (F := Ideal)⟫ (ix2 n (2 : Fin 3))
      = Spec.Tz (ptOf x0 x1 n) (fun c => ∑ e : Fin 16, (ptOf x0 x1 n).G c e * D e) := by
  simp only [val_main_v476_apply, val_main_v472_apply, val_main_v468_apply, val_main_v454_apply,
    val_main_v442_apply, val_main_v439_apply, val_main_v425_apply, val_main_v414_apply, val_main_v411_apply,
    val_main_v407_apply, val_main_v393_apply, val_main_v381_apply, val_main_v378_apply,
    p364, p377, p380, p392, p406, p410, p413, p424, p438, p441, p453, p467, p471, p475, Ideal.addf_def,
    if_pos (show (2 : Fin 3).val = 2 from rfl), if_neg (show ¬ (2 : Fin 3).val = 1 by decide),
    if_neg (show ¬ (2 : Fin 3).val = 0 by decide), add_zero, zero_add]
  simp only [val_main_v359_apply, val_main_v313_apply, val_main_v375_apply, val_main_v369_apply,
    val_main_v278_apply, val_main_v386_apply, val_main_v239_apply, val_main_v404_apply, val_main_v398_apply,
    val_main_v204_apply, val_main_v419_apply, val_main_v161_apply, val_main_v436_apply, val_main_v430_apply,
    val_main_v126_apply, val_main_v447_apply, val_main_v87_apply, val_main_v465_apply, val_main_v459_apply,
    val_main_v52_apply, Ideal.hostNegf_def, Ideal.negf_def, Ideal.mulf_def,
    s7 x0 x1 x2 x3 x4 x5 x6 n D hD, s6 x0 x1 x2 x3 x4 x5 x6 n D hD, s5 x0 x1 x2 x3 x4 x5 x6 n D hD,
    s4 x0 x1 x2 x3 x4 x5 x6 n D hD, s3 x0 x1 x2 x3 x4 x5 x6 n D hD, s2 x0 x1 x2 x3 x4 x5 x6 n D hD,
    s1 x0 x1 x2 x3 x4 x5 x6 n D hD, s0 x0 x1 x2 x3 x4 x5 x6 n D hD,
    f168 x0 x1 n, f246 x0 x1 n, f94 x0 x1 n, f285 x0 x1 n, f211 x0 x1 n, f133 x0 x1 n, f59 x0 x1 n, f16 x0 x1 n,
    f172 x0 x1 n, f20 x0 x1 n, f250 x0 x1 n, f176 x0 x1 n, f98 x0 x1 n, f24 x0 x1 n]
  rfl

theorem col1 (D : Fin 16 → EReal) (hD : ∀ e, ⟪val_main_v353 (F := Ideal)⟫ (ix2 n e) = D e) :
    ⟪val_main_v476 (F := Ideal)⟫ (ix2 n (1 : Fin 3))
      = Spec.Ty (ptOf x0 x1 n) (fun c => ∑ e : Fin 16, (ptOf x0 x1 n).G c e * D e) := by
  simp only [val_main_v476_apply, val_main_v472_apply, val_main_v468_apply, val_main_v454_apply,
    val_main_v442_apply, val_main_v439_apply, val_main_v425_apply, val_main_v414_apply, val_main_v411_apply,
    val_main_v407_apply, val_main_v393_apply, val_main_v381_apply, val_main_v378_apply,
    p364, p377, p380, p392, p406, p410, p413, p424, p438, p441, p453, p467, p471, p475, Ideal.addf_def,
    if_pos (show (1 : Fin 3).val = 1 from rfl), if_neg (show ¬ (1 : Fin 3).val = 2 by decide),
    if_neg (show ¬ (1 : Fin 3).val = 0 by decide), add_zero, zero_add]
  simp only [val_main_v372_apply, val_main_v361_apply, val_main_v360_apply, val_main_v371_apply,
    val_main_v370_apply, val_main_v408_apply, val_main_v401_apply, val_main_v388_apply, val_main_v387_apply,
    val_main_v400_apply, val_main_v399_apply, val_main_v433_apply, val_main_v421_apply, val_main_v420_apply,
    val_main_v432_apply, val_main_v431_apply, val_main_v469_apply, val_main_v462_apply, val_main_v449_apply,
    val_main_v448_apply, val_main_v461_apply, val_main_v460_apply, Ideal.hostNegf_def, Ideal.negf_def,
    Ideal.mulf_def, Ideal.addf_def,
    s7 x0 x1 x2 x3 x4 x5 x6 n D hD, s6 x0 x1 x2 x3 x4 x5 x6 n D hD, s5 x0 x1 x2 x3 x4 x5 x6 n D hD,
    s4 x0 x1 x2 x3 x4 x5 x6 n D hD, s3 x0 x1 x2 x3 x4 x5 x6 n D hD, s2 x0 x1 x2 x3 x4 x5 x6 n D hD,
    s1 x0 x1 x2 x3 x4 x5 x6 n D hD, s0 x0 x1 x2 x3 x4 x5 x6 n D hD,
    f168 x0 x1 n, f246 x0 x1 n, f94 x0 x1 n, f285 x0 x1 n, f211 x0 x1 n, f133 x0 x1 n, f59 x0 x1 n, f16 x0 x1 n,
    f172 x0 x1 n, f20 x0 x1 n, f250 x0 x1 n, f176 x0 x1 n, f98 x0 x1 n, f24 x0 x1 n]
  rfl

theorem col0 (D : Fin 16 → EReal) (hD : ∀ e, ⟪val_main_v353 (F := Ideal)⟫ (ix2 n e) = D e) :
    ⟪val_main_v476 (F := Ideal)⟫ (ix2 n (0 : Fin 3))
      = Spec.Tx (ptOf x0 x1 n) (fun c => ∑ e : Fin 16, (ptOf x0 x1 n).G c e * D e) := by
  simp only [val_main_v476_apply, val_main_v472_apply, val_main_v468_apply, val_main_v454_apply,
    val_main_v442_apply, val_main_v439_apply, val_main_v425_apply, val_main_v414_apply, val_main_v411_apply,
    val_main_v407_apply, val_main_v393_apply, val_main_v381_apply, val_main_v378_apply,
    p364, p377, p380, p392, p406, p410, p413, p424, p438, p441, p453, p467, p471, p475, Ideal.addf_def,
    if_pos (show (0 : Fin 3).val = 0 from rfl), if_neg (show ¬ (0 : Fin 3).val = 2 by decide),
    if_neg (show ¬ (0 : Fin 3).val = 1 by decide), add_zero, zero_add]
  simp only [val_main_v403_apply, val_main_v390_apply, val_main_v374_apply, val_main_v362_apply,
    val_main_v360_apply, val_main_v373_apply, val_main_v370_apply, val_main_v389_apply, val_main_v387_apply,
    val_main_v402_apply, val_main_v399_apply, val_main_v473_apply, val_main_v464_apply, val_main_v451_apply,
    val_main_v435_apply, val_main_v422_apply, val_main_v420_apply, val_main_v434_apply, val_main_v431_apply,
    val_main_v450_apply, val_main_v448_apply, val_main_v463_apply, val_main_v460_apply, Ideal.hostNegf_def,
    Ideal.negf_def, Ideal.mulf_def, Ideal.addf_def,
    s7 x0 x1 x2 x3 x4 x5 x6 n D hD, s6 x0 x1 x2 x3 x4 x5 x6 n D hD, s5 x0 x1 x2 x3 x4 x5 x6 n D hD,
    s4 x0 x1 x2 x3 x4 x5 x6 n D hD, s3 x0 x1 x2 x3 x4 x5 x6 n D hD, s2 x0 x1 x2 x3 x4 x5 x6 n D hD,
    s1 x0 x1 x2 x3 x4 x5 x6 n D hD, s0 x0 x1 x2 x3 x4 x5 x6 n D hD,
    f168 x0 x1 n, f246 x0 x1 n, f94 x0 x1 n, f285 x0 x1 n, f211 x0 x1 n, f133 x0 x1 n, f59 x0 x1 n, f16 x0 x1 n,
    f172 x0 x1 n, f20 x0 x1 n, f250 x0 x1 n, f176 x0 x1 n, f98 x0 x1 n, f24 x0 x1 n]
  rfl

/-- The last two operations: the accumulated array times 127, added to the position columns' cotangent. -/
theorem tail_apply (a : Fin 3) : ⟪val_main_v479 (F := Ideal)⟫ (ix2 n a)
    = ⟪val_main_v354 (F := Ideal)⟫ (ix2 n a) + ⟪val_main_v476 (F := Ideal)⟫ (ix2 n a) * Spec.c127 := by
  rw [val_main_v479_apply, val_main_v478_apply, val_main_v477_apply, val_main_cst_110_apply, Ideal.addf_def,
    Ideal.mulf_def, Ideal.ofBits_def]
  rfl

end Tail

/-- The reference's gradient at row `n`, column `a`: the position columns' cotangent plus 127 times the cotangent of
    the fractional coordinate, the latter as the corners' cotangents carried through the weights' factors. -/
theorem grad_apply (x0 : Arr S524288x3) (x1 : Arr S128x128x128x16) (x2 : Arr S128x19) (x3 : Arr S128)
    (x4 : Arr S128x128) (x5 : Arr S128) (x6 : Arr S1x128) (n : Fin 524288) (a : Fin 3)
    (D : Fin 16 → EReal) (d3 : Fin 3 → EReal)
    (hD : ∀ e, val_main_v353 (F := Ideal) x0 x1 x2 x3 x4 x5 x6 (ix2 n e) = D e)
    (hd : ∀ a, val_main_v354 (F := Ideal) x0 x1 x2 x3 x4 x5 x6 (ix2 n a) = d3 a) :
    val_main_v479 (F := Ideal) x0 x1 x2 x3 x4 x5 x6 (ix2 n a)
      = d3 a + Spec.T (ptOf x0 x1 n) (fun c => ∑ e : Fin 16, (ptOf x0 x1 n).G c e * D e) a * Spec.c127 := by
  rw [tail_apply, hd a]
  match a with
  | 0 => rw [col0 x0 x1 x2 x3 x4 x5 x6 n D hD]; rfl
  | 1 => rw [col1 x0 x1 x2 x3 x4 x5 x6 n D hD]; rfl
  | 2 => rw [col2 x0 x1 x2 x3 x4 x5 x6 n D hD]; rfl

end Cert.RBwd

end
-- ==== Proof.Bridge.lean ====
/-
  The two programs' results, entry by entry.

  For sample point `n` the kernel's output block holds the network's output `kout` and its hand-derived gradient
  `kg` of the point's feature row; the reference's result arrays hold `rout` and, by reverse-mode differentiation,
  `rd3 + T·127`.  The feature row is the point's trilinear embedding, its three derivative rows and its position
  (the host side of the kernel), the forward networks agree term by term, the back-propagated input cotangents agree
  term by term, and contracting the derivative rows with the embedding cotangent is the reference's corner-by-corner
  accumulation by distributivity — valid because every quantity is a real number.
-/
import proofs.«171612_j42777874268460_1_alg».proof.Proof.Atoms
import proofs.«171612_j42777874268460_1_alg».proof.Proof.AlgNet
import proofs.«171612_j42777874268460_1_alg».proof.Proof.AlgTri
import proofs.«171612_j42777874268460_1_alg».proof.Proof.PtFin
import proofs.«171612_j42777874268460_1_alg».proof.Proof.RFwd
import proofs.«171612_j42777874268460_1_alg».proof.Proof.RBwd

noncomputable section

namespace Cert.Bridge

open Cert.Atoms Cert.Spec Cert.ReferenceIdeal Cert.ReferenceIdeal.ReadP Idealize.ShloMosaic Idealize.ShloMosaic.ValueIdx

/-- The kernel's gradient of a point's feature row is the reference's gradient of the point: the direct part
    through the last three input columns term by term, the part through the embedding by distributivity over the
    eight corners and the sixteen features. -/
theorem kg_eq (W : Wts) (P : Pt) (hW : W.Finite) (hP : P.Finite) (a : Fin 3) :
    kg W (featOf P) a = rg W P a := by
  unfold kg rg
  rw [net_dpos]
  congr 1
  have h := tri P hP (rD W P) (fun e => fin_rD W P hW hP e) a
  refine Eq.trans (Finset.sum_congr rfl fun e _ => ?_) h
  rw [net_demb]

variable (x0 : Arr S524288x3) (x1 : Arr S128x128x128x16) (x2 : Arr S128x19) (x3 : Arr S128) (x4 : Arr S128x128)
  (x5 : Arr S128) (x6 : Arr S1x128) (x7 : Arr S1)

/-- The network's output at point `n`: the kernel's, of a feature row that is the point's, is the reference's. -/
theorem out_eq (φ : Feat) (n : Fin 524288) (hφ : φ = featOf (ptOf x0 x1 n)) :
    kout (wtsOf x2 x3 x4 x5 x6 x7) φ = val_main_v342 (F := Ideal) x0 x1 x2 x3 x4 x5 x6 x7 (ix2 n (0 : Fin 1)) := by
  subst hφ
  rw [net_out]
  exact (Cert.RFwd.out_apply x0 x1 x2 x3 x4 x5 x6 x7 n).symm

/-- The gradient at point `n`, coordinate `a`: the kernel's is the reference's, all inputs being finite. -/
theorem grad_eq (h0 : ∀ i, Fin1 (x0 i)) (h1 : ∀ i, Fin1 (x1 i)) (h2 : ∀ i, Fin1 (x2 i)) (h3 : ∀ i, Fin1 (x3 i))
    (h4 : ∀ i, Fin1 (x4 i)) (h5 : ∀ i, Fin1 (x5 i)) (h6 : ∀ i, Fin1 (x6 i)) (h7 : ∀ i, Fin1 (x7 i))
    (φ : Feat) (n : Fin 524288) (hφ : φ = featOf (ptOf x0 x1 n)) (a : Fin 3) :
    kg (wtsOf x2 x3 x4 x5 x6 x7) φ a = val_main_v479 (F := Ideal) x0 x1 x2 x3 x4 x5 x6 (ix2 n a) := by
  subst hφ
  rw [kg_eq _ _ (Cert.PtFin.wts_finite x2 x3 x4 x5 x6 x7 h2 h3 h4 h5 h6 h7) (Cert.PtFin.pt_finite x0 x1 h0 h1 n) a]
  exact (Cert.RBwd.grad_apply x0 x1 x2 x3 x4 x5 x6 n a (D := rD (wtsOf x2 x3 x4 x5 x6 x7) (ptOf x0 x1 n))
    (d3 := rd3 (wtsOf x2 x3 x4 x5 x6 x7) (ptOf x0 x1 n))
    (fun e => Cert.RFwd.D_apply x0 x1 x2 x3 x4 x5 x6 x7 n e) (fun a => Cert.RFwd.d3_apply x0 x1 x2 x3 x4 x5 x6 x7 n a)).symm

end Cert.Bridge

end
-- ==== Proof.lean ====
/-
  The certificate of a neural signed-distance kernel against its reference.

  The kernel looks up, for each of 524288 sample points, the eight grid rows at the corners of the point's cell and
  forms on the host the trilinear embedding, its three derivative rows and the position; a TensorCore kernel then
  runs a two-layer sine network forward and a hand-derived backward pass over blocks of 2048 points, and returns the
  network's output and its gradient in the position.  The reference does the lookup and the network in plain array
  operations and takes the gradient by reverse-mode differentiation.

  The three frames: each program runs to the end without a fault and leaves its arguments as they were (the two
  kernel programs through the pipeline's launch around the region, the reference as a straight line of host
  operations).  The idealization rewrote nothing, so it preserves the kernel trivially.  At the ideal instance both
  programs end with the same two arrays: entry by entry the forward networks agree term by term, and the two
  gradients are one polynomial identity over the reals — every input is finite, so every intermediate quantity is a
  real number and distributivity applies.
-/
import proofs.«171612_j42777874268460_1_alg».proof.Defs
import proofs.«171612_j42777874268460_1_alg».proof.Proof.Gen.Kernel
import proofs.«171612_j42777874268460_1_alg».proof.Proof.Gen.KernelIdeal
import proofs.«171612_j42777874268460_1_alg».proof.Proof.Gen.ReferenceIdeal
import proofs.«171612_j42777874268460_1_alg».proof.Proof.Gen.Pre_finite_inputs
import proofs.«171612_j42777874268460_1_alg».proof.Proof.KFrame
import proofs.«171612_j42777874268460_1_alg».proof.Proof.KFrameB
import proofs.«171612_j42777874268460_1_alg».proof.Proof.KValue
import proofs.«171612_j42777874268460_1_alg».proof.Proof.KHost
import proofs.«171612_j42777874268460_1_alg».proof.Proof.RefRun
import proofs.«171612_j42777874268460_1_alg».proof.Proof.PreFin
import proofs.«171612_j42777874268460_1_alg».proof.Proof.PtFin
import proofs.«171612_j42777874268460_1_alg».proof.Proof.Bridge
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_kernel [Cert.Kernel.Facts] [Cert.Pre_finite_inputs.Facts] : Cert.frame_Kernel :=
  fun m ρ _ => Cert.Kernel.Hand.frame m ρ

/-- So does its idealization. -/
theorem frame_kernelIdeal [Cert.KernelIdeal.Facts] [Cert.Pre_finite_inputs.Facts] : Cert.frame_KernelIdeal :=
  fun m ρ _ => Cert.KernelIdeal.Hand.frame m ρ

/-- The reference is a straight line of host operations, none of which writes an argument. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.HandRun.run (F := Ideal) m ρ)

/-- Both idealized programs end with the reference's two stage terms of the (agreeing) arguments. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.ReferenceIdeal.ReadP.val_main_v342 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.ReferenceIdeal.ReadP.val_main_v479 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · -- the kernel: its two result arrays, read entry by entry
    refine (θ_run Cert.KernelIdeal.defs _ _).mono (fun r h c => ?_) (Cert.KernelIdeal.Value.run_value m ρ)
    obtain ⟨hout, hgrad, hargs⟩ := h c
    obtain ⟨h0, h1, h2, h3, h4, h5, h6, h7⟩ := Cert.PreFin.finite_of_Pre_KernelIdeal m hpre c
    have hin := Cert.PtFin.inRange _ h0
    refine ⟨?_, ?_, hargs⟩
    · funext i
      obtain ⟨n, rfl⟩ : ∃ n : Fin 524288, i = ix2 n (0 : Fin 1) :=
        ⟨i 0, (eq_ix2 i).trans (congrArg (ix2 (i 0)) (Subsingleton.elim (α := Fin 1) _ _))⟩
      exact (hout n).trans (Cert.Bridge.out_eq _ _ _ _ _ _ _ _ _ n (Cert.KernelIdeal.Host.feat_row m c hin n))
    · funext i
      obtain ⟨n, a, rfl⟩ : ∃ (n : Fin 524288) (a : Fin 3), i = ix2 n a := ⟨i 0, i 1, eq_ix2 i⟩
      exact (hgrad n a).trans (Cert.Bridge.grad_eq _ _ _ _ _ _ _ _ h0 h1 h2 h3 h4 h5 h6 h7 _ n
        (Cert.KernelIdeal.Host.feat_row m c hin n) a)
  · -- the reference: its run over the stages, the arguments rewritten by the agreement
    refine (θ_run Cert.ReferenceIdeal.defs _ _).mono (fun r h c => ?_) (Cert.ReferenceIdeal.HandRun.run (F := Ideal) m' ρ')
    obtain ⟨ho, hg, ha⟩ := h c
    obtain ⟨e0, e1, e2, e3, e4, e5, e6, e7⟩ := hagree c
    refine ⟨?_, ?_, ha⟩
    · rw [ho, e0, e1, e2, e3, e4, e5, e6, e7]
    · rw [hg, e0, e1, e2, e3, e4, e5, e6]

theorem claim : Cert.Claim :=
  ⟨Cert.Kernel.Gen.facts, Cert.KernelIdeal.Gen.facts, Cert.ReferenceIdeal.Gen.facts, Cert.Pre_finite_inputs.Gen.facts,
    @frame_kernel Cert.Kernel.Gen.facts Cert.Pre_finite_inputs.Gen.facts,
    @frame_kernelIdeal Cert.KernelIdeal.Gen.facts Cert.Pre_finite_inputs.Gen.facts,
    @frame_reference Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
